-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S128x256 : Shape := ⟨2, ![128, 256]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg1 : IVec S500000 32) (main_v13 : IVec S_ 1) (main_v15 : IVec S500000 1) (main_c_5 : IVec S_ 32) : IVec S_ 1 :=
  let main_v16 : IVec S500000 32 := broadcastInDim S500000 ![] bcast_S_S500000 main_c_5
  let main_v17 : IVec S500000 1 := cmpi .slt main_arg1 main_v16
  let main_v18 : IVec S500000 1 := andi main_v15 main_v17
  let main_c_6 : IVec S_ 1 := constantI S_ 1 1#1
  let main_v19 : IVec S_ 1 := (fun x v => Host.reduce IntOp.andi x v reducesTo_S500000_S_d0 h_S_) main_v18 main_c_6
  let main_v20 : IVec S_ 1 := andi main_v13 main_v19
  main_v20

def fn {F : FTy → Type} [FloatOps F] (main_arg0 : FVec F S500000x128 .f32) (main_arg1 : IVec S500000 32) (main_arg2 : FVec F S128x256 .f32) (main_arg3 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S500000 32 := broadcastInDim S500000 ![] bcast_S_S500000 main_c_4
  let main_v15 : IVec S500000 1 := cmpi .sge main_arg1 main_v14
  let main_c_5 : IVec S_ 32 := constantI S_ 32 1024#32
  fn_part1 (F := F) main_arg1 main_v13 main_v15 main_c_5
-- ==== Kernel.lean ====
abbrev S500000x128 : Shape := ⟨2, ![500000, 128]⟩
abbrev S500000 : Shape := ⟨1, ![500000]⟩
abbrev S128x256 : Shape := ⟨2, ![128, 256]⟩
abbrev S128 : Shape := ⟨1, ![128]⟩
abbrev S500000x1 : Shape := ⟨2, ![500000, 1]⟩
abbrev S50x10000 : Shape := ⟨2, ![50, 10000]⟩
abbrev S_ : Shape := ⟨0, ![]⟩
abbrev S50 : Shape := ⟨1, ![50]⟩
abbrev S100x5000 : Shape := ⟨2, ![100, 5000]⟩
abbrev S100 : Shape := ⟨1, ![100]⟩
abbrev S2x1024x256 : Shape := ⟨3, ![2, 1024, 256]⟩
abbrev S10000x128 : Shape := ⟨2, ![10000, 128]⟩
abbrev S10000x1 : Shape := ⟨2, ![10000, 1]⟩
abbrev S1x1024x256 : Shape := ⟨3, ![1, 1024, 256]⟩
abbrev S1024x256 : Shape := ⟨2, ![1024, 256]⟩
abbrev S1 : Shape := ⟨1, ![1]⟩
abbrev S128x128 : Shape := ⟨2, ![128, 128]⟩
abbrev S128x1 : Shape := ⟨2, ![128, 1]⟩
abbrev S1x128x128 : Shape := ⟨3, ![1, 128, 128]⟩
abbrev S1024x128 : Shape := ⟨2, ![1024, 128]⟩
abbrev S256x128 : Shape := ⟨2, ![256, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 31
  | .vmem => 17
  | .smem => 4
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S128x256, .f32⟩
  | .hbm, ⟨3, _⟩ => ⟨S128, .f32⟩
  | .hbm, ⟨4, _⟩ => ⟨S500000x1, .i32⟩
  | .hbm, ⟨5, _⟩ => ⟨S50x10000, .i32⟩
  | .hbm, ⟨6, _⟩ => ⟨S_, .i32⟩
  | .hbm, ⟨7, _⟩ => ⟨S_, .i32⟩
  | .hbm, ⟨8, _⟩ => ⟨S100x5000, .i32⟩
  | .hbm, ⟨9, _⟩ => ⟨S_, .i32⟩
  | .hbm, ⟨10, _⟩ => ⟨S_, .i32⟩
  | .hbm, ⟨11, _⟩ => ⟨S2x1024x256, .f32⟩
  | .hbm, ⟨12, _⟩ => ⟨S1x1024x256, .f32⟩
  | .hbm, ⟨13, _⟩ => ⟨S1024x256, .f32⟩
  | .hbm, ⟨14, _⟩ => ⟨S1x1024x256, .f32⟩
  | .hbm, ⟨15, _⟩ => ⟨S1024x256, .f32⟩
  | .hbm, ⟨16, _⟩ => ⟨S1024x256, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S256x128, .f32⟩
  | .hbm, ⟨25, _⟩ => ⟨S128x128, .f32⟩
  | .hbm, ⟨26, _⟩ => ⟨S128x128, .bf16⟩
  | .hbm, ⟨27, _⟩ => ⟨S128x128, .f32⟩
  | .hbm, ⟨28, _⟩ => ⟨S128x128, .bf16⟩
  | .hbm, ⟨29, _⟩ => ⟨S1x128, .f32⟩
  | .hbm, ⟨30, _⟩ => ⟨S500000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .i32⟩
  | .local _ .vmem, ⟨3, _⟩ => ⟨S10000x1, .i32⟩
  | .local _ .vmem, ⟨4, _⟩ => ⟨S1x1024x256, .f32⟩
  | .local _ .vmem, ⟨5, _⟩ => ⟨S1x1024x256, .f32⟩
  | .local _ .vmem, ⟨6, _⟩ => ⟨S5000x128, .f32⟩
  | .local _ .vmem, ⟨7, _⟩ => ⟨S5000x128, .f32⟩
  | .local _ .vmem, ⟨8, _⟩ => ⟨S5000x1, .i32⟩
  | .local _ .vmem, ⟨9, _⟩ => ⟨S5000x1, .i32⟩
  | .local _ .vmem, ⟨10, _⟩ => ⟨S1024x128, .bf16⟩
  | .local _ .vmem, ⟨11, _⟩ => ⟨S128x128, .bf16⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .smem, ⟨0, _⟩ => ⟨S50, .i32⟩
  | .local _ .smem, ⟨1, _⟩ => ⟨S50, .i32⟩
  | .local _ .smem, ⟨2, _⟩ => ⟨S100, .i32⟩
  | .local _ .smem, ⟨3, _⟩ => ⟨S100, .i32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v2 : Ref sig .tc := ⟨.smem, 0, rfl⟩
abbrev main_v3 : Ref sig .tc := ⟨.smem, 1, rfl⟩
abbrev main_v5 : Ref sig .tc := ⟨.smem, 2, rfl⟩
abbrev main_v6 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![2, 25], ![false, false]⟩

abbrev pre0 : Pipeline.Prefetch sig := ⟨2, ![main_v2.idx, main_v3.idx], fun | 0 => main_v2.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v10 : Index := Scalar.indexCast v1
  ![v10.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v11 : BitVec 32) (v13 : BitVec 32) : BitVec 1 :=
  let c0_i32_4 : BitVec 32 := 0#32
  let v14 : BitVec 1 := Scalar.cmpi .sge v13 c0_i32_4
  let c127_i32 : BitVec 32 := 127#32
  let v15 : BitVec 1 := Scalar.cmpi .sle v11 c127_i32
  let v16 : BitVec 1 := Scalar.andi v14 v15
  let v17 : BitVec 32 := Scalar.extui v16
  let c0_i32_5 : BitVec 32 := 0#32
  let v18 : BitVec 1 := Scalar.cmpi .ne v17 c0_i32_5
  v18

def k0_cond3 (v11 : BitVec 32) (v13 : BitVec 32) : BitVec 1 :=
  let c128_i32 : BitVec 32 := 128#32
  let v19 : BitVec 1 := Scalar.cmpi .sge v13 c128_i32
  let c255_i32 : BitVec 32 := 255#32
  let v20 : BitVec 1 := Scalar.cmpi .sle v11 c255_i32
  let v21 : BitVec 1 := Scalar.andi v19 v20
  let v22 : BitVec 32 := Scalar.extui v21
  let c0_i32_6 : BitVec 32 := 0#32
  let v23 : BitVec 1 := Scalar.cmpi .ne v22 c0_i32_6
  v23

def k0_cond4 (v11 : BitVec 32) (v13 : BitVec 32) : BitVec 1 :=
  let c256_i32 : BitVec 32 := 256#32
  let v24 : BitVec 1 := Scalar.cmpi .sge v13 c256_i32
  let c383_i32 : BitVec 32 := 383#32
  let v25 : BitVec 1 := Scalar.cmpi .sle v11 c383_i32
  let v26 : BitVec 1 := Scalar.andi v24 v25
  let v27 : BitVec 32 := Scalar.extui v26
  let c0_i32_7 : BitVec 32 := 0#32
  let v28 : BitVec 1 := Scalar.cmpi .ne v27 c0_i32_7
  v28

def k0_cond5 (v11 : BitVec 32) (v13 : BitVec 32) : BitVec 1 :=
  let c384_i32 : BitVec 32 := 384#32
  let v29 : BitVec 1 := Scalar.cmpi .sge v13 c384_i32
  let c511_i32 : BitVec 32 := 511#32
  let v30 : BitVec 1 := Scalar.cmpi .sle v11 c511_i32
  let v31 : BitVec 1 := Scalar.andi v29 v30
  let v32 : BitVec 32 := Scalar.extui v31
  let c0_i32_8 : BitVec 32 := 0#32
  let v33 : BitVec 1 := Scalar.cmpi .ne v32 c0_i32_8
  v33

def k0_cond6 (v11 : BitVec 32) (v13 : BitVec 32) : BitVec 1 :=
  let c512_i32 : BitVec 32 := 512#32
  let v34 : BitVec 1 := Scalar.cmpi .sge v13 c512_i32
  let c639_i32 : BitVec 32 := 639#32
  let v35 : BitVec 1 := Scalar.cmpi .sle v11 c639_i32
  let v36 : BitVec 1 := Scalar.andi v34 v35
  let v37 : BitVec 32 := Scalar.extui v36
  let c0_i32_9 : BitVec 32 := 0#32
  let v38 : BitVec 1 := Scalar.cmpi .ne v37 c0_i32_9
  v38

def k0_cond7 (v11 : BitVec 32) (v13 : BitVec 32) : BitVec 1 :=
  let c640_i32 : BitVec 32 := 640#32
  let v39 : BitVec 1 := Scalar.cmpi .sge v13 c640_i32
  let c767_i32 : BitVec 32 := 767#32
  let v40 : BitVec 1 := Scalar.cmpi .sle v11 c767_i32
  let v41 : BitVec 1 := Scalar.andi v39 v40
  let v42 : BitVec 32 := Scalar.extui v41
  let c0_i32_10 : BitVec 32 := 0#32
  let v43 : BitVec 1 := Scalar.cmpi .ne v42 c0_i32_10
  v43

def k0_cond8 (v11 : BitVec 32) (v13 : BitVec 32) : BitVec 1 :=
  let c768_i32 : BitVec 32 := 768#32
  let v44 : BitVec 1 := Scalar.cmpi .sge v13 c768_i32
  let c895_i32 : BitVec 32 := 895#32
  let v45 : BitVec 1 := Scalar.cmpi .sle v11 c895_i32
  let v46 : BitVec 1 := Scalar.andi v44 v45
  let v47 : BitVec 32 := Scalar.extui v46
  let c0_i32_11 : BitVec 32 := 0#32
  let v48 : BitVec 1 := Scalar.cmpi .ne v47 c0_i32_11
  v48

def k0_cond9 (v11 : BitVec 32) (v13 : BitVec 32) : BitVec 1 :=
  let c896_i32 : BitVec 32 := 896#32
  let v49 : BitVec 1 := Scalar.cmpi .sge v13 c896_i32
  let c1023_i32 : BitVec 32 := 1023#32
  let v50 : BitVec 1 := Scalar.cmpi .sle v11 c1023_i32
  let v51 : BitVec 1 := Scalar.andi v49 v50
  let v52 : BitVec 32 := Scalar.extui v51
  let c0_i32_12 : BitVec 32 := 0#32
  let v53 : BitVec 1 := Scalar.cmpi .ne v52 c0_i32_12
  v53

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![100], ![false]⟩

abbrev pre1 : Pipeline.Prefetch sig := ⟨2, ![main_v5.idx, main_v6.idx], fun | 0 => main_v5.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v6 : Index := Scalar.indexCast arg0
  ![v6.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S500000_S500000x1 : S500000.ShapeCasts S500000x1
  shapeCasts_S500000_S50x10000 : S500000.ShapeCasts S50x10000
  reducesTo_S50x10000_S50_d1 : S50x10000.ReducesTo [1] S50
  h_S_ : 0 < S_.numel
  shapeCasts_S500000_S100x5000 : S500000.ShapeCasts S100x5000
  reducesTo_S100x5000_S100_d1 : S100x5000.ReducesTo [1] S100
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  numel1_S1 : S1.numel = 1
  iota_S10000x128_d1_w32 : S10000x128.Iotas .tc 32 [1]
  broadcasts_S10000x1_S10000x128 : S10000x1.Broadcasts S10000x128
  natLt_1_32 : 1 < 32
  inb_S1x1024x256_S1x128x128_0_0_0 : ∀ a, (![0, 0, 0] : Fin 3 → Nat) a + S1x128x128.size a ≤ S1x1024x256.size a
  h_S1x128x128 : 0 < S1x128x128.numel
  shapeCasts_S1x128x128_S128x128 : S1x128x128.ShapeCasts S128x128
  shapeCasts_S128x128_S1x128x128 : S128x128.ShapeCasts S1x128x128
  inb_S1x1024x256_S1x128x128_0_0_128 : ∀ a, (![0, 0, 128] : Fin 3 → Nat) a + S1x128x128.size a ≤ S1x1024x256.size a
  shapeCasts_S128x1_S128x1 : S128x1.ShapeCasts S128x1
  broadcasts_S128x1_S128x128 : S128x1.Broadcasts S128x128
  inb_S1x1024x256_S1x128x128_0_128_0 : ∀ a, (![0, 128, 0] : Fin 3 → Nat) a + S1x128x128.size a ≤ S1x1024x256.size a
  inb_S1x1024x256_S1x128x128_0_128_128 : ∀ a, (![0, 128, 128] : Fin 3 → Nat) a + S1x128x128.size a ≤ S1x1024x256.size a
  inb_S1x1024x256_S1x128x128_0_256_0 : ∀ a, (![0, 256, 0] : Fin 3 → Nat) a + S1x128x128.size a ≤ S1x1024x256.size a
  inb_S1x1024x256_S1x128x128_0_256_128 : ∀ a, (![0, 256, 128] : Fin 3 → Nat) a + S1x128x128.size a ≤ S1x1024x256.size a
  inb_S1x1024x256_S1x128x128_0_384_0 : ∀ a, (![0, 384, 0] : Fin 3 → Nat) a + S1x128x128.size a ≤ S1x1024x256.size a
  inb_S1x1024x256_S1x128x128_0_384_128 : ∀ a, (![0, 384, 128] : Fin 3 → Nat) a + S1x128x128.size a ≤ S1x1024x256.size a
  inb_S1x1024x256_S1x128x128_0_512_0 : ∀ a, (![0, 512, 0] : Fin 3 → Nat) a + S1x128x128.size a ≤ S1x1024x256.size a
  inb_S1x1024x256_S1x128x128_0_512_128 : ∀ a, (![0, 512, 128] : Fin 3 → Nat) a + S1x128x128.size a ≤ S1x1024x256.size a
  inb_S1x1024x256_S1x128x128_0_640_0 : ∀ a, (![0, 640, 0] : Fin 3 → Nat) a + S1x128x128.size a ≤ S1x1024x256.size a
  inb_S1x1024x256_S1x128x128_0_640_128 : ∀ a, (![0, 640, 128] : Fin 3 → Nat) a + S1x128x128.size a ≤ S1x1024x256.size a
  inb_S1x1024x256_S1x128x128_0_768_0 : ∀ a, (![0, 768, 0] : Fin 3 → Nat) a + S1x128x128.size a ≤ S1x1024x256.size a
  inb_S1x1024x256_S1x128x128_0_768_128 : ∀ a, (![0, 768, 128] : Fin 3 → Nat) a + S1x128x128.size a ≤ S1x1024x256.size a
  inb_S1x1024x256_S1x128x128_0_896_0 : ∀ a, (![0, 896, 0] : Fin 3 → Nat) a + S1x128x128.size a ≤ S1x1024x256.size a
  inb_S1x1024x256_S1x128x128_0_896_128 : ∀ a, (![0, 896, 128] : Fin 3 → Nat) a + S1x128x128.size a ≤ S1x1024x256.size a
  slices_S2x1024x256_S1x1024x256_0_0_0 : S2x1024x256.Slices ![0, 0, 0] S1x1024x256
  slices_S2x1024x256_S1x1024x256_1_0_0 : S2x1024x256.Slices ![1, 0, 0] S1x1024x256
  slices_S1024x256_S1024x128_0_0 : S1024x256.Slices ![0, 0] S1024x128
  slices_S1024x256_S1024x128_0_128 : S1024x256.Slices ![0, 128] S1024x128
  bcast_S_S1024x128 : S_.BroadcastsInDim S1024x128 (![] : Fin 0 → Fin S1024x128.rank)
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1024x128_S128x128_0_0 : ∀ a, (![0, 0] : Fin 2 → Nat) a + S128x128.size a ≤ S1024x128.size a
  h_S128x128 : 0 < S128x128.numel
  shapeCasts_S128x128_S128x128 : S128x128.ShapeCasts S128x128
  iota_S5000x128_d1_w32 : S5000x128.Iotas .tc 32 [1]
  broadcasts_S5000x1_S5000x128 : S5000x1.Broadcasts S5000x128
  inb_S1024x128_S128x128_128_0 : ∀ a, (![128, 0] : Fin 2 → Nat) a + S128x128.size a ≤ S1024x128.size a
  inb_S1024x128_S128x128_256_0 : ∀ a, (![256, 0] : Fin 2 → Nat) a + S128x128.size a ≤ S1024x128.size a
  inb_S1024x128_S128x128_384_0 : ∀ a, (![384, 0] : Fin 2 → Nat) a + S128x128.size a ≤ S1024x128.size a
  inb_S1024x128_S128x128_512_0 : ∀ a, (![512, 0] : Fin 2 → Nat) a + S128x128.size a ≤ S1024x128.size a
  inb_S1024x128_S128x128_640_0 : ∀ a, (![640, 0] : Fin 2 → Nat) a + S128x128.size a ≤ S1024x128.size a
  inb_S1024x128_S128x128_768_0 : ∀ a, (![768, 0] : Fin 2 → Nat) a + S128x128.size a ≤ S1024x128.size a
  inb_S1024x128_S128x128_896_0 : ∀ a, (![896, 0] : Fin 2 → Nat) a + S128x128.size a ≤ S1024x128.size a
  inb_S128x128_S128x128_0_0 : ∀ a, (![0, 0] : Fin 2 → Nat) a + S128x128.size a ≤ S128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S10000x128_S10000x128_S128x128_0_0_1_1_n_n_wf : DotDims.WF S10000x128 S10000x128 S128x128 [0] [0] [1] [1] [] []
  dot_S10000x128_S10000x1_S128x1_0_0_1_1_n_n_wf : DotDims.WF S10000x128 S10000x1 S128x1 [0] [0] [1] [1] [] []
  dot_S5000x128_S128x128_S5000x128_1_0_0_1_n_n_wf : DotDims.WF S5000x128 S128x128 S5000x128 [1] [0] [0] [1] [] []
  hrank0 : 0 < grid0.rank
  k0_off1_inb : ∀ i : grid0.Coords, ∀ a, (k0_off1 i) a + S1.size a ≤ S50.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .i32 = 32 ∨ (Rect.block (s := S500000x1) S10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hrank1 : 0 < grid1.rank
  k1_off1_inb : ∀ i : grid1.Coords, ∀ a, (k1_off1 i) a + S1.size a ≤ S100.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S500000x1.size a
  hwx1_1 : ∀ i : grid1.Coords, EltTy.bits .i32 = 32 ∨ (Rect.block (s := S500000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .bf16 = 32 ∨ (Rect.block (s := S1024x128) S1024x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S500000x128.size a
  hwx1_6 : ∀ i : grid1.Coords, EltTy.bits .f32 = 32 ∨ (Rect.block (s := S500000x128) S5000x128.size (cc1_transform_6 i) (hinb1_6 i)).WholeWords (EltTy.packing .f32)

variable [Facts₀]

def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S10000x128_S10000x1_S128x1_0_0_1_1_n_n : DotDims S10000x128 S10000x1 S128x1 where
  lhsContracting := [0]
  rhsContracting := [0]
  lhsNonContracting := [1]
  rhsNonContracting := [1]
  lhsBatch := []
  rhsBatch := []
  wf := dot_S10000x128_S10000x1_S128x1_0_0_1_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev spec0_0 : Pipeline.WinSpec sig grid0.rank :=
  Pipeline.WinSpec.ofSpec (Memref.whole main_arg0) S10000x128.size reads0_0 false false 2 stage0_0 sem0_0 nbuf0_0 hstage0_0

abbrev spec0_1 : Pipeline.WinSpec sig grid0.rank :=
  Pipeline.WinSpec.ofSpec (Memref.whole main_v0) S10000x1.size reads0_1 false false 2 stage0_1 sem0_1 nbuf0_1 hstage0_1

abbrev spec0_2 : Pipeline.WinSpec sig grid0.rank :=
  Pipeline.WinSpec.ofSpec (Memref.whole main_v7) S1x1024x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 i == 1#1) && !(k0_cond2 (pf.atD 0 (k0_off1 i)) (pf.atD 1 (k0_off1 i)) == 1#1) && !(k0_cond3 (pf.atD 0 (k0_off1 i)) (pf.atD 1 (k0_off1 i)) == 1#1) && !(k0_cond4 (pf.atD 0 (k0_off1 i)) (pf.atD 1 (k0_off1 i)) == 1#1) && !(k0_cond5 (pf.atD 0 (k0_off1 i)) (pf.atD 1 (k0_off1 i)) == 1#1) && !(k0_cond6 (pf.atD 0 (k0_off1 i)) (pf.atD 1 (k0_off1 i)) == 1#1) && !(k0_cond7 (pf.atD 0 (k0_off1 i)) (pf.atD 1 (k0_off1 i)) == 1#1) && !(k0_cond8 (pf.atD 0 (k0_off1 i)) (pf.atD 1 (k0_off1 i)) == 1#1) && !(k0_cond9 (pf.atD 0 (k0_off1 i)) (pf.atD 1 (k0_off1 i)) == 1#1) | ⟨_ + 3, h⟩ => absurd h (Nat.not_lt.2 (Nat.le_add_left _ _))

abbrev spec1_0 : Pipeline.WinSpec sig grid1.rank :=
  Pipeline.WinSpec.ofSpec (Memref.whole main_arg0) S5000x128.size reads1_0 false false 2 stage1_0 sem1_0 nbuf1_0 hstage1_0

abbrev spec1_1 : Pipeline.WinSpec sig grid1.rank :=
  Pipeline.WinSpec.ofSpec (Memref.whole main_v0) S5000x1.size reads1_1 false false 2 stage1_1 sem1_1 nbuf1_1 hstage1_1

abbrev spec1_2 : Pipeline.WinSpec sig grid1.rank :=
  Pipeline.WinSpec.ofSpec (Memref.whole main_v18) S1024x128.size reads1_2 false true 1 stage1_2 sem1_2 nbuf1_2 hstage1_2

abbrev spec1_3 : Pipeline.WinSpec sig grid1.rank :=
  Pipeline.WinSpec.ofSpec (Memref.whole main_v21) S128x128.size reads1_3 false true 1 stage1_3 sem1_3 nbuf1_3 hstage1_3

abbrev spec1_4 : Pipeline.WinSpec sig grid1.rank :=
  Pipeline.WinSpec.ofSpec (Memref.whole main_v23) S128x128.size reads1_4 false true 1 stage1_4 sem1_4 nbuf1_4 hstage1_4

abbrev spec1_5 : Pipeline.WinSpec sig grid1.rank :=
  Pipeline.WinSpec.ofSpec (Memref.whole main_v24) S1x128.size reads1_5 false true 1 stage1_5 sem1_5 nbuf1_5 hstage1_5

abbrev spec1_6 : Pipeline.WinSpec sig grid1.rank :=
  Pipeline.WinSpec.ofSpec (Memref.whole main_v25) S5000x128.size reads1_6 true false 2 stage1_6 sem1_6 nbuf1_6 hstage1_6

abbrev spec1 : Fin 7 → Pipeline.WinSpec sig grid1.rank := fun | 0 => spec1_0 | 1 => spec1_1 | 2 => spec1_2 | 3 => spec1_3 | 4 => spec1_4 | 5 => spec1_5 | 6 => spec1_6 | ⟨_ + 7, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | ⟨_ + 7, h⟩ => absurd h (Nat.not_lt.2 (Nat.le_add_left _ _))
abbrev ix1 (pf : pre1.Contents (Elt F)) : (w : Fin 7) → grid1.Coords → Fin (spec1 w).shape.rank → Nat := fun | 0 => cc1_transform_0 | 1 => cc1_transform_1 | 2 => cc1_transform_2 | 3 => cc1_transform_3 | 4 => cc1_transform_4 | 5 => cc1_transform_5 | 6 => cc1_transform_6 | ⟨_ + 7, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | 6 => hreads1_6 | ⟨_ + 7, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | 6 => hinb1_6 | ⟨_ + 7, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | 6 => hwx1_6 | ⟨_ + 7, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S500000x128 : Shape := ⟨2, ![500000, 128]⟩
abbrev S500000 : Shape := ⟨1, ![500000]⟩
abbrev S128x256 : Shape := ⟨2, ![128, 256]⟩
abbrev S128 : Shape := ⟨1, ![128]⟩
abbrev S_ : Shape := ⟨0, ![]⟩
abbrev S1024x128 : Shape := ⟨2, ![1024, 128]⟩
abbrev S500000x1 : Shape := ⟨2, ![500000, 1]⟩
abbrev S1024 : Shape := ⟨1, ![1024]⟩
abbrev S1024x1 : Shape := ⟨2, ![1024, 1]⟩
abbrev S500000x256 : Shape := ⟨2, ![500000, 256]⟩
abbrev S256x128 : Shape := ⟨2, ![256, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S128x256, .f32⟩
  | .hbm, ⟨3, _⟩ => ⟨S128, .f32⟩
  | .hbm, ⟨4, _⟩ => ⟨S_, .f32⟩
  | .hbm, ⟨5, _⟩ => ⟨S1024x128, .f32⟩
  | .hbm, ⟨6, _⟩ => ⟨S500000x1, .i32⟩
  | .hbm, ⟨7, _⟩ => ⟨S1024x128, .f32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S1024, .f32⟩
  | .hbm, ⟨12, _⟩ => ⟨S500000x1, .i32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024x1, .f32⟩
  | .hbm, ⟨18, _⟩ => ⟨S1024x128, .f32⟩
  | .hbm, ⟨19, _⟩ => ⟨S1024x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x256, .f32⟩
  | .hbm, ⟨30, _⟩ => ⟨S256x128, .f32⟩
  | .hbm, ⟨31, _⟩ => ⟨S500000x128, .f32⟩
  | .hbm, ⟨32, _⟩ => ⟨S1x128, .f32⟩
  | .hbm, ⟨33, _⟩ => ⟨S500000x128, .f32⟩
  | .hbm, ⟨34, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S500000x128_S500000x128_S500000x256_d1 : Shape.Concatenates [S500000x128, S500000x128] S500000x256 1
  transposes_S128x256_S256x128_1_0 : S128x256.Transposes [1, 0] S256x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  scatter_S1024x128_S500000x1_S500000x128_1_0_0_1_wf : ScatterDims.WF S1024x128 S500000x1 S500000x128 [1] [0] [0] 1
  scatter_S1024_S500000x1_S500000_n_0_0_1_wf : ScatterDims.WF S1024 S500000x1 S500000 [] [0] [0] 1
  gather_S1024x128_S500000x1_S500000x128_1_0_n_n_0_1_1128_wf : GatherDims.WF S1024x128 S500000x1 S500000x128 [1] [0] [] [0] [] 1 ![1, 128]
  dot_S500000x256_S256x128_S500000x128_1_0_0_1_n_n_wf : DotDims.WF S500000x256 S256x128 S500000x128 [1] [0] [0] [1] [] []

variable [Facts₀]

def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def gather_S1024x128_S500000x1_S500000x128_1_0_n_n_0_1_1128 : GatherDims S1024x128 S500000x1 S500000x128 where
  offsetDims := [1]
  collapsedSliceDims := [0]
  operandBatchingDims := []
  startIndicesBatchingDims := []
  startIndexMap := [0]
  indexVectorDim := 1
  sliceSizes := ![1, 128]
  wf := gather_S1024x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf

class Facts : Prop extends Facts₀ where

variable [Facts]
-- ==== Proof.LibOver.lean ====
/-
  Reading back a run of unmasked stores made over KNOWN contents.

  `View.writes v f L` is the buffer after the stores `L` (last store first) over contents `f`. When the stores cover the
  whole shape the result forgets `f` (the library's `View.canon`). When they cover only part of it, what is read back is
  `f`'s reading overlaid by the pieces, last store on top: `View.over`. It is a function of the reading of `f` and of the
  pieces alone, so it is the same through every view of the shape.
-/
import Idealize.ShloMosaic.Lib.Writes
import Idealize.ShloMosaic.Lib.Pipeline.FrameBody

noncomputable section

namespace Idealize.ShloMosaic.View

variable {sig : RefSig} {κ : Kind} {sp : Space} {s : Shape} {e : EltTy} {Val : EltTy → Type}

/-- The contents `d` overlaid by the pieces `L`, the head of the list on top. -/
def over (d : s.Idx → Val e) : List (Piece Val s e) → s.Idx → Val e
  | [] => d
  | p :: L => p.1.overlay (over d L) p.2

@[simp] theorem over_nil (d : s.Idx → Val e) : over d ([] : List (Piece Val s e)) = d := rfl

theorem over_cons (d : s.Idx → Val e) (p : Piece Val s e) (L : List (Piece Val s e)) :
    over d (p :: L) = p.1.overlay (over d L) p.2 := rfl

/-- Under the top piece the overlay is its payload; -/
theorem over_cons_emb (d : s.Idx → Val e) (r : Rect s) (w : r.shape.Idx → Val e) (L : List (Piece Val s e)) (x : r.shape.Idx) :
    over d (⟨r, w⟩ :: L) (r.emb x) = w x := by
  rw [over_cons]; exact r.overlay_emb _ _ x

/-- off it, the overlay of the rest. -/
theorem over_cons_of_not_mem (d : s.Idx → Val e) (p : Piece Val s e) (L : List (Piece Val s e)) {y : s.Idx}
    (h : y ∉ p.1.set) : over d (p :: L) y = over d L y := by
  rw [over_cons]; exact p.1.overlay_of_not_mem _ _ h

/-- An index no piece holds keeps `d`. -/
theorem over_of_forall_not_mem (d : s.Idx → Val e) (y : s.Idx) :
    ∀ L : List (Piece Val s e), (∀ p ∈ L, y ∉ p.1.set) → over d L y = d y
  | [], _ => rfl
  | p :: L, h => by
    rw [over_cons_of_not_mem d p L (h p List.mem_cons_self)]
    exact over_of_forall_not_mem d y L fun p' hp' => h p' (List.mem_cons_of_mem _ hp')

/-- THE READ-BACK: after the stores `L` over contents `f`, the view reads `f`'s reading overlaid by the pieces. -/
theorem read_writes_eq_over (v : View sig κ sp s e) (f : v.ty.Contents Val) :
    ∀ L : List (Piece Val s e), v.read Val (v.writes Val f L) = over (v.read Val f) L
  | [] => rfl
  | p :: L => by
    funext y
    by_cases hy : y ∈ p.1.set
    · obtain ⟨r, w⟩ := p
      obtain ⟨x, rfl⟩ : ∃ x, r.emb x = y := r.exists_idx_of_mem hy
      rw [read_writes_cons_emb, over_cons_emb]
    · have hy' : y ∉ Finset.univ.map p.1.emb := by rwa [Rect.map_emb_univ]
      rw [writes_cons, read_slice_write_of_not_mem p.1 _ _ _ hy', over_cons_of_not_mem _ p L hy]
      exact congrFun (read_writes_eq_over v f L) y

end Idealize.ShloMosaic.View

end
-- ==== Proof.K0Defs.lean ====
/-
  What the segment-sum kernel leaves in its output block at one grid point.

  The output block is one core's table of 1024 graph rows by 256 columns: columns 0..127 hold the running sums of the
  node features, columns 128..255 the running node counts (the same count in every column). At a point the body first
  clears the whole table if the point is the first of its core, then visits the eight groups of 128 graph rows: a group
  whose id range `[lo, lo + 127]` meets the tile's id range `[wmin, wmax]` (the two table words of the tile) has the
  tile's contribution added to its sum tile and to its count tile; another group is left as it is.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of a 50-entry table that belongs to the point's tile (tile `25 · core + step`). -/
def word0 (t : Vec F S50 .i32) (i : grid0.Coords) : BitVec 32 :=
  View.ld t (Rect.unit (s := S50) (k0_off1 i) S1.size (k0_off1_inb i)) (Shape.Idx.first (numel1_S1.symm ▸ Nat.one_pos))

/-- The whole table. -/
abbrev rAll0 : Rect S1x1024x256 := Rect.unit (s := S1x1024x256) ![0, 0, 0] S1x1024x256.size inb_S1x1024x256_S1x1024x256_0_0_0
/-- Rows 0..127: the sum tile (columns 0..127) and the count tile (columns 128..255). -/
abbrev rS0_0 : Rect S1x1024x256 := Rect.unit (s := S1x1024x256) ![0, 0, 0] S1x128x128.size inb_S1x1024x256_S1x128x128_0_0_0
abbrev rC0_0 : Rect S1x1024x256 := Rect.unit (s := S1x1024x256) ![0, 0, 128] S1x128x128.size inb_S1x1024x256_S1x128x128_0_0_128
/-- Rows 128..255: the sum tile (columns 0..127) and the count tile (columns 128..255). -/
abbrev rS0_128 : Rect S1x1024x256 := Rect.unit (s := S1x1024x256) ![0, 128, 0] S1x128x128.size inb_S1x1024x256_S1x128x128_0_128_0
abbrev rC0_128 : Rect S1x1024x256 := Rect.unit (s := S1x1024x256) ![0, 128, 128] S1x128x128.size inb_S1x1024x256_S1x128x128_0_128_128
/-- Rows 256..383: the sum tile (columns 0..127) and the count tile (columns 128..255). -/
abbrev rS0_256 : Rect S1x1024x256 := Rect.unit (s := S1x1024x256) ![0, 256, 0] S1x128x128.size inb_S1x1024x256_S1x128x128_0_256_0
abbrev rC0_256 : Rect S1x1024x256 := Rect.unit (s := S1x1024x256) ![0, 256, 128] S1x128x128.size inb_S1x1024x256_S1x128x128_0_256_128
/-- Rows 384..511: the sum tile (columns 0..127) and the count tile (columns 128..255). -/
abbrev rS0_384 : Rect S1x1024x256 := Rect.unit (s := S1x1024x256) ![0, 384, 0] S1x128x128.size inb_S1x1024x256_S1x128x128_0_384_0
abbrev rC0_384 : Rect S1x1024x256 := Rect.unit (s := S1x1024x256) ![0, 384, 128] S1x128x128.size inb_S1x1024x256_S1x128x128_0_384_128
/-- Rows 512..639: the sum tile (columns 0..127) and the count tile (columns 128..255). -/
abbrev rS0_512 : Rect S1x1024x256 := Rect.unit (s := S1x1024x256) ![0, 512, 0] S1x128x128.size inb_S1x1024x256_S1x128x128_0_512_0
abbrev rC0_512 : Rect S1x1024x256 := Rect.unit (s := S1x1024x256) ![0, 512, 128] S1x128x128.size inb_S1x1024x256_S1x128x128_0_512_128
/-- Rows 640..767: the sum tile (columns 0..127) and the count tile (columns 128..255). -/
abbrev rS0_640 : Rect S1x1024x256 := Rect.unit (s := S1x1024x256) ![0, 640, 0] S1x128x128.size inb_S1x1024x256_S1x128x128_0_640_0
abbrev rC0_640 : Rect S1x1024x256 := Rect.unit (s := S1x1024x256) ![0, 640, 128] S1x128x128.size inb_S1x1024x256_S1x128x128_0_640_128
/-- Rows 768..895: the sum tile (columns 0..127) and the count tile (columns 128..255). -/
abbrev rS0_768 : Rect S1x1024x256 := Rect.unit (s := S1x1024x256) ![0, 768, 0] S1x128x128.size inb_S1x1024x256_S1x128x128_0_768_0
abbrev rC0_768 : Rect S1x1024x256 := Rect.unit (s := S1x1024x256) ![0, 768, 128] S1x128x128.size inb_S1x1024x256_S1x128x128_0_768_128
/-- Rows 896..1023: the sum tile (columns 0..127) and the count tile (columns 128..255). -/
abbrev rS0_896 : Rect S1x1024x256 := Rect.unit (s := S1x1024x256) ![0, 896, 0] S1x128x128.size inb_S1x1024x256_S1x128x128_0_896_0
abbrev rC0_896 : Rect S1x1024x256 := Rect.unit (s := S1x1024x256) ![0, 896, 128] S1x128x128.size inb_S1x1024x256_S1x128x128_0_896_128

/-- The table cleared at the first point of a core, else as found. -/
def clr0 (i : grid0.Coords) (d : Vec F S1x1024x256 .f32) : Vec F S1x1024x256 .f32 :=
  if k0_cond1 i = 1#1 then View.over d [⟨rAll0, k0_pay16 (F := F)⟩] else d

/-- Rows 0..127 under their guard: the tile's sums added into the sum tile, its counts into the count tile. -/
def grp0_0 (wmin wmax : BitVec 32) (x : Vec F S10000x128 .f32) (b : Vec F S10000x1 .i32) (d : Vec F S1x1024x256 .f32) : Vec F S1x1024x256 .f32 :=
  if k0_cond2 wmin wmax = 1#1 then
    View.over d [⟨rC0_0, k0_pay22 b (View.ld d rC0_0)⟩, ⟨rS0_0, k0_pay21 x b (View.ld d rS0_0)⟩]
  else d

/-- Rows 128..255 under their guard: the tile's sums added into the sum tile, its counts into the count tile. -/
def grp0_128 (wmin wmax : BitVec 32) (x : Vec F S10000x128 .f32) (b : Vec F S10000x1 .i32) (d : Vec F S1x1024x256 .f32) : Vec F S1x1024x256 .f32 :=
  if k0_cond3 wmin wmax = 1#1 then
    View.over d [⟨rC0_128, k0_pay25 b (View.ld d rC0_128)⟩, ⟨rS0_128, k0_pay24 x b (View.ld d rS0_128)⟩]
  else d

/-- Rows 256..383 under their guard: the tile's sums added into the sum tile, its counts into the count tile. -/
def grp0_256 (wmin wmax : BitVec 32) (x : Vec F S10000x128 .f32) (b : Vec F S10000x1 .i32) (d : Vec F S1x1024x256 .f32) : Vec F S1x1024x256 .f32 :=
  if k0_cond4 wmin wmax = 1#1 then
    View.over d [⟨rC0_256, k0_pay28 b (View.ld d rC0_256)⟩, ⟨rS0_256, k0_pay27 x b (View.ld d rS0_256)⟩]
  else d

/-- Rows 384..511 under their guard: the tile's sums added into the sum tile, its counts into the count tile. -/
def grp0_384 (wmin wmax : BitVec 32) (x : Vec F S10000x128 .f32) (b : Vec F S10000x1 .i32) (d : Vec F S1x1024x256 .f32) : Vec F S1x1024x256 .f32 :=
  if k0_cond5 wmin wmax = 1#1 then
    View.over d [⟨rC0_384, k0_pay3 (k0_pay18 b) (k0_pay19 (F := F)) (View.ld d rC0_384)⟩, ⟨rS0_384, k0_pay2 (k0_pay17 x) (k0_pay18 b) (View.ld d rS0_384)⟩]
  else d

/-- Rows 512..639 under their guard: the tile's sums added into the sum tile, its counts into the count tile. -/
def grp0_512 (wmin wmax : BitVec 32) (x : Vec F S10000x128 .f32) (b : Vec F S10000x1 .i32) (d : Vec F S1x1024x256 .f32) : Vec F S1x1024x256 .f32 :=
  if k0_cond6 wmin wmax = 1#1 then
    View.over d [⟨rC0_512, k0_pay6 (k0_pay18 b) (k0_pay19 (F := F)) (View.ld d rC0_512)⟩, ⟨rS0_512, k0_pay5 (k0_pay17 x) (k0_pay18 b) (View.ld d rS0_512)⟩]
  else d

/-- Rows 640..767 under their guard: the tile's sums added into the sum tile, its counts into the count tile. -/
def grp0_640 (wmin wmax : BitVec 32) (x : Vec F S10000x128 .f32) (b : Vec F S10000x1 .i32) (d : Vec F S1x1024x256 .f32) : Vec F S1x1024x256 .f32 :=
  if k0_cond7 wmin wmax = 1#1 then
    View.over d [⟨rC0_640, k0_pay9 (k0_pay18 b) (k0_pay19 (F := F)) (View.ld d rC0_640)⟩, ⟨rS0_640, k0_pay8 (k0_pay17 x) (k0_pay18 b) (View.ld d rS0_640)⟩]
  else d

/-- Rows 768..895 under their guard: the tile's sums added into the sum tile, its counts into the count tile. -/
def grp0_768 (wmin wmax : BitVec 32) (x : Vec F S10000x128 .f32) (b : Vec F S10000x1 .i32) (d : Vec F S1x1024x256 .f32) : Vec F S1x1024x256 .f32 :=
  if k0_cond8 wmin wmax = 1#1 then
    View.over d [⟨rC0_768, k0_pay12 (k0_pay18 b) (k0_pay19 (F := F)) (View.ld d rC0_768)⟩, ⟨rS0_768, k0_pay11 (k0_pay17 x) (k0_pay18 b) (View.ld d rS0_768)⟩]
  else d

/-- Rows 896..1023 under their guard: the tile's sums added into the sum tile, its counts into the count tile. -/
def grp0_896 (wmin wmax : BitVec 32) (x : Vec F S10000x128 .f32) (b : Vec F S10000x1 .i32) (d : Vec F S1x1024x256 .f32) : Vec F S1x1024x256 .f32 :=
  if k0_cond9 wmin wmax = 1#1 then
    View.over d [⟨rC0_896, k0_pay15 (k0_pay18 b) (k0_pay19 (F := F)) (View.ld d rC0_896)⟩, ⟨rS0_896, k0_pay14 (k0_pay17 x) (k0_pay18 b) (View.ld d rS0_896)⟩]
  else d

/-- THE POINT'S RESULT: the table after the body at point `i`, from the two tables of tile id ranges, the tile's feature
    block `x` and id block `b`, and what the table held before. -/
def seg0 (i : grid0.Coords) (tmin tmax : Vec F S50 .i32) (x : Vec F S10000x128 .f32) (b : Vec F S10000x1 .i32)
    (d : Vec F S1x1024x256 .f32) : Vec F S1x1024x256 .f32 :=
  let wmin := word0 tmin i
  let wmax := word0 tmax i
  grp0_896 wmin wmax x b (grp0_768 wmin wmax x b (grp0_640 wmin wmax x b (grp0_512 wmin wmax x b (grp0_384 wmin wmax x b
    (grp0_256 wmin wmax x b (grp0_128 wmin wmax x b (grp0_0 wmin wmax x b (clr0 i d))))))))

end Cert.KernelIdeal.H

end
-- ==== Proof.KDat0D.lean ====
/-
  The proof data of the segment-sum call: definitions.

  The call's grid has 50 points, 25 per core. After the body at a point, windows 0 and 1 (the node features and ids)
  hold their blocks, and window 2 (one core's table of sums and counts) holds the running table `acc0`: each core's run of
  25 points accumulates from a cleared table.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.K0Defs
import Idealize.ShloMosaic.Lib.Pipeline.Frame
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section D0
variable (a0 : (pcfg0 (F := F)).Adm)
variable (V : (c : Dev nD) → (b : Ref sig .tc) → Buf (Elt F) ((c : Thread nD τ).loc b))

/-- The two prefetched tables of the segment-sum call: each tile's smallest and largest graph id. -/
abbrev tmin0 : Vec F S50 .i32 := a0.1 0
abbrev tmax0 : Vec F S50 .i32 := a0.1 1

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- The running table: what the output block holds after the body at position `n`, each core's run of 25 points
    starting from a cleared table. -/
def acc0 (c : Dev nD) : (n : ℕ) → n < (cfg0 a0).N → Vec F S1x1024x256 .f32
  | 0, hn => seg0 (grid0.coords ⟨0, hn⟩) (tmin0 a0) (tmax0 a0) (iblk0 a0 V c 0 ⟨0, hn⟩) (iblk0 a0 V c 1 ⟨0, hn⟩) (k0_pay16 (F := F))
  | n + 1, hn => seg0 (grid0.coords ⟨n + 1, hn⟩) (tmin0 a0) (tmax0 a0) (iblk0 a0 V c 0 ⟨n + 1, hn⟩) (iblk0 a0 V c 1 ⟨n + 1, hn⟩)
      (if (n + 1) % 25 = 0 then k0_pay16 (F := F) else acc0 c n (Nat.lt_of_succ_lt hn))

def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => acc0 a0 V c t.val t.isLt
  Φ _ := iprop(Pipeline.prefHeld (Ix := Unit) (Name := ℕ) (U := UR sig nD τ) (Lvl := ℕ) pre0 c (fun _ => fullShare) a0.1 ∗ Pipeline.ΦA spec0 c)
  q _ := fullShare
  owed _ := 0

theorem A_eq0 (c : Dev nD) (w : Fin (cfg0 a0).W) : (dat0 a0 V c).A w = V c (Pipeline.arrRef spec0 w) := by
  dsimp only [dat0]
theorem after0_0 (c : Dev nD) (t : Fin (cfg0 a0).N) : (dat0 a0 V c).after 0 t = iblk0 a0 V c 0 t := by dsimp only [dat0]; rfl
theorem after0_1 (c : Dev nD) (t : Fin (cfg0 a0).N) : (dat0 a0 V c).after 1 t = iblk0 a0 V c 1 t := by dsimp only [dat0]; rfl
theorem after0_2 (c : Dev nD) (t : Fin (cfg0 a0).N) : (dat0 a0 V c).after 2 t = acc0 a0 V c t.val t.isLt := by dsimp only [dat0]; rfl

/-- The body's call at point `t`, as the label table spells it. -/
abbrev bodyAt0 (t : Fin (cfg0 a0).N) : Prog (TpuEff nD τ sig (Elt F) Λ₀ .tc) PUnit :=
  cc0__seg_sum_kernel (grid0.coords t) (Memref.whole main_v2) (Memref.isWhole_whole _) (Memref.whole main_v3) (Memref.isWhole_whole _)
    (spec0_0.stage ((cfg0 a0).slots t 0)) (hstage0_0 (((cfg0 a0).slots t 0).cast nbuf0_0))
    (spec0_1.stage ((cfg0 a0).slots t 1)) (hstage0_1 (((cfg0 a0).slots t 1).cast nbuf0_1))
    (spec0_2.stage ((cfg0 a0).slots t 2)) (hstage0_2 (((cfg0 a0).slots t 2).cast nbuf0_2))

/-- The body's triple as a proposition: what the segment-sum kernel's own module proves, and what the body obligation
    takes as its hypothesis. -/
def SoundKernel0 : Prop :=
  ∀ (c : Dev nD) (E : Set ℕ) (i : grid0.Coords)
    (arg2 : Memref sig .tc .smem S50 .i32) (harg2 : arg2.IsWhole) (arg3 : Memref sig .tc .smem S50 .i32) (harg3 : arg3.IsWhole)
    (arg4 : Memref sig .tc .vmem S10000x128 .f32) (harg4 : arg4.IsWhole) (arg5 : Memref sig .tc .vmem S10000x1 .i32) (harg5 : arg5.IsWhole)
    (arg6 : Memref sig .tc .vmem S1x1024x256 .f32) (harg6 : arg6.IsWhole)
    (tmin tmax : Vec F S50 .i32) (x : Vec F S10000x128 .f32) (b : Vec F S10000x1 .i32) (d : Vec F S1x1024x256 .f32) (K : PUnit.{1} → sProp 𝕄),
    iprop(owns (c : Thread nD τ) arg2 fullShare tmin ∗ owns (c : Thread nD τ) arg3 fullShare tmax
        ∗ owns (c : Thread nD τ) arg4 fullShare x ∗ owns (c : Thread nD τ) arg5 fullShare b ∗ owns (c : Thread nD τ) arg6 fullShare d
        ∗ (iprop(owns (c : Thread nD τ) arg2 fullShare tmin ∗ owns (c : Thread nD τ) arg3 fullShare tmax
            ∗ owns (c : Thread nD τ) arg4 fullShare x ∗ owns (c : Thread nD τ) arg5 fullShare b
            ∗ owns (c : Thread nD τ) arg6 fullShare (seg0 i tmin tmax x b d)) -∗ K ⟨⟩))
      ⊢ wp frame (wpE (defs₀ (F := F)) Variants.none c none) E (cc0__seg_sum_kernel i arg2 harg2 arg3 harg3 arg4 harg4 arg5 harg5 arg6 harg6) K

/-- Each window's current staging memref at point `t`. -/
abbrev ms0_0 (t : Fin (cfg0 a0).N) : Memref sig .tc .vmem S10000x128 .f32 := spec0_0.stage ((cfg0 a0).slots t 0)
abbrev ms0_1 (t : Fin (cfg0 a0).N) : Memref sig .tc .vmem S10000x1 .i32 := spec0_1.stage ((cfg0 a0).slots t 1)
abbrev ms0_2 (t : Fin (cfg0 a0).N) : Memref sig .tc .vmem S1x1024x256 .f32 := spec0_2.stage ((cfg0 a0).slots t 2)

end D0

end Cert.KernelIdeal.H

end
-- ==== Proof.K1Defs.lean ====
/-
  What the main kernel leaves at one grid point: the gathered graph context in its scratch, and its output block.

  The scratch starts at zero. For each of the eight groups of 128 graph rows whose id range `[lo, lo + 127]` meets the
  tile's id range `[wmin, wmax]`, the product of the tile's one-hot matrix for that group with the group's 128 rows of
  the mean table is added to the scratch; another group adds nothing. The output block is then the tile's features
  times the first weight block, plus the scratch times the second weight block, plus the bias row.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of a 100-entry table that belongs to the point's tile. -/
def word1 (t : Vec F S100 .i32) (i : grid1.Coords) : BitVec 32 :=
  View.ld t (Rect.unit (s := S100) (k1_off1 i) S1.size (k1_off1_inb i)) (Shape.Idx.first (numel1_S1.symm ▸ Nat.one_pos))

/-- The guard of the group of rows `[lo, hi]`: the tile's largest id is at least `lo` and its smallest at most `hi`. -/
def on1 (lo hi wmin wmax : BitVec 32) : BitVec 1 :=
  Scalar.cmpi .ne (Scalar.extui (Scalar.andi (Scalar.cmpi .sge wmax lo) (Scalar.cmpi .sle wmin hi)) : BitVec 32) 0#32

/-- Rows 0..127 of the mean table. -/
abbrev rM1_0 : Rect S1024x128 := Rect.unit (s := S1024x128) ![0, 0] S128x128.size inb_S1024x128_S128x128_0_0
/-- The scratch after the group of rows 0..127: its contribution added if its guard holds. -/
def acc1_0 (wmin wmax : BitVec 32) (b : Vec F S5000x1 .i32) (mn : Vec F S1024x128 .bf16) (g : Vec F S5000x128 .f32) : Vec F S5000x128 .f32 :=
  if on1 0#32 127#32 wmin wmax = 1#1 then k1_pay3 b (View.ld mn rM1_0) g else g

/-- Rows 128..255 of the mean table. -/
abbrev rM1_128 : Rect S1024x128 := Rect.unit (s := S1024x128) ![128, 0] S128x128.size inb_S1024x128_S128x128_128_0
/-- The scratch after the group of rows 128..255: its contribution added if its guard holds. -/
def acc1_128 (wmin wmax : BitVec 32) (b : Vec F S5000x1 .i32) (mn : Vec F S1024x128 .bf16) (g : Vec F S5000x128 .f32) : Vec F S5000x128 .f32 :=
  if on1 128#32 255#32 wmin wmax = 1#1 then k1_pay4 b (View.ld mn rM1_128) g else g

/-- Rows 256..383 of the mean table. -/
abbrev rM1_256 : Rect S1024x128 := Rect.unit (s := S1024x128) ![256, 0] S128x128.size inb_S1024x128_S128x128_256_0
/-- The scratch after the group of rows 256..383: its contribution added if its guard holds. -/
def acc1_256 (wmin wmax : BitVec 32) (b : Vec F S5000x1 .i32) (mn : Vec F S1024x128 .bf16) (g : Vec F S5000x128 .f32) : Vec F S5000x128 .f32 :=
  if on1 256#32 383#32 wmin wmax = 1#1 then k1_pay5 b (View.ld mn rM1_256) g else g

/-- Rows 384..511 of the mean table. -/
abbrev rM1_384 : Rect S1024x128 := Rect.unit (s := S1024x128) ![384, 0] S128x128.size inb_S1024x128_S128x128_384_0
/-- The scratch after the group of rows 384..511: its contribution added if its guard holds. -/
def acc1_384 (wmin wmax : BitVec 32) (b : Vec F S5000x1 .i32) (mn : Vec F S1024x128 .bf16) (g : Vec F S5000x128 .f32) : Vec F S5000x128 .f32 :=
  if on1 384#32 511#32 wmin wmax = 1#1 then k1_pay6 b (View.ld mn rM1_384) g else g

/-- Rows 512..639 of the mean table. -/
abbrev rM1_512 : Rect S1024x128 := Rect.unit (s := S1024x128) ![512, 0] S128x128.size inb_S1024x128_S128x128_512_0
/-- The scratch after the group of rows 512..639: its contribution added if its guard holds. -/
def acc1_512 (wmin wmax : BitVec 32) (b : Vec F S5000x1 .i32) (mn : Vec F S1024x128 .bf16) (g : Vec F S5000x128 .f32) : Vec F S5000x128 .f32 :=
  if on1 512#32 639#32 wmin wmax = 1#1 then k1_pay7 (k1_pay2 b) (View.ld mn rM1_512) g else g

/-- Rows 640..767 of the mean table. -/
abbrev rM1_640 : Rect S1024x128 := Rect.unit (s := S1024x128) ![640, 0] S128x128.size inb_S1024x128_S128x128_640_0
/-- The scratch after the group of rows 640..767: its contribution added if its guard holds. -/
def acc1_640 (wmin wmax : BitVec 32) (b : Vec F S5000x1 .i32) (mn : Vec F S1024x128 .bf16) (g : Vec F S5000x128 .f32) : Vec F S5000x128 .f32 :=
  if on1 640#32 767#32 wmin wmax = 1#1 then k1_pay8 (k1_pay2 b) (View.ld mn rM1_640) g else g

/-- Rows 768..895 of the mean table. -/
abbrev rM1_768 : Rect S1024x128 := Rect.unit (s := S1024x128) ![768, 0] S128x128.size inb_S1024x128_S128x128_768_0
/-- The scratch after the group of rows 768..895: its contribution added if its guard holds. -/
def acc1_768 (wmin wmax : BitVec 32) (b : Vec F S5000x1 .i32) (mn : Vec F S1024x128 .bf16) (g : Vec F S5000x128 .f32) : Vec F S5000x128 .f32 :=
  if on1 768#32 895#32 wmin wmax = 1#1 then k1_pay9 (k1_pay2 b) (View.ld mn rM1_768) g else g

/-- Rows 896..1023 of the mean table. -/
abbrev rM1_896 : Rect S1024x128 := Rect.unit (s := S1024x128) ![896, 0] S128x128.size inb_S1024x128_S128x128_896_0
/-- The scratch after the group of rows 896..1023: its contribution added if its guard holds. -/
def acc1_896 (wmin wmax : BitVec 32) (b : Vec F S5000x1 .i32) (mn : Vec F S1024x128 .bf16) (g : Vec F S5000x128 .f32) : Vec F S5000x128 .f32 :=
  if on1 896#32 1023#32 wmin wmax = 1#1 then k1_pay10 (k1_pay2 b) (View.ld mn rM1_896) g else g

/-- The gathered context: the scratch after the eight groups, from zero. -/
def gath1 (i : grid1.Coords) (tmin tmax : Vec F S100 .i32) (b : Vec F S5000x1 .i32) (mn : Vec F S1024x128 .bf16) : Vec F S5000x128 .f32 :=
  let wmin := word1 tmin i
  let wmax := word1 tmax i
  acc1_896 wmin wmax b mn (acc1_768 wmin wmax b mn (acc1_640 wmin wmax b mn (acc1_512 wmin wmax b mn (acc1_384 wmin wmax b mn
    (acc1_256 wmin wmax b mn (acc1_128 wmin wmax b mn (acc1_0 wmin wmax b mn (k1_pay1 (F := F)))))))))

/-- THE POINT'S RESULT: the output block at point `i`. -/
def out1 (i : grid1.Coords) (tmin tmax : Vec F S100 .i32) (x : Vec F S5000x128 .f32) (b : Vec F S5000x1 .i32)
    (mn : Vec F S1024x128 .bf16) (w1 w2 : Vec F S128x128 .bf16) (bias : Vec F S1x128 .f32) : Vec F S5000x128 .f32 :=
  k1_pay11 x (gath1 i tmin tmax b mn) w1 w2 bias

end Cert.KernelIdeal.H

end
-- ==== Proof.KDat1D.lean ====
/-
  The proof data of the main call: definitions.

  The call's grid has 100 points. After the body at a point, windows 0 to 5 (node features, ids, the mean table, the
  two weight blocks, the bias row) hold their blocks and window 6 holds the output block `out1` of them.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.K1Defs
import Idealize.ShloMosaic.Lib.Pipeline.Frame
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section D1
variable (a1 : (pcfg1 (F := F)).Adm)
variable (V : (c : Dev nD) → (b : Ref sig .tc) → Buf (Elt F) ((c : Thread nD τ).loc b))

/-- The two prefetched tables of the main call: each tile's smallest and largest graph id. -/
abbrev tmin1 : Vec F S100 .i32 := a1.1 0
abbrev tmax1 : Vec F S100 .i32 := a1.1 1

/-- Window `w`'s block at point `t`, read off its array as the region finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The output block the body leaves at point `t`. -/
def outAt1 (c : Dev nD) (t : Fin (cfg1 a1).N) : Vec F S5000x128 .f32 :=
  out1 (grid1.coords t) (tmin1 a1) (tmax1 a1) (iblk1 a1 V c 0 t) (iblk1 a1 V c 1 t) (iblk1 a1 V c 2 t) (iblk1 a1 V c 3 t)
    (iblk1 a1 V c 4 t) (iblk1 a1 V c 5 t)

def dat1 (c : Dev nD) : Dat τ (Elt F) Unit ℕ (UR sig nD τ) ℕ (cfg1 a1) c where
  A w := V c (Pipeline.arrRef spec1 w)
  after w t := match w with
    | ⟨0, _⟩ => iblk1 a1 V c 0 t
    | ⟨1, _⟩ => iblk1 a1 V c 1 t
    | ⟨2, _⟩ => iblk1 a1 V c 2 t
    | ⟨3, _⟩ => iblk1 a1 V c 3 t
    | ⟨4, _⟩ => iblk1 a1 V c 4 t
    | ⟨5, _⟩ => iblk1 a1 V c 5 t
    | ⟨6, _⟩ => outAt1 a1 V c t
  Φ _ := iprop(Pipeline.prefHeld (Ix := Unit) (Name := ℕ) (U := UR sig nD τ) (Lvl := ℕ) pre1 c (fun _ => fullShare) a1.1 ∗ Pipeline.ΦA spec1 c)
  q _ := fullShare
  owed _ := 0

theorem A_eq1 (c : Dev nD) (w : Fin (cfg1 a1).W) : (dat1 a1 V c).A w = V c (Pipeline.arrRef spec1 w) := by
  dsimp only [dat1]
theorem after1_0 (c : Dev nD) (t : Fin (cfg1 a1).N) : (dat1 a1 V c).after 0 t = iblk1 a1 V c 0 t := by dsimp only [dat1]; rfl
theorem after1_1 (c : Dev nD) (t : Fin (cfg1 a1).N) : (dat1 a1 V c).after 1 t = iblk1 a1 V c 1 t := by dsimp only [dat1]; rfl
theorem after1_2 (c : Dev nD) (t : Fin (cfg1 a1).N) : (dat1 a1 V c).after 2 t = iblk1 a1 V c 2 t := by dsimp only [dat1]; rfl
theorem after1_3 (c : Dev nD) (t : Fin (cfg1 a1).N) : (dat1 a1 V c).after 3 t = iblk1 a1 V c 3 t := by dsimp only [dat1]; rfl
theorem after1_4 (c : Dev nD) (t : Fin (cfg1 a1).N) : (dat1 a1 V c).after 4 t = iblk1 a1 V c 4 t := by dsimp only [dat1]; rfl
theorem after1_5 (c : Dev nD) (t : Fin (cfg1 a1).N) : (dat1 a1 V c).after 5 t = iblk1 a1 V c 5 t := by dsimp only [dat1]; rfl
theorem after1_6 (c : Dev nD) (t : Fin (cfg1 a1).N) : (dat1 a1 V c).after 6 t = outAt1 a1 V c t := by dsimp only [dat1]; rfl

/-- The body's call at point `t`, as the label table spells it. -/
abbrev bodyAt1 (t : Fin (cfg1 a1).N) : Prog (TpuEff nD τ sig (Elt F) Λ₀ .tc) PUnit :=
  cc1__main_kernel (grid1.coords t) (Memref.whole main_v5) (Memref.isWhole_whole _) (Memref.whole main_v6) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    (spec1_3.stage ((cfg1 a1).slots t 3)) (hstage1_3 (((cfg1 a1).slots t 3).cast nbuf1_3))
    (spec1_4.stage ((cfg1 a1).slots t 4)) (hstage1_4 (((cfg1 a1).slots t 4).cast nbuf1_4))
    (spec1_5.stage ((cfg1 a1).slots t 5)) (hstage1_5 (((cfg1 a1).slots t 5).cast nbuf1_5))
    (spec1_6.stage ((cfg1 a1).slots t 6)) (hstage1_6 (((cfg1 a1).slots t 6).cast nbuf1_6))
    (Memref.whole cc1_scratch0) (Memref.isWhole_whole _)

theorem bodyAt1_eq (t : Fin (cfg1 a1).N) :
    defs₀ (F := F) .tc (cfg1 a1).body ((cfg1 a1).bodyArgs t ((cfg1 a1).slots t)) = bodyAt1 a1 t := rfl

/-- The body's triple as a proposition: what the main kernel's own module proves, and what the body obligation takes as
    its hypothesis. -/
def SoundKernel1 : Prop :=
  ∀ (c : Dev nD) (E : Set ℕ) (i : grid1.Coords)
    (arg1 : Memref sig .tc .smem S100 .i32) (harg1 : arg1.IsWhole) (arg2 : Memref sig .tc .smem S100 .i32) (harg2 : arg2.IsWhole)
    (arg3 : Memref sig .tc .vmem S5000x128 .f32) (harg3 : arg3.IsWhole) (arg4 : Memref sig .tc .vmem S5000x1 .i32) (harg4 : arg4.IsWhole)
    (arg5 : Memref sig .tc .vmem S1024x128 .bf16) (harg5 : arg5.IsWhole) (arg6 : Memref sig .tc .vmem S128x128 .bf16) (harg6 : arg6.IsWhole)
    (arg7 : Memref sig .tc .vmem S128x128 .bf16) (harg7 : arg7.IsWhole) (arg8 : Memref sig .tc .vmem S1x128 .f32) (harg8 : arg8.IsWhole)
    (arg9 : Memref sig .tc .vmem S5000x128 .f32) (harg9 : arg9.IsWhole) (arg10 : Memref sig .tc .vmem S5000x128 .f32) (harg10 : arg10.IsWhole)
    (tmin tmax : Vec F S100 .i32) (x : Vec F S5000x128 .f32) (b : Vec F S5000x1 .i32) (mn : Vec F S1024x128 .bf16)
    (w1 w2 : Vec F S128x128 .bf16) (bias : Vec F S1x128 .f32) (K : PUnit.{1} → sProp 𝕄),
    iprop(owns (c : Thread nD τ) arg1 fullShare tmin ∗ owns (c : Thread nD τ) arg2 fullShare tmax
        ∗ owns (c : Thread nD τ) arg3 fullShare x ∗ owns (c : Thread nD τ) arg4 fullShare b ∗ owns (c : Thread nD τ) arg5 fullShare mn
        ∗ owns (c : Thread nD τ) arg6 fullShare w1 ∗ owns (c : Thread nD τ) arg7 fullShare w2 ∗ owns (c : Thread nD τ) arg8 fullShare bias
        ∗ (∃ d9, owns (c : Thread nD τ) arg9 fullShare d9) ∗ (∃ d10, owns (c : Thread nD τ) arg10 fullShare d10)
        ∗ (iprop(owns (c : Thread nD τ) arg1 fullShare tmin ∗ owns (c : Thread nD τ) arg2 fullShare tmax
            ∗ owns (c : Thread nD τ) arg3 fullShare x ∗ owns (c : Thread nD τ) arg4 fullShare b ∗ owns (c : Thread nD τ) arg5 fullShare mn
            ∗ owns (c : Thread nD τ) arg6 fullShare w1 ∗ owns (c : Thread nD τ) arg7 fullShare w2 ∗ owns (c : Thread nD τ) arg8 fullShare bias
            ∗ owns (c : Thread nD τ) arg9 fullShare (out1 i tmin tmax x b mn w1 w2 bias)
            ∗ (∃ d10, owns (c : Thread nD τ) arg10 fullShare d10)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9 arg10 harg10) K

end D1

end Cert.KernelIdeal.H

end
-- ==== Proof.KBound.lean ====
/-
  The contents of a core's unscoped buffers at each boundary between the items of @main.

  At launch: the memory. After the first host stretch (which computes the tables of tile id ranges): those operations
  applied. After the segment-sum region: its output array at what the region's write-backs leave, every other buffer as
  entered. After the second host stretch (the two cores' tables added, the means, the weight blocks): those operations
  applied. After the main region: its output array at what its write-backs leave. The tables each region prefetches are
  read off the boundary before it.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KDat0D
import proofs.«411499_j60584808678067_2_alg».proof.Proof.KDat1D
import proofs.«411499_j60584808678067_2_alg».proof.Proof.Gen.KernelIdeal.Regions
import Idealize.ShloMosaic.Lib.Pipeline.RegionsLoop
import Idealize.ShloMosaic.Lib.Pipeline.FrameSuffix
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-- The one device. -/
abbrev c₀ : Dev nD := ⟨0, Nat.one_pos⟩
theorem dev_eq (c : Dev nD) : c = c₀ := Subsingleton.elim _ _

/-! ## The buffer contents at each boundary -/

/-- At launch. -/
abbrev W0 : Dev nD → Valuation τ sig (Elt F) := fun c b => m (c, b)
/-- After the first host stretch (the segment-sum region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- The segment-sum call's tables, as the first host stretch computes them. -/
def adm0 : (pcfg0 (F := F)).Adm := ⟨fun k => U1 m c₀ (pre0.ref k), trivial⟩

/-- At the segment-sum region's exit: its arrays at what the pipeline leaves, every other buffer as entered. -/
def W2 (c : Dev nD) : Valuation τ sig (Elt F) :=
  Pipeline.withArrays spec0 c (W1 m c) fun w => (dat0 (adm0 m) (U1 m) c).arrAt w (cfg0 (adm0 m)).N
abbrev U2 : (c : Dev nD) → (b : Ref sig .tc) → Buf (Elt F) ((c : Thread nD τ).loc b) := fun c b => W2 m c b
/-- After the second host stretch (the main region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- The main call's tables. -/
def adm1 : (pcfg1 (F := F)).Adm := ⟨fun k => U3 m c₀ (pre1.ref k), trivial⟩

/-- At the main region's exit. -/
def W4 (c : Dev nD) : Valuation τ sig (Elt F) :=
  Pipeline.withArrays spec1 c (W3 m c) fun w => (dat1 (adm1 m) (U3 m) c).arrAt w (cfg1 (adm1 m)).N
abbrev U4 : (c : Dev nD) → (b : Ref sig .tc) → Buf (Elt F) ((c : Thread nD τ).loc b) := fun c b => W4 m c b

theorem W2_arr (c : Dev nD) (w : Fin (cfg0 (adm0 m)).W) :
    W2 m c (Proc.devRef .tc (Pipeline.arrRef spec0 w)) = (dat0 (adm0 m) (U1 m) c).arrAt w (cfg0 (adm0 m)).N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin (cfg0 (adm0 m)).W) :
    (dat0 (adm0 m) (U1 m) c).arrAt w (cfg0 (adm0 m)).N = U2 m c (Pipeline.arrRef spec0 w) := (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

theorem W4_arr (c : Dev nD) (w : Fin (cfg1 (adm1 m)).W) :
    W4 m c (Proc.devRef .tc (Pipeline.arrRef spec1 w)) = (dat1 (adm1 m) (U3 m) c).arrAt w (cfg1 (adm1 m)).N := by
  unfold W4; exact Pipeline.withArrays_arr spec1 winFacts1.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin (cfg1 (adm1 m)).W) :
    (dat1 (adm1 m) (U3 m) c).arrAt w (cfg1 (adm1 m)).N = U4 m c (Pipeline.arrRef spec1 w) := (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

end Run

end Cert.KernelIdeal.H

end
-- ==== Proof.Spec.lean ====
/-
  What both programs compute, as one function of the four argument arrays over the extended reals.

  Node `n` belongs to graph `bid n`. For a graph `g` and a feature `k`, `segSum` is the sum of `x n k` over the nodes of
  `g`, `segCnt` the number of those nodes, and `mean` their quotient with the count raised to at least one (an empty
  graph has mean `0 / 1`). A node's result row is the linear layer applied to its own features followed by its graph's
  mean features: the weight matrix `W : [128, 256]` acts by its first 128 columns on `x n` and by its last 128 columns
  on `mean (bid n)`, and the bias is added last.
-/
import Idealize.ShloMosaic.PureOps.Ideal
import Idealize.ShloMosaic.Lib.ValueIdx

noncomputable section

namespace Cert.Spec

open Idealize.ShloMosaic Idealize.ShloMosaic.ValueIdx

abbrev SX : Shape := ⟨2, ![500000, 128]⟩
abbrev SB : Shape := ⟨1, ![500000]⟩
abbrev SW : Shape := ⟨2, ![128, 256]⟩
abbrev Sb : Shape := ⟨1, ![128]⟩

/-- Every node's graph id names one of the 1024 graphs. -/
def InRange (bid : IVec SB 32) : Prop :=
  ∀ n : Fin 500000, 0 ≤ (bid (ix1 n)).toInt ∧ (bid (ix1 n)).toInt < 1024

/-- The graph of node `n` (total: an id outside the range is sent to a graph, which `InRange` makes irrelevant). -/
def gid (bid : IVec SB 32) (n : Fin 500000) : Fin 1024 :=
  ⟨min (bid (ix1 n)).toInt.toNat 1023, by omega⟩

/-- The nodes of graph `g`. -/
def nodes (bid : IVec SB 32) (g : Fin 1024) : Finset (Fin 500000) :=
  Finset.univ.filter fun n => (bid (ix1 n)).toInt = (g.val : ℤ)

/-- The sum of feature `k` over the nodes of graph `g`. -/
def segSum (x : SX.Idx → EReal) (bid : IVec SB 32) (g : Fin 1024) (k : Fin 128) : EReal :=
  ∑ n ∈ nodes bid g, x (ix2 n k)

/-- The number of nodes of graph `g`. -/
def segCnt (bid : IVec SB 32) (g : Fin 1024) : EReal :=
  ∑ _n ∈ nodes bid g, (1 : EReal)

/-- The mean of feature `k` over graph `g`, an empty graph counted as one node. -/
def mean (x : SX.Idx → EReal) (bid : IVec SB 32) (g : Fin 1024) (k : Fin 128) : EReal :=
  Ideal.div (segSum x bid g k) (max (segCnt bid g) 1)

/-- Entry `(n, o)` of the result: `x n · W[o, 0:128] + mean (bid n) · W[o, 128:256] + b o`. -/
def Gat (x : SX.Idx → EReal) (bid : IVec SB 32) (W : SW.Idx → EReal) (b : Sb.Idx → EReal)
    (n : Fin 500000) (o : Fin 128) : EReal :=
  ((∑ k : Fin 128, x (ix2 n k) * W (ix2 o (⟨k.val, by omega⟩ : Fin 256)))
    + ∑ k : Fin 128, mean x bid (gid bid n) k * W (ix2 o (⟨128 + k.val, by omega⟩ : Fin 256)))
  + b (ix1 o)

/-- The result array. -/
def G (x : SX.Idx → EReal) (bid : IVec SB 32) (W : SW.Idx → EReal) (b : Sb.Idx → EReal) : SX.Idx → EReal :=
  fun j => Gat x bid W b ⟨(j 0).val, (j 0).isLt⟩ ⟨(j 1).val, (j 1).isLt⟩

theorem G_ix2 (x : SX.Idx → EReal) (bid : IVec SB 32) (W : SW.Idx → EReal) (b : Sb.Idx → EReal)
    (n : Fin 500000) (o : Fin 128) : G x bid W b (ix2 n o) = Gat x bid W b n o := rfl

end Cert.Spec

end
-- ==== Proof.KValI.lean ====
/-
  The interfaces of the value assembly at the ideal instance, as statements.

  `X`, `B`, `Wt`, `bb` are the four argument arrays as launched: node features, graph ids, weights, bias. Each
  statement below says what some buffer holds at some boundary of @main in terms of them; the modules that prove them
  take the ones they depend on as hypotheses.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KBound
import proofs.«411499_j60584808678067_2_alg».proof.Proof.Spec
import Idealize.ShloMosaic.Lib.ValueIdx
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section VI

variable (m : (ℓ : Loc nD τ sig) → Buf (Elt Ideal) ℓ) (c : Dev nD)

/-- The node features, graph ids, weights and bias, as launched. -/
abbrev X : S500000x128.Idx → EReal := m ((c : Thread nD τ).loc main_arg0)
abbrev B : S500000.Idx → BitVec 32 := m ((c : Thread nD τ).loc main_arg1)
abbrev Wt : S128x256.Idx → EReal := m ((c : Thread nD τ).loc main_arg2)
abbrev bb : S128.Idx → EReal := m ((c : Thread nD τ).loc main_arg3)

/-- The id column the regions read is the id array. -/
def IdCol : Prop := ∀ (c : Dev nD) (n : Fin 500000),
  (U1 m c main_v0 : S500000x1.Idx → BitVec 32) (ix2 n (0 : Fin 1)) = B m c (ValueIdx.ix1 n)

/-- The segment-sum call's tables bound their tiles' ids: tile `t` is rows `10000 t .. 10000 t + 9999`. -/
def Tables0 : Prop := ∀ (c : Dev nD) (t : Fin 50) (r : Fin 10000),
  ((U1 m c main_v2 : S50.Idx → BitVec 32) (ValueIdx.ix1 t)).toInt ≤ (B m c (ValueIdx.ix1 (⟨t.val * 10000 + r.val, by omega⟩ : Fin 500000))).toInt
  ∧ (B m c (ValueIdx.ix1 (⟨t.val * 10000 + r.val, by omega⟩ : Fin 500000))).toInt ≤ ((U1 m c main_v3 : S50.Idx → BitVec 32) (ValueIdx.ix1 t)).toInt

/-- The main call's tables bound their tiles' ids: tile `t` is rows `5000 t .. 5000 t + 4999`. -/
def Tables1 : Prop := ∀ (c : Dev nD) (t : Fin 100) (r : Fin 5000),
  ((U1 m c main_v5 : S100.Idx → BitVec 32) (ValueIdx.ix1 t)).toInt ≤ (B m c (ValueIdx.ix1 (⟨t.val * 5000 + r.val, by omega⟩ : Fin 500000))).toInt
  ∧ (B m c (ValueIdx.ix1 (⟨t.val * 5000 + r.val, by omega⟩ : Fin 500000))).toInt ≤ ((U1 m c main_v6 : S100.Idx → BitVec 32) (ValueIdx.ix1 t)).toInt

/-- What the segment-sum region leaves: core `cc`'s table holds, for graph `g`, the sums over ITS half of the nodes
    (rows `250000 cc ..`) in columns 0..127 and their count in columns 128..255. -/
def RawSum : Prop := ∀ (c : Dev nD) (cc : Fin 2) (g : Fin 1024) (k : Fin 128),
  (U2 m c main_v7 : S2x1024x256.Idx → EReal) (ix3 cc g (⟨k.val, by omega⟩ : Fin 256))
    = ∑ n : Fin 250000, (if (B m c (ValueIdx.ix1 (⟨250000 * cc.val + n.val, by omega⟩ : Fin 500000))).toInt = (g.val : ℤ)
        then X m c (ix2 (⟨250000 * cc.val + n.val, by omega⟩ : Fin 500000) k) else 0)
def RawCnt : Prop := ∀ (c : Dev nD) (cc : Fin 2) (g : Fin 1024) (k : Fin 128),
  (U2 m c main_v7 : S2x1024x256.Idx → EReal) (ix3 cc g (⟨128 + k.val, by omega⟩ : Fin 256))
    = ∑ n : Fin 250000, (if (B m c (ValueIdx.ix1 (⟨250000 * cc.val + n.val, by omega⟩ : Fin 500000))).toInt = (g.val : ℤ)
        then (1 : EReal) else 0)

/-- What the second host stretch hands the main region: the mean table, the two weight blocks, the bias row; and what it
    leaves alone. -/
def MeanTab : Prop := ∀ (c : Dev nD) (g : Fin 1024) (k : Fin 128),
  (U3 m c main_v18 : S1024x128.Idx → EReal) (ix2 g k) = Cert.Spec.mean (X m c) (B m c) g k
def W1Blk : Prop := ∀ (c : Dev nD) (k o : Fin 128),
  (U3 m c main_v21 : S128x128.Idx → EReal) (ix2 k o) = Wt m c (ix2 o (⟨k.val, by omega⟩ : Fin 256))
def W2Blk : Prop := ∀ (c : Dev nD) (k o : Fin 128),
  (U3 m c main_v23 : S128x128.Idx → EReal) (ix2 k o) = Wt m c (ix2 o (⟨128 + k.val, by omega⟩ : Fin 256))
def BiasRow : Prop := ∀ (c : Dev nD) (o : Fin 128),
  (U3 m c main_v24 : S1x128.Idx → EReal) (ix2 (0 : Fin 1) o) = bb m c (ValueIdx.ix1 o)
def Kept3 : Prop := ∀ (c : Dev nD),
  (U3 m c main_arg0 : S500000x128.Idx → EReal) = X m c
  ∧ (U3 m c main_v0 : S500000x1.Idx → BitVec 32) = U1 m c main_v0
  ∧ (U3 m c main_v5 : S100.Idx → BitVec 32) = U1 m c main_v5
  ∧ (U3 m c main_v6 : S100.Idx → BitVec 32) = U1 m c main_v6

/-- The running table of core `cc` after its last point (point `25 cc + 24`). -/
abbrev accLast (cc : Fin 2) : Vec Ideal S1x1024x256 .f32 :=
  acc0 (adm0 m) (U1 m) c (25 * cc.val + 24) (lt_of_lt_of_eq (by omega) (N_0).symm)

/-- ARRAY READING, segment-sum region: the write-backs leave, in block `cc` of the output array, core `cc`'s last table. -/
def ArrRead0 : Prop := ∀ (c : Dev nD) (cc : Fin 2) (g : Fin 1024) (kk : Fin 256),
  (U2 m c main_v7 : S2x1024x256.Idx → EReal) (ix3 cc g kk) = accLast m c cc (ix3 (0 : Fin 1) g kk)

/-- PER-CORE ACCUMULATION: core `cc`'s last table holds the sums and counts over its half of the nodes. -/
def AccSum : Prop := ∀ (c : Dev nD) (cc : Fin 2) (g : Fin 1024) (k : Fin 128),
  accLast m c cc (ix3 (0 : Fin 1) g (⟨k.val, by omega⟩ : Fin 256))
    = ∑ n : Fin 250000, (if (B m c (ValueIdx.ix1 (⟨250000 * cc.val + n.val, by omega⟩ : Fin 500000))).toInt = (g.val : ℤ)
        then X m c (ix2 (⟨250000 * cc.val + n.val, by omega⟩ : Fin 500000) k) else 0)
def AccCnt : Prop := ∀ (c : Dev nD) (cc : Fin 2) (g : Fin 1024) (k : Fin 128),
  accLast m c cc (ix3 (0 : Fin 1) g (⟨128 + k.val, by omega⟩ : Fin 256))
    = ∑ n : Fin 250000, (if (B m c (ValueIdx.ix1 (⟨250000 * cc.val + n.val, by omega⟩ : Fin 500000))).toInt = (g.val : ℤ)
        then (1 : EReal) else 0)

/-- ARRAY READING, main region: the write-backs leave, in rows `5000 t .. 5000 t + 4999` of the result array, the
    output block of point `t`. -/
def ArrRead1 : Prop := ∀ (c : Dev nD) (t : Fin 100) (r : Fin 5000) (o : Fin 128),
  (W4 m c (Proc.devRef .tc main_v25) : S500000x128.Idx → EReal) (ix2 (⟨5000 * t.val + r.val, by omega⟩ : Fin 500000) o)
    = outAt1 (adm1 m) (U3 m) c ⟨t.val, lt_of_lt_of_eq t.isLt (N_1).symm⟩ (ix2 r o)

/-- THE RESULT: the result array ends at the specification's function of the arguments. -/
def Result : Prop := ∀ (c : Dev nD),
  (W4 m c (Proc.devRef .tc main_v25) : S500000x128.Idx → EReal) = Cert.Spec.G (X m c) (B m c) (Wt m c) (bb m c)

end VI

end Cert.KernelIdeal.H

end
-- ==== Proof.KDat0.lean ====
/-
  The proof data of the segment-sum call and its body obligation.

  The call's grid has 50 points, 25 per core; window 2 (the output) keeps one block index through a core's 25 points
  and is written back after the last of them, so its staging buffer is an accumulator: before point `t` it holds what
  the body left at `t - 1`, except at a core's first point, where it holds anything and the body clears it. A point at
  which no guard holds stores nothing; there the buffer is left as found.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KDat0D
import Idealize.ShloMosaic.Lib.Pipeline.Frame
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section D0
variable (a0 : (pcfg0 (F := F)).Adm)
variable (V : (c : Dev nD) → (b : Ref sig .tc) → Buf (Elt F) ((c : Thread nD τ).loc b))

/-! ## The schedule -/

/-- Over the 50 points: the output's block index (the core) moves, or the grid ends, exactly after a point whose
    position in its core's run is the last, 24. -/
private theorem flush_grid : ∀ t : Fin grid0.N,
    (true && (decide (t.val + 1 = grid0.N) || decide (∃ h : t.val + 1 < grid0.N,
        cc0_transform_2 (grid0.coords ⟨t.val + 1, h⟩) ≠ cc0_transform_2 (grid0.coords t))))
      = decide (t.val % 25 = 24) := by
  decide +kernel

/-- The output block is written back after each core's last point. -/
theorem flush0_2 (t : Fin (cfg0 a0).N) : ((cfg0 a0).win 2).flush t = decide (t.val % 25 = 24) :=
  flush_grid t

/-- Over the 50 points: the second coordinate of point `t` is `t % 25`, and the clear's condition tests it against 0. -/
private theorem cond1_grid : ∀ t : Fin grid0.N, (k0_cond1 (grid0.coords t) = 1#1 ↔ t.val % 25 = 0) := by
  decide +kernel

/-- The clear's condition holds exactly at a core's first point. -/
theorem cond1_iff (t : Fin (cfg0 a0).N) : k0_cond1 (grid0.coords t) = 1#1 ↔ t.val % 25 = 0 :=
  cond1_grid t

/-- The tile's offset in a 50-entry table is inside it. -/
private theorem off1_inb' (i : grid0.Coords) : ∀ a, k0_off1 i a + 1 ≤ S50.size a := fun a => by
  have h1 : ∀ a : Fin 1, S1.size a = 1 := by decide
  have h := k0_off1_inb i a
  rw [h1 a] at h; exact h

/-- The tile's word as the pipeline's `idle` reads it is the word the body loads. -/
theorem atD_eq_word0_min (i : grid0.Coords) : (a0.1).atD 0 (k0_off1 i) = word0 (tmin0 a0) i := by
  have hb := off1_inb' i
  show (if h : ∀ a, k0_off1 i a + 1 ≤ S50.size a then a0.1 0 (fun a => ⟨k0_off1 i a, h a⟩) else default) = _
  rw [dif_pos hb]
  unfold word0 View.ld
  congr 1
theorem atD_eq_word0_max (i : grid0.Coords) : (a0.1).atD 1 (k0_off1 i) = word0 (tmax0 a0) i := by
  have hb := off1_inb' i
  show (if h : ∀ a, k0_off1 i a + 1 ≤ S50.size a then a0.1 1 (fun a => ⟨k0_off1 i a, h a⟩) else default) = _
  rw [dif_pos hb]
  unfold word0 View.ld
  congr 1

/-! ## What the body leaves, in the two degenerate cases -/

/-- Under the clear's condition the cleared table is the clearing payload everywhere, whatever was there. -/
private theorem clr0_of_clear (i : grid0.Coords) (h : k0_cond1 i = 1#1) (d d' : Vec F S1x1024x256 .f32) :
    clr0 i d = clr0 i d' := by
  unfold clr0
  rw [if_pos h, if_pos h]
  funext y
  -- the cleared rectangle is the whole table: every index is under it, and there the overlay is the payload
  have hy : y ∈ (rAll0).set := by
    refine Rect.mem_set_unit.mpr fun a => ?_
    have h0 : ∀ a : Fin 3, (![0, 0, 0] : Fin 3 → ℕ) a = 0 := by decide
    have hlt := (y a).isLt
    have e := h0 a
    constructor <;> omega
  obtain ⟨x, rfl⟩ := (rAll0).exists_idx_of_mem hy
  show View.over d [⟨rAll0, k0_pay16 (F := F)⟩] ((rAll0).emb x) = View.over d' [⟨rAll0, k0_pay16 (F := F)⟩] ((rAll0).emb x)
  rw [View.over_cons_emb, View.over_cons_emb]

/-- At a core's first point the table is cleared first: what was there before does not matter. -/
theorem seg0_of_clear (i : grid0.Coords) (h : k0_cond1 i = 1#1) (tmin tmax : Vec F S50 .i32) (x : Vec F S10000x128 .f32)
    (b : Vec F S10000x1 .i32) (d d' : Vec F S1x1024x256 .f32) : seg0 i tmin tmax x b d = seg0 i tmin tmax x b d' := by
  unfold seg0
  rw [clr0_of_clear i h d d']

/-- A point idle for the output: the clear's condition and the eight guards all fail there, the guards read at the
    tile's two table words. -/
private theorem idle_conds (t : Fin (cfg0 a0).N) (h : (cfg0 a0).idle 2 ((cfg0 a0).grid.coords t) = true) :
    ¬ k0_cond1 (grid0.coords t) = 1#1
      ∧ ¬ k0_cond2 (word0 (tmin0 a0) (grid0.coords t)) (word0 (tmax0 a0) (grid0.coords t)) = 1#1
      ∧ ¬ k0_cond3 (word0 (tmin0 a0) (grid0.coords t)) (word0 (tmax0 a0) (grid0.coords t)) = 1#1
      ∧ ¬ k0_cond4 (word0 (tmin0 a0) (grid0.coords t)) (word0 (tmax0 a0) (grid0.coords t)) = 1#1
      ∧ ¬ k0_cond5 (word0 (tmin0 a0) (grid0.coords t)) (word0 (tmax0 a0) (grid0.coords t)) = 1#1
      ∧ ¬ k0_cond6 (word0 (tmin0 a0) (grid0.coords t)) (word0 (tmax0 a0) (grid0.coords t)) = 1#1
      ∧ ¬ k0_cond7 (word0 (tmin0 a0) (grid0.coords t)) (word0 (tmax0 a0) (grid0.coords t)) = 1#1
      ∧ ¬ k0_cond8 (word0 (tmin0 a0) (grid0.coords t)) (word0 (tmax0 a0) (grid0.coords t)) = 1#1
      ∧ ¬ k0_cond9 (word0 (tmin0 a0) (grid0.coords t)) (word0 (tmax0 a0) (grid0.coords t)) = 1#1 := by
  have h' : (!(k0_cond1 (grid0.coords t) == 1#1) && !(k0_cond2 (word0 (tmin0 a0) (grid0.coords t)) (word0 (tmax0 a0) (grid0.coords t)) == 1#1) && !(k0_cond3 (word0 (tmin0 a0) (grid0.coords t)) (word0 (tmax0 a0) (grid0.coords t)) == 1#1) && !(k0_cond4 (word0 (tmin0 a0) (grid0.coords t)) (word0 (tmax0 a0) (grid0.coords t)) == 1#1) && !(k0_cond5 (word0 (tmin0 a0) (grid0.coords t)) (word0 (tmax0 a0) (grid0.coords t)) == 1#1) && !(k0_cond6 (word0 (tmin0 a0) (grid0.coords t)) (word0 (tmax0 a0) (grid0.coords t)) == 1#1) && !(k0_cond7 (word0 (tmin0 a0) (grid0.coords t)) (word0 (tmax0 a0) (grid0.coords t)) == 1#1) && !(k0_cond8 (word0 (tmin0 a0) (grid0.coords t)) (word0 (tmax0 a0) (grid0.coords t)) == 1#1) && !(k0_cond9 (word0 (tmin0 a0) (grid0.coords t)) (word0 (tmax0 a0) (grid0.coords t)) == 1#1)) = true := by
    rw [← atD_eq_word0_min a0, ← atD_eq_word0_max a0]; exact h
  simpa only [Bool.and_eq_true, Bool.not_eq_true', beq_eq_false_iff_ne, ne_eq, and_assoc] using h'

/-- At a point idle for the output (no guard holds) the table is left as found. -/
theorem seg0_of_idle (t : Fin (cfg0 a0).N) (h : (cfg0 a0).idle 2 ((cfg0 a0).grid.coords t) = true) (x : Vec F S10000x128 .f32)
    (b : Vec F S10000x1 .i32) (d : Vec F S1x1024x256 .f32) : seg0 (grid0.coords t) (tmin0 a0) (tmax0 a0) x b d = d := by
  obtain ⟨h1, h2, h3, h4, h5, h6, h7, h8, h9⟩ := idle_conds a0 t h
  unfold seg0
  dsimp only
  unfold grp0_896 grp0_768 grp0_640 grp0_512 grp0_384 grp0_256 grp0_128 grp0_0 clr0
  rw [if_neg h1, if_neg h2, if_neg h3, if_neg h4, if_neg h5, if_neg h6, if_neg h7, if_neg h8, if_neg h9]

/-- A point idle for the output is not a core's first point. -/
theorem not_first_of_idle (t : Fin (cfg0 a0).N) (h : (cfg0 a0).idle 2 ((cfg0 a0).grid.coords t) = true) : t.val % 25 ≠ 0 :=
  fun h0 => (idle_conds a0 t h).1 ((cond1_iff a0 t).mpr h0)

/-! ## What the staging buffers hold when the body runs -/

theorem before0_0 (c : Dev nD) (t : Fin (cfg0 a0).N) (d) : (dat0 a0 V c).before 0 t d = iblk0 a0 V c 0 t :=
  ((dat0 a0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin (cfg0 a0).N) (d) : (dat0 a0 V c).before 1 t d = iblk0 a0 V c 1 t :=
  ((dat0 a0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The running table at a successor position: the point's result over the cleared table at a core's first point,
    over the previous running table otherwise. -/
private theorem acc0_succ (c : Dev nD) (n : ℕ) (hn : n + 1 < (cfg0 a0).N) :
    acc0 a0 V c (n + 1) hn
      = seg0 (grid0.coords ⟨n + 1, hn⟩) (tmin0 a0) (tmax0 a0) (iblk0 a0 V c 0 ⟨n + 1, hn⟩) (iblk0 a0 V c 1 ⟨n + 1, hn⟩)
          (if (n + 1) % 25 = 0 then k0_pay16 (F := F) else acc0 a0 V c n (Nat.lt_of_succ_lt hn)) := by
  rw [acc0]

/-- The output's transfers are not cut: what the body left is kept whole. -/
private theorem kept0_2 (c : Dev nD) (t : Fin (cfg0 a0).N) (d) :
    (dat0 a0 V c).kept 2 t d = acc0 a0 V c t.val t.isLt := by
  unfold Dat.kept
  rw [Pipeline.fill_of_clip_none (cfg := cfg0 a0) 2 _ (fun _ => rfl) d ((dat0 a0 V c).after 2 t), Window.fill_cut, after0_2]

/-- After a point that is not a core's last, the accumulator holds what the body left there. -/
private theorem before2_succ (c : Dev nD) (d) (n : ℕ) (hn : n + 1 < (cfg0 a0).N) (hm : (n + 1) % 25 ≠ 0) :
    (dat0 a0 V c).before 2 ⟨n + 1, hn⟩ d = (dat0 a0 V c).left 2 ⟨n, Nat.lt_of_succ_lt hn⟩ d := by
  have hfl : ((cfg0 a0).win 2).flush ⟨n, Nat.lt_of_succ_lt hn⟩ = false := by
    rw [flush0_2]; exact decide_eq_false (by show ¬ n % 25 = 24; omega)
  rw [(dat0 a0 V c).before_of_pos 2 ⟨n + 1, hn⟩ (Nat.succ_ne_zero n) (((cfg0 a0).win 2).fetch_out rfl _) d]
  show (if ((cfg0 a0).win 2).flush ⟨n, Nat.lt_of_succ_lt hn⟩ = true then d else (dat0 a0 V c).left 2 ⟨n, Nat.lt_of_succ_lt hn⟩ d) = _
  rw [hfl, if_neg Bool.false_ne_true]

/-- Inside a core's run the accumulator holds the running table of the point before: at a live point the body left
    it; at an idle one the body left what it found, which is the running table one point earlier, and the point's
    result over that table is that table. -/
private theorem before2_acc (c : Dev nD) (d) : ∀ (n : ℕ) (hn : n + 1 < (cfg0 a0).N), (n + 1) % 25 ≠ 0 →
    (dat0 a0 V c).before 2 ⟨n + 1, hn⟩ d = acc0 a0 V c n (Nat.lt_of_succ_lt hn) := by
  intro n
  induction n with
  | zero =>
    intro hn hm
    rw [before2_succ a0 V c d 0 hn hm]
    by_cases hid : (cfg0 a0).idle 2 ((cfg0 a0).grid.coords ⟨0, Nat.lt_of_succ_lt hn⟩) = true
    · exact absurd rfl (not_first_of_idle a0 ⟨0, Nat.lt_of_succ_lt hn⟩ hid)
    · rw [Bool.not_eq_true] at hid
      unfold Dat.left; rw [hid]
      exact kept0_2 a0 V c ⟨0, Nat.lt_of_succ_lt hn⟩ d
  | succ m ih =>
    intro hn hm
    rw [before2_succ a0 V c d (m + 1) hn hm]
    by_cases hid : (cfg0 a0).idle 2 ((cfg0 a0).grid.coords ⟨m + 1, Nat.lt_of_succ_lt hn⟩) = true
    · have hnf : (m + 1) % 25 ≠ 0 := not_first_of_idle a0 ⟨m + 1, Nat.lt_of_succ_lt hn⟩ hid
      unfold Dat.left; rw [hid]
      show (dat0 a0 V c).before 2 ⟨m + 1, Nat.lt_of_succ_lt hn⟩ d = _
      rw [ih (Nat.lt_of_succ_lt hn) hnf, acc0_succ, if_neg hnf]
      exact (seg0_of_idle a0 ⟨m + 1, Nat.lt_of_succ_lt hn⟩ hid _ _ _).symm
    · rw [Bool.not_eq_true] at hid
      unfold Dat.left; rw [hid]
      exact kept0_2 a0 V c ⟨m + 1, Nat.lt_of_succ_lt hn⟩ d

/-- The accumulator: anything at a core's first point, else the running table of the point before. -/
theorem before0_2 (c : Dev nD) (t : Fin (cfg0 a0).N) (d) :
    (dat0 a0 V c).before 2 t d = if t.val % 25 = 0 then d else acc0 a0 V c (t.val - 1) (Nat.lt_of_le_of_lt (Nat.sub_le _ _) t.isLt) := by
  obtain ⟨n, hn⟩ := t
  cases n with
  | zero =>
    rw [(dat0 a0 V c).before_out_reset 2 rfl ⟨0, hn⟩ (.inl rfl) d]
    rfl
  | succ n =>
    by_cases hm : (n + 1) % 25 = 0
    · have hfl : ((cfg0 a0).win 2).flush ⟨n, Nat.lt_of_succ_lt hn⟩ = true := by
        rw [flush0_2]; exact decide_eq_true (by show n % 25 = 24; omega)
      rw [(dat0 a0 V c).before_out_reset 2 rfl ⟨n + 1, hn⟩ (.inr ⟨Nat.succ_ne_zero n, hfl⟩) d]
      exact (if_pos hm).symm
    · exact (before2_acc a0 V c d n hn hm).trans (if_neg hm).symm

/-- The body run on what the accumulator holds leaves the running table of the point. -/
theorem acc0_step (c : Dev nD) (t : Fin (cfg0 a0).N) (d) :
    seg0 (grid0.coords t) (tmin0 a0) (tmax0 a0) (iblk0 a0 V c 0 t) (iblk0 a0 V c 1 t) ((dat0 a0 V c).before 2 t d)
      = acc0 a0 V c t.val t.isLt := by
  obtain ⟨n, hn⟩ := t
  by_cases hm : n % 25 = 0
  · -- a core's first point: the body clears the table, so what it found does not matter
    have hc := (cond1_iff a0 ⟨n, hn⟩).mpr hm
    have hb : (dat0 a0 V c).before 2 ⟨n, hn⟩ d = d := (before0_2 a0 V c ⟨n, hn⟩ d).trans (if_pos hm)
    rw [hb]
    cases n with
    | zero => exact seg0_of_clear _ hc _ _ _ _ d (k0_pay16 (F := F))
    | succ n =>
      show _ = acc0 a0 V c (n + 1) hn
      rw [acc0_succ, if_pos hm]
      exact seg0_of_clear _ hc _ _ _ _ d (k0_pay16 (F := F))
  · -- inside a core's run: the body found the running table of the point before
    have hb : (dat0 a0 V c).before 2 ⟨n, hn⟩ d = acc0 a0 V c (n - 1) (Nat.lt_of_le_of_lt (Nat.sub_le _ _) hn) :=
      (before0_2 a0 V c ⟨n, hn⟩ d).trans (if_neg hm)
    rw [hb]
    cases n with
    | zero => exact absurd rfl hm
    | succ n =>
      show seg0 _ _ _ _ _ (acc0 a0 V c n (Nat.lt_of_succ_lt hn)) = acc0 a0 V c (n + 1) hn
      rw [acc0_succ, if_neg hm]

/-! ## The body obligation -/

/-- The two tables conjoined one by one. -/
private theorem bigSep_K0 {M : Type} [URA M] (Φ : Fin 2 → sProp M) :
    bigSep Finset.univ Φ = iprop(Φ (0 : Fin 2) ∗ Φ (1 : Fin 2)) :=
  bigSep_univ_eq_bigSepL [(0 : Fin 2), (1 : Fin 2)] (by decide) (by decide) Φ

/-- The held tables are the two whole scalar-memory buffers the body is handed, each at its table's contents. -/
private theorem prefHeld0_eq (c : Dev nD) :
    (Pipeline.prefHeld (Ix := Unit) (Name := ℕ) (U := UR sig nD τ) (Lvl := ℕ) pre0 c (fun _ => fullShare) a0.1 : sProp 𝕄)
      = iprop(owns (c : Thread nD τ) (Memref.whole main_v2) fullShare (tmin0 a0)
          ∗ owns (c : Thread nD τ) (Memref.whole main_v3) fullShare (tmax0 a0)) := by
  unfold Pipeline.prefHeld
  rw [bigSep_K0, owns_whole, owns_whole]
  rfl

/-- What the body leaves in the output's buffer is what the obligation asks of it: the running table at a live point
    or one that writes the block back; at an idle point that does not, what the body found. -/
private theorem leaves0_2 (c : Dev nD) (t : Fin (cfg0 a0).N) (d) :
    (owns (c : Thread nD τ) (ms0_2 a0 t) fullShare
        (seg0 (grid0.coords t) (tmin0 a0) (tmax0 a0) (iblk0 a0 V c 0 t) (iblk0 a0 V c 1 t) ((dat0 a0 V c).before 2 t d)) : sProp 𝕄)
      ⊢ (dat0 a0 V c).leavesExact 2 t := by
  by_cases hid : (cfg0 a0).idle 2 ((cfg0 a0).grid.coords t) = true
  · by_cases hfl : ((cfg0 a0).win 2).flush t = true
    · rw [acc0_step a0 V c t d, ← after0_2 a0 V c t]
      unfold Dat.leavesExact; rw [hid, hfl]
      exact BI.Entails.refl _
    · rw [Bool.not_eq_true] at hfl
      rw [(dat0 a0 V c).leavesExact_idle 2 t hid hfl,
        seg0_of_idle a0 t hid (iblk0 a0 V c 0 t) (iblk0 a0 V c 1 t) ((dat0 a0 V c).before 2 t d)]
      iintro H; iexists d; iexact H
  · rw [Bool.not_eq_true] at hid
    rw [acc0_step a0 V c t d, ← after0_2 a0 V c t]
    unfold Dat.leavesExact; rw [hid]
    exact BI.Entails.refl _

set_option maxHeartbeats 800000 in
/-- The body at any point: the inputs' buffers hold their blocks, the tables come out of the invariant as the two whole
    buffers the body reads, the body's triple applies at what the accumulator holds, and the tables go back. -/
private theorem sound_body0 (hK : SoundKernel0 (F := F)) (c : Dev nD) (t : Fin (cfg0 a0).N) :
    iprop((dat0 a0 V c).Φ t.castSucc ∗ (dat0 a0 V c).owesAt () t.castSucc
        ∗ (∃ d, owns (c : Thread nD τ) (ms0_0 a0 t) fullShare ((dat0 a0 V c).before 0 t d))
        ∗ (∃ d, owns (c : Thread nD τ) (ms0_1 a0 t) fullShare ((dat0 a0 V c).before 1 t d))
        ∗ (∃ d, owns (c : Thread nD τ) (ms0_2 a0 t) fullShare ((dat0 a0 V c).before 2 t d)))
      ⊢ wp frame (wpE (defs₀ (F := F)) Variants.none c none) Set.univ (bodyAt0 a0 t) (fun _ =>
          iprop((dat0 a0 V c).Φ t.succ ∗ (dat0 a0 V c).owesAt () t.succ
            ∗ owns (c : Thread nD τ) (ms0_0 a0 t) fullShare ((dat0 a0 V c).after 0 t)
            ∗ owns (c : Thread nD τ) (ms0_1 a0 t) fullShare ((dat0 a0 V c).after 1 t)
            ∗ (dat0 a0 V c).leavesExact 2 t)) := by
  simp only [before0_0, before0_1]
  rw [show (dat0 a0 V c).Φ t.succ = (dat0 a0 V c).Φ t.castSucc from rfl,
    show (dat0 a0 V c).owesAt () t.succ = (dat0 a0 V c).owesAt () t.castSucc from rfl,
    after0_0, after0_1,
    show (dat0 a0 V c).Φ t.castSucc = iprop(Pipeline.prefHeld (Ix := Unit) (Name := ℕ) (U := UR sig nD τ) (Lvl := ℕ) pre0 c (fun _ => fullShare) a0.1 ∗ Pipeline.ΦA spec0 c) from rfl,
    prefHeld0_eq]
  iintro ⟨⟨⟨Hmin, Hmax⟩, HA⟩, Ho, ⟨%d0, H0⟩, ⟨%d1, H1⟩, ⟨%d2, H2⟩⟩
  iapply (hK c Set.univ (grid0.coords t) _ _ _ _ _ _ _ _ _ _ (tmin0 a0) (tmax0 a0) (iblk0 a0 V c 0 t) (iblk0 a0 V c 1 t)
    ((dat0 a0 V c).before 2 t d2) _)
  isplitl [Hmin]; · iexact Hmin
  isplitl [Hmax]; · iexact Hmax
  isplitl [H0]; · iexact H0
  isplitl [H1]; · iexact H1
  isplitl [H2]; · iexact H2
  iintro ⟨Hmin, Hmax, H0, H1, H2⟩
  isplitl [Hmin Hmax HA]
  · isplitl [Hmin Hmax]
    · isplitl [Hmin]; · iexact Hmin
      iexact Hmax
    iexact HA
  isplitl [Ho]; · iexact Ho
  isplitl [H0]; · iexact H0
  isplitl [H1]; · iexact H1
  iapply (leaves0_2 a0 V c t d2); iexact H2

theorem body_obligation0 (hK : SoundKernel0 (F := F)) (c : Dev nD) :
    BodyObligation (dat0 (F := F) a0 V c) (defs₀ (F := F)) Variants.none () Set.univ := fun t => by
  rw [bigSep_W0, bigSep_W0]
  exact sound_body0 a0 V hK c t

end D0

end Cert.KernelIdeal.H

end
-- ==== Proof.KDat1.lean ====
/-
  The proof data of the main call and its body obligation.

  The call's grid has 100 points. Windows 0 and 1 (the node features and ids) move with the point; windows 2 to 5 (the
  mean table, the two weight blocks, the bias row) keep one block for the whole grid; window 6 (the output) is written
  back after every point. The body reads its six input blocks and the tile's two table words, uses the scratch buffer
  as it likes, and leaves the output block at `out1` of them.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KDat1D
import Idealize.ShloMosaic.Lib.Pipeline.Frame
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section D1
variable (a1 : (pcfg1 (F := F)).Adm)
variable (V : (c : Dev nD) → (b : Ref sig .tc) → Buf (Elt F) ((c : Thread nD τ).loc b))

/-! ## What the input windows' staging buffers hold when the body runs: their blocks, fetched there or not -/

theorem before1_0 (c : Dev nD) (t : Fin (cfg1 a1).N) (d) : (dat1 a1 V c).before 0 t d = iblk1 a1 V c 0 t :=
  (Dat.before_in_eq_fetched (dat1 a1 V c) 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a1).N) (d) : (dat1 a1 V c).before 1 t d = iblk1 a1 V c 1 t :=
  (Dat.before_in_eq_fetched (dat1 a1 V c) 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a1).N) (d) : (dat1 a1 V c).before 2 t d = iblk1 a1 V c 2 t :=
  (Dat.before_in_eq_fetched (dat1 a1 V c) 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin (cfg1 a1).N) (d) : (dat1 a1 V c).before 3 t d = iblk1 a1 V c 3 t :=
  (Dat.before_in_eq_fetched (dat1 a1 V c) 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin (cfg1 a1).N) (d) : (dat1 a1 V c).before 4 t d = iblk1 a1 V c 4 t :=
  (Dat.before_in_eq_fetched (dat1 a1 V c) 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin (cfg1 a1).N) (d) : (dat1 a1 V c).before 5 t d = iblk1 a1 V c 5 t :=
  (Dat.before_in_eq_fetched (dat1 a1 V c) 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation -/

/-- The two tables as the invariant holds them are the two whole table memrefs owned outright: the table of smallest
    ids at `tmin1`, the table of largest ids at `tmax1`. -/
private theorem tables1_eq (c : Dev nD) :
    (Pipeline.prefHeld (Ix := Unit) (Name := ℕ) (U := UR sig nD τ) (Lvl := ℕ) pre1 c (fun _ => fullShare) a1.1 : sProp 𝕄)
      = iprop(owns (c : Thread nD τ) (Memref.whole main_v5) fullShare (tmin1 a1) ∗ owns (c : Thread nD τ) (Memref.whole main_v6) fullShare (tmax1 a1)) := by
  unfold Pipeline.prefHeld
  rw [bigSep_univ_eq_bigSepL [(0 : Fin 2), (1 : Fin 2)] (by decide) (by decide), owns_whole, owns_whole]
  rfl

/-- The body at any point `t`, the seven windows written out. Before it the six input buffers hold their blocks
    (`before1_0` to `before1_5`) and the output buffer holds anything; the invariant splits into the two tables, the
    scoped buffers other than the staging ones (the scratch last among them) and the generator register. The
    kernel's triple, at the tables' contents and the six blocks, leaves every input as it was, the output block at
    `out1` of them (which is `outAt1` at `t`), and the scratch at some contents; so the invariant is the same after
    the point as before it, and nothing is owed throughout. -/
private theorem sound_body1 (hK : SoundKernel1 (F := F)) (c : Dev nD) (t : Fin (cfg1 a1).N) :
    iprop((dat1 a1 V c).Φ t.castSucc ∗ (dat1 a1 V c).owesAt () t.castSucc
      ∗ (∃ d, owns (c : Thread nD τ) (((cfg1 a1).win 0).stage ((cfg1 a1).slots t 0)) fullShare ((dat1 a1 V c).before 0 t d))
      ∗ (∃ d, owns (c : Thread nD τ) (((cfg1 a1).win 1).stage ((cfg1 a1).slots t 1)) fullShare ((dat1 a1 V c).before 1 t d))
      ∗ (∃ d, owns (c : Thread nD τ) (((cfg1 a1).win 2).stage ((cfg1 a1).slots t 2)) fullShare ((dat1 a1 V c).before 2 t d))
      ∗ (∃ d, owns (c : Thread nD τ) (((cfg1 a1).win 3).stage ((cfg1 a1).slots t 3)) fullShare ((dat1 a1 V c).before 3 t d))
      ∗ (∃ d, owns (c : Thread nD τ) (((cfg1 a1).win 4).stage ((cfg1 a1).slots t 4)) fullShare ((dat1 a1 V c).before 4 t d))
      ∗ (∃ d, owns (c : Thread nD τ) (((cfg1 a1).win 5).stage ((cfg1 a1).slots t 5)) fullShare ((dat1 a1 V c).before 5 t d))
      ∗ (∃ d, owns (c : Thread nD τ) (((cfg1 a1).win 6).stage ((cfg1 a1).slots t 6)) fullShare ((dat1 a1 V c).before 6 t d)))
    ⊢ wp frame (wpE (defs₀ (F := F)) Variants.none c none) Set.univ (bodyAt1 a1 t) (fun _ =>
      iprop((dat1 a1 V c).Φ t.succ ∗ (dat1 a1 V c).owesAt () t.succ
        ∗ owns (c : Thread nD τ) (((cfg1 a1).win 0).stage ((cfg1 a1).slots t 0)) fullShare ((dat1 a1 V c).after 0 t)
        ∗ owns (c : Thread nD τ) (((cfg1 a1).win 1).stage ((cfg1 a1).slots t 1)) fullShare ((dat1 a1 V c).after 1 t)
        ∗ owns (c : Thread nD τ) (((cfg1 a1).win 2).stage ((cfg1 a1).slots t 2)) fullShare ((dat1 a1 V c).after 2 t)
        ∗ owns (c : Thread nD τ) (((cfg1 a1).win 3).stage ((cfg1 a1).slots t 3)) fullShare ((dat1 a1 V c).after 3 t)
        ∗ owns (c : Thread nD τ) (((cfg1 a1).win 4).stage ((cfg1 a1).slots t 4)) fullShare ((dat1 a1 V c).after 4 t)
        ∗ owns (c : Thread nD τ) (((cfg1 a1).win 5).stage ((cfg1 a1).slots t 5)) fullShare ((dat1 a1 V c).after 5 t)
        ∗ owns (c : Thread nD τ) (((cfg1 a1).win 6).stage ((cfg1 a1).slots t 6)) fullShare ((dat1 a1 V c).after 6 t))) := by
  simp only [before1_0, before1_1, before1_2, before1_3, before1_4, before1_5]
  rw [show (dat1 a1 V c).Φ t.succ = (dat1 a1 V c).Φ t.castSucc from rfl,
    show (dat1 a1 V c).owesAt () t.succ = (dat1 a1 V c).owesAt () t.castSucc from rfl,
    after1_0, after1_1, after1_2, after1_3, after1_4, after1_5, after1_6]
  rw [show (dat1 a1 V c).Φ t.castSucc = iprop(Pipeline.prefHeld (Ix := Unit) (Name := ℕ) (U := UR sig nD τ) (Lvl := ℕ) pre1 c (fun _ => fullShare) a1.1 ∗ Pipeline.ΦA spec1 c) from rfl]
  rw [tables1_eq]
  unfold Pipeline.ΦA
  rw [scopedRest1_eq]
  unfold outAt1
  iintro ⟨⟨⟨Ht0, Ht1⟩, ⟨R0, R1, R2, R3, R4, R5, ⟨%f, Hs⟩⟩, Hr⟩, Ho, ⟨%d0, H0⟩, ⟨%d1, H1⟩, ⟨%d2, H2⟩, ⟨%d3, H3⟩, ⟨%d4, H4⟩, ⟨%d5, H5⟩, ⟨%d6, H6⟩⟩
  iapply (hK c Set.univ (grid1.coords t) _ _ _ _ _ _ _ _ _ _ _ _ _ _ _ _ _ _ _ _ (tmin1 a1) (tmax1 a1) (iblk1 a1 V c 0 t) (iblk1 a1 V c 1 t) (iblk1 a1 V c 2 t) (iblk1 a1 V c 3 t) (iblk1 a1 V c 4 t) (iblk1 a1 V c 5 t) _)
  isplitl [Ht0]; · iexact Ht0
  isplitl [Ht1]; · iexact Ht1
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hs]; · iexists f; rw [owns_whole]; iexact Hs
  iintro ⟨Ht0, Ht1, H0, H1, H2, H3, H4, H5, H6, ⟨%g, Hs⟩⟩
  isplitl [Ht0 Ht1 R0 R1 R2 R3 R4 R5 Hs Hr]
  · isplitl [Ht0 Ht1]
    · isplitl [Ht0]; · iexact Ht0
      iexact Ht1
    isplitr [Hr]
    · isplitl [R0]; · iexact R0
      isplitl [R1]; · iexact R1
      isplitl [R2]; · iexact R2
      isplitl [R3]; · iexact R3
      isplitl [R4]; · iexact R4
      isplitl [R5]; · iexact R5
      iexists g; rw [← owns_whole (c : Thread nD τ) cc1_scratch0 fullShare g]; iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point: the windows one by one, then `sound_body1`. -/
theorem body_obligation1 (hK : SoundKernel1 (F := F)) (c : Dev nD) :
    BodyObligation (dat1 (F := F) a1 V c) (defs₀ (F := F)) Variants.none () Set.univ := fun t => by
  rw [bigSep_W1, bigSep_W1]
  exact sound_body1 a1 V hK c t

end D1

end Cert.KernelIdeal.H

end
-- ==== Proof.KRun.lean ====
/-
  The run of the whole kernel program: its two host stretches and its two pallas_call regions, in order, from the
  launch to the return.

  Each region is entered from a thread state that holds every unscoped buffer at the boundary's contents, takes its arrays
  and its two prefetched tables out of them, runs its pipeline, and puts the arrays back at what the write-backs leave and
  the tables back as they were. The run's post names the result array's final contents and says that the four arguments
  end as launched.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KBound
import proofs.«411499_j60584808678067_2_alg».proof.Proof.KDat0
import proofs.«411499_j60584808678067_2_alg».proof.Proof.KDat1
import proofs.«411499_j60584808678067_2_alg».proof.Proof.Gen.KernelIdeal.Regions
import Idealize.ShloMosaic.Lib.Pipeline.RegionsLoop
import Idealize.ShloMosaic.Lib.Pipeline.FrameSuffix
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The proof data family and the thread state -/

def adm : (p : Fin 2) → (pcfgs (F := F) p).Adm
  | ⟨0, _⟩ => adm0 m
  | ⟨1, _⟩ => adm1 m

def pdats : (p : Fin 2) → (c : Dev nD) → Dat τ (Elt F) Unit ℕ (UR sig nD τ) ℕ (Pipeline.pin (pcfgs (F := F)) (adm m) p) c
  | ⟨0, _⟩ => fun c => dat0 (adm0 m) (U1 m) c
  | ⟨1, _⟩ => fun c => dat1 (adm1 m) (U3 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The regions as segments -/

-- a library lemma stated over `pin pcs a p` unifies with the pinned configuration only when unification may unfold plain
-- definitions in a metavariable's type
set_option backward.isDefEq.respectTransparency.types false in
/-- REGION 0 over the thread state: entered from every unscoped buffer at `W1`, left at `W2`. Its arrays and its two
    tables split out of the unscoped buffers at entry and put back at exit, the arrays at what the write-backs leave, the
    tables as they were; the generator register into the body's invariant and out; nothing owed; no semaphore of the
    kernel's own. -/
def reg0 (hK : SoundKernel0 (F := F)) : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (adm0 m) (U1 m) hK c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (adm0 m).1)
  Z c := Pipeline.unscopedRestP (Ix := Unit) (Name := ℕ) (U := UR sig nD τ) (Lvl := ℕ) pre0 spec0 c (U1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (U1 m c) fun _ => rfl
    rw [Pipeline.unscopedBufs_held, Pipeline.unscopedRest_split (launch0 (F := F)).pre c (U1 m c)] at hsplit
    obtain rfl := dev_eq c
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.prefHeld (Ix := Unit) (Name := ℕ) (U := UR sig nD τ) (Lvl := ℕ) pre0 c (fun _ => fullShare) (adm0 m).1 ∗ Pipeline.ΦA spec0 c) from rfl]
    unfold Pipeline.ΦA
    iintro ⟨Hp, Hpf, Hr⟩
    isplitl [Hpf]; · iexact Hpf
    isplitl [Hr]; · iexact Hr
    iexact Hp
  hout c := by
    rw [Pipeline.ownSems0_none, show (pdats m 0 c).Φ (Fin.last _) = iprop(Pipeline.prefHeld (Ix := Unit) (Name := ℕ) (U := UR sig nD τ) (Lvl := ℕ) pre0 c (fun _ => fullShare) (adm0 m).1 ∗ Pipeline.ΦA spec0 c) from rfl]
    unfold Pipeline.ΦA
    iintro ⟨Hpf, Hr, Hp⟩
    isplitl [Hp Hpf]
    · isplitl [Hp]; · iexact Hp
      iexact Hpf
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (U1 m c) (U2 m c) ((pdats m 0 c).arrAt · (cfg0 (adm0 m)).N) (hF0 m c) (hrest0 m c)
    rw [Pipeline.unscopedBufs_held, Pipeline.unscopedRest_split (launch0 (F := F)).pre c (U1 m c)] at hjoin
    obtain rfl := dev_eq c
    iintro ⟨Ha, HO, ⟨Hp, Hpf⟩, Hrest⟩
    imodintro
    isplitl [Ha Hrest Hpf]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 1 over the thread state: entered from every unscoped buffer at `W3`, left at `W4`. Its arrays and its two
    tables split out of the unscoped buffers at entry and put back at exit, the arrays at what the write-backs leave, the
    tables as they were; the generator register into the body's invariant and out; nothing owed; no semaphore of the
    kernel's own. -/
def reg1 (hK : SoundKernel1 (F := F)) : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm1 m) (U3 m) hK c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (adm1 m).1)
  Z c := Pipeline.unscopedRestP (Ix := Unit) (Name := ℕ) (U := UR sig nD τ) (Lvl := ℕ) pre1 spec1 c (U3 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (U3 m c) fun _ => rfl
    rw [Pipeline.unscopedBufs_held, Pipeline.unscopedRest_split (launch1 (F := F)).pre c (U3 m c)] at hsplit
    obtain rfl := dev_eq c
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.prefHeld (Ix := Unit) (Name := ℕ) (U := UR sig nD τ) (Lvl := ℕ) pre1 c (fun _ => fullShare) (adm1 m).1 ∗ Pipeline.ΦA spec1 c) from rfl]
    unfold Pipeline.ΦA
    iintro ⟨Hp, Hpf, Hr⟩
    isplitl [Hpf]; · iexact Hpf
    isplitl [Hr]; · iexact Hr
    iexact Hp
  hout c := by
    rw [Pipeline.ownSems0_none, show (pdats m 1 c).Φ (Fin.last _) = iprop(Pipeline.prefHeld (Ix := Unit) (Name := ℕ) (U := UR sig nD τ) (Lvl := ℕ) pre1 c (fun _ => fullShare) (adm1 m).1 ∗ Pipeline.ΦA spec1 c) from rfl]
    unfold Pipeline.ΦA
    iintro ⟨Hpf, Hr, Hp⟩
    isplitl [Hp Hpf]
    · isplitl [Hp]; · iexact Hp
      iexact Hpf
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (U3 m c) (U4 m c) ((pdats m 1 c).arrAt · (cfg1 (adm1 m)).N) (hF1 m c) (hrest1 m c)
    rw [Pipeline.unscopedBufs_held, Pipeline.unscopedRest_split (launch1 (F := F)).pre c (U3 m c)] at hjoin
    obtain rfl := dev_eq c
    iintro ⟨Ha, HO, ⟨Hp, Hpf⟩, Hrest⟩
    imodintro
    isplitl [Ha Hrest Hpf Hp]
    · isplitl [Ha Hrest Hpf]
      · iapply hjoin
        isplitl [Ha]; · iexact Ha
        isplitl [Hpf]; · iexact Hpf
        iexact Hrest
      iexact Hp
    unfold Pipeline.Dat.owesAt Pipeline.owesWithin
    icases HO with ⟨%W, -, HO⟩; iexists W; iexact HO

/-! ## @main as segments, and the launch -/

abbrev segs (hK0 : SoundKernel0 (F := F)) (hK1 : SoundKernel1 (F := F)) : List (Pipeline.Seg (pcfgs (F := F)) (adm m) (pdats m) () defs₀ 𝒱₀ L lv) :=
  [ .host (hseg hostOps0 hostOps0_sub hostOps0_fresh (W0 m)),
    .region (reg0 m hK0),
    .host (hseg hostOps1 hostOps1_sub hostOps1_fresh (W2 m)),
    .region (reg1 m hK1) ]

theorem main_run (hK0 : SoundKernel0 (F := F)) (hK1 : SoundKernel1 (F := F)) (c : Dev nD) :
    main (F := F) c = Pipeline.Seg.run (segs m hK0 hK1) := (main_chain c).trans (by chain_rfl)

/-! ### The arguments end as launched: no host operation and no region writes one -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-- The node features: an input window of both regions, written by nothing. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (adm1 m) (U3 m) c).arrAt_in 0 rfl _).trans (A_eq1 (adm1 m) (U3 m) c 0))
    _ = W2 m c (Proc.devRef .tc main_arg0) := W3_of m c main_arg0 (by decide)
    _ = W1 m c (Proc.devRef .tc main_arg0) := (W2_arr m c 0).trans (((dat0 (adm0 m) (U1 m) c).arrAt_in 0 rfl _).trans (A_eq0 (adm0 m) (U1 m) c 0))
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  (W4_of_ne m c main_arg1 (by decide)).trans <| (W3_of m c main_arg1 (by decide)).trans <| (W2_of_ne m c main_arg1 (by decide)).trans <|
    (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_of_ne m c main_arg2 (by decide)).trans <|
    (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <|
    (W1_of m c main_arg3 (by decide)).trans rfl

/-! ## The run -/

-- the launch theorem's implicit arguments are found by unifying its conclusion with this one, which takes unfolding plain definitions
-- in a metavariable's type
set_option backward.isDefEq.respectTransparency.types false in
/-- THE RUN. From any memory with zero counters, given the two bodies' triples, every weakly fair execution of @main
    terminates, the result array ends at the last boundary's contents `W4`, and the four arguments end as launched. -/
theorem run_main (hK0 : SoundKernel0 (F := F)) (hK1 : SoundKernel1 (F := F)) :
    θ_run defs (onTc (τ := τ) (main (F := F))) ⟨m, fun _ => 0, ρ⟩ (fun r => ∀ c : Dev nD,
      r.2.mem ((c.tc : Thread nD τ).loc main_v25) = W4 m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) (adm m) (pdats m) () (cellOf_inj (adm m)) emb₁ defs₀ 𝒱₀ L lv m ρ main (segs m hK0 hK1)
    (fun c Q => by rw [main_run m hK0 hK1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v25 (by decide)),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c)⟩)

end Run

end Cert.KernelIdeal.H

end
-- ==== Proof.K0Body.lean ====
/-
  The segment-sum kernel's body at one grid point, as a triple.

  The body clears the core's table at the first point of the core, reads the tile's feature block, its id block and its
  two table words, and then visits the eight groups of 128 graph rows, each under a guard on the two words: a guarded
  group loads its sum tile and stores it back with the tile's sums added, then its count tile likewise. Each guarded
  block is taken by itself: both of its ways end in the same rest of the body, so the block takes the table from
  contents d to (if the guard holds then the block's result else d) and the rest runs once. The blocks in sequence
  give the table the definition seg0 states.
-/
import proofs.«411499_j60584808678067_2_alg».proof.Proof.K0Defs
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A guarded block whose two ways end in the same rest -/

/-- A guarded block whose two ways end in one program `J`: if the guarded body takes the buffer from `d` to `d'`
    and goes on with `J`, the conditional takes it from `d` to `if C then d' else d` and goes on with `J`. -/
private theorem guard_jp {α : Type} (c : Dev nD) (E : Set ℕ) {sh : Shape} {e : EltTy}
    (m : Memref sig .tc .vmem sh e) (C : Prop) (dec : Decidable C)
    (p : C → Prog (TpuEff nD τ sig (Elt F) Λ₀ .tc) α) (J : Prog (TpuEff nD τ sig (Elt F) Λ₀ .tc) α)
    (d d' : Vec F sh e) (K : α → sProp 𝕄)
    (hp : ∀ hc : C, iprop(owns (c : Thread nD τ) m fullShare d
        ∗ (owns (c : Thread nD τ) m fullShare d' -∗ wp frame (wpE (defs₀ (F := F)) Variants.none c none) E J K))
      ⊢ wp frame (wpE (defs₀ (F := F)) Variants.none c none) E (p hc) K) :
    iprop(owns (c : Thread nD τ) m fullShare d
        ∗ (owns (c : Thread nD τ) m fullShare (if C then d' else d) -∗ wp frame (wpE (defs₀ (F := F)) Variants.none c none) E J K))
      ⊢ wp frame (wpE (defs₀ (F := F)) Variants.none c none) E (@dite _ C dec p (fun _ => J)) K := by
  by_cases hc : C
  · rw [dif_pos hc, if_pos hc]; exact hp hc
  · rw [dif_neg hc, if_neg hc]
    iintro ⟨H, Hk⟩
    iapply Hk
    iexact H

set_option hygiene false in
/-- The guarded body of a block: its loads and stores run, and the table is read back as the incoming contents overlaid
    by the stored pieces (a load from a tile that no earlier store of the block touches reads the incoming contents). -/
local macro "grp_body " h:ident : tactic => `(tactic| (
  unfold owns
  iintro ⟨⟨%f6, %hf6, H6⟩, Hk⟩
  obtain rfl := Memref.IsWhole.eq_unread $h hf6
  sl_exec
  iapply Hk
  iexists _; isplitr
  swap; · iexact H6
  ipureintro
  rw [View.read_writes_eq_over]
  sl_unfold_run_names
  simp only [View.readAt_eq_ld, Memref.IsWhole.read_unread $h]))

/-! ## The clear -/

set_option maxHeartbeats 1000000 in
/-- The clear under its guard, followed by the rest `J` of the block: the table goes from `d` to `clr0 i d`. -/
private theorem step_clr {α : Type} (c : Dev nD) (E : Set ℕ) (i : grid0.Coords) (arg6 : Memref sig .tc .vmem S1x1024x256 .f32) (harg6 : arg6.IsWhole)
    (d : Vec F S1x1024x256 .f32)
    (J : Prog (TpuEff nD τ sig (Elt F) Λ₀ .tc) α) (K : α → sProp 𝕄) :
    iprop(owns (c : Thread nD τ) arg6 fullShare d
        ∗ (owns (c : Thread nD τ) arg6 fullShare (clr0 i d) -∗ wp frame (wpE (defs₀ (F := F)) Variants.none c none) E J K))
      ⊢ wp frame (wpE (defs₀ (F := F)) Variants.none c none) E
        (if h : k0_cond1 i = 1#1 then do
            let v55 : Vec F S1x1024x256 .f32 ← Prog.lift (.load arg6 (Rect.unit (s := S1x1024x256) ![0, 0, 0] S1x1024x256.size inb_S1x1024x256_S1x1024x256_0_0_0).toLoadRect (View.loadsAt_vmem h_S1x1024x256))
            Prog.lift (.store arg6 (Rect.unit (s := S1x1024x256) ![0, 0, 0] S1x1024x256.size inb_S1x1024x256_S1x1024x256_0_0_0) (k0_pay16 (F := F)) Finset.univ (View.stores_vmem_bits_univ h_S1x1024x256 rfl) (.inl rfl))
            J
          else J) K := by
  unfold clr0
  refine guard_jp c E arg6 _ _ _ J d _ K fun hc => ?_
  grp_body harg6

/-! ## The eight groups of rows -/

set_option hygiene false in
/-- The statement and proof of one guarded group of 128 rows, followed by the rest `J` of the block: under the guard
    `cnd` the sum tile at offsets `oS` is loaded and stored back with the tile's sums added (`pS`), then the count tile at
    offsets `oC` likewise (`pC`); the table goes from `d` to `grp w0 w1 x b d`. The two tiles are disjoint, so the second
    load reads the incoming contents. -/
local macro "group_step " nm:ident grp:ident cnd:ident oS:term:max iS:ident oC:term:max iC:ident pS:term:max pC:term:max : command => `(
  set_option maxHeartbeats 1000000 in
  private theorem $nm {α : Type} (c : Dev nD) (E : Set ℕ) (arg6 : Memref sig .tc .vmem S1x1024x256 .f32) (harg6 : arg6.IsWhole)
      (w0 w1 : BitVec 32) (x : Vec F S10000x128 .f32) (b : Vec F S10000x1 .i32) (d : Vec F S1x1024x256 .f32)
      (J : Prog (TpuEff nD τ sig (Elt F) Λ₀ .tc) α) (K : α → sProp 𝕄) :
      iprop(owns (c : Thread nD τ) arg6 fullShare d
          ∗ (owns (c : Thread nD τ) arg6 fullShare ($grp w0 w1 x b d) -∗ wp frame (wpE (defs₀ (F := F)) Variants.none c none) E J K))
        ⊢ wp frame (wpE (defs₀ (F := F)) Variants.none c none) E
          (if h : $cnd w0 w1 = 1#1 then do
              let v64 : Vec F S1x128x128 .f32 ← Prog.lift (.load arg6 (Rect.unit (s := S1x1024x256) $oS S1x128x128.size $iS).toLoadRect (View.loadsAt_vmem h_S1x128x128))
              let v67 : Vec F S1x128x128 .f32 ← Prog.lift (.load arg6 (Rect.unit (s := S1x1024x256) $oS S1x128x128.size $iS).toLoadRect (View.loadsAt_vmem h_S1x128x128))
              Prog.lift (.store arg6 (Rect.unit (s := S1x1024x256) $oS S1x128x128.size $iS) ($pS v64) Finset.univ (View.stores_vmem_bits_univ h_S1x128x128 rfl) (.inl rfl))
              let v70 : Vec F S1x128x128 .f32 ← Prog.lift (.load arg6 (Rect.unit (s := S1x1024x256) $oC S1x128x128.size $iC).toLoadRect (View.loadsAt_vmem h_S1x128x128))
              let v75 : Vec F S1x128x128 .f32 ← Prog.lift (.load arg6 (Rect.unit (s := S1x1024x256) $oC S1x128x128.size $iC).toLoadRect (View.loadsAt_vmem h_S1x128x128))
              Prog.lift (.store arg6 (Rect.unit (s := S1x1024x256) $oC S1x128x128.size $iC) ($pC v70) Finset.univ (View.stores_vmem_bits_univ h_S1x128x128 rfl) (.inl rfl))
              J
            else J) K := by
    unfold $grp
    refine guard_jp c E arg6 _ _ _ J d _ K fun hc => ?_
    grp_body harg6)

-- rows 0, 128 and 256: the payloads read the feature block and the id block as loaded
group_step step_0 grp0_0 k0_cond2 ![0, 0, 0] inb_S1x1024x256_S1x128x128_0_0_0 ![0, 0, 128] inb_S1x1024x256_S1x128x128_0_0_128 (k0_pay21 x b) (k0_pay22 b)
group_step step_128 grp0_128 k0_cond3 ![0, 128, 0] inb_S1x1024x256_S1x128x128_0_128_0 ![0, 128, 128] inb_S1x1024x256_S1x128x128_0_128_128 (k0_pay24 x b) (k0_pay25 b)
group_step step_256 grp0_256 k0_cond4 ![0, 256, 0] inb_S1x1024x256_S1x128x128_0_256_0 ![0, 256, 128] inb_S1x1024x256_S1x128x128_0_256_128 (k0_pay27 x b) (k0_pay28 b)
-- rows 384 to 896: the payloads read the narrowed feature block, the id block and the block of ones
group_step step_384 grp0_384 k0_cond5 ![0, 384, 0] inb_S1x1024x256_S1x128x128_0_384_0 ![0, 384, 128] inb_S1x1024x256_S1x128x128_0_384_128 (k0_pay2 (k0_pay17 x) (k0_pay18 b)) (k0_pay3 (k0_pay18 b) (k0_pay19 (F := F)))
group_step step_512 grp0_512 k0_cond6 ![0, 512, 0] inb_S1x1024x256_S1x128x128_0_512_0 ![0, 512, 128] inb_S1x1024x256_S1x128x128_0_512_128 (k0_pay5 (k0_pay17 x) (k0_pay18 b)) (k0_pay6 (k0_pay18 b) (k0_pay19 (F := F)))
group_step step_640 grp0_640 k0_cond7 ![0, 640, 0] inb_S1x1024x256_S1x128x128_0_640_0 ![0, 640, 128] inb_S1x1024x256_S1x128x128_0_640_128 (k0_pay8 (k0_pay17 x) (k0_pay18 b)) (k0_pay9 (k0_pay18 b) (k0_pay19 (F := F)))
group_step step_768 grp0_768 k0_cond8 ![0, 768, 0] inb_S1x1024x256_S1x128x128_0_768_0 ![0, 768, 128] inb_S1x1024x256_S1x128x128_0_768_128 (k0_pay11 (k0_pay17 x) (k0_pay18 b)) (k0_pay12 (k0_pay18 b) (k0_pay19 (F := F)))
group_step step_896 grp0_896 k0_cond9 ![0, 896, 0] inb_S1x1024x256_S1x128x128_0_896_0 ![0, 896, 128] inb_S1x1024x256_S1x128x128_0_896_128 (k0_pay14 (k0_pay17 x) (k0_pay18 b)) (k0_pay15 (k0_pay18 b) (k0_pay19 (F := F)))

/-! ## The reads -/

private theorem hz2 : (![0, 0] : Fin 2 → Nat) = fun _ => 0 := funext fun a => by fin_cases a <;> rfl

set_option maxHeartbeats 1000000 in
/-- The loads of the tile's two input blocks and of its two table words, followed by the rest `k` of the block at the
    values read: a whole block read through the rectangle at offset zero is the block, and a table's loaded word is its
    entry at the tile's index. -/
private theorem step_reads {α : Type} (c : Dev nD) (E : Set ℕ) (i : grid0.Coords)
    (arg2 : Memref sig .tc .smem S50 .i32) (harg2 : arg2.IsWhole) (arg3 : Memref sig .tc .smem S50 .i32) (harg3 : arg3.IsWhole)
    (arg4 : Memref sig .tc .vmem S10000x128 .f32) (harg4 : arg4.IsWhole) (arg5 : Memref sig .tc .vmem S10000x1 .i32) (harg5 : arg5.IsWhole)
    (tmin tmax : Vec F S50 .i32) (x : Vec F S10000x128 .f32) (b : Vec F S10000x1 .i32)
    (k : Vec F S10000x128 .f32 → Vec F S10000x1 .i32 → Elt F .i32 → Elt F .i32 → Prog (TpuEff nD τ sig (Elt F) Λ₀ .tc) α) (K : α → sProp 𝕄) :
    iprop(owns (c : Thread nD τ) arg2 fullShare tmin ∗ owns (c : Thread nD τ) arg3 fullShare tmax
        ∗ owns (c : Thread nD τ) arg4 fullShare x ∗ owns (c : Thread nD τ) arg5 fullShare b
        ∗ (iprop(owns (c : Thread nD τ) arg2 fullShare tmin ∗ owns (c : Thread nD τ) arg3 fullShare tmax
            ∗ owns (c : Thread nD τ) arg4 fullShare x ∗ owns (c : Thread nD τ) arg5 fullShare b)
          -∗ wp frame (wpE (defs₀ (F := F)) Variants.none c none) E (k x b (word0 tmin i) (word0 tmax i)) K))
      ⊢ wp frame (wpE (defs₀ (F := F)) Variants.none c none) E
        (do
          let v5 : Vec F S10000x128 .f32 ← Prog.lift (.load arg4 (Rect.unit (s := S10000x128) ![0, 0] S10000x128.size inb_S10000x128_S10000x128_0_0).toLoadRect (View.loadsAt_vmem h_S10000x128))
          let v7 : Vec F S10000x1 .i32 ← Prog.lift (.load arg5 (Rect.unit (s := S10000x1) ![0, 0] S10000x1.size inb_S10000x1_S10000x1_0_0).toLoadRect (View.loadsAt_vmem h_S10000x1))
          let v11 : Elt F .i32 ← smemLoad arg2 (Rect.unit (s := S50) (k0_off1 i) S1.size (k0_off1_inb i)) numel1_S1 rfl
          let v13 : Elt F .i32 ← smemLoad arg3 (Rect.unit (s := S50) (k0_off1 i) S1.size (k0_off1_inb i)) numel1_S1 rfl
          k v5 v7 v11 v13) K := by
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec
  have e4 : View.readAt (Elt F) arg4.view (Rect.unit (s := S10000x128) ![0, 0] S10000x128.size inb_S10000x128_S10000x128_0_0).toLoadRect (harg4.unread x) = x := by
    rw [View.readAt_eq_ld, harg4.read_unread]; exact View.ld_unit_zero hz2 _ x
  have e5 : View.readAt (Elt F) arg5.view (Rect.unit (s := S10000x1) ![0, 0] S10000x1.size inb_S10000x1_S10000x1_0_0).toLoadRect (harg5.unread b) = b := by
    rw [View.readAt_eq_ld, harg5.read_unread]; exact View.ld_unit_zero hz2 _ b
  have e2 : step_reads.sl.r c i arg2 harg2 tmin = word0 tmin i := by
    unfold step_reads.sl.r word0
    simp only [View.readAt_eq_ld, harg2.read_unread]
  have e3 : step_reads.sl.r_1 c i arg3 harg3 tmax = word0 tmax i := by
    unfold step_reads.sl.r_1 word0
    simp only [View.readAt_eq_ld, harg3.read_unread]
  rw [e4, e5, e2, e3]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr; · ipureintro; exact harg5.read_unread _
  iexact H5

/-! ## The first part of the body -/

set_option maxHeartbeats 2000000 in
/-- The first part of the body: the clear, the reads, and the groups of rows 0, 128 and 256, one after the other; it
    returns the narrowed feature block, the id block, the block of ones and the tile's two table words. -/
private theorem part1_sound (c : Dev nD) (E : Set ℕ) (i : grid0.Coords)
    (arg2 : Memref sig .tc .smem S50 .i32) (harg2 : arg2.IsWhole) (arg3 : Memref sig .tc .smem S50 .i32) (harg3 : arg3.IsWhole)
    (arg4 : Memref sig .tc .vmem S10000x128 .f32) (harg4 : arg4.IsWhole) (arg5 : Memref sig .tc .vmem S10000x1 .i32) (harg5 : arg5.IsWhole)
    (arg6 : Memref sig .tc .vmem S1x1024x256 .f32) (harg6 : arg6.IsWhole)
    (tmin tmax : Vec F S50 .i32) (x : Vec F S10000x128 .f32) (b : Vec F S10000x1 .i32) (d : Vec F S1x1024x256 .f32)
    (K : (Σ' (v6 : FVec F S10000x128 .bf16) (v8 : IVec S10000x1 32) (v9 : FVec F S10000x1 .bf16) (v11 : Elt F .i32), Elt F .i32) → sProp 𝕄) :
    iprop(owns (c : Thread nD τ) arg2 fullShare tmin ∗ owns (c : Thread nD τ) arg3 fullShare tmax
        ∗ owns (c : Thread nD τ) arg4 fullShare x ∗ owns (c : Thread nD τ) arg5 fullShare b ∗ owns (c : Thread nD τ) arg6 fullShare d
        ∗ (iprop(owns (c : Thread nD τ) arg2 fullShare tmin ∗ owns (c : Thread nD τ) arg3 fullShare tmax
            ∗ owns (c : Thread nD τ) arg4 fullShare x ∗ owns (c : Thread nD τ) arg5 fullShare b
            ∗ owns (c : Thread nD τ) arg6 fullShare
                (grp0_256 (word0 tmin i) (word0 tmax i) x b (grp0_128 (word0 tmin i) (word0 tmax i) x b (grp0_0 (word0 tmin i) (word0 tmax i) x b (clr0 i d)))))
          -∗ K ⟨k0_pay17 x, k0_pay18 b, k0_pay19 (F := F), word0 tmin i, word0 tmax i⟩))
      ⊢ wp frame (wpE (defs₀ (F := F)) Variants.none c none) E (k0_part1 i arg2 harg2 arg3 harg3 arg4 harg4 arg5 harg5 arg6 harg6) K := by
  simp only [k0_part1_eq_skeleton]; unfold k0_part1_skel
  iintro ⟨H2, H3, H4, H5, H6, Hk⟩
  iapply (step_clr c E i arg6 harg6 d _ _)
  isplitl [H6]; · iexact H6
  iintro H6
  iapply (step_reads c E i arg2 harg2 arg3 harg3 arg4 harg4 arg5 harg5 tmin tmax x b _ _)
  isplitl [H2]; · iexact H2
  isplitl [H3]; · iexact H3
  isplitl [H4]; · iexact H4
  isplitl [H5]; · iexact H5
  iintro ⟨H2, H3, H4, H5⟩
  iapply (step_0 c E arg6 harg6 (word0 tmin i) (word0 tmax i) x b _ _ _)
  isplitl [H6]; · iexact H6
  iintro H6
  iapply (step_128 c E arg6 harg6 (word0 tmin i) (word0 tmax i) x b _ _ _)
  isplitl [H6]; · iexact H6
  iintro H6
  iapply (step_256 c E arg6 harg6 (word0 tmin i) (word0 tmax i) x b _ _ _)
  isplitl [H6]; · iexact H6
  iintro H6
  sl_step
  iapply Hk
  isplitl [H2]; · iexact H2
  isplitl [H3]; · iexact H3
  isplitl [H4]; · iexact H4
  isplitl [H5]; · iexact H5
  iexact H6

/-! ## The body -/

set_option maxHeartbeats 2000000 in
/-- THE BODY at one grid point: on whole blocks — the two tables, the tile's feature and id blocks, the core's table at
    `d` — it runs to the continuation holding the inputs as they were and the table at `seg0 i tmin tmax x b d`. -/
theorem sound_kernel0 (c : Dev nD) (E : Set ℕ) (i : grid0.Coords)
    (arg2 : Memref sig .tc .smem S50 .i32) (harg2 : arg2.IsWhole) (arg3 : Memref sig .tc .smem S50 .i32) (harg3 : arg3.IsWhole)
    (arg4 : Memref sig .tc .vmem S10000x128 .f32) (harg4 : arg4.IsWhole) (arg5 : Memref sig .tc .vmem S10000x1 .i32) (harg5 : arg5.IsWhole)
    (arg6 : Memref sig .tc .vmem S1x1024x256 .f32) (harg6 : arg6.IsWhole)
    (tmin tmax : Vec F S50 .i32) (x : Vec F S10000x128 .f32) (b : Vec F S10000x1 .i32) (d : Vec F S1x1024x256 .f32) (K : PUnit → sProp 𝕄) :
    iprop(owns (c : Thread nD τ) arg2 fullShare tmin ∗ owns (c : Thread nD τ) arg3 fullShare tmax
        ∗ owns (c : Thread nD τ) arg4 fullShare x ∗ owns (c : Thread nD τ) arg5 fullShare b ∗ owns (c : Thread nD τ) arg6 fullShare d
        ∗ (iprop(owns (c : Thread nD τ) arg2 fullShare tmin ∗ owns (c : Thread nD τ) arg3 fullShare tmax
            ∗ owns (c : Thread nD τ) arg4 fullShare x ∗ owns (c : Thread nD τ) arg5 fullShare b
            ∗ owns (c : Thread nD τ) arg6 fullShare (seg0 i tmin tmax x b d)) -∗ K ⟨⟩))
      ⊢ wp frame (wpE (defs₀ (F := F)) Variants.none c none) E (cc0__seg_sum_kernel i arg2 harg2 arg3 harg3 arg4 harg4 arg5 harg5 arg6 harg6) K := by
  simp only [cc0__seg_sum_kernel_eq_skeleton]; unfold cc0__seg_sum_kernel_skel
  rw [wp_bind]
  iintro ⟨H2, H3, H4, H5, H6, Hk⟩
  iapply (part1_sound c E i arg2 harg2 arg3 harg3 arg4 harg4 arg5 harg5 arg6 harg6 tmin tmax x b d _)
  isplitl [H2]; · iexact H2
  isplitl [H3]; · iexact H3
  isplitl [H4]; · iexact H4
  isplitl [H5]; · iexact H5
  isplitl [H6]; · iexact H6
  iintro ⟨H2, H3, H4, H5, H6⟩
  iapply (step_384 c E arg6 harg6 (word0 tmin i) (word0 tmax i) x b _ _ _)
  isplitl [H6]; · iexact H6
  iintro H6
  iapply (step_512 c E arg6 harg6 (word0 tmin i) (word0 tmax i) x b _ _ _)
  isplitl [H6]; · iexact H6
  iintro H6
  iapply (step_640 c E arg6 harg6 (word0 tmin i) (word0 tmax i) x b _ _ _)
  isplitl [H6]; · iexact H6
  iintro H6
  iapply (step_768 c E arg6 harg6 (word0 tmin i) (word0 tmax i) x b _ _ _)
  isplitl [H6]; · iexact H6
  iintro H6
  iapply (step_896 c E arg6 harg6 (word0 tmin i) (word0 tmax i) x b _ _ _)
  isplitl [H6]; · iexact H6
  iintro H6
  sl_step
  iapply Hk
  isplitl [H2]; · iexact H2
  isplitl [H3]; · iexact H3
  isplitl [H4]; · iexact H4
  isplitl [H5]; · iexact H5
  iexact H6

end Cert.KernelIdeal.H

end
-- ==== Proof.K1Body.lean ====
/-
  The main kernel's body at one grid point leaves `out1` in its output block.

  The body zeroes its scratch, reads the tile's two table words, and then, for each of the eight groups of 128 rows of
  the mean table, runs a guarded block: if the group's id range meets the tile's, the block loads the group's rows and
  the scratch and overwrites the whole scratch by the group's payload; otherwise it does nothing. Each block is taken
  once, over symbolic incoming scratch contents: after it the scratch reads `if guard then payload else unchanged`, which
  is the matching `acc1_*` of K1Defs. The eight blocks compose to `gath1`; the final store over the whole output block
  leaves `k1_pay11` of the loaded operands, which is `out1`.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import proofs.«411499_j60584808678067_2_alg».proof.Proof.K1Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two-coordinate zero offset, as the constant zero function. -/
private theorem zeros2 : (![0, 0] : Fin 2 → ℕ) = fun _ => 0 := by funext a; fin_cases a <;> rfl

/-- A store over the whole 5000x128 buffer, made last, leaves its payload whatever was there before: its one
    rectangle covers every index. -/
private theorem read_writes_whole {κ : Kind} {sp : Space} (v : View sig κ sp S5000x128 .f32) (f : v.ty.Contents (Elt F))
    (w : Vec F S5000x128 .f32) (L : List (View.Piece (Elt F) S5000x128 .f32)) :
    v.read (Elt F) (v.writes (Elt F) f (⟨Rect.unit (s := S5000x128) ![0, 0] S5000x128.size inb_S5000x128_S5000x128_0_0, w⟩ :: L)) = w := by
  have hcov : ∀ y : S5000x128.Idx, ∃ p ∈ ((⟨Rect.unit (s := S5000x128) ![0, 0] S5000x128.size inb_S5000x128_S5000x128_0_0, w⟩ :: L : List (View.Piece (Elt F) S5000x128 .f32))), y ∈ p.1.set :=
    fun y => ⟨_, List.mem_cons_self, View.mem_set_unit_zero (S := S5000x128) zeros2 inb_S5000x128_S5000x128_0_0 y⟩
  rw [View.read_writes_eq_canon v f _ hcov]
  exact View.canon_cons_unit_zero (S := S5000x128) zeros2 inb_S5000x128_S5000x128_0_0 w L

/-- A load of a whole buffer (the unit rectangle at zero offsets of the buffer's own sizes) reads its contents. -/
private theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit (s := S) off S.size inb).toLoadRect f = v.read (Elt F) f := by
  rw [View.readAt_eq_ld]
  exact View.ld_unit_zero (S := S) h inb _

set_option maxHeartbeats 1000000 in
/-- ONE GUARDED GROUP, followed by the rest `J` of the body. If the guard `C` holds, the group's 128 rows of the mean
    table (from row `o`) and the scratch are loaded and the whole scratch is overwritten by `pay` of them; otherwise
    nothing is touched; either way `J` runs next. So `J` runs from the mean table unchanged and a scratch that reads
    `if C then pay (the group's rows) (the old reading) else the old reading`. The two cases of `C`. -/
private theorem guard_blk {β : Type} (c : Dev nD) (E : Set ℕ) (C : Prop) [dec : Decidable C]
    (arg5 : Memref sig .tc .vmem S1024x128 .bf16) (harg5 : arg5.IsWhole)
    (arg10 : Memref sig .tc .vmem S5000x128 .f32) (harg10 : arg10.IsWhole)
    (o : ℕ) (inb : ∀ a, (![o, 0] : Fin 2 → ℕ) a + S128x128.size a ≤ S1024x128.size a)
    (pay : Vec F S128x128 .bf16 → Vec F S5000x128 .f32 → Vec F S5000x128 .f32)
    (f5 : arg5.view.ty.Contents (Elt F)) (f10 : arg10.view.ty.Contents (Elt F))
    (J : Prog (TpuEff nD τ sig (Elt F) Λ₀ .tc) β) (K : β → sProp 𝕄) :
    iprop((arg5.view.loc (c : Thread nD τ) ↦[arg5.view.set]{fullShare} f5)
      ∗ (arg10.view.loc (c : Thread nD τ) ↦[arg10.view.set]{fullShare} f10)
      ∗ (iprop((arg5.view.loc (c : Thread nD τ) ↦[arg5.view.set]{fullShare} f5)
          ∗ (∃ f', ⌜arg10.view.read (Elt F) f' = if C then pay (View.ld (arg5.view.read (Elt F) f5) (Rect.unit (s := S1024x128) ![o, 0] S128x128.size inb)) (arg10.view.read (Elt F) f10) else arg10.view.read (Elt F) f10⌝
              ∗ (arg10.view.loc (c : Thread nD τ) ↦[arg10.view.set]{fullShare} f')))
          -∗ wp frame (wpE (defs₀ (F := F)) Variants.none c none) E J K))
    ⊢ wp frame (wpE (defs₀ (F := F)) Variants.none c none) E
       (if C then do
          let v66 : Vec F S128x128 .bf16 ← Prog.lift (.load arg5 (Rect.unit (s := S1024x128) ![o, 0] S128x128.size inb).toLoadRect (View.loadsAt_vmem h_S128x128))
          let v76 : Vec F S5000x128 .f32 ← Prog.lift (.load arg10 (Rect.unit (s := S5000x128) ![0, 0] S5000x128.size inb_S5000x128_S5000x128_0_0).toLoadRect (View.loadsAt_vmem h_S5000x128))
          let v79 : Vec F S5000x128 .f32 ← Prog.lift (.load arg10 (Rect.unit (s := S5000x128) ![0, 0] S5000x128.size inb_S5000x128_S5000x128_0_0).toLoadRect (View.loadsAt_vmem h_S5000x128))
          Prog.lift (.store arg10 (Rect.unit (s := S5000x128) ![0, 0] S5000x128.size inb_S5000x128_S5000x128_0_0) (pay v66 v76) Finset.univ (View.stores_vmem_bits_univ h_S5000x128 rfl) (.inl rfl))
          J
        else J) K := by
  by_cases hc : C
  · rw [if_pos hc, if_pos hc]
    iintro ⟨H5, H10, Hk⟩
    sl_exec
    iapply Hk
    isplitl [H5]
    · iexact H5
    iexists _; isplitr
    swap; · iexact H10
    ipureintro
    rw [read_writes_whole, readAt_whole arg10.view f10 zeros2 inb_S5000x128_S5000x128_0_0, View.readAt_eq_ld]
  · rw [if_neg hc, if_neg hc]
    iintro ⟨H5, H10, Hk⟩
    iapply Hk
    isplitl [H5]
    · iexact H5
    iexists _; isplitr
    swap; · iexact H10
    ipureintro; rfl

set_option maxHeartbeats 4000000 in
/-- THE BODY'S TRIPLE. From the ten buffers — the two tables, the features, the ids, the mean table, the two weight
    blocks and the bias at their contents, the output block and the scratch at anything — the body runs to its return
    with the inputs as they were and the output block at `out1`. The scratch is zeroed, each of the eight guarded
    groups turns its reading `g` into the matching `acc1_*` of `g` (the block lemma, its guard the printed condition,
    which is `on1` of the group's bounds and the two loaded words unfolded), so before the final store it reads
    `gath1`; the final store covers the output block, which then reads its payload `k1_pay11` of the loaded operands. -/
theorem sound_kernel1 (c : Dev nD) (E : Set ℕ) (i : grid1.Coords)
      (arg1 : Memref sig .tc .smem S100 .i32) (harg1 : arg1.IsWhole) (arg2 : Memref sig .tc .smem S100 .i32) (harg2 : arg2.IsWhole)
      (arg3 : Memref sig .tc .vmem S5000x128 .f32) (harg3 : arg3.IsWhole) (arg4 : Memref sig .tc .vmem S5000x1 .i32) (harg4 : arg4.IsWhole)
      (arg5 : Memref sig .tc .vmem S1024x128 .bf16) (harg5 : arg5.IsWhole) (arg6 : Memref sig .tc .vmem S128x128 .bf16) (harg6 : arg6.IsWhole)
      (arg7 : Memref sig .tc .vmem S128x128 .bf16) (harg7 : arg7.IsWhole) (arg8 : Memref sig .tc .vmem S1x128 .f32) (harg8 : arg8.IsWhole)
      (arg9 : Memref sig .tc .vmem S5000x128 .f32) (harg9 : arg9.IsWhole) (arg10 : Memref sig .tc .vmem S5000x128 .f32) (harg10 : arg10.IsWhole)
      (tmin tmax : Vec F S100 .i32) (x : Vec F S5000x128 .f32) (b : Vec F S5000x1 .i32) (mn : Vec F S1024x128 .bf16)
      (w1 w2 : Vec F S128x128 .bf16) (bias : Vec F S1x128 .f32) (K : PUnit → sProp 𝕄) :
      iprop(owns (c : Thread nD τ) arg1 fullShare tmin ∗ owns (c : Thread nD τ) arg2 fullShare tmax
          ∗ owns (c : Thread nD τ) arg3 fullShare x ∗ owns (c : Thread nD τ) arg4 fullShare b ∗ owns (c : Thread nD τ) arg5 fullShare mn
          ∗ owns (c : Thread nD τ) arg6 fullShare w1 ∗ owns (c : Thread nD τ) arg7 fullShare w2 ∗ owns (c : Thread nD τ) arg8 fullShare bias
          ∗ (∃ d9, owns (c : Thread nD τ) arg9 fullShare d9) ∗ (∃ d10, owns (c : Thread nD τ) arg10 fullShare d10)
          ∗ (iprop(owns (c : Thread nD τ) arg1 fullShare tmin ∗ owns (c : Thread nD τ) arg2 fullShare tmax
              ∗ owns (c : Thread nD τ) arg3 fullShare x ∗ owns (c : Thread nD τ) arg4 fullShare b ∗ owns (c : Thread nD τ) arg5 fullShare mn
              ∗ owns (c : Thread nD τ) arg6 fullShare w1 ∗ owns (c : Thread nD τ) arg7 fullShare w2 ∗ owns (c : Thread nD τ) arg8 fullShare bias
              ∗ owns (c : Thread nD τ) arg9 fullShare (out1 i tmin tmax x b mn w1 w2 bias)
              ∗ (∃ d10, owns (c : Thread nD τ) arg10 fullShare d10)) -∗ K ⟨⟩))
        ⊢ wp frame (wpE (defs₀ (F := F)) Variants.none c none) E
            (cc1__main_kernel i arg1 harg1 arg2 harg2 arg3 harg3 arg4 harg4 arg5 harg5 arg6 harg6 arg7 harg7 arg8 harg8 arg9 harg9 arg10 harg10) K := by
  simp only [cc1__main_kernel_eq_skeleton]; unfold cc1__main_kernel_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, Hk⟩
  set_option sl_exec.stopBefore "v14" in sl_exec
  irw [wp_bind]
  iapply (guard_blk c E _ arg5 harg5 arg10 harg10 _ _ _ f5 _ _ _)
  isplitl [H5]
  · iexact H5
  isplitl [H10]
  · iexact H10
  iintro ⟨H5, %g1, %hg1, H10⟩
  iapply (guard_blk c E _ arg5 harg5 arg10 harg10 _ _ _ f5 g1 _ _)
  isplitl [H5]
  · iexact H5
  isplitl [H10]
  · iexact H10
  iintro ⟨H5, %g2, %hg2, H10⟩
  iapply (guard_blk c E _ arg5 harg5 arg10 harg10 _ _ _ f5 g2 _ _)
  isplitl [H5]
  · iexact H5
  isplitl [H10]
  · iexact H10
  iintro ⟨H5, %g3, %hg3, H10⟩
  iapply (guard_blk c E _ arg5 harg5 arg10 harg10 _ _ _ f5 g3 _ _)
  isplitl [H5]
  · iexact H5
  isplitl [H10]
  · iexact H10
  iintro ⟨H5, %g4, %hg4, H10⟩

  irw [← wp_bind]
  set_option sl_exec.stopBefore "v34" in sl_exec
  irw [wp_bind]
  iapply (guard_blk c E _ arg5 harg5 arg10 harg10 _ _ _ f5 g4 _ _)
  isplitl [H5]
  · iexact H5
  isplitl [H10]
  · iexact H10
  iintro ⟨H5, %g5, %hg5, H10⟩
  iapply (guard_blk c E _ arg5 harg5 arg10 harg10 _ _ _ f5 g5 _ _)
  isplitl [H5]
  · iexact H5
  isplitl [H10]
  · iexact H10
  iintro ⟨H5, %g6, %hg6, H10⟩
  iapply (guard_blk c E _ arg5 harg5 arg10 harg10 _ _ _ f5 g6 _ _)
  isplitl [H5]
  · iexact H5
  isplitl [H10]
  · iexact H10
  iintro ⟨H5, %g7, %hg7, H10⟩
  iapply (guard_blk c E _ arg5 harg5 arg10 harg10 _ _ _ f5 g7 _ _)
  isplitl [H5]
  · iexact H5
  isplitl [H10]
  · iexact H10
  iintro ⟨H5, %g8, %hg8, H10⟩

  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  swap
  · iexists _, g8; isplitr; · ipureintro; rfl
    iexact H10
  iexists _; isplitr
  swap; · iexact H9
  ipureintro
  subst hf1; subst hf2; subst hf3; subst hf4; subst hf5; subst hf6; subst hf7; subst hf8
  rw [read_writes_whole, readAt_whole arg4.view f4 zeros2 inb_S5000x1_S5000x1_0_0] at hg1
  rw [readAt_whole arg4.view f4 zeros2 inb_S5000x1_S5000x1_0_0] at hg2 hg3 hg4 hg5 hg6 hg7 hg8
  have e1 : arg10.view.read (Elt F) g1 = acc1_0 (word1 (arg1.view.read (Elt F) f1) i) (word1 (arg2.view.read (Elt F) f2) i) (arg4.view.read (Elt F) f4) (arg5.view.read (Elt F) f5) (k1_pay1 (F := F)) := hg1
  have e2 : arg10.view.read (Elt F) g2 = acc1_128 (word1 (arg1.view.read (Elt F) f1) i) (word1 (arg2.view.read (Elt F) f2) i) (arg4.view.read (Elt F) f4) (arg5.view.read (Elt F) f5) (arg10.view.read (Elt F) g1) := hg2
  have e3 : arg10.view.read (Elt F) g3 = acc1_256 (word1 (arg1.view.read (Elt F) f1) i) (word1 (arg2.view.read (Elt F) f2) i) (arg4.view.read (Elt F) f4) (arg5.view.read (Elt F) f5) (arg10.view.read (Elt F) g2) := hg3
  have e4 : arg10.view.read (Elt F) g4 = acc1_384 (word1 (arg1.view.read (Elt F) f1) i) (word1 (arg2.view.read (Elt F) f2) i) (arg4.view.read (Elt F) f4) (arg5.view.read (Elt F) f5) (arg10.view.read (Elt F) g3) := hg4
  have e5 : arg10.view.read (Elt F) g5 = acc1_512 (word1 (arg1.view.read (Elt F) f1) i) (word1 (arg2.view.read (Elt F) f2) i) (arg4.view.read (Elt F) f4) (arg5.view.read (Elt F) f5) (arg10.view.read (Elt F) g4) := hg5
  have e6 : arg10.view.read (Elt F) g6 = acc1_640 (word1 (arg1.view.read (Elt F) f1) i) (word1 (arg2.view.read (Elt F) f2) i) (arg4.view.read (Elt F) f4) (arg5.view.read (Elt F) f5) (arg10.view.read (Elt F) g5) := hg6
  have e7 : arg10.view.read (Elt F) g7 = acc1_768 (word1 (arg1.view.read (Elt F) f1) i) (word1 (arg2.view.read (Elt F) f2) i) (arg4.view.read (Elt F) f4) (arg5.view.read (Elt F) f5) (arg10.view.read (Elt F) g6) := hg7
  have e8 : arg10.view.read (Elt F) g8 = acc1_896 (word1 (arg1.view.read (Elt F) f1) i) (word1 (arg2.view.read (Elt F) f2) i) (arg4.view.read (Elt F) f4) (arg5.view.read (Elt F) f5) (arg10.view.read (Elt F) g7) := hg8

  rw [read_writes_whole, readAt_whole arg3.view f3 zeros2 inb_S5000x128_S5000x128_0_0,
    readAt_whole arg10.view g8 zeros2 inb_S5000x128_S5000x128_0_0,
    readAt_whole arg6.view f6 zeros2 inb_S128x128_S128x128_0_0,
    readAt_whole arg7.view f7 zeros2 inb_S128x128_S128x128_0_0,
    readAt_whole arg8.view f8 zeros2 inb_S1x128_S1x128_0_0]
  rw [e8, e7, e6, e5, e4, e3, e2, e1]
  rfl

end Cert.KernelIdeal.H

end
-- ==== Proof.KHost0.lean ====
/-
  What the first host stretch leaves: the id column the regions read, and the four tables of tile id ranges.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KValI
import Idealize.ShloMosaic.Lib.StableHlo.Run
import Idealize.ShloMosaic.PureOps.Reduce
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The signed order through a minimum and a maximum of two words -/

/-- A word is below (signed) the minimum of two exactly when it is below both. -/
private theorem toInt_le_minsi_iff (a y z : BitVec 32) :
    a.toInt ≤ (IntOp.minsi y z).toInt ↔ a.toInt ≤ y.toInt ∧ a.toInt ≤ z.toInt := by
  simp only [IntOp.minsi, BitVec.slt, decide_eq_true_eq]
  split_ifs <;> omega

/-- The maximum of two words is below (signed) a word exactly when both are. -/
private theorem maxsi_toInt_le_iff (a y z : BitVec 32) :
    (IntOp.maxsi y z).toInt ≤ a.toInt ↔ y.toInt ≤ a.toInt ∧ z.toInt ≤ a.toInt := by
  simp only [IntOp.maxsi, BitVec.slt, decide_eq_true_eq]
  split_ifs <;> omega

/-! ## A minimum / maximum reduce bounds every member it folds -/

section Bound
variable {s t u : Shape} {axes : List (Fin s.rank)}

/-- A signed-minimum reduce at `j` is below every operand entry whose index drops to `j`: the fold of minima is below
    itself, hence (a word is below a minimum exactly when below both) below each member. -/
private theorem reduce_minsi_le (x : s.Idx → BitVec 32) (init : u.Idx → BitVec 32) (h : s.ReducesTo axes t)
    (hu : 0 < u.numel) (j : t.Idx) (i : s.Idx) (hi : h.drop i = j) :
    (Host.reduce IntOp.minsi x init h hu j).toInt ≤ (x i).toInt := by
  rw [Host.reduce_eq_fold]
  exact ((Finset.fold_op_rel_iff_and (r := fun a b : BitVec 32 => a.toInt ≤ b.toInt)
    (fun {a y z} => toInt_le_minsi_iff a y z)).1 le_rfl).2 i (Finset.mem_filter.2 ⟨Finset.mem_univ _, hi⟩)

/-- A signed-maximum reduce at `j` is above every operand entry whose index drops to `j`. -/
private theorem le_reduce_maxsi (x : s.Idx → BitVec 32) (init : u.Idx → BitVec 32) (h : s.ReducesTo axes t)
    (hu : 0 < u.numel) (j : t.Idx) (i : s.Idx) (hi : h.drop i = j) :
    (x i).toInt ≤ (Host.reduce IntOp.maxsi x init h hu j).toInt := by
  rw [Host.reduce_eq_fold]
  exact ((Finset.fold_op_rel_iff_and (r := fun a b : BitVec 32 => b.toInt ≤ a.toInt)
    (fun {a y z} => maxsi_toInt_le_iff a y z)).1 le_rfl).2 i (Finset.mem_filter.2 ⟨Finset.mem_univ _, hi⟩)

end Bound

/-! ## What the stretch writes, as terms over the id array -/

/-- The id column: the id array reshaped to one column. -/
private theorem v0_eq (c : Dev nD) :
    (U1 m c main_v0 : S500000x1.Idx → BitVec 32) = shapeCast S500000x1 (B m c) shapeCasts_S500000_S500000x1 := by
  show StableHlo.after hostOps0 (W0 m c) (Proc.devRef .tc main_v0) = _
  after_results
  rfl

/-- The 50 row minima of the id array as 50 rows of 10000. -/
private theorem v2_eq (c : Dev nD) :
    (U1 m c main_v2 : S50.Idx → BitVec 32)
      = Host.reduce IntOp.minsi (shapeCast S50x10000 (B m c) shapeCasts_S500000_S50x10000)
          (constantI S_ 32 2147483647#32) reducesTo_S50x10000_S50_d1 h_S_ := by
  show StableHlo.after hostOps0 (W0 m c) (Proc.devRef .tc main_v2) = _
  after_results
  rfl

/-- The 50 row maxima. -/
private theorem v3_eq (c : Dev nD) :
    (U1 m c main_v3 : S50.Idx → BitVec 32)
      = Host.reduce IntOp.maxsi (shapeCast S50x10000 (B m c) shapeCasts_S500000_S50x10000)
          (constantI S_ 32 2147483648#32) reducesTo_S50x10000_S50_d1 h_S_ := by
  show StableHlo.after hostOps0 (W0 m c) (Proc.devRef .tc main_v3) = _
  after_results
  rfl

/-- The 100 row minima of the id array as 100 rows of 5000. -/
private theorem v5_eq (c : Dev nD) :
    (U1 m c main_v5 : S100.Idx → BitVec 32)
      = Host.reduce IntOp.minsi (shapeCast S100x5000 (B m c) shapeCasts_S500000_S100x5000)
          (constantI S_ 32 2147483647#32) reducesTo_S100x5000_S100_d1 h_S_ := by
  show StableHlo.after hostOps0 (W0 m c) (Proc.devRef .tc main_v5) = _
  after_results
  rfl

/-- The 100 row maxima. -/
private theorem v6_eq (c : Dev nD) :
    (U1 m c main_v6 : S100.Idx → BitVec 32)
      = Host.reduce IntOp.maxsi (shapeCast S100x5000 (B m c) shapeCasts_S500000_S100x5000)
          (constantI S_ 32 2147483648#32) reducesTo_S100x5000_S100_d1 h_S_ := by
  show StableHlo.after hostOps0 (W0 m c) (Proc.devRef .tc main_v6) = _
  after_results
  rfl

/-! ## The reshapes read at an index: entry (t, r) of R rows of C is the id at C t + r -/

private theorem col_apply (x : S500000.Idx → BitVec 32) (n : Fin 500000) :
    shapeCast S500000x1 x shapeCasts_S500000_S500000x1 (ix2 n (0 : Fin 1)) = x (ValueIdx.ix1 n) :=
  shapeCast_apply x _ _ _ (by rw [Shape.rowMajor_val_one, Shape.rowMajor_val_two]; show n.val = n.val * 1 + 0; omega)

private theorem rows50_apply (x : S500000.Idx → BitVec 32) (t : Fin 50) (r : Fin 10000) :
    shapeCast S50x10000 x shapeCasts_S500000_S50x10000 (ix2 t r)
      = x (ValueIdx.ix1 (⟨t.val * 10000 + r.val, by omega⟩ : Fin 500000)) :=
  shapeCast_apply x _ _ _ (by rw [Shape.rowMajor_val_one, Shape.rowMajor_val_two]; show t.val * 10000 + r.val = t.val * 10000 + r.val; rfl)

private theorem rows100_apply (x : S500000.Idx → BitVec 32) (t : Fin 100) (r : Fin 5000) :
    shapeCast S100x5000 x shapeCasts_S500000_S100x5000 (ix2 t r)
      = x (ValueIdx.ix1 (⟨t.val * 5000 + r.val, by omega⟩ : Fin 500000)) :=
  shapeCast_apply x _ _ _ (by rw [Shape.rowMajor_val_one, Shape.rowMajor_val_two]; show t.val * 5000 + r.val = t.val * 5000 + r.val; rfl)

/-- Entry (t, r) of a matrix drops, under a reduce over axis 1, to row t. -/
private theorem drop50 (t : Fin 50) (r : Fin 10000) :
    reducesTo_S50x10000_S50_d1.drop (ix2 t r) = ValueIdx.ix1 t := by
  funext b
  match b with
  | ⟨0, _⟩ => exact Fin.ext (Shape.ReducesTo.drop_apply_val_of_eq reducesTo_S50x10000_S50_d1 (ix2 t r) 0 0)

private theorem drop100 (t : Fin 100) (r : Fin 5000) :
    reducesTo_S100x5000_S100_d1.drop (ix2 t r) = ValueIdx.ix1 t := by
  funext b
  match b with
  | ⟨0, _⟩ => exact Fin.ext (Shape.ReducesTo.drop_apply_val_of_eq reducesTo_S100x5000_S100_d1 (ix2 t r) 0 0)

/-! ## The three statements -/

/-- The reshaped id column is the id array. -/
theorem idCol : IdCol m := by
  intro c n
  rw [v0_eq]
  exact col_apply (B m c) n

/-- Each of the 50 tiles' table words bounds the tile's ids. -/
theorem tables0 : Tables0 m := by
  intro c t r
  rw [v2_eq, v3_eq, ← rows50_apply (B m c) t r]
  exact ⟨reduce_minsi_le _ _ _ _ _ _ (drop50 t r), le_reduce_maxsi _ _ _ _ _ _ (drop50 t r)⟩

/-- Each of the 100 tiles' table words bounds the tile's ids. -/
theorem tables1 : Tables1 m := by
  intro c t r
  rw [v5_eq, v6_eq, ← rows100_apply (B m c) t r]
  exact ⟨reduce_minsi_le _ _ _ _ _ _ (drop100 t r), le_reduce_maxsi _ _ _ _ _ _ (drop100 t r)⟩

end Cert.KernelIdeal.H

end
-- ==== Proof.K0Math.lean ====
/-
  The segment-sum kernel's table at one grid point, entry by entry.

  After the body at a point, row g of the core's table holds, in columns 0..127, what it held before (zero if the point
  is the first of its core) plus the sum over the tile's rows r whose id is g of the feature x r k, and in columns
  128..255 the same with the number of such rows. The eight row groups each add a product onehotᵀ · x (resp. onehotᵀ · 1)
  under a guard on the tile's id range; when every id of the tile lies in that range a group whose guard fails would add
  zero, so the guards drop out.
-/
import proofs.«411499_j60584808678067_2_alg».proof.Proof.K0Defs
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Affine

set_option maxRecDepth 16384

noncomputable section

namespace Cert.KernelIdeal.H

open Cert.KernelIdeal Cert.KernelIdeal.Gen Idealize.ShloMosaic Idealize.ShloMosaic.ValueIdx

/-! ## The guards as propositions -/

/-- A guard word is 1 exactly when both of its comparisons are. -/
private theorem guard_bits (c d : BitVec 1) :
    Scalar.cmpi .ne (Scalar.extui (Scalar.andi c d)) 0#32 = 1#1 ↔ c = 1#1 ∧ d = 1#1 := by
  revert c d; decide

/-- A group's guard: the group's first row is at most the tile's largest id and the tile's smallest id is at most the
    group's last row, both read signed. -/
private theorem guard_iff (lo hi wmin wmax : BitVec 32) :
    Scalar.cmpi .ne (Scalar.extui (Scalar.andi (Scalar.cmpi .sge wmax lo) (Scalar.cmpi .sle wmin hi))) 0#32 = 1#1
      ↔ lo.toInt ≤ wmax.toInt ∧ wmin.toInt ≤ hi.toInt := by
  rw [guard_bits]
  exact and_congr IntOp.cmpi_sge IntOp.cmpi_sle

private theorem cond2_iff (wmin wmax : BitVec 32) : k0_cond2 wmin wmax = 1#1 ↔ (0 : ℤ) ≤ wmax.toInt ∧ wmin.toInt ≤ 127 := by
  unfold k0_cond2; exact guard_iff _ _ _ _
private theorem cond3_iff (wmin wmax : BitVec 32) : k0_cond3 wmin wmax = 1#1 ↔ (128 : ℤ) ≤ wmax.toInt ∧ wmin.toInt ≤ 255 := by
  unfold k0_cond3; exact guard_iff _ _ _ _
private theorem cond4_iff (wmin wmax : BitVec 32) : k0_cond4 wmin wmax = 1#1 ↔ (256 : ℤ) ≤ wmax.toInt ∧ wmin.toInt ≤ 383 := by
  unfold k0_cond4; exact guard_iff _ _ _ _
private theorem cond5_iff (wmin wmax : BitVec 32) : k0_cond5 wmin wmax = 1#1 ↔ (384 : ℤ) ≤ wmax.toInt ∧ wmin.toInt ≤ 511 := by
  unfold k0_cond5; exact guard_iff _ _ _ _
private theorem cond6_iff (wmin wmax : BitVec 32) : k0_cond6 wmin wmax = 1#1 ↔ (512 : ℤ) ≤ wmax.toInt ∧ wmin.toInt ≤ 639 := by
  unfold k0_cond6; exact guard_iff _ _ _ _
private theorem cond7_iff (wmin wmax : BitVec 32) : k0_cond7 wmin wmax = 1#1 ↔ (640 : ℤ) ≤ wmax.toInt ∧ wmin.toInt ≤ 767 := by
  unfold k0_cond7; exact guard_iff _ _ _ _
private theorem cond8_iff (wmin wmax : BitVec 32) : k0_cond8 wmin wmax = 1#1 ↔ (768 : ℤ) ≤ wmax.toInt ∧ wmin.toInt ≤ 895 := by
  unfold k0_cond8; exact guard_iff _ _ _ _
private theorem cond9_iff (wmin wmax : BitVec 32) : k0_cond9 wmin wmax = 1#1 ↔ (896 : ℤ) ≤ wmax.toInt ∧ wmin.toInt ≤ 1023 := by
  unfold k0_cond9; exact guard_iff _ _ _ _

/-- The clearing test: the point's second coordinate is 0. -/
private theorem cond1_iff (i : grid0.Coords) : k0_cond1 i = 1#1 ↔ (i 1).val = 0 := by
  have h : (i 1).val < 25 := (i 1).isLt
  unfold k0_cond1
  have hb : ∀ c : BitVec 1, Scalar.cmpi .ne (Scalar.extui c) 0#32 = 1#1 ↔ c = 1#1 := by decide
  rw [hb]
  show IntOp.cmpi .eq _ _ = 1#1 ↔ _
  rw [IntOp.cmpi_eq]
  constructor
  · intro e
    have := congrArg BitVec.toNat e
    simp only [BitVec.toNat_ofNat] at this
    omega
  · intro e; rw [e]

/-! ## The one-hot block -/

/-- A small natural as a 32-bit word, read signed, is itself. -/
private theorem toInt_ofNat_small (n : ℕ) (h : n < 2147483648) : (BitVec.ofNat 32 n).toInt = (n : ℤ) := by
  rw [BitVec.toInt_eq_toNat_cond, BitVec.toNat_ofNat]
  omega

/-- The bf16 pattern of 1 is the extended real 1. -/
private theorem one_bf16 : Ideal.ofBits .bf16 0x3F80#16 = 1 := IdealRules.sign_bit.ideal_onePat .bf16

/-- A comparison bit, widened and converted, is 1 or 0. -/
private theorem onehot_word (a c : BitVec 32) :
    (FloatOps.sitofp (F := Ideal) .f32 ((IntOp.cmpi .eq a c).setWidth 32) : EReal) = if a = c then 1 else 0 := by
  by_cases h : a = c
  · rw [if_pos h, IntOp.cmpi_eq.mpr h]
    have e : ((1#1 : BitVec 1).setWidth 32).toInt = 1 := by decide
    show (((((1#1 : BitVec 1).setWidth 32).toInt : ℤ) : ℝ) : EReal) = 1
    rw [e]; simp
  · rw [if_neg h, eq_zero_of_ne_one (mt IntOp.cmpi_eq.mp h)]
    have e : ((0#1 : BitVec 1).setWidth 32).toInt = 0 := by decide
    show (((((0#1 : BitVec 1).setWidth 32).toInt : ℤ) : ℝ) : EReal) = 0
    rw [e]; simp

/-- The one-hot block of the group of rows lo .. lo + 127: entry (r, j) is 1 when row r's id is lo + j, else 0. -/
private def oh (lo : ℕ) (v8 : IVec S10000x1 32) : FVec Ideal S10000x128 .bf16 :=
  truncf .bf16 (sitofp .f32 (extui 32 (cmpi .eq (broadcastTo S10000x128 v8 broadcasts_S10000x1_S10000x128)
    (addi (iota .tc S10000x128 32 [1] iota_S10000x128_d1_w32) (broadcast S10000x128 (BitVec.ofNat 32 lo)))) natLt_1_32)) bitsLt_bf16_f32

private theorem oh_apply (lo : ℕ) (hlo : lo + 128 ≤ 1024) (v8 : IVec S10000x1 32) (r : Fin 10000) (j : Fin 128) :
    oh lo v8 (ix2 r j) = if (v8 (ix2 r 0)).toInt = ((lo + j.val : ℕ) : ℤ) then 1 else 0 := by
  have hb : broadcastTo S10000x128 v8 broadcasts_S10000x1_S10000x128 (ix2 r j) = v8 (ix2 r 0) :=
    broadcastTo_apply v8 broadcasts_S10000x1_S10000x128 (ix2 r j) (ix2 r 0) (fun a => match a with
      | ⟨0, _⟩ => by show r.val = if (10000 : Nat) = 1 then 0 else r.val; rw [if_neg (by decide)]
      | ⟨1, _⟩ => by show 0 = if (1 : Nat) = 1 then 0 else j.val; rw [if_pos rfl])
  have hi : iota .tc S10000x128 32 [1] iota_S10000x128_d1_w32 (ix2 r j) = BitVec.ofNat 32 j.val :=
    iota_single_apply .tc S10000x128 32 1 iota_S10000x128_d1_w32 (ix2 r j)
  have hj := j.isLt
  show (FloatOps.sitofp (F := Ideal) .f32 ((IntOp.cmpi .eq (broadcastTo S10000x128 v8 broadcasts_S10000x1_S10000x128 (ix2 r j))
      (IntOp.addi (iota .tc S10000x128 32 [1] iota_S10000x128_d1_w32 (ix2 r j)) (BitVec.ofNat 32 lo))).setWidth 32) : EReal) = _
  rw [hb, hi, onehot_word]
  have e : IntOp.addi (BitVec.ofNat 32 j.val) (BitVec.ofNat 32 lo) = BitVec.ofNat 32 (lo + j.val) := by
    show BitVec.ofNat 32 j.val + BitVec.ofNat 32 lo = _
    rw [← BitVec.ofNat_add, Nat.add_comm]
  rw [e]
  by_cases h : v8 (ix2 r 0) = BitVec.ofNat 32 (lo + j.val)
  · rw [if_pos h, if_pos (by rw [h]; exact toInt_ofNat_small _ (by omega))]
  · rw [if_neg h, if_neg (fun h' => h (BitVec.eq_of_toInt_eq (h'.trans (toInt_ofNat_small _ (by omega)).symm)))]

private theorem pay1_eq (v8 : IVec S10000x1 32) : k0_pay1 (F := Ideal) v8 = oh 384 v8 := rfl
private theorem pay4_eq (v8 : IVec S10000x1 32) : k0_pay4 (F := Ideal) v8 = oh 512 v8 := rfl
private theorem pay7_eq (v8 : IVec S10000x1 32) : k0_pay7 (F := Ideal) v8 = oh 640 v8 := rfl
private theorem pay10_eq (v8 : IVec S10000x1 32) : k0_pay10 (F := Ideal) v8 = oh 768 v8 := rfl
private theorem pay13_eq (v8 : IVec S10000x1 32) : k0_pay13 (F := Ideal) v8 = oh 896 v8 := rfl
private theorem pay20_eq (b : Vec Ideal S10000x1 .i32) : k0_pay20 (F := Ideal) b = oh 0 (k0_pay18 (F := Ideal) b) := rfl
private theorem pay23_eq (b : Vec Ideal S10000x1 .i32) : k0_pay23 (F := Ideal) b = oh 128 (k0_pay18 (F := Ideal) b) := rfl
private theorem pay26_eq (b : Vec Ideal S10000x1 .i32) : k0_pay26 (F := Ideal) b = oh 256 (k0_pay18 (F := Ideal) b) := rfl

/-- The id block and the feature block pass through their casts unchanged. -/
private theorem pay18_eq (b : Vec Ideal S10000x1 .i32) : k0_pay18 (F := Ideal) b = b := shapeCast_self b shapeCasts_S10000x1_S10000x1
private theorem pay17_eq (x : Vec Ideal S10000x128 .f32) : k0_pay17 (F := Ideal) x = x := rfl
private theorem pay19_apply (y : S10000x1.Idx) : k0_pay19 (F := Ideal) y = 1 := one_bf16

/-! ## The two products read at an index -/

private theorem lhs_d1_0 (i : S128x128.Idx) (q : dot_S10000x128_S10000x128_S128x128_0_0_1_1_n_n.contr.Idx) :
    (dot_S10000x128_S10000x128_S128x128_0_0_1_1_n_n.lhsIdx i q 0).val = (q ⟨0, by decide⟩).val :=
  dot_S10000x128_S10000x128_S128x128_0_0_1_1_n_n.lhsIdx_val_of_single rfl i q
private theorem lhs_d1_1 (i : S128x128.Idx) (q : dot_S10000x128_S10000x128_S128x128_0_0_1_1_n_n.contr.Idx) :
    (dot_S10000x128_S10000x128_S128x128_0_0_1_1_n_n.lhsIdx i q 1).val = (i 0).val := by
  unfold DotDims.lhsIdx
  rw [dif_neg (show ¬(1 : Fin S10000x128.rank) ∈ dot_S10000x128_S10000x128_S128x128_0_0_1_1_n_n.lhsBatch by decide), dif_pos (show (1 : Fin S10000x128.rank) ∈ dot_S10000x128_S10000x128_S128x128_0_0_1_1_n_n.lhsNonContracting by decide)]
  rfl
private theorem rhs_d1_0 (i : S128x128.Idx) (q : dot_S10000x128_S10000x128_S128x128_0_0_1_1_n_n.contr.Idx) :
    (dot_S10000x128_S10000x128_S128x128_0_0_1_1_n_n.rhsIdx i q 0).val = (q ⟨0, by decide⟩).val :=
  dot_S10000x128_S10000x128_S128x128_0_0_1_1_n_n.rhsIdx_val_of_single rfl i q
private theorem rhs_d1_1 (i : S128x128.Idx) (q : dot_S10000x128_S10000x128_S128x128_0_0_1_1_n_n.contr.Idx) :
    (dot_S10000x128_S10000x128_S128x128_0_0_1_1_n_n.rhsIdx i q 1).val = (i 1).val := by
  unfold DotDims.rhsIdx
  rw [dif_neg (show ¬(1 : Fin S10000x128.rank) ∈ dot_S10000x128_S10000x128_S128x128_0_0_1_1_n_n.rhsBatch by decide), dif_pos (show (1 : Fin S10000x128.rank) ∈ dot_S10000x128_S10000x128_S128x128_0_0_1_1_n_n.rhsNonContracting by decide)]
  rfl

/-- The product Lᵀ · R into zeros, entry (j, k): the sum over the 10000 rows r of L r j · R r k. -/
private theorem mm1_apply (L R : FVec Ideal S10000x128 .bf16) (j k : Fin 128) :
    matmul (F := Ideal) dot_S10000x128_S10000x128_S128x128_0_0_1_1_n_n none L R (constant S128x128 .f32 0x00000000#32) (ix2 j k)
      = ∑ r : Fin 10000, L (ix2 r j) * R (ix2 r k) := by
  simp only [matmul]
  rw [Ideal.matmul_constant_zero_apply, ← Equiv.sum_comp (contrEquiv1 dot_S10000x128_S10000x128_S128x128_0_0_1_1_n_n 10000 rfl rfl).symm]
  refine Finset.sum_congr rfl fun r _ => ?_
  have hk := contrEquiv1_symm_val dot_S10000x128_S10000x128_S128x128_0_0_1_1_n_n 10000 rfl rfl r
  have el : dot_S10000x128_S10000x128_S128x128_0_0_1_1_n_n.lhsIdx (ix2 j k) ((contrEquiv1 dot_S10000x128_S10000x128_S128x128_0_0_1_1_n_n 10000 rfl rfl).symm r) = ix2 r j := funext fun a => Fin.ext (by
    match a with
    | ⟨0, _⟩ => exact (lhs_d1_0 _ _).trans hk
    | ⟨1, _⟩ => exact lhs_d1_1 _ _)
  have er : dot_S10000x128_S10000x128_S128x128_0_0_1_1_n_n.rhsIdx (ix2 j k) ((contrEquiv1 dot_S10000x128_S10000x128_S128x128_0_0_1_1_n_n 10000 rfl rfl).symm r) = ix2 r k := funext fun a => Fin.ext (by
    match a with
    | ⟨0, _⟩ => exact (rhs_d1_0 _ _).trans hk
    | ⟨1, _⟩ => exact rhs_d1_1 _ _)
  rw [el, er]

private theorem lhs_d2_0 (i : S128x1.Idx) (q : dot_S10000x128_S10000x1_S128x1_0_0_1_1_n_n.contr.Idx) :
    (dot_S10000x128_S10000x1_S128x1_0_0_1_1_n_n.lhsIdx i q 0).val = (q ⟨0, by decide⟩).val :=
  dot_S10000x128_S10000x1_S128x1_0_0_1_1_n_n.lhsIdx_val_of_single rfl i q
private theorem lhs_d2_1 (i : S128x1.Idx) (q : dot_S10000x128_S10000x1_S128x1_0_0_1_1_n_n.contr.Idx) :
    (dot_S10000x128_S10000x1_S128x1_0_0_1_1_n_n.lhsIdx i q 1).val = (i 0).val := by
  unfold DotDims.lhsIdx
  rw [dif_neg (show ¬(1 : Fin S10000x128.rank) ∈ dot_S10000x128_S10000x1_S128x1_0_0_1_1_n_n.lhsBatch by decide), dif_pos (show (1 : Fin S10000x128.rank) ∈ dot_S10000x128_S10000x1_S128x1_0_0_1_1_n_n.lhsNonContracting by decide)]
  rfl
private theorem rhs_d2_0 (i : S128x1.Idx) (q : dot_S10000x128_S10000x1_S128x1_0_0_1_1_n_n.contr.Idx) :
    (dot_S10000x128_S10000x1_S128x1_0_0_1_1_n_n.rhsIdx i q 0).val = (q ⟨0, by decide⟩).val :=
  dot_S10000x128_S10000x1_S128x1_0_0_1_1_n_n.rhsIdx_val_of_single rfl i q
private theorem rhs_d2_1 (i : S128x1.Idx) (q : dot_S10000x128_S10000x1_S128x1_0_0_1_1_n_n.contr.Idx) :
    (dot_S10000x128_S10000x1_S128x1_0_0_1_1_n_n.rhsIdx i q 1).val = (i 1).val := by
  unfold DotDims.rhsIdx
  rw [dif_neg (show ¬(1 : Fin S10000x1.rank) ∈ dot_S10000x128_S10000x1_S128x1_0_0_1_1_n_n.rhsBatch by decide), dif_pos (show (1 : Fin S10000x1.rank) ∈ dot_S10000x128_S10000x1_S128x1_0_0_1_1_n_n.rhsNonContracting by decide)]
  rfl

/-- The product Lᵀ · R with R one column, into zeros, entry (j, 0): the sum over the rows r of L r j · R r 0. -/
private theorem mm2_apply (L : FVec Ideal S10000x128 .bf16) (R : FVec Ideal S10000x1 .bf16) (j : Fin 128) :
    matmul (F := Ideal) dot_S10000x128_S10000x1_S128x1_0_0_1_1_n_n none L R (constant S128x1 .f32 0x00000000#32) (ix2 j (0 : Fin 1))
      = ∑ r : Fin 10000, L (ix2 r j) * R (ix2 r (0 : Fin 1)) := by
  simp only [matmul]
  rw [Ideal.matmul_constant_zero_apply, ← Equiv.sum_comp (contrEquiv1 dot_S10000x128_S10000x1_S128x1_0_0_1_1_n_n 10000 rfl rfl).symm]
  refine Finset.sum_congr rfl fun r _ => ?_
  have hk := contrEquiv1_symm_val dot_S10000x128_S10000x1_S128x1_0_0_1_1_n_n 10000 rfl rfl r
  have el : dot_S10000x128_S10000x1_S128x1_0_0_1_1_n_n.lhsIdx (ix2 j (0 : Fin 1)) ((contrEquiv1 dot_S10000x128_S10000x1_S128x1_0_0_1_1_n_n 10000 rfl rfl).symm r) = ix2 r j := funext fun a => Fin.ext (by
    match a with
    | ⟨0, _⟩ => exact (lhs_d2_0 _ _).trans hk
    | ⟨1, _⟩ => exact lhs_d2_1 _ _)
  have er : dot_S10000x128_S10000x1_S128x1_0_0_1_1_n_n.rhsIdx (ix2 j (0 : Fin 1)) ((contrEquiv1 dot_S10000x128_S10000x1_S128x1_0_0_1_1_n_n 10000 rfl rfl).symm r) = ix2 r (0 : Fin 1) := funext fun a => Fin.ext (by
    match a with
    | ⟨0, _⟩ => exact (rhs_d2_0 _ _).trans hk
    | ⟨1, _⟩ => exact rhs_d2_1 _ _)
  rw [el, er]

/-! ## The two payload shapes -/

/-- What a group stores into its sum tile: the tile plus Lᵀ · R. -/
private def paySum (L R : FVec Ideal S10000x128 .bf16) (v64 : Vec Ideal S1x128x128 .f32) : FVec Ideal S1x128x128 .f32 :=
  shapeCast S1x128x128 (addf (shapeCast S128x128 v64 shapeCasts_S1x128x128_S128x128)
    (matmul dot_S10000x128_S10000x128_S128x128_0_0_1_1_n_n none L R (constant S128x128 .f32 0x00000000#32))) shapeCasts_S128x128_S1x128x128

private theorem rm3 (j k : Fin 128) :
    (S128x128.rowMajor (ix2 j k)).val = (S1x128x128.rowMajor (ix3 (0 : Fin 1) j k)).val := by
  rw [Shape.rowMajor_val_two, Shape.rowMajor_val_three]
  show j.val * 128 + k.val = ((0 * 128 + j.val) * 128 + k.val)
  omega

private theorem paySum_apply (L R : FVec Ideal S10000x128 .bf16) (v64 : Vec Ideal S1x128x128 .f32) (j k : Fin 128) :
    paySum L R v64 (ix3 (0 : Fin 1) j k) = v64 (ix3 (0 : Fin 1) j k) + ∑ r : Fin 10000, L (ix2 r j) * R (ix2 r k) := by
  unfold paySum
  refine (shapeCast_apply _ shapeCasts_S128x128_S1x128x128 (ix3 (0 : Fin 1) j k) (ix2 j k) (rm3 j k)).trans ?_
  rw [addf_apply, mm1_apply]
  exact congrArg (· + _) (shapeCast_apply v64 shapeCasts_S1x128x128_S128x128 (ix2 j k) (ix3 (0 : Fin 1) j k) (rm3 j k).symm)

/-- What a group stores into its count tile: the tile plus Lᵀ · R, R one column, spread across the 128 columns. -/
private def payCnt (L : FVec Ideal S10000x128 .bf16) (R : FVec Ideal S10000x1 .bf16) (v70 : Vec Ideal S1x128x128 .f32) : FVec Ideal S1x128x128 .f32 :=
  shapeCast S1x128x128 (addf (shapeCast S128x128 v70 shapeCasts_S1x128x128_S128x128)
    (broadcastTo S128x128 (shapeCast S128x1 (matmul dot_S10000x128_S10000x1_S128x1_0_0_1_1_n_n none L R (constant S128x1 .f32 0x00000000#32)) shapeCasts_S128x1_S128x1)
      broadcasts_S128x1_S128x128)) shapeCasts_S128x128_S1x128x128

private theorem payCnt_apply (L : FVec Ideal S10000x128 .bf16) (R : FVec Ideal S10000x1 .bf16) (v70 : Vec Ideal S1x128x128 .f32) (j k : Fin 128) :
    payCnt L R v70 (ix3 (0 : Fin 1) j k) = v70 (ix3 (0 : Fin 1) j k) + ∑ r : Fin 10000, L (ix2 r j) * R (ix2 r (0 : Fin 1)) := by
  unfold payCnt
  refine (shapeCast_apply _ shapeCasts_S128x128_S1x128x128 (ix3 (0 : Fin 1) j k) (ix2 j k) (rm3 j k)).trans ?_
  rw [addf_apply, shapeCast_self]
  have hb : broadcastTo S128x128 (matmul (F := Ideal) dot_S10000x128_S10000x1_S128x1_0_0_1_1_n_n none L R (constant S128x1 .f32 0x00000000#32)) broadcasts_S128x1_S128x128 (ix2 j k)
      = matmul (F := Ideal) dot_S10000x128_S10000x1_S128x1_0_0_1_1_n_n none L R (constant S128x1 .f32 0x00000000#32) (ix2 j (0 : Fin 1)) :=
    broadcastTo_apply _ broadcasts_S128x1_S128x128 (ix2 j k) (ix2 j (0 : Fin 1)) (fun a => match a with
      | ⟨0, _⟩ => by show j.val = if (128 : Nat) = 1 then 0 else j.val; rw [if_neg (by decide)]
      | ⟨1, _⟩ => by show 0 = if (1 : Nat) = 1 then 0 else k.val; rw [if_pos rfl])
  rw [hb, mm2_apply]
  exact congrArg (· + _) (shapeCast_apply v70 shapeCasts_S1x128x128_S128x128 (ix2 j k) (ix3 (0 : Fin 1) j k) (rm3 j k).symm)

/-! ## A group's two stores read back at an entry -/

/-- The count tile (columns 128..255) and the sum tile (columns 0..127) of the rows lo .. lo + 127. -/
private abbrev rCnt (lo : ℕ) (inb : ∀ a, (![0, lo, 128] : Fin 3 → ℕ) a + S1x128x128.size a ≤ S1x1024x256.size a) : Rect S1x1024x256 :=
  Rect.unit (s := S1x1024x256) ![0, lo, 128] S1x128x128.size inb
private abbrev rSum (lo : ℕ) (inb : ∀ a, (![0, lo, 0] : Fin 3 → ℕ) a + S1x128x128.size a ≤ S1x1024x256.size a) : Rect S1x1024x256 :=
  Rect.unit (s := S1x1024x256) ![0, lo, 0] S1x128x128.size inb

/-- An entry of the sum tile is the tile's own entry (g - lo, k) placed in the table. -/
private theorem emb_sum (lo : ℕ) (inb) (g : Fin 1024) (k : Fin 128) (h1 : lo ≤ g.val) (h2 : g.val < lo + 128) :
    (rSum lo inb).emb (ix3 (0 : Fin 1) (⟨g.val - lo, by omega⟩ : Fin 128) k) = ix3 (0 : Fin 1) g (⟨k.val, by omega⟩ : Fin 256) :=
  funext fun a => Fin.ext (by
    match a with
    | ⟨0, _⟩ => show 0 + 1 * 0 = 0; rfl
    | ⟨1, _⟩ => show lo + 1 * (g.val - lo) = g.val; omega
    | ⟨2, _⟩ => show 0 + 1 * k.val = k.val; omega)

/-- An entry of the count tile likewise, 128 columns to the right. -/
private theorem emb_cnt (lo : ℕ) (inb) (g : Fin 1024) (k : Fin 128) (h1 : lo ≤ g.val) (h2 : g.val < lo + 128) :
    (rCnt lo inb).emb (ix3 (0 : Fin 1) (⟨g.val - lo, by omega⟩ : Fin 128) k) = ix3 (0 : Fin 1) g (⟨128 + k.val, by omega⟩ : Fin 256) :=
  funext fun a => Fin.ext (by
    match a with
    | ⟨0, _⟩ => show 0 + 1 * 0 = 0; rfl
    | ⟨1, _⟩ => show lo + 1 * (g.val - lo) = g.val; omega
    | ⟨2, _⟩ => show 128 + 1 * k.val = 128 + k.val; omega)

/-- A row outside the group keeps what the table held. -/
private theorem over2_out (lo : ℕ) (inbC inbS) (d' : Vec Ideal S1x1024x256 .f32) (pc ps : Vec Ideal S1x128x128 .f32)
    (g : Fin 1024) (c : Fin 256) (h : g.val < lo ∨ lo + 128 ≤ g.val) :
    View.over d' [⟨rCnt lo inbC, pc⟩, ⟨rSum lo inbS, ps⟩] (ix3 (0 : Fin 1) g c) = d' (ix3 (0 : Fin 1) g c) := by
  refine View.over_of_forall_not_mem d' _ _ (fun p hp hm => ?_)
  simp only [List.mem_cons, List.mem_nil_iff, or_false] at hp
  rcases hp with rfl | rfl
  · have h1 : lo ≤ g.val ∧ g.val < lo + 128 :=
      (Rect.mem_set_unit (s := S1x1024x256) (off := ![0, lo, 128]) (size := S1x128x128.size) (inb := inbC)).mp hm 1
    omega
  · have h1 : lo ≤ g.val ∧ g.val < lo + 128 :=
      (Rect.mem_set_unit (s := S1x1024x256) (off := ![0, lo, 0]) (size := S1x128x128.size) (inb := inbS)).mp hm 1
    omega

/-- A row of the group reads, in columns 0..127, the sum tile's store; -/
private theorem over2_sum (lo : ℕ) (inbC inbS) (d' : Vec Ideal S1x1024x256 .f32) (pc ps : Vec Ideal S1x128x128 .f32)
    (g : Fin 1024) (k : Fin 128) (h1 : lo ≤ g.val) (h2 : g.val < lo + 128) :
    View.over d' [⟨rCnt lo inbC, pc⟩, ⟨rSum lo inbS, ps⟩] (ix3 (0 : Fin 1) g (⟨k.val, by omega⟩ : Fin 256))
      = ps (ix3 (0 : Fin 1) (⟨g.val - lo, by omega⟩ : Fin 128) k) := by
  rw [View.over_cons_of_not_mem d' ⟨rCnt lo inbC, pc⟩ _ (fun hm => by
    have h3 : 128 ≤ k.val ∧ k.val < 128 + 128 :=
      (Rect.mem_set_unit (s := S1x1024x256) (off := ![0, lo, 128]) (size := S1x128x128.size) (inb := inbC)).mp hm 2
    omega)]
  rw [← emb_sum lo inbS g k h1 h2]
  exact View.over_cons_emb d' (rSum lo inbS) ps [] _

/-- in columns 128..255, the count tile's. -/
private theorem over2_cnt (lo : ℕ) (inbC inbS) (d' : Vec Ideal S1x1024x256 .f32) (pc ps : Vec Ideal S1x128x128 .f32)
    (g : Fin 1024) (k : Fin 128) (h1 : lo ≤ g.val) (h2 : g.val < lo + 128) :
    View.over d' [⟨rCnt lo inbC, pc⟩, ⟨rSum lo inbS, ps⟩] (ix3 (0 : Fin 1) g (⟨128 + k.val, by omega⟩ : Fin 256))
      = pc (ix3 (0 : Fin 1) (⟨g.val - lo, by omega⟩ : Fin 128) k) := by
  rw [← emb_cnt lo inbC g k h1 h2]
  exact View.over_cons_emb d' (rCnt lo inbC) pc _ _

/-! ## One group, whatever its first row -/

/-- The group of rows lo .. lo + 127 under a guard c. -/
private def grpG (lo : ℕ) (inbC : ∀ a, (![0, lo, 128] : Fin 3 → ℕ) a + S1x128x128.size a ≤ S1x1024x256.size a)
    (inbS : ∀ a, (![0, lo, 0] : Fin 3 → ℕ) a + S1x128x128.size a ≤ S1x1024x256.size a) (c : Prop) [Decidable c] (x : Vec Ideal S10000x128 .f32) (b : Vec Ideal S10000x1 .i32)
    (d : Vec Ideal S1x1024x256 .f32) : Vec Ideal S1x1024x256 .f32 :=
  if c then
    View.over d [⟨rCnt lo inbC, payCnt (oh lo (k0_pay18 (F := Ideal) b)) (k0_pay19 (F := Ideal)) (View.ld d (rCnt lo inbC))⟩,
      ⟨rSum lo inbS, paySum (oh lo (k0_pay18 (F := Ideal) b)) (k0_pay17 (F := Ideal) x) (View.ld d (rSum lo inbS))⟩]
  else d

/-- The one-hot column of row g against the features: the features of the rows whose id is g. -/
private theorem oh_sum (lo : ℕ) (hlo : lo + 128 ≤ 1024) (x : Vec Ideal S10000x128 .f32) (b : Vec Ideal S10000x1 .i32)
    (g : Fin 1024) (k : Fin 128) (h1 : lo ≤ g.val) (h2 : g.val < lo + 128) :
    ∑ r : Fin 10000, oh lo (k0_pay18 (F := Ideal) b) (ix2 r (⟨g.val - lo, by omega⟩ : Fin 128)) * (k0_pay17 (F := Ideal) x) (ix2 r k)
      = ∑ r : Fin 10000, (if (b (ix2 r 0)).toInt = (g.val : ℤ) then x (ix2 r k) else 0) := by
  refine Finset.sum_congr rfl fun r _ => ?_
  rw [oh_apply lo hlo, pay18_eq, pay17_eq]
  have e : ((lo + (g.val - lo) : ℕ) : ℤ) = (g.val : ℤ) := by congr 1; omega
  show (if (b (ix2 r 0)).toInt = ((lo + (g.val - lo) : ℕ) : ℤ) then (1 : EReal) else 0) * x (ix2 r k) = _
  rw [e, ite_mul, one_mul, zero_mul]

/-- The one-hot column of row g against the ones: the number of rows whose id is g. -/
private theorem oh_cnt (lo : ℕ) (hlo : lo + 128 ≤ 1024) (b : Vec Ideal S10000x1 .i32)
    (g : Fin 1024) (h1 : lo ≤ g.val) (h2 : g.val < lo + 128) :
    ∑ r : Fin 10000, oh lo (k0_pay18 (F := Ideal) b) (ix2 r (⟨g.val - lo, by omega⟩ : Fin 128)) * (k0_pay19 (F := Ideal)) (ix2 r (0 : Fin 1))
      = ∑ r : Fin 10000, (if (b (ix2 r 0)).toInt = (g.val : ℤ) then (1 : EReal) else 0) := by
  refine Finset.sum_congr rfl fun r _ => ?_
  rw [oh_apply lo hlo, pay18_eq, pay19_apply]
  have e : ((lo + (g.val - lo) : ℕ) : ℤ) = (g.val : ℤ) := by congr 1; omega
  show (if (b (ix2 r 0)).toInt = ((lo + (g.val - lo) : ℕ) : ℤ) then (1 : EReal) else 0) * 1 = _
  rw [e, mul_one]

/-- A group adds to row g's sum entries the features of the rows whose id is g when g is one of its rows, and nothing
    otherwise; a failed guard adds nothing, which is the same when no row of the tile has id g. -/
private theorem grpG_sum (lo : ℕ) (hlo : lo + 128 ≤ 1024) (inbC inbS) (c : Prop) [Decidable c] (x : Vec Ideal S10000x128 .f32)
    (b : Vec Ideal S10000x1 .i32) (d' : Vec Ideal S1x1024x256 .f32) (g : Fin 1024) (k : Fin 128)
    (hc : ¬c → lo ≤ g.val → g.val < lo + 128 → ∀ r : Fin 10000, (b (ix2 r 0)).toInt ≠ (g.val : ℤ)) :
    grpG lo inbC inbS c x b d' (ix3 (0 : Fin 1) g (⟨k.val, by omega⟩ : Fin 256))
      = d' (ix3 (0 : Fin 1) g (⟨k.val, by omega⟩ : Fin 256))
        + (if lo ≤ g.val ∧ g.val < lo + 128 then ∑ r : Fin 10000, (if (b (ix2 r 0)).toInt = (g.val : ℤ) then x (ix2 r k) else 0) else 0) := by
  unfold grpG
  by_cases hin : lo ≤ g.val ∧ g.val < lo + 128
  · rw [if_pos hin]
    by_cases hcc : c
    · rw [if_pos hcc, over2_sum lo inbC inbS d' _ _ g k hin.1 hin.2, paySum_apply, oh_sum lo hlo x b g k hin.1 hin.2]
      exact congrArg (· + _) (congrArg d' (emb_sum lo inbS g k hin.1 hin.2))
    · rw [if_neg hcc, Finset.sum_eq_zero (fun r _ => if_neg (hc hcc hin.1 hin.2 r)), add_zero]
  · rw [if_neg hin, add_zero]
    by_cases hcc : c
    · rw [if_pos hcc]; exact over2_out lo inbC inbS d' _ _ g _ (by omega)
    · rw [if_neg hcc]

/-- The same for row g's count entries: the number of rows whose id is g. -/
private theorem grpG_cnt (lo : ℕ) (hlo : lo + 128 ≤ 1024) (inbC inbS) (c : Prop) [Decidable c] (x : Vec Ideal S10000x128 .f32)
    (b : Vec Ideal S10000x1 .i32) (d' : Vec Ideal S1x1024x256 .f32) (g : Fin 1024) (k : Fin 128)
    (hc : ¬c → lo ≤ g.val → g.val < lo + 128 → ∀ r : Fin 10000, (b (ix2 r 0)).toInt ≠ (g.val : ℤ)) :
    grpG lo inbC inbS c x b d' (ix3 (0 : Fin 1) g (⟨128 + k.val, by omega⟩ : Fin 256))
      = d' (ix3 (0 : Fin 1) g (⟨128 + k.val, by omega⟩ : Fin 256))
        + (if lo ≤ g.val ∧ g.val < lo + 128 then ∑ r : Fin 10000, (if (b (ix2 r 0)).toInt = (g.val : ℤ) then (1 : EReal) else 0) else 0) := by
  unfold grpG
  by_cases hin : lo ≤ g.val ∧ g.val < lo + 128
  · rw [if_pos hin]
    by_cases hcc : c
    · rw [if_pos hcc, over2_cnt lo inbC inbS d' _ _ g k hin.1 hin.2, payCnt_apply, oh_cnt lo hlo b g hin.1 hin.2]
      exact congrArg (· + _) (congrArg d' (emb_cnt lo inbC g k hin.1 hin.2))
    · rw [if_neg hcc, Finset.sum_eq_zero (fun r _ => if_neg (hc hcc hin.1 hin.2 r)), add_zero]
  · rw [if_neg hin, add_zero]
    by_cases hcc : c
    · rw [if_pos hcc]; exact over2_out lo inbC inbS d' _ _ g _ (by omega)
    · rw [if_neg hcc]

/-- Under the tile's id range [wmin, wmax], a group whose guard (first row ≤ wmax and wmin ≤ last row) fails has no
    row of the tile among its rows: the guarded group adds exactly the rows whose id is g. -/
private theorem grpS_sum (lo : ℕ) (hlo : lo + 128 ≤ 1024) (inbC inbS) (c : Prop) [Decidable c] (wmin wmax : BitVec 32) (A B : ℤ)
    (hA : A = (lo : ℤ)) (hB : B = (lo : ℤ) + 127) (hiff : c ↔ A ≤ wmax.toInt ∧ wmin.toInt ≤ B)
    (x : Vec Ideal S10000x128 .f32) (b : Vec Ideal S10000x1 .i32) (d' : Vec Ideal S1x1024x256 .f32)
    (hs : ∀ r : Fin 10000, wmin.toInt ≤ (b (ix2 r 0)).toInt ∧ (b (ix2 r 0)).toInt ≤ wmax.toInt) (g : Fin 1024) (k : Fin 128) :
    grpG lo inbC inbS c x b d' (ix3 (0 : Fin 1) g (⟨k.val, by omega⟩ : Fin 256))
      = d' (ix3 (0 : Fin 1) g (⟨k.val, by omega⟩ : Fin 256))
        + (if lo ≤ g.val ∧ g.val < lo + 128 then ∑ r : Fin 10000, (if (b (ix2 r 0)).toInt = (g.val : ℤ) then x (ix2 r k) else 0) else 0) :=
  grpG_sum lo hlo inbC inbS c x b d' g k (fun hn h1 h2 r he => hn (hiff.mpr (by have := hs r; omega)))

private theorem grpS_cnt (lo : ℕ) (hlo : lo + 128 ≤ 1024) (inbC inbS) (c : Prop) [Decidable c] (wmin wmax : BitVec 32) (A B : ℤ)
    (hA : A = (lo : ℤ)) (hB : B = (lo : ℤ) + 127) (hiff : c ↔ A ≤ wmax.toInt ∧ wmin.toInt ≤ B)
    (x : Vec Ideal S10000x128 .f32) (b : Vec Ideal S10000x1 .i32) (d' : Vec Ideal S1x1024x256 .f32)
    (hs : ∀ r : Fin 10000, wmin.toInt ≤ (b (ix2 r 0)).toInt ∧ (b (ix2 r 0)).toInt ≤ wmax.toInt) (g : Fin 1024) (k : Fin 128) :
    grpG lo inbC inbS c x b d' (ix3 (0 : Fin 1) g (⟨128 + k.val, by omega⟩ : Fin 256))
      = d' (ix3 (0 : Fin 1) g (⟨128 + k.val, by omega⟩ : Fin 256))
        + (if lo ≤ g.val ∧ g.val < lo + 128 then ∑ r : Fin 10000, (if (b (ix2 r 0)).toInt = (g.val : ℤ) then (1 : EReal) else 0) else 0) :=
  grpG_cnt lo hlo inbC inbS c x b d' g k (fun hn h1 h2 r he => hn (hiff.mpr (by have := hs r; omega)))

/-! ## The eight groups are that group, and the clearing -/

private theorem grp0_0_eq (wmin wmax : BitVec 32) (x : Vec Ideal S10000x128 .f32) (b : Vec Ideal S10000x1 .i32) (d : Vec Ideal S1x1024x256 .f32) :
    grp0_0 (F := Ideal) wmin wmax x b d
      = grpG 0 inb_S1x1024x256_S1x128x128_0_0_128 inb_S1x1024x256_S1x128x128_0_0_0 (k0_cond2 wmin wmax = 1#1) x b d := rfl
private theorem grp0_128_eq (wmin wmax : BitVec 32) (x : Vec Ideal S10000x128 .f32) (b : Vec Ideal S10000x1 .i32) (d : Vec Ideal S1x1024x256 .f32) :
    grp0_128 (F := Ideal) wmin wmax x b d
      = grpG 128 inb_S1x1024x256_S1x128x128_0_128_128 inb_S1x1024x256_S1x128x128_0_128_0 (k0_cond3 wmin wmax = 1#1) x b d := rfl
private theorem grp0_256_eq (wmin wmax : BitVec 32) (x : Vec Ideal S10000x128 .f32) (b : Vec Ideal S10000x1 .i32) (d : Vec Ideal S1x1024x256 .f32) :
    grp0_256 (F := Ideal) wmin wmax x b d
      = grpG 256 inb_S1x1024x256_S1x128x128_0_256_128 inb_S1x1024x256_S1x128x128_0_256_0 (k0_cond4 wmin wmax = 1#1) x b d := rfl
private theorem grp0_384_eq (wmin wmax : BitVec 32) (x : Vec Ideal S10000x128 .f32) (b : Vec Ideal S10000x1 .i32) (d : Vec Ideal S1x1024x256 .f32) :
    grp0_384 (F := Ideal) wmin wmax x b d
      = grpG 384 inb_S1x1024x256_S1x128x128_0_384_128 inb_S1x1024x256_S1x128x128_0_384_0 (k0_cond5 wmin wmax = 1#1) x b d := rfl
private theorem grp0_512_eq (wmin wmax : BitVec 32) (x : Vec Ideal S10000x128 .f32) (b : Vec Ideal S10000x1 .i32) (d : Vec Ideal S1x1024x256 .f32) :
    grp0_512 (F := Ideal) wmin wmax x b d
      = grpG 512 inb_S1x1024x256_S1x128x128_0_512_128 inb_S1x1024x256_S1x128x128_0_512_0 (k0_cond6 wmin wmax = 1#1) x b d := rfl
private theorem grp0_640_eq (wmin wmax : BitVec 32) (x : Vec Ideal S10000x128 .f32) (b : Vec Ideal S10000x1 .i32) (d : Vec Ideal S1x1024x256 .f32) :
    grp0_640 (F := Ideal) wmin wmax x b d
      = grpG 640 inb_S1x1024x256_S1x128x128_0_640_128 inb_S1x1024x256_S1x128x128_0_640_0 (k0_cond7 wmin wmax = 1#1) x b d := rfl
private theorem grp0_768_eq (wmin wmax : BitVec 32) (x : Vec Ideal S10000x128 .f32) (b : Vec Ideal S10000x1 .i32) (d : Vec Ideal S1x1024x256 .f32) :
    grp0_768 (F := Ideal) wmin wmax x b d
      = grpG 768 inb_S1x1024x256_S1x128x128_0_768_128 inb_S1x1024x256_S1x128x128_0_768_0 (k0_cond8 wmin wmax = 1#1) x b d := rfl
private theorem grp0_896_eq (wmin wmax : BitVec 32) (x : Vec Ideal S10000x128 .f32) (b : Vec Ideal S10000x1 .i32) (d : Vec Ideal S1x1024x256 .f32) :
    grp0_896 (F := Ideal) wmin wmax x b d
      = grpG 896 inb_S1x1024x256_S1x128x128_0_896_128 inb_S1x1024x256_S1x128x128_0_896_0 (k0_cond9 wmin wmax = 1#1) x b d := rfl

/-- The clearing at an entry: zero at the first point of a core, else what the table held. -/
private theorem clr0_apply (i : grid0.Coords) (d : Vec Ideal S1x1024x256 .f32) (g : Fin 1024) (c : Fin 256) :
    clr0 (F := Ideal) i d (ix3 (0 : Fin 1) g c) = if (i 1).val = 0 then (0 : EReal) else d (ix3 (0 : Fin 1) g c) := by
  unfold clr0
  by_cases h : (i 1).val = 0
  · rw [if_pos ((cond1_iff i).mpr h), if_pos h]
    have hy : ix3 (0 : Fin 1) g c ∈ rAll0.set :=
      (Rect.mem_set_unit (s := S1x1024x256) (off := ![0, 0, 0]) (size := S1x1024x256.size) (inb := inb_S1x1024x256_S1x1024x256_0_0_0)).mpr (fun a => by
        match a with
        | ⟨0, _⟩ => show 0 ≤ 0 ∧ 0 < 0 + 1; omega
        | ⟨1, _⟩ => show 0 ≤ g.val ∧ g.val < 0 + 1024; have := g.isLt; omega
        | ⟨2, _⟩ => show 0 ≤ c.val ∧ c.val < 0 + 256; have := c.isLt; omega)
    obtain ⟨y, hy'⟩ := rAll0.exists_idx_of_mem hy
    rw [← hy', show rAll0.idx y = rAll0.emb y from rfl, View.over_cons_emb]
    show Ideal.ofBits .f32 0x00000000#32 = 0
    exact Ideal.ofBits_zero_f32
  · rw [if_neg (fun hc => h ((cond1_iff i).mp hc)), if_neg h]

/-- Of the eight groups exactly one holds row n. -/
private theorem pick8 (n : ℕ) (hn : n < 1024) (a S : EReal) :
    a + (if 0 ≤ n ∧ n < 0 + 128 then S else 0)
        + (if 128 ≤ n ∧ n < 128 + 128 then S else 0)
        + (if 256 ≤ n ∧ n < 256 + 128 then S else 0)
        + (if 384 ≤ n ∧ n < 384 + 128 then S else 0)
        + (if 512 ≤ n ∧ n < 512 + 128 then S else 0)
        + (if 640 ≤ n ∧ n < 640 + 128 then S else 0)
        + (if 768 ≤ n ∧ n < 768 + 128 then S else 0)
        + (if 896 ≤ n ∧ n < 896 + 128 then S else 0) = a + S := by
  split_ifs <;> first | (exfalso; omega) | simp

private theorem seg0_eq (i : grid0.Coords) (tmin tmax : Vec Ideal S50 .i32) (x : Vec Ideal S10000x128 .f32) (b : Vec Ideal S10000x1 .i32)
    (d : Vec Ideal S1x1024x256 .f32) :
    seg0 (F := Ideal) i tmin tmax x b d
      = grp0_896 (word0 tmin i) (word0 tmax i) x b (grp0_768 (word0 tmin i) (word0 tmax i) x b (grp0_640 (word0 tmin i) (word0 tmax i) x b
          (grp0_512 (word0 tmin i) (word0 tmax i) x b (grp0_384 (word0 tmin i) (word0 tmax i) x b (grp0_256 (word0 tmin i) (word0 tmax i) x b
            (grp0_128 (word0 tmin i) (word0 tmax i) x b (grp0_0 (word0 tmin i) (word0 tmax i) x b (clr0 i d)))))))) := rfl

/-! ## The table after the point -/

/-- Row g's sum entries: what was there (zero at a core's first point) plus the features of the tile's rows whose id is g. -/
theorem seg0_sum (i : grid0.Coords) (tmin tmax : Vec Ideal S50 .i32) (x : Vec Ideal S10000x128 .f32) (b : Vec Ideal S10000x1 .i32)
    (d : Vec Ideal S1x1024x256 .f32)
    (hs : ∀ r : Fin 10000, (word0 tmin i).toInt ≤ (b (ix2 r 0)).toInt ∧ (b (ix2 r 0)).toInt ≤ (word0 tmax i).toInt)
    (g : Fin 1024) (k : Fin 128) :
    seg0 (F := Ideal) i tmin tmax x b d (ix3 (0 : Fin 1) g (⟨k.val, by omega⟩ : Fin 256))
      = (if (i 1).val = 0 then (0 : EReal) else d (ix3 (0 : Fin 1) g (⟨k.val, by omega⟩ : Fin 256)))
        + ∑ r : Fin 10000, (if (b (ix2 r 0)).toInt = (g.val : ℤ) then x (ix2 r k) else 0) := by
  rw [seg0_eq,
    grp0_896_eq, grpS_sum 896 (by omega) _ _ _ _ _ 896 1023 rfl rfl (cond9_iff _ _) x b _ hs g k,
    grp0_768_eq, grpS_sum 768 (by omega) _ _ _ _ _ 768 895 rfl rfl (cond8_iff _ _) x b _ hs g k,
    grp0_640_eq, grpS_sum 640 (by omega) _ _ _ _ _ 640 767 rfl rfl (cond7_iff _ _) x b _ hs g k,
    grp0_512_eq, grpS_sum 512 (by omega) _ _ _ _ _ 512 639 rfl rfl (cond6_iff _ _) x b _ hs g k,
    grp0_384_eq, grpS_sum 384 (by omega) _ _ _ _ _ 384 511 rfl rfl (cond5_iff _ _) x b _ hs g k,
    grp0_256_eq, grpS_sum 256 (by omega) _ _ _ _ _ 256 383 rfl rfl (cond4_iff _ _) x b _ hs g k,
    grp0_128_eq, grpS_sum 128 (by omega) _ _ _ _ _ 128 255 rfl rfl (cond3_iff _ _) x b _ hs g k,
    grp0_0_eq, grpS_sum 0 (by omega) _ _ _ _ _ 0 127 rfl rfl (cond2_iff _ _) x b _ hs g k,
    clr0_apply]
  exact pick8 g.val g.isLt _ _

/-- Row g's count entries: what was there (zero at a core's first point) plus the number of the tile's rows whose id is g. -/
theorem seg0_cnt (i : grid0.Coords) (tmin tmax : Vec Ideal S50 .i32) (x : Vec Ideal S10000x128 .f32) (b : Vec Ideal S10000x1 .i32)
    (d : Vec Ideal S1x1024x256 .f32)
    (hs : ∀ r : Fin 10000, (word0 tmin i).toInt ≤ (b (ix2 r 0)).toInt ∧ (b (ix2 r 0)).toInt ≤ (word0 tmax i).toInt)
    (g : Fin 1024) (k : Fin 128) :
    seg0 (F := Ideal) i tmin tmax x b d (ix3 (0 : Fin 1) g (⟨128 + k.val, by omega⟩ : Fin 256))
      = (if (i 1).val = 0 then (0 : EReal) else d (ix3 (0 : Fin 1) g (⟨128 + k.val, by omega⟩ : Fin 256)))
        + ∑ r : Fin 10000, (if (b (ix2 r 0)).toInt = (g.val : ℤ) then (1 : EReal) else 0) := by
  rw [seg0_eq,
    grp0_896_eq, grpS_cnt 896 (by omega) _ _ _ _ _ 896 1023 rfl rfl (cond9_iff _ _) x b _ hs g k,
    grp0_768_eq, grpS_cnt 768 (by omega) _ _ _ _ _ 768 895 rfl rfl (cond8_iff _ _) x b _ hs g k,
    grp0_640_eq, grpS_cnt 640 (by omega) _ _ _ _ _ 640 767 rfl rfl (cond7_iff _ _) x b _ hs g k,
    grp0_512_eq, grpS_cnt 512 (by omega) _ _ _ _ _ 512 639 rfl rfl (cond6_iff _ _) x b _ hs g k,
    grp0_384_eq, grpS_cnt 384 (by omega) _ _ _ _ _ 384 511 rfl rfl (cond5_iff _ _) x b _ hs g k,
    grp0_256_eq, grpS_cnt 256 (by omega) _ _ _ _ _ 256 383 rfl rfl (cond4_iff _ _) x b _ hs g k,
    grp0_128_eq, grpS_cnt 128 (by omega) _ _ _ _ _ 128 255 rfl rfl (cond3_iff _ _) x b _ hs g k,
    grp0_0_eq, grpS_cnt 0 (by omega) _ _ _ _ _ 0 127 rfl rfl (cond2_iff _ _) x b _ hs g k,
    clr0_apply]
  exact pick8 g.val g.isLt _ _

end Cert.KernelIdeal.H

end
-- ==== Proof.KAcc0.lean ====
/-
  The per-core accumulation of the segment-sum region: after a core's 25 points its table holds, per graph, the sums of
  the node features and the node counts over the core's half of the nodes.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KValI
import proofs.«411499_j60584808678067_2_alg».proof.Proof.K0Math
import Mathlib.Algebra.BigOperators.Fin

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The schedule, decided over the 50 points -/

/-- Point t's feature block and id block are block (t, 0) of their arrays. -/
private theorem idx0_grid : ∀ t : Fin grid0.N, cc0_transform_0 (grid0.coords t) = ![t.val, 0] := by decide +kernel
private theorem idx1_grid : ∀ t : Fin grid0.N, cc0_transform_1 (grid0.coords t) = ![t.val, 0] := by decide +kernel
/-- Point t's table word is word t. -/
private theorem off1_grid : ∀ t : Fin grid0.N, k0_off1 (grid0.coords t) = ![t.val] := by decide +kernel
/-- Point t's position in its core's run is t mod 25. -/
private theorem coords1_grid : ∀ t : Fin grid0.N, ((grid0.coords t) 1).val = t.val % 25 := by decide +kernel

/-! ## The blocks and the table words of a point -/

section Blocks
variable (a : (pcfg0 (F := Ideal)).Adm)
variable (V : (c : Dev nD) → (b : Ref sig .tc) → Buf (Elt Ideal) ((c : Thread nD τ).loc b))

/-- The feature block of point n at (r, k) is the feature array at (10000 n + r, k). -/
private theorem iblk0_0_apply (c : Dev nD) (n : ℕ) (hn : n < (cfg0 a).N) (r : Fin 10000) (k : Fin 128) :
    (iblk0 a V c 0 ⟨n, hn⟩ : Vec Ideal S10000x128 .f32) (ix2 r k)
      = (V c main_arg0 : S500000x128.Idx → EReal) (ix2 (⟨n * 10000 + r.val, by have h : (cfg0 a).N = 50 := N_0; omega⟩ : Fin 500000) k) := by
  show (V c main_arg0 : S500000x128.Idx → EReal) ((((cfg0 a).win 0).blk ⟨n, hn⟩).view.emb (ix2 r k)) = _
  congr 1
  funext d; apply Fin.ext
  have h0 : cc0_transform_0 (grid0.coords ⟨n, hn⟩) 0 = n := congrFun (idx0_grid ⟨n, hn⟩) 0
  have h1 : cc0_transform_0 (grid0.coords ⟨n, hn⟩) 1 = 0 := congrFun (idx0_grid ⟨n, hn⟩) 1
  match d with
  | ⟨0, _⟩ => show cc0_transform_0 (grid0.coords ⟨n, hn⟩) 0 * 10000 + 1 * r.val = n * 10000 + r.val; rw [h0]; omega
  | ⟨1, _⟩ => show cc0_transform_0 (grid0.coords ⟨n, hn⟩) 1 * 128 + 1 * k.val = k.val; rw [h1]; omega

/-- The id block of point n at (r, 0) is the id column at (10000 n + r, 0). -/
private theorem iblk0_1_apply (c : Dev nD) (n : ℕ) (hn : n < (cfg0 a).N) (r : Fin 10000) :
    (iblk0 a V c 1 ⟨n, hn⟩ : Vec Ideal S10000x1 .i32) (ix2 r (0 : Fin 1))
      = (V c main_v0 : S500000x1.Idx → BitVec 32) (ix2 (⟨n * 10000 + r.val, by have h : (cfg0 a).N = 50 := N_0; omega⟩ : Fin 500000) (0 : Fin 1)) := by
  show (V c main_v0 : S500000x1.Idx → BitVec 32) ((((cfg0 a).win 1).blk ⟨n, hn⟩).view.emb (ix2 r (0 : Fin 1))) = _
  congr 1
  funext d; apply Fin.ext
  have h0 : cc0_transform_1 (grid0.coords ⟨n, hn⟩) 0 = n := congrFun (idx1_grid ⟨n, hn⟩) 0
  have h1 : cc0_transform_1 (grid0.coords ⟨n, hn⟩) 1 = 0 := congrFun (idx1_grid ⟨n, hn⟩) 1
  match d with
  | ⟨0, _⟩ => show cc0_transform_1 (grid0.coords ⟨n, hn⟩) 0 * 10000 + 1 * r.val = n * 10000 + r.val; rw [h0]; omega
  | ⟨1, _⟩ => show cc0_transform_1 (grid0.coords ⟨n, hn⟩) 1 * 1 + 1 * 0 = 0; rw [h1]

/-- Equal positions have equal running tables. -/
private theorem acc0_congr (c : Dev nD) {n n' : ℕ} (e : n = n') (h : n < (cfg0 a).N) (h' : n' < (cfg0 a).N) :
    acc0 a V c n h = acc0 a V c n' h' := by subst e; rfl

/-- The running table at point n: the point's result over the cleared table at a core's first point, over the running
    table of the point before otherwise. -/
private theorem acc0_eq (c : Dev nD) (n : ℕ) (hn : n < (cfg0 a).N) :
    acc0 a V c n hn = seg0 (grid0.coords ⟨n, hn⟩) (tmin0 a) (tmax0 a) (iblk0 a V c 0 ⟨n, hn⟩) (iblk0 a V c 1 ⟨n, hn⟩)
      (if n % 25 = 0 then k0_pay16 (F := Ideal) else acc0 a V c (n - 1) (lt_of_le_of_lt (Nat.sub_le _ _) hn)) := by
  cases n with
  | zero => rw [acc0, if_pos (Nat.zero_mod 25)]
  | succ n => rw [acc0]; rfl

/-- ONE CORE'S RUN. If at every point the table entry (g, kk) becomes what it was (zero at a core's first point) plus the
    tile's total of f, then after the point at position s of core cc it is the total of f over the core's tiles 0..s. -/
private theorem acc_run (c : Dev nD) (g : Fin 1024) (kk : Fin 256) (f : ℕ → EReal)
    (hstep : ∀ (n : ℕ) (hn : n < (cfg0 a).N) (d : Vec Ideal S1x1024x256 .f32),
      seg0 (grid0.coords ⟨n, hn⟩) (tmin0 a) (tmax0 a) (iblk0 a V c 0 ⟨n, hn⟩) (iblk0 a V c 1 ⟨n, hn⟩) d (ix3 (0 : Fin 1) g kk)
        = (if n % 25 = 0 then (0 : EReal) else d (ix3 (0 : Fin 1) g kk)) + ∑ r ∈ Finset.range 10000, f (n * 10000 + r))
    (cc : ℕ) : ∀ (s : ℕ) (hs : s < 25) (h : 25 * cc + s < (cfg0 a).N),
      acc0 a V c (25 * cc + s) h (ix3 (0 : Fin 1) g kk)
        = ∑ j ∈ Finset.range (s + 1), ∑ r ∈ Finset.range 10000, f ((25 * cc + j) * 10000 + r) := by
  intro s
  induction s with
  | zero =>
    intro hs h
    rw [acc0_eq, hstep, if_pos (by omega), zero_add, Finset.sum_range_one]
  | succ s ih =>
    intro hs h
    have hne : ¬ (25 * cc + (s + 1)) % 25 = 0 := by omega
    rw [acc0_eq, hstep, if_neg hne, if_neg hne,
      Finset.sum_range_succ (fun j => ∑ r ∈ Finset.range 10000, f ((25 * cc + j) * 10000 + r)) (s + 1),
      acc0_congr a V c (show 25 * cc + (s + 1) - 1 = 25 * cc + s by omega) _ (by omega), ih (by omega)]
end Blocks

/-- The table word of point n is the table's entry n. -/
private theorem word0_apply (tb : Vec Ideal S50 .i32) (n : ℕ) (hn : n < grid0.N) :
    word0 tb (grid0.coords ⟨n, hn⟩) = tb (ValueIdx.ix1 (⟨n, lt_of_lt_of_eq hn N_0⟩ : Fin 50)) := by
  unfold word0 View.ld
  congr 1
  funext d; apply Fin.ext
  have h0 : k0_off1 (grid0.coords ⟨n, hn⟩) 0 = n := congrFun (off1_grid ⟨n, hn⟩) 0
  match d with
  | ⟨0, _⟩ => show k0_off1 (grid0.coords ⟨n, hn⟩) 0 + 1 * 0 = n; rw [h0]; omega

/-! ## Sums over consecutive rows, tile by tile -/

/-- A sum over b·a consecutive naturals is the sum over a tiles of b. -/
private theorem sum_tiles (f : ℕ → EReal) (b : ℕ) (a : ℕ) :
    ∑ i ∈ Finset.range (b * a), f i = ∑ j ∈ Finset.range a, ∑ r ∈ Finset.range b, f (b * j + r) := by
  induction a with
  | zero => simp
  | succ a ih => rw [Nat.mul_succ, Finset.sum_range_add, ih, Finset.sum_range_succ]

/-- Core cc's 25 tiles of 10000 rows are its 250000 rows. -/
private theorem tiles_eq (f : ℕ → EReal) (cc : ℕ) :
    ∑ j ∈ Finset.range 25, ∑ r ∈ Finset.range 10000, f ((25 * cc + j) * 10000 + r)
      = ∑ n : Fin 250000, f (250000 * cc + n.val) := by
  have h : ∑ i ∈ Finset.range 250000, f (250000 * cc + i)
      = ∑ j ∈ Finset.range 25, ∑ r ∈ Finset.range 10000, f (250000 * cc + (10000 * j + r)) :=
    sum_tiles (fun i => f (250000 * cc + i)) 10000 25
  rw [Fin.sum_univ_eq_sum_range (fun i => f (250000 * cc + i)) 250000, h]
  refine Finset.sum_congr rfl fun j _ => Finset.sum_congr rfl fun r _ => ?_
  exact congrArg f (by omega)

/-! ## The segment-sum call's tables and arrays -/

variable (m : (ℓ : Loc nD τ sig) → Buf (Elt Ideal) ℓ)

/-- The call's tables are what the first host stretch leaves in their buffers. -/
private theorem adm0_at (k) : (adm0 m).1 k = U1 m c₀ (pre0.ref k) := by unfold adm0; rfl
private theorem tmin0_adm (j : S50.Idx) : (tmin0 (adm0 m) : S50.Idx → BitVec 32) j = (U1 m c₀ main_v2 : S50.Idx → BitVec 32) j := by
  show (adm0 m).1 (0 : Fin 2) j = _
  rw [adm0_at]
  rfl
private theorem tmax0_adm (j : S50.Idx) : (tmax0 (adm0 m) : S50.Idx → BitVec 32) j = (U1 m c₀ main_v3 : S50.Idx → BitVec 32) j := by
  show (adm0 m).1 (1 : Fin 2) j = _
  rw [adm0_at]
  rfl

/-- The first host stretch does not write the feature array. -/
private theorem U1_arg0 (c : Dev nD) : (U1 m c main_arg0 : S500000x128.Idx → EReal) = X m c :=
  StableHlo.after_of_writes_sub hostOps0 _ hostOps0_writes (by decide : main_arg0 ∉ hostOps0_W)

/-- Every id of tile n lies between the tile's two table words. -/
private theorem tile_bounds (hId : IdCol m) (hT : Tables0 m) (c : Dev nD) (n : ℕ) (hn : n < (cfg0 (adm0 m)).N) (r : Fin 10000) :
    (word0 (tmin0 (adm0 m)) (grid0.coords ⟨n, hn⟩)).toInt
        ≤ ((iblk0 (adm0 m) (U1 m) c 1 ⟨n, hn⟩ : Vec Ideal S10000x1 .i32) (ix2 r (0 : Fin 1))).toInt
      ∧ ((iblk0 (adm0 m) (U1 m) c 1 ⟨n, hn⟩ : Vec Ideal S10000x1 .i32) (ix2 r (0 : Fin 1))).toInt
        ≤ (word0 (tmax0 (adm0 m)) (grid0.coords ⟨n, hn⟩)).toInt := by
  have hn50 : n < 50 := lt_of_lt_of_eq hn N_0
  obtain rfl : c = c₀ := dev_eq c
  have h := hT c₀ ⟨n, hn50⟩ r
  rw [word0_apply, word0_apply, tmin0_adm, tmax0_adm, iblk0_1_apply, hId c₀]
  exact h

/-- Row p's term of graph g's total of the per-row values x (zero past the array). -/
private def rowTerm (c : Dev nD) (g : Fin 1024) (x : Fin 500000 → EReal) (p : ℕ) : EReal :=
  if h : p < 500000 then (if (B m c (ValueIdx.ix1 (⟨p, h⟩ : Fin 500000))).toInt = (g.val : ℤ) then x ⟨p, h⟩ else 0) else 0

/-- At a point the sum entry (g, k) becomes what it was (zero at a core's first point) plus the tile's features of graph g. -/
private theorem step_sum (hId : IdCol m) (hT : Tables0 m) (c : Dev nD) (g : Fin 1024) (k : Fin 128)
    (n : ℕ) (hn : n < (cfg0 (adm0 m)).N) (d : Vec Ideal S1x1024x256 .f32) :
    seg0 (grid0.coords ⟨n, hn⟩) (tmin0 (adm0 m)) (tmax0 (adm0 m)) (iblk0 (adm0 m) (U1 m) c 0 ⟨n, hn⟩) (iblk0 (adm0 m) (U1 m) c 1 ⟨n, hn⟩) d
        (ix3 (0 : Fin 1) g (⟨k.val, by omega⟩ : Fin 256))
      = (if n % 25 = 0 then (0 : EReal) else d (ix3 (0 : Fin 1) g (⟨k.val, by omega⟩ : Fin 256)))
        + ∑ r ∈ Finset.range 10000, rowTerm m c g (fun p => X m c (ix2 p k)) (n * 10000 + r) := by
  have hn50 : n < 50 := lt_of_lt_of_eq hn N_0
  have h1 : ((grid0.coords ⟨n, hn⟩) 1).val = n % 25 := coords1_grid ⟨n, hn⟩
  refine (seg0_sum (grid0.coords ⟨n, hn⟩) (tmin0 (adm0 m)) (tmax0 (adm0 m)) (iblk0 (adm0 m) (U1 m) c 0 ⟨n, hn⟩)
    (iblk0 (adm0 m) (U1 m) c 1 ⟨n, hn⟩) d (tile_bounds m hId hT c n hn) g k).trans ?_
  have hsum : ∀ r : Fin 10000,
      ((if ((iblk0 (adm0 m) (U1 m) c 1 ⟨n, hn⟩ : Vec Ideal S10000x1 .i32) (ix2 r (0 : Fin 1))).toInt = (g.val : ℤ)
        then (iblk0 (adm0 m) (U1 m) c 0 ⟨n, hn⟩ : Vec Ideal S10000x128 .f32) (ix2 r k) else 0 : EReal))
      = rowTerm m c g (fun p => X m c (ix2 p k)) (n * 10000 + r.val) := by
    intro r
    rw [iblk0_1_apply, iblk0_0_apply, hId c, U1_arg0]
    unfold rowTerm
    rw [dif_pos (by omega : n * 10000 + r.val < 500000)]
  have hS := Finset.sum_congr (s₁ := (Finset.univ : Finset (Fin 10000))) rfl (fun r _ => hsum r)
  rw [h1, hS, Fin.sum_univ_eq_sum_range (fun r => rowTerm m c g (fun p => X m c (ix2 p k)) (n * 10000 + r)) 10000]

/-- At a point the count entry (g, 128 + k) becomes what it was (zero at a core's first point) plus the tile's number of
    rows of graph g. -/
private theorem step_cnt (hId : IdCol m) (hT : Tables0 m) (c : Dev nD) (g : Fin 1024) (k : Fin 128)
    (n : ℕ) (hn : n < (cfg0 (adm0 m)).N) (d : Vec Ideal S1x1024x256 .f32) :
    seg0 (grid0.coords ⟨n, hn⟩) (tmin0 (adm0 m)) (tmax0 (adm0 m)) (iblk0 (adm0 m) (U1 m) c 0 ⟨n, hn⟩) (iblk0 (adm0 m) (U1 m) c 1 ⟨n, hn⟩) d
        (ix3 (0 : Fin 1) g (⟨128 + k.val, by omega⟩ : Fin 256))
      = (if n % 25 = 0 then (0 : EReal) else d (ix3 (0 : Fin 1) g (⟨128 + k.val, by omega⟩ : Fin 256)))
        + ∑ r ∈ Finset.range 10000, rowTerm m c g (fun _ => 1) (n * 10000 + r) := by
  have hn50 : n < 50 := lt_of_lt_of_eq hn N_0
  have h1 : ((grid0.coords ⟨n, hn⟩) 1).val = n % 25 := coords1_grid ⟨n, hn⟩
  refine (seg0_cnt (grid0.coords ⟨n, hn⟩) (tmin0 (adm0 m)) (tmax0 (adm0 m)) (iblk0 (adm0 m) (U1 m) c 0 ⟨n, hn⟩)
    (iblk0 (adm0 m) (U1 m) c 1 ⟨n, hn⟩) d (tile_bounds m hId hT c n hn) g k).trans ?_
  have hsum : ∀ r : Fin 10000,
      ((if ((iblk0 (adm0 m) (U1 m) c 1 ⟨n, hn⟩ : Vec Ideal S10000x1 .i32) (ix2 r (0 : Fin 1))).toInt = (g.val : ℤ)
        then 1 else 0 : EReal))
      = rowTerm m c g (fun _ => 1) (n * 10000 + r.val) := by
    intro r
    rw [iblk0_1_apply, hId c]
    unfold rowTerm
    rw [dif_pos (by omega : n * 10000 + r.val < 500000)]
  have hS := Finset.sum_congr (s₁ := (Finset.univ : Finset (Fin 10000))) rfl (fun r _ => hsum r)
  rw [h1, hS, Fin.sum_univ_eq_sum_range (fun r => rowTerm m c g (fun _ => 1) (n * 10000 + r)) 10000]

/-! ## The per-core accumulation -/

theorem accSum (hId : IdCol m) (hT : Tables0 m) : AccSum m := by
  intro c cc g k
  show acc0 (adm0 m) (U1 m) c (25 * cc.val + 24) _ (ix3 (0 : Fin 1) g (⟨k.val, by omega⟩ : Fin 256)) = _
  rw [acc_run (adm0 m) (U1 m) c g ⟨k.val, by omega⟩ (rowTerm m c g fun p => X m c (ix2 p k))
      (fun n hn d => step_sum m hId hT c g k n hn d) cc.val 24 (by omega) _,
    tiles_eq]
  refine Finset.sum_congr rfl fun n _ => ?_
  unfold rowTerm
  rw [dif_pos (by have := cc.isLt; have := n.isLt; omega : 250000 * cc.val + n.val < 500000)]

theorem accCnt (hId : IdCol m) (hT : Tables0 m) : AccCnt m := by
  intro c cc g k
  show acc0 (adm0 m) (U1 m) c (25 * cc.val + 24) _ (ix3 (0 : Fin 1) g (⟨128 + k.val, by omega⟩ : Fin 256)) = _
  rw [acc_run (adm0 m) (U1 m) c g ⟨128 + k.val, by omega⟩ (rowTerm m c g fun _ => 1)
      (fun n hn d => step_cnt m hId hT c g k n hn d) cc.val 24 (by omega) _,
    tiles_eq]
  refine Finset.sum_congr rfl fun n _ => ?_
  unfold rowTerm
  rw [dif_pos (by have := cc.isLt; have := n.isLt; omega : 250000 * cc.val + n.val < 500000)]

end Cert.KernelIdeal.H

end
-- ==== Proof.KArr0.lean ====
/-
  What the segment-sum region's write-backs leave in its output array: block `cc` is core `cc`'s last table.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KValI
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Sched
variable (a : (pcfg0 (F := Ideal)).Adm)
variable (V : (c : Dev nD) → (b : Ref sig .tc) → Buf (Elt Ideal) ((c : Thread nD τ).loc b))

/-! ## The output window's schedule -/

/-- Over the 50 points: the output's block index moves, or the grid ends, exactly after a point whose position in its
    core's run is the last, 24. -/
private theorem arr0_flush_grid : ∀ t : Fin grid0.N,
    (true && (decide (t.val + 1 = grid0.N) || decide (∃ h : t.val + 1 < grid0.N,
        cc0_transform_2 (grid0.coords ⟨t.val + 1, h⟩) ≠ cc0_transform_2 (grid0.coords t))))
      = decide (t.val % 25 = 24) := by
  decide +kernel

/-- The output block is written back exactly after each core's last point. -/
private theorem arr0_flush (t : Fin (cfg0 a).N) : ((cfg0 a).win 2).flush t = decide (t.val % 25 = 24) :=
  arr0_flush_grid t

/-- Over the 50 points: the output's block index at point `t` is (core, 0, 0), the core being `t / 25`. -/
private theorem arr0_index_grid : ∀ t : Fin grid0.N, cc0_transform_2 (grid0.coords t) = ![t.val / 25, 0, 0] := by
  decide +kernel

private theorem arr0_index (t : Fin (cfg0 a).N) : ((cfg0 a).win 2).index t = ![t.val / 25, 0, 0] :=
  arr0_index_grid t

/-- The running table depends on the position and the index only. -/
private theorem arr0_acc_congr (c : Dev nD) {n n' : ℕ} (h : n = n') (hn : n < (cfg0 a).N) (hn' : n' < (cfg0 a).N)
    {j j' : S1x1024x256.Idx} (hj : j = j') : acc0 a V c n hn j = acc0 a V c n' hn' j' := by
  subst h; subst hj; rfl

/-! ## The array the write-backs build -/

/-- The whole output array as one function: block `cc` is the running table after point `25 cc + 24`, the last point of
    core `cc`. -/
private def arr0_G (c : Dev nD) : S2x1024x256.Idx → EReal := fun j =>
  acc0 a V c (25 * (j 0).val + 24) (lt_of_lt_of_eq (by have : (j 0).val < 2 := (j 0).isLt; omega) (N_0).symm)
    (ix3 (0 : Fin 1) (⟨(j 1).val, (j 1).isLt⟩ : Fin 1024) (⟨(j 2).val, (j 2).isLt⟩ : Fin 256))

/-- What a writing point `t` (so `t % 25 = 24`) writes back is its block of that array: the block sits at
    (t / 25) · 1 + 0 on the first axis and at 0 · 1024 + g, 0 · 256 + kk on the others, and 25 (t / 25) + 24 = t. -/
private theorem arr0_flushed (c : Dev nD) (t : Fin (cfg0 a).N) (hf : ((cfg0 a).win 2).flush t = true) :
    (dat0 a V c).flushed 2 t = (((cfg0 a).win 2).blk t).view.read (Elt Ideal) (arr0_G a V c) := by
  show ((cfg0 a).win 2).cut (grid0.coords t) ((dat0 a V c).after 2 t) = _
  rw [after0_2]
  funext (y : S1x1024x256.Idx)
  have hm : t.val % 25 = 24 := by rw [arr0_flush] at hf; exact of_decide_eq_true hf
  have hi := arr0_index a t
  have h0 : ((cfg0 a).win 2).index t (0 : Fin 3) = t.val / 25 := by rw [hi]; rfl
  have h1 : ((cfg0 a).win 2).index t (1 : Fin 3) = 0 := by rw [hi]; rfl
  have h2 : ((cfg0 a).win 2).index t (2 : Fin 3) = 0 := by rw [hi]; rfl
  have y0 : (y 0).val < 1 := (y 0).isLt
  obtain ⟨e, he⟩ : ∃ e : S2x1024x256.Idx, e = (((cfg0 a).win 2).blk t).view.emb y := ⟨_, rfl⟩
  have e0 : (e 0).val = t.val / 25 := by
    rw [he]
    show ((cfg0 a).win 2).index t (0 : Fin 3) * 1 + 1 * (y 0).val = _
    omega
  have e1 : (e 1).val = (y 1).val := by
    rw [he]
    show ((cfg0 a).win 2).index t (1 : Fin 3) * 1024 + 1 * (y 1).val = _
    omega
  have e2 : (e 2).val = (y 2).val := by
    rw [he]
    show ((cfg0 a).win 2).index t (2 : Fin 3) * 256 + 1 * (y 2).val = _
    omega
  show acc0 a V c t.val t.isLt y = arr0_G a V c ((((cfg0 a).win 2).blk t).view.emb y)
  rw [← he]
  unfold arr0_G
  apply arr0_acc_congr
  · omega
  · funext d; apply Fin.ext
    match d with
    | ⟨0, _⟩ => show (y 0).val = 0; omega
    | ⟨1, _⟩ => exact e1.symm
    | ⟨2, _⟩ => exact e2.symm

/-- An index of the array whose first coordinate is point `t`'s core lies in point `t`'s block: the block is the whole
    table of that core. -/
private theorem arr0_mem_blk (t : Fin (cfg0 a).N) (i : S2x1024x256.Idx) (h : (i 0).val = t.val / 25) :
    i ∈ (((cfg0 a).win 2).blk t).view.set := by
  have hs : (((cfg0 a).win 2).blk t).view.set = (((cfg0 a).win 2).rect t).set := View.set_slice_whole _ _
  rw [hs]
  refine Rect.mem_set_unit.mpr ?_
  have hi := arr0_index a t
  have h0 : ((cfg0 a).win 2).index t (0 : Fin 3) = t.val / 25 := by rw [hi]; rfl
  have h1 : ((cfg0 a).win 2).index t (1 : Fin 3) = 0 := by rw [hi]; rfl
  have h2 : ((cfg0 a).win 2).index t (2 : Fin 3) = 0 := by rw [hi]; rfl
  have i1 : (i 1).val < 1024 := (i 1).isLt
  have i2 : (i 2).val < 256 := (i 2).isLt
  intro d
  match d with
  | ⟨0, _⟩ =>
    show ((cfg0 a).win 2).index t (0 : Fin 3) * 1 ≤ (i 0).val ∧ (i 0).val < ((cfg0 a).win 2).index t (0 : Fin 3) * 1 + 1
    omega
  | ⟨1, _⟩ =>
    show ((cfg0 a).win 2).index t (1 : Fin 3) * 1024 ≤ (i 1).val ∧ (i 1).val < ((cfg0 a).win 2).index t (1 : Fin 3) * 1024 + 1024
    omega
  | ⟨2, _⟩ =>
    show ((cfg0 a).win 2).index t (2 : Fin 3) * 256 ≤ (i 2).val ∧ (i 2).val < ((cfg0 a).win 2).index t (2 : Fin 3) * 256 + 256
    omega

/-- After the run, block `cc` of the output array is the running table after core `cc`'s last point: point
    `25 cc + 24` writes back, its block holds the index, and every writing point writes its block of one array. -/
private theorem arr0_final (c : Dev nD) (cc : Fin 2) (g : Fin 1024) (kk : Fin 256) :
    ((dat0 a V c).arrAt 2 (cfg0 a).N : S2x1024x256.Idx → EReal) (ix3 cc g kk)
      = acc0 a V c (25 * cc.val + 24) (lt_of_lt_of_eq (by omega) (N_0).symm) (ix3 (0 : Fin 1) g kk) := by
  have hN : 25 * cc.val + 24 < (cfg0 a).N := lt_of_lt_of_eq (by omega) (N_0).symm
  have hfl : ((cfg0 a).win 2).flush ⟨25 * cc.val + 24, hN⟩ = true := by
    rw [arr0_flush]; exact decide_eq_true (by show (25 * cc.val + 24) % 25 = 24; omega)
  exact (dat0 a V c).arrAt_apply_of_mem 2 (arr0_G a V c) (arr0_flushed a V c) (cfg0 a).N ⟨25 * cc.val + 24, hN⟩ (ix3 cc g kk) hN hfl
    (arr0_mem_blk a _ _ (by show cc.val = (25 * cc.val + 24) / 25; omega))

end Sched

variable (m : (ℓ : Loc nD τ sig) → Buf (Elt Ideal) ℓ)

/-- The region's output array at its exit is what the write-backs leave, read at the tables the first host stretch
    computed. -/
theorem arrRead0 : ArrRead0 m := by
  intro c cc g kk
  exact (congrFun (W2_arr m c (2 : Fin 3)) (ix3 cc g kk)).trans (arr0_final (adm0 m) (U1 m) c cc g kk)

end Cert.KernelIdeal.H

end
-- ==== Proof.KHost1.lean ====
/-
  What the second host stretch hands the main region: the mean table (the two cores' tables added, sums over counts
  raised to at least one), the two weight blocks, the bias row; the buffers it leaves alone.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KValI
import Idealize.ShloMosaic.Lib.StableHlo.Run
import Idealize.ShloMosaic.PureOps.Ideal.Laws
import Idealize.ShloMosaic.Lib.Pipeline.Value
import Idealize.ShloMosaic.Lib.IdealHost

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The buffers the stretch reads, as launched or as the segment-sum region left them -/

/-- The weights reach the stretch as launched: no host operation and no region writes them. -/
private theorem U2_arg2 (c : Dev nD) : U2 m c main_arg2 = Wt m c :=
  (W2_of_ne m c main_arg2 (by decide)).trans
    (StableHlo.after_of_writes_sub hostOps0 _ hostOps0_writes (by decide))

/-- The bias reaches the stretch as launched. -/
private theorem U2_arg3 (c : Dev nD) : U2 m c main_arg3 = bb m c :=
  (W2_of_ne m c main_arg3 (by decide)).trans
    (StableHlo.after_of_writes_sub hostOps0 _ hostOps0_writes (by decide))

/-! ## The stretch's results as terms over what it reads -/

/-- The bias row is the bias reshaped. -/
private theorem v24_eq (c : Dev nD) :
    U3 m c main_v24 = shapeCast S1x128 (U2 m c main_arg3) shapeCasts_S128_S1x128 := by
  show StableHlo.after hostOps1 (W2 m c) (Proc.devRef .tc main_v24) = _
  after_results
  rfl

/-- The first weight block: the weights transposed, rows 0..127, cast. -/
private theorem v21_eq (c : Dev nD) :
    U3 m c main_v21 = truncf (F := Ideal) .bf16 (extractStridedSlice S128x128 ![0, 0]
      (transpose S256x128 [1, 0] (U2 m c main_arg2) transposes_S128x256_S256x128_1_0) slices_S256x128_S128x128_0_0) bitsLt_bf16_f32 := by
  show StableHlo.after hostOps1 (W2 m c) (Proc.devRef .tc main_v21) = _
  after_results

/-- The second weight block: the weights transposed, rows 128..255, cast. -/
private theorem v23_eq (c : Dev nD) :
    U3 m c main_v23 = truncf (F := Ideal) .bf16 (extractStridedSlice S128x128 ![128, 0]
      (transpose S256x128 [1, 0] (U2 m c main_arg2) transposes_S128x256_S256x128_1_0) slices_S256x128_S128x128_128_0) bitsLt_bf16_f32 := by
  show StableHlo.after hostOps1 (W2 m c) (Proc.devRef .tc main_v23) = _
  after_results

/-- The two cores' tables added: entry (g, kk) of the sum is core 0's plus core 1's. -/
private abbrev sum12 (v : FVec Ideal S2x1024x256 .f32) : FVec Ideal S1024x256 .f32 :=
  addf (F := Ideal) (φ := .f32)
    (shapeCast S1024x256 (extractStridedSlice S1x1024x256 ![0, 0, 0] v slices_S2x1024x256_S1x1024x256_0_0_0) shapeCasts_S1x1024x256_S1024x256)
    (shapeCast S1024x256 (extractStridedSlice S1x1024x256 ![1, 0, 0] v slices_S2x1024x256_S1x1024x256_1_0_0) shapeCasts_S1x1024x256_S1024x256)

/-- The mean table: the summed table's columns 0..127 over its columns 128..255 raised to at least one, cast. -/
private theorem v18_eq (c : Dev nD) :
    U3 m c main_v18 = truncf (F := Ideal) .bf16 (Host.divf (F := Ideal)
      (extractStridedSlice S1024x128 ![0, 0] (sum12 (U2 m c main_v7)) slices_S1024x256_S1024x128_0_0)
      (maximumf (F := Ideal) (extractStridedSlice S1024x128 ![0, 128] (sum12 (U2 m c main_v7)) slices_S1024x256_S1024x128_0_128)
        (broadcastInDim S1024x128 ![] bcast_S_S1024x128 (constant (F := Ideal) S_ .f32 0x3F800000#32)))) bitsLt_bf16_f32 := by
  show StableHlo.after hostOps1 (W2 m c) (Proc.devRef .tc main_v18) = _
  after_results
  rfl

/-! ## The results read at an index -/

/-- One core's slice of the tables, reshaped, read at (g, kk): the tables at (cc, g, kk). -/
private theorem half_apply (v : FVec Ideal S2x1024x256 .f32) (off : Fin 3 → Nat) (h : S2x1024x256.Slices off S1x1024x256)
    (cc : Fin 2) (h0 : off 0 = cc.val) (h1 : off 1 = 0) (h2 : off 2 = 0) (g : Fin 1024) (kk : Fin 256) :
    shapeCast S1024x256 (extractStridedSlice S1x1024x256 off v h) shapeCasts_S1x1024x256_S1024x256 (ix2 g kk) = v (ix3 cc g kk) := by
  refine (shapeCast_apply _ _ (ix2 g kk) (ix3 (0 : Fin 1) g kk)
    (by rw [Shape.rowMajor_val_three, Shape.rowMajor_val_two]
        show (0 * 1024 + g.val) * 256 + kk.val = g.val * 256 + kk.val
        omega)).trans ?_
  exact extractStridedSlice_apply off v h _ (ix3 cc g kk) (fun a => match a with
    | ⟨0, _⟩ => by show cc.val = off 0 + 0; omega
    | ⟨1, _⟩ => by show g.val = off 1 + g.val; omega
    | ⟨2, _⟩ => by show kk.val = off 2 + kk.val; omega)

/-- The summed table at (g, kk) is core 0's entry plus core 1's. -/
private theorem sum12_apply (v : FVec Ideal S2x1024x256 .f32) (g : Fin 1024) (kk : Fin 256) :
    sum12 v (ix2 g kk) = v (ix3 (0 : Fin 2) g kk) + v (ix3 (1 : Fin 2) g kk) := by
  show shapeCast S1024x256 (extractStridedSlice S1x1024x256 ![0, 0, 0] v slices_S2x1024x256_S1x1024x256_0_0_0) shapeCasts_S1x1024x256_S1024x256 (ix2 g kk)
      + shapeCast S1024x256 (extractStridedSlice S1x1024x256 ![1, 0, 0] v slices_S2x1024x256_S1x1024x256_1_0_0) shapeCasts_S1x1024x256_S1024x256 (ix2 g kk) = _
  rw [half_apply v ![0, 0, 0] slices_S2x1024x256_S1x1024x256_0_0_0 0 rfl rfl rfl g kk,
    half_apply v ![1, 0, 0] slices_S2x1024x256_S1x1024x256_1_0_0 1 rfl rfl rfl g kk]

/-- The float constant the counts are raised to is one. -/
private theorem one_f32 : Ideal.ofBits .f32 0x3F800000#32 = 1 := IdealRules.sign_bit.ideal_onePat .f32

/-- The mean table's term at (g, k): the two cores' sums added, over the two cores' counts added and raised to at least one. -/
private theorem mean_apply (v : FVec Ideal S2x1024x256 .f32) (g : Fin 1024) (k : Fin 128) :
    truncf (F := Ideal) .bf16 (Host.divf (F := Ideal)
      (extractStridedSlice S1024x128 ![0, 0] (sum12 v) slices_S1024x256_S1024x128_0_0)
      (maximumf (F := Ideal) (extractStridedSlice S1024x128 ![0, 128] (sum12 v) slices_S1024x256_S1024x128_0_128)
        (broadcastInDim S1024x128 ![] bcast_S_S1024x128 (constant (F := Ideal) S_ .f32 0x3F800000#32)))) bitsLt_bf16_f32 (ix2 g k)
    = Ideal.div (v (ix3 (0 : Fin 2) g (⟨k.val, by omega⟩ : Fin 256)) + v (ix3 (1 : Fin 2) g (⟨k.val, by omega⟩ : Fin 256)))
        (max (v (ix3 (0 : Fin 2) g (⟨128 + k.val, by omega⟩ : Fin 256)) + v (ix3 (1 : Fin 2) g (⟨128 + k.val, by omega⟩ : Fin 256))) 1) := by
  show Ideal.div (extractStridedSlice S1024x128 ![0, 0] (sum12 v) slices_S1024x256_S1024x128_0_0 (ix2 g k))
    (max (extractStridedSlice S1024x128 ![0, 128] (sum12 v) slices_S1024x256_S1024x128_0_128 (ix2 g k))
      (broadcastInDim S1024x128 ![] bcast_S_S1024x128 (constant (F := Ideal) S_ .f32 0x3F800000#32) (ix2 g k))) = _
  rw [extractStridedSlice_apply ![0, 0] (sum12 v) slices_S1024x256_S1024x128_0_0 (ix2 g k) (ix2 g (⟨k.val, by omega⟩ : Fin 256))
      (fun a => match a with
        | ⟨0, _⟩ => by show g.val = 0 + g.val; omega
        | ⟨1, _⟩ => by show k.val = 0 + k.val; omega),
    extractStridedSlice_apply ![0, 128] (sum12 v) slices_S1024x256_S1024x128_0_128 (ix2 g k) (ix2 g (⟨128 + k.val, by omega⟩ : Fin 256))
      (fun a => match a with
        | ⟨0, _⟩ => by show g.val = 0 + g.val; omega
        | ⟨1, _⟩ => by show 128 + k.val = 128 + k.val; rfl),
    broadcastInDim_scalar_apply, constant_apply, one_f32, sum12_apply, sum12_apply]

/-! ## A sum over the nodes of a graph is the two halves' sums -/

/-- A sum over `a + b` indices is the sum over the first `a` plus the sum over the last `b`. -/
private theorem sum_split {N : ℕ} (a b : ℕ) (hN : a + b = N) (h : Fin N → EReal) :
    ∑ n : Fin N, h n = (∑ n : Fin a, h (⟨n.val, by omega⟩ : Fin N)) + ∑ n : Fin b, h (⟨a + n.val, by omega⟩ : Fin N) := by
  subst hN
  exact Fin.sum_univ_add h

/-- A sum over all 500000 nodes is the sum over the first 250000 plus the sum over the last 250000. -/
private theorem sum_halves (h : Fin 500000 → EReal) :
    ∑ n : Fin 500000, h n
      = (∑ n : Fin 250000, h (⟨250000 * (0 : Fin 2).val + n.val, by omega⟩ : Fin 500000))
        + ∑ n : Fin 250000, h (⟨250000 * (1 : Fin 2).val + n.val, by omega⟩ : Fin 500000) := by
  refine (sum_split 250000 250000 (by norm_num) h).trans ?_
  refine congrArg₂ (· + ·) ?_ ?_
  · refine Finset.sum_congr rfl fun n _ => congrArg h (Fin.ext ?_)
    simp
  · refine Finset.sum_congr rfl fun n _ => congrArg h (Fin.ext ?_)
    simp

/-! ## The interfaces -/

theorem meanTab (hS : RawSum m) (hC : RawCnt m) : MeanTab m := by
  intro c g k
  refine (congrFun (v18_eq m c) (ix2 g k)).trans ?_
  rw [mean_apply, hS c 0 g k, hS c 1 g k, hC c 0 g k, hC c 1 g k]
  unfold Cert.Spec.mean Cert.Spec.segSum Cert.Spec.segCnt Cert.Spec.nodes
  rw [Finset.sum_filter, Finset.sum_filter, sum_halves, sum_halves]

theorem w1Blk : W1Blk m := by
  intro c k o
  refine (congrFun (v21_eq m c) (ix2 k o)).trans ?_
  show extractStridedSlice S128x128 ![0, 0] (transpose S256x128 [1, 0] (U2 m c main_arg2) transposes_S128x256_S256x128_1_0)
    slices_S256x128_S128x128_0_0 (ix2 k o) = _
  refine (extractStridedSlice_apply _ _ _ _ (ix2 (⟨k.val, by omega⟩ : Fin 256) o) (fun a => match a with
    | ⟨0, _⟩ => by show k.val = 0 + k.val; omega
    | ⟨1, _⟩ => by show o.val = 0 + o.val; omega)).trans ?_
  refine (transpose_apply _ _ _ _ (ix2 o (⟨k.val, by omega⟩ : Fin 256)) (fun b => match b with
    | ⟨0, _⟩ => rfl
    | ⟨1, _⟩ => rfl)).trans ?_
  rw [U2_arg2]

theorem w2Blk : W2Blk m := by
  intro c k o
  refine (congrFun (v23_eq m c) (ix2 k o)).trans ?_
  show extractStridedSlice S128x128 ![128, 0] (transpose S256x128 [1, 0] (U2 m c main_arg2) transposes_S128x256_S256x128_1_0)
    slices_S256x128_S128x128_128_0 (ix2 k o) = _
  refine (extractStridedSlice_apply _ _ _ _ (ix2 (⟨128 + k.val, by omega⟩ : Fin 256) o) (fun a => match a with
    | ⟨0, _⟩ => by show 128 + k.val = 128 + k.val; rfl
    | ⟨1, _⟩ => by show o.val = 0 + o.val; omega)).trans ?_
  refine (transpose_apply _ _ _ _ (ix2 o (⟨128 + k.val, by omega⟩ : Fin 256)) (fun b => match b with
    | ⟨0, _⟩ => rfl
    | ⟨1, _⟩ => rfl)).trans ?_
  rw [U2_arg2]

theorem biasRow : BiasRow m := by
  intro c o
  refine (congrFun (v24_eq m c) (ix2 (0 : Fin 1) o)).trans ?_
  refine (shapeCast_apply _ _ (ix2 (0 : Fin 1) o) (ValueIdx.ix1 o)
    (by rw [Shape.rowMajor_val_one, Shape.rowMajor_val_two]
        show o.val = 0 * 128 + o.val
        omega)).trans ?_
  rw [U2_arg3]

theorem kept3 : Kept3 m := by
  intro c
  refine ⟨?_, ?_, ?_, ?_⟩
  · -- the node features: an input window of the segment-sum region, written by nothing
    calc U3 m c main_arg0
      _ = W2 m c (Proc.devRef .tc main_arg0) := StableHlo.after_of_writes_sub hostOps1 _ hostOps1_writes (by decide)
      _ = W1 m c (Proc.devRef .tc main_arg0) :=
          (W2_arr m c 0).trans (((dat0 (adm0 m) (U1 m) c).arrAt_in 0 rfl _).trans (A_eq0 (adm0 m) (U1 m) c 0))
      _ = W0 m c (Proc.devRef .tc main_arg0) := StableHlo.after_of_writes_sub hostOps0 _ hostOps0_writes (by decide)
      _ = X m c := rfl
  · -- the id column: an input window of the segment-sum region
    calc U3 m c main_v0
      _ = W2 m c (Proc.devRef .tc main_v0) := StableHlo.after_of_writes_sub hostOps1 _ hostOps1_writes (by decide)
      _ = U1 m c main_v0 :=
          (W2_arr m c 1).trans (((dat0 (adm0 m) (U1 m) c).arrAt_in 1 rfl _).trans (A_eq0 (adm0 m) (U1 m) c 1))
  · -- the main region's lower table: no array of the segment-sum region
    exact (StableHlo.after_of_writes_sub hostOps1 _ hostOps1_writes (by decide)).trans (W2_of_ne m c main_v5 (by decide))
  · exact (StableHlo.after_of_writes_sub hostOps1 _ hostOps1_writes (by decide)).trans (W2_of_ne m c main_v6 (by decide))

end Cert.KernelIdeal.H

end
-- ==== Proof.KArr1.lean ====
/-
  What the main region's write-backs leave in the result array: rows `5000 t ..` are the output block of point `t`.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KValI
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Sched
variable (a : (pcfg1 (F := Ideal)).Adm)
variable (V : (c : Dev nD) → (b : Ref sig .tc) → Buf (Elt Ideal) ((c : Thread nD τ).loc b))

/-! ## The output window's schedule

The output window's block is [5000,128] of the [500000,128] array and its block index at point `t` is `(t, 0)`: the
block of point `t` is rows `5000 t .. 5000 t + 4999`, all 128 columns. The index moves at every point, so every point
writes its block back. None of this reads the prefetched tables, so it is stated at any admissible tables `a`. -/

/-- The output's block index at point `t` is `(t, 0)`. -/
private theorem idx6 : ∀ t : Fin (cfg1 a).N,
    ((cfg1 a).win 6).index t (0 : Fin 2) = t.val ∧ ((cfg1 a).win 6).index t (1 : Fin 2) = 0 :=
  (by decide +kernel : ∀ t : Fin grid1.N,
    cc1_transform_6 (grid1.coords t) (0 : Fin 2) = t.val ∧ cc1_transform_6 (grid1.coords t) (1 : Fin 2) = 0)

/-- Every point writes the output block back: the next point's block index differs, or the grid ends. -/
private theorem flush6 : ∀ t : Fin (cfg1 a).N, ((cfg1 a).win 6).flush t = true :=
  (by decide +kernel : ∀ t : Fin grid1.N,
    (true && (decide (t.val + 1 = grid1.N) || decide (∃ h : t.val + 1 < grid1.N,
        cc1_transform_6 (grid1.coords ⟨t.val + 1, h⟩) ≠ cc1_transform_6 (grid1.coords t)))) = true)

/-- An index of the array is in point `t`'s block iff each coordinate is in the block's range on its axis:
    block index × block size ≤ coordinate < block index × block size + block size. -/
private theorem mem_blk6 (t : Fin (cfg1 a).N) (i : S500000x128.Idx) :
    i ∈ (((cfg1 a).win 6).blk t).view.set ↔ ∀ b : Fin 2,
      ((cfg1 a).win 6).index t b * S5000x128.size b ≤ (i b).val
        ∧ (i b).val < ((cfg1 a).win 6).index t b * S5000x128.size b + S5000x128.size b := by
  have h : (((cfg1 a).win 6).blk t).view.set = (((cfg1 a).win 6).rect t).set := View.set_slice_whole main_v25 _
  exact (Finset.ext_iff.mp h i).trans Rect.mem_set_unit

/-- So an index in point `t`'s block has its row in `5000 t .. 5000 t + 4999`. -/
private theorem rows6 (t : Fin (cfg1 a).N) (i : S500000x128.Idx) (hi : i ∈ (((cfg1 a).win 6).blk t).view.set) :
    5000 * t.val ≤ (i 0).val ∧ (i 0).val < 5000 * t.val + 5000 := by
  have b0 : ((cfg1 a).win 6).index t (0 : Fin 2) * 5000 ≤ (i 0).val
      ∧ (i 0).val < ((cfg1 a).win 6).index t (0 : Fin 2) * 5000 + 5000 := (mem_blk6 a t i).mp hi 0
  obtain ⟨e0, -⟩ := idx6 a t
  omega

/-- Two different points' blocks share no index: their row ranges `5000 t ..` and `5000 t' ..` are apart. -/
private theorem disj6 (t t' : Fin (cfg1 a).N) (h : t ≠ t') :
    Disjoint (((cfg1 a).win 6).blk t).view.set (((cfg1 a).win 6).blk t').view.set := by
  rw [Finset.disjoint_left]
  intro i hi hi'
  have r1 := rows6 a t i hi
  have r2 := rows6 a t' i hi'
  exact h (Fin.ext (by omega))

/-- Where the block's element `(r, o)` of point `t` sits in the array: row `5000 t + r`, column `o`
    (a coordinate in the array is block index × block size + 1 × the coordinate inside the block). -/
private theorem emb6 (t : Fin (cfg1 a).N) (y : S5000x128.Idx) (n : Fin 500000) (hn : n.val = 5000 * t.val + (y 0).val) :
    (((cfg1 a).win 6).blk t).view.emb y = (ix2 n (y 1) : S500000x128.Idx) := by
  obtain ⟨e0, e1⟩ := idx6 a t
  funext b; apply Fin.ext
  match b with
  | ⟨0, _⟩ => show ((cfg1 a).win 6).index t (0 : Fin 2) * 5000 + 1 * (y 0).val = n.val; omega
  | ⟨1, _⟩ => show ((cfg1 a).win 6).index t (1 : Fin 2) * 128 + 1 * (y 1).val = (y 1).val; omega

/-- The array after all the write-backs, read under point `t`'s block, is what point `t` wrote back: the blocks are
    pairwise disjoint, so no later point overwrites it; the window is uncut, so what is written back is the whole
    output block the body left at `t`. -/
private theorem arr6 (c : Dev nD) (t : Fin (cfg1 a).N) (y : S5000x128.Idx) :
    ((dat1 a V c).arrAt 6 (cfg1 a).N : S500000x128.Idx → EReal) ((((cfg1 a).win 6).blk t).view.emb y)
      = outAt1 a V c t y := by
  have h := (dat1 a V c).arrAt_emb_eq_flushed 6 (fun t t' _ _ hne => disj6 a t t' hne) t (flush6 a t) y
  refine h.trans ?_
  show ((cfg1 a).win 6).cut (grid1.coords t) ((dat1 a V c).after 6 t) y = _
  rw [after1_6]
  rfl

end Sched

variable (m : (ℓ : Loc nD τ sig) → Buf (Elt Ideal) ℓ)

/-- The result array at the main region's exit is what the region's write-backs leave in the output window's array;
    row `5000 t + r`, column `o` is element `(r, o)` of point `t`'s block, which holds point `t`'s output block. -/
theorem arrRead1 : ArrRead1 m := by
  intro c t r o
  have hW : W4 m c (Proc.devRef .tc main_v25) = (dat1 (adm1 m) (U3 m) c).arrAt 6 (cfg1 (adm1 m)).N := W4_arr m c 6
  rw [hW]
  have he := emb6 (adm1 m) ⟨t.val, lt_of_lt_of_eq t.isLt (N_1).symm⟩ (ix2 r o) ⟨5000 * t.val + r.val, by omega⟩ rfl
  rw [← he]
  exact arr6 (adm1 m) (U3 m) c ⟨t.val, lt_of_lt_of_eq t.isLt (N_1).symm⟩ (ix2 r o)

end Cert.KernelIdeal.H

end
-- ==== Proof.K1Math.lean ====
/-
  The main kernel's result at one grid point, read at an index.

  The scratch holds, at row r and lane k, the row of the mean table named by the row's id: each of the eight groups
  of 128 table rows adds the product of a 0/1 matrix (entry (r, j) is 1 exactly when the id of row r is lo + j)
  with its 128 table rows, so the one group that holds the id adds the table row and every other group adds a sum of
  zeros or is skipped. The output block is then two 128-term sums (features times the first weight block, scratch
  times the second) plus the bias row.
-/
import proofs.«411499_j60584808678067_2_alg».proof.Proof.K1Defs
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine
import Idealize.ShloMosaic.Lib.WordArith

set_option maxRecDepth 16384

noncomputable section

namespace Cert.KernelIdeal.H

open Cert.KernelIdeal Cert.KernelIdeal.Gen Idealize.ShloMosaic Idealize.ShloMosaic.ValueIdx

/-! ## A 5000×128 by 128×128 product read at an index -/

private theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator at (r, o): the sum over the 128 contracted coordinates. -/
private theorem mm_apply (A : FVec Ideal S5000x128 .bf16) (B : FVec Ideal S128x128 .bf16) (r : Fin 5000) (o : Fin 128) :
    FloatOps.matmul dot_S5000x128_S128x128_S5000x128_1_0_0_1_n_n none A B (constant (F := Ideal) S5000x128 .f32 0x00000000#32) (ix2 r o)
      = ∑ k : Fin 128, A (ix2 r k) * B (ix2 k o) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r o) ((contrEquiv1 dot_S5000x128_S128x128_S5000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 r o) ((contrEquiv1 dot_S5000x128_S128x128_S5000x128_1_0_0_1_n_n 128 rfl rfl).symm k) = ix2 k o := funext fun a => Fin.ext (by
    match a with
    | ⟨0, _⟩ => exact (rhs_mm_0 _ _).trans hk
    | ⟨1, _⟩ => exact rhs_mm_1 _ _)
  rw [el, er]

/-! ## The guard of a group -/

/-- The guard holds exactly when the group's id range meets the tile's, the four words read as signed integers. -/
private theorem on1_iff (lo hi wmin wmax : BitVec 32) :
    on1 lo hi wmin wmax = 1#1 ↔ (lo.toInt ≤ wmax.toInt ∧ wmin.toInt ≤ hi.toInt) := by
  unfold on1
  show IntOp.cmpi .ne ((IntOp.andi (IntOp.cmpi .sge wmax lo) (IntOp.cmpi .sle wmin hi)).setWidth 32) 0#32 = 1#1 ↔ _
  rw [IntOp.cmpi_ne, ← IntOp.cmpi_sge, ← IntOp.cmpi_sle, ← IntOp.andi_eq_one]
  generalize IntOp.andi (IntOp.cmpi .sge wmax lo) (IntOp.cmpi .sle wmin hi) = c
  revert c; decide

/-! ## One group's step -/

/-- A 0/1 entry: the comparison's bit widened and converted is 1 where the words are equal, else 0. -/
private theorem oh_eq (x y : BitVec 32) :
    ((((IntOp.cmpi .eq x y).setWidth 32).toInt : ℝ) : EReal) = if x = y then 1 else 0 := by
  by_cases h : x = y
  · rw [IntOp.cmpi_eq.mpr h, if_pos h]
    have : ((1#1 : BitVec 1).setWidth 32).toInt = 1 := by decide
    rw [this]; norm_num
  · rw [eq_zero_of_ne_one (mt IntOp.cmpi_eq.mp h), if_neg h]
    have : ((0#1 : BitVec 1).setWidth 32).toInt = 0 := by decide
    rw [this]; norm_num

/-- One group's step as every one of the eight payloads spells it: the 0/1 matrix of "id = lane + lo" times the
    group's 128 rows, added to the scratch. -/
private def grp (lo : BitVec 32) (b : IVec S5000x1 32) (rows : FVec Ideal S128x128 .bf16) (s : FVec Ideal S5000x128 .f32) :
    FVec Ideal S5000x128 .f32 :=
  shapeCast S5000x128 (addf s (FloatOps.matmul dot_S5000x128_S128x128_S5000x128_1_0_0_1_n_n none
    (truncf .bf16 (sitofp .f32 (extui 32 (cmpi .eq (broadcastTo S5000x128 b broadcasts_S5000x1_S5000x128)
      (addi (iota .tc S5000x128 32 [1] iota_S5000x128_d1_w32) (broadcast S5000x128 lo))) natLt_1_32)) bitsLt_bf16_f32)
    (shapeCast S128x128 rows shapeCasts_S128x128_S128x128) (constant S5000x128 .f32 0x00000000#32))) shapeCasts_S5000x128_S5000x128

/-- The step at (r, k): the scratch there plus the sum over the group's rows j of [id r = j + lo] times row j at k. -/
private theorem grp_apply (lo : BitVec 32) (b : IVec S5000x1 32) (rows : FVec Ideal S128x128 .bf16) (s : FVec Ideal S5000x128 .f32)
    (r : Fin 5000) (k : Fin 128) :
    grp lo b rows s (ix2 r k)
      = s (ix2 r k) + ∑ j : Fin 128, (if b (ix2 r 0) = BitVec.ofNat 32 j.val + lo then (1 : EReal) else 0) * rows (ix2 j k) := by
  unfold grp
  rw [shapeCast_self, shapeCast_self]
  show s (ix2 r k) + FloatOps.matmul dot_S5000x128_S128x128_S5000x128_1_0_0_1_n_n none _ rows (constant (F := Ideal) S5000x128 .f32 0x00000000#32) (ix2 r k) = _
  rw [mm_apply]
  refine congrArg (s (ix2 r k) + ·) (Finset.sum_congr rfl fun j _ => ?_)
  refine congrArg (· * rows (ix2 j k)) ?_
  show ((((IntOp.cmpi .eq (broadcastTo S5000x128 b broadcasts_S5000x1_S5000x128 (ix2 r j))
    (IntOp.addi (iota .tc S5000x128 32 [1] iota_S5000x128_d1_w32 (ix2 r j)) lo)).setWidth 32).toInt : ℝ) : EReal) = _
  rw [oh_eq, iota_single_apply,
    broadcastTo_apply b broadcasts_S5000x1_S5000x128 (ix2 r j) (ix2 r (0 : Fin 1)) (fun a => match a with
      | ⟨0, _⟩ => by show r.val = if (5000 : ℕ) = 1 then 0 else r.val; rw [if_neg (by decide)]
      | ⟨1, _⟩ => by show 0 = if (1 : ℕ) = 1 then 0 else j.val; rw [if_pos rfl])]
  rfl

/-- A word whose signed reading is a table row number is that number's word. -/
private theorem eq_ofNat_of_toInt {x : BitVec 32} {g : ℕ} (hg : g < 1024) (h : x.toInt = (g : ℤ)) : x = BitVec.ofNat 32 g := by
  apply BitVec.eq_of_toInt_eq
  rw [h, WordArith.toInt_ofNat_small g (by omega)]

/-- The id of a row is lane j of the group at L exactly when it is L + j. -/
private theorem id_eq_iff {x : BitVec 32} {g L : ℕ} (j : Fin 128) (hg : g < 1024) (hL : L + 128 ≤ 1024) (h : x.toInt = (g : ℤ)) :
    x = BitVec.ofNat 32 j.val + BitVec.ofNat 32 L ↔ g = L + j.val := by
  have hj := j.isLt
  rw [eq_ofNat_of_toInt hg h, ← BitVec.ofNat_add]
  constructor
  · intro e
    have e' := congrArg BitVec.toNat e
    rw [BitVec.toNat_ofNat, BitVec.toNat_ofNat, Nat.mod_eq_of_lt (by omega), Nat.mod_eq_of_lt (by omega)] at e'
    omega
  · intro e; rw [e, Nat.add_comm]

/-- A group's 128 table rows, read through its rectangle: row j of the group is row L + j of the table. -/
private theorem ld_rows (L : ℕ) (inb : ∀ a, (![L, 0] : Fin 2 → ℕ) a + S128x128.size a ≤ S1024x128.size a)
    (mn : Vec Ideal S1024x128 .bf16) (j k : Fin 128) (h : L + j.val < 1024) :
    View.ld mn (Rect.unit (s := S1024x128) ![L, 0] S128x128.size inb) (ix2 j k) = mn (ix2 ⟨L + j.val, h⟩ k) := by
  show mn _ = mn _
  refine congrArg mn (funext fun a => Fin.ext ?_)
  match a with
  | ⟨0, _⟩ => show L + 1 * j.val = L + j.val; omega
  | ⟨1, _⟩ => show 0 + 1 * k.val = k.val; omega

/-- ONE GROUP AT (r, k), for a row whose id g lies in the tile's range: the group at L adds row g of the table if
    L ≤ g < L + 128 and nothing otherwise (either its guard fails, and then g is outside it, or every term of its
    sum but possibly lane g - L is a zero times a table entry). -/
private theorem step (L : ℕ) (hL : L + 128 ≤ 1024) (lo hi : BitVec 32) (hlo : lo = BitVec.ofNat 32 L) (hhi : hi = BitVec.ofNat 32 (L + 127))
    (wmin wmax : BitVec 32) (b : IVec S5000x1 32) (rows : FVec Ideal S128x128 .bf16) (mn : Vec Ideal S1024x128 .bf16)
    (hrows : ∀ (j k : Fin 128) (h : L + j.val < 1024), rows (ix2 j k) = mn (ix2 ⟨L + j.val, h⟩ k))
    (s : FVec Ideal S5000x128 .f32) (r : Fin 5000) (k : Fin 128) (g : Fin 1024)
    (hg : (b (ix2 r 0)).toInt = (g.val : ℤ)) (hmin : wmin.toInt ≤ (g.val : ℤ)) (hmax : (g.val : ℤ) ≤ wmax.toInt) :
    (if on1 lo hi wmin wmax = 1#1 then grp lo b rows s else s) (ix2 r k)
      = s (ix2 r k) + (if L ≤ g.val ∧ g.val < L + 128 then mn (ix2 g k) else 0) := by
  have hg' := g.isLt
  have tlo : lo.toInt = (L : ℤ) := by rw [hlo, WordArith.toInt_ofNat_small L (by omega)]
  have thi : hi.toInt = ((L + 127 : ℕ) : ℤ) := by rw [hhi, WordArith.toInt_ofNat_small (L + 127) (by omega)]
  by_cases hon : on1 lo hi wmin wmax = 1#1
  · rw [if_pos hon, grp_apply]
    refine congrArg (s (ix2 r k) + ·) ?_
    by_cases hin : L ≤ g.val ∧ g.val < L + 128
    · rw [if_pos hin]
      have hj0 : g.val - L < 128 := by omega
      rw [Finset.sum_eq_single (⟨g.val - L, hj0⟩ : Fin 128)]
      · rw [if_pos (by rw [hlo]; exact (id_eq_iff ⟨g.val - L, hj0⟩ hg' hL hg).mpr (by show g.val = L + (g.val - L); omega)), one_mul,
          hrows ⟨g.val - L, hj0⟩ k (by show L + (g.val - L) < 1024; omega)]
        refine congrArg (fun t => mn (ix2 t k)) (Fin.ext ?_)
        show L + (g.val - L) = g.val
        omega
      · intro j _ hj
        rw [if_neg (fun e => hj (Fin.ext (by
          have := (id_eq_iff j hg' hL hg).mp (by rw [← hlo]; exact e)
          show j.val = g.val - L
          omega))), zero_mul]
      · intro h; exact absurd (Finset.mem_univ _) h
    · rw [if_neg hin]
      refine Finset.sum_eq_zero fun j _ => ?_
      rw [if_neg (fun e => hin (by
        have := (id_eq_iff j hg' hL hg).mp (by rw [← hlo]; exact e)
        have := j.isLt
        omega)), zero_mul]
  · rw [if_neg hon]
    have hno : ¬(L ≤ g.val ∧ g.val < L + 128) := fun hin => hon ((on1_iff lo hi wmin wmax).mpr (by
      rw [tlo, thi]; push_cast; omega))
    rw [if_neg hno, add_zero]

/-- The id column's shape cast is the identity. -/
private theorem k1_pay2_eq (b : Vec Ideal S5000x1 .i32) : k1_pay2 (F := Ideal) b = b := shapeCast_self _ _

/-- The group of rows 0..127 at (r, k). -/
private theorem acc1_0_apply (wmin wmax : BitVec 32) (b : Vec Ideal S5000x1 .i32) (mn : Vec Ideal S1024x128 .bf16) (s : Vec Ideal S5000x128 .f32)
    (r : Fin 5000) (k : Fin 128) (g : Fin 1024)
    (hg : (b (ix2 r 0)).toInt = (g.val : ℤ)) (hmin : wmin.toInt ≤ (g.val : ℤ)) (hmax : (g.val : ℤ) ≤ wmax.toInt) :
    acc1_0 (F := Ideal) wmin wmax b mn s (ix2 r k) = s (ix2 r k) + (if 0 ≤ g.val ∧ g.val < 0 + 128 then mn (ix2 g k) else 0) := by
  unfold acc1_0
  have e : k1_pay3 b (View.ld mn rM1_0) s = grp 0#32 (k1_pay2 b) (View.ld mn rM1_0) s := rfl
  rw [e, k1_pay2_eq]
  exact step 0 (by decide) 0#32 127#32 rfl rfl wmin wmax b _ mn (fun j k h => ld_rows 0 _ mn j k h) s r k g hg hmin hmax

/-- The group of rows 128..255 at (r, k). -/
private theorem acc1_128_apply (wmin wmax : BitVec 32) (b : Vec Ideal S5000x1 .i32) (mn : Vec Ideal S1024x128 .bf16) (s : Vec Ideal S5000x128 .f32)
    (r : Fin 5000) (k : Fin 128) (g : Fin 1024)
    (hg : (b (ix2 r 0)).toInt = (g.val : ℤ)) (hmin : wmin.toInt ≤ (g.val : ℤ)) (hmax : (g.val : ℤ) ≤ wmax.toInt) :
    acc1_128 (F := Ideal) wmin wmax b mn s (ix2 r k) = s (ix2 r k) + (if 128 ≤ g.val ∧ g.val < 128 + 128 then mn (ix2 g k) else 0) := by
  unfold acc1_128
  have e : k1_pay4 b (View.ld mn rM1_128) s = grp 128#32 (k1_pay2 b) (View.ld mn rM1_128) s := rfl
  rw [e, k1_pay2_eq]
  exact step 128 (by decide) 128#32 255#32 rfl rfl wmin wmax b _ mn (fun j k h => ld_rows 128 _ mn j k h) s r k g hg hmin hmax

/-- The group of rows 256..383 at (r, k). -/
private theorem acc1_256_apply (wmin wmax : BitVec 32) (b : Vec Ideal S5000x1 .i32) (mn : Vec Ideal S1024x128 .bf16) (s : Vec Ideal S5000x128 .f32)
    (r : Fin 5000) (k : Fin 128) (g : Fin 1024)
    (hg : (b (ix2 r 0)).toInt = (g.val : ℤ)) (hmin : wmin.toInt ≤ (g.val : ℤ)) (hmax : (g.val : ℤ) ≤ wmax.toInt) :
    acc1_256 (F := Ideal) wmin wmax b mn s (ix2 r k) = s (ix2 r k) + (if 256 ≤ g.val ∧ g.val < 256 + 128 then mn (ix2 g k) else 0) := by
  unfold acc1_256
  have e : k1_pay5 b (View.ld mn rM1_256) s = grp 256#32 (k1_pay2 b) (View.ld mn rM1_256) s := rfl
  rw [e, k1_pay2_eq]
  exact step 256 (by decide) 256#32 383#32 rfl rfl wmin wmax b _ mn (fun j k h => ld_rows 256 _ mn j k h) s r k g hg hmin hmax

/-- The group of rows 384..511 at (r, k). -/
private theorem acc1_384_apply (wmin wmax : BitVec 32) (b : Vec Ideal S5000x1 .i32) (mn : Vec Ideal S1024x128 .bf16) (s : Vec Ideal S5000x128 .f32)
    (r : Fin 5000) (k : Fin 128) (g : Fin 1024)
    (hg : (b (ix2 r 0)).toInt = (g.val : ℤ)) (hmin : wmin.toInt ≤ (g.val : ℤ)) (hmax : (g.val : ℤ) ≤ wmax.toInt) :
    acc1_384 (F := Ideal) wmin wmax b mn s (ix2 r k) = s (ix2 r k) + (if 384 ≤ g.val ∧ g.val < 384 + 128 then mn (ix2 g k) else 0) := by
  unfold acc1_384
  have e : k1_pay6 b (View.ld mn rM1_384) s = grp 384#32 (k1_pay2 b) (View.ld mn rM1_384) s := rfl
  rw [e, k1_pay2_eq]
  exact step 384 (by decide) 384#32 511#32 rfl rfl wmin wmax b _ mn (fun j k h => ld_rows 384 _ mn j k h) s r k g hg hmin hmax

/-- The group of rows 512..639 at (r, k). -/
private theorem acc1_512_apply (wmin wmax : BitVec 32) (b : Vec Ideal S5000x1 .i32) (mn : Vec Ideal S1024x128 .bf16) (s : Vec Ideal S5000x128 .f32)
    (r : Fin 5000) (k : Fin 128) (g : Fin 1024)
    (hg : (b (ix2 r 0)).toInt = (g.val : ℤ)) (hmin : wmin.toInt ≤ (g.val : ℤ)) (hmax : (g.val : ℤ) ≤ wmax.toInt) :
    acc1_512 (F := Ideal) wmin wmax b mn s (ix2 r k) = s (ix2 r k) + (if 512 ≤ g.val ∧ g.val < 512 + 128 then mn (ix2 g k) else 0) := by
  unfold acc1_512
  have e : k1_pay7 (k1_pay2 b) (View.ld mn rM1_512) s = grp 512#32 (k1_pay2 b) (View.ld mn rM1_512) s := rfl
  rw [e, k1_pay2_eq]
  exact step 512 (by decide) 512#32 639#32 rfl rfl wmin wmax b _ mn (fun j k h => ld_rows 512 _ mn j k h) s r k g hg hmin hmax

/-- The group of rows 640..767 at (r, k). -/
private theorem acc1_640_apply (wmin wmax : BitVec 32) (b : Vec Ideal S5000x1 .i32) (mn : Vec Ideal S1024x128 .bf16) (s : Vec Ideal S5000x128 .f32)
    (r : Fin 5000) (k : Fin 128) (g : Fin 1024)
    (hg : (b (ix2 r 0)).toInt = (g.val : ℤ)) (hmin : wmin.toInt ≤ (g.val : ℤ)) (hmax : (g.val : ℤ) ≤ wmax.toInt) :
    acc1_640 (F := Ideal) wmin wmax b mn s (ix2 r k) = s (ix2 r k) + (if 640 ≤ g.val ∧ g.val < 640 + 128 then mn (ix2 g k) else 0) := by
  unfold acc1_640
  have e : k1_pay8 (k1_pay2 b) (View.ld mn rM1_640) s = grp 640#32 (k1_pay2 b) (View.ld mn rM1_640) s := rfl
  rw [e, k1_pay2_eq]
  exact step 640 (by decide) 640#32 767#32 rfl rfl wmin wmax b _ mn (fun j k h => ld_rows 640 _ mn j k h) s r k g hg hmin hmax

/-- The group of rows 768..895 at (r, k). -/
private theorem acc1_768_apply (wmin wmax : BitVec 32) (b : Vec Ideal S5000x1 .i32) (mn : Vec Ideal S1024x128 .bf16) (s : Vec Ideal S5000x128 .f32)
    (r : Fin 5000) (k : Fin 128) (g : Fin 1024)
    (hg : (b (ix2 r 0)).toInt = (g.val : ℤ)) (hmin : wmin.toInt ≤ (g.val : ℤ)) (hmax : (g.val : ℤ) ≤ wmax.toInt) :
    acc1_768 (F := Ideal) wmin wmax b mn s (ix2 r k) = s (ix2 r k) + (if 768 ≤ g.val ∧ g.val < 768 + 128 then mn (ix2 g k) else 0) := by
  unfold acc1_768
  have e : k1_pay9 (k1_pay2 b) (View.ld mn rM1_768) s = grp 768#32 (k1_pay2 b) (View.ld mn rM1_768) s := rfl
  rw [e, k1_pay2_eq]
  exact step 768 (by decide) 768#32 895#32 rfl rfl wmin wmax b _ mn (fun j k h => ld_rows 768 _ mn j k h) s r k g hg hmin hmax

/-- The group of rows 896..1023 at (r, k). -/
private theorem acc1_896_apply (wmin wmax : BitVec 32) (b : Vec Ideal S5000x1 .i32) (mn : Vec Ideal S1024x128 .bf16) (s : Vec Ideal S5000x128 .f32)
    (r : Fin 5000) (k : Fin 128) (g : Fin 1024)
    (hg : (b (ix2 r 0)).toInt = (g.val : ℤ)) (hmin : wmin.toInt ≤ (g.val : ℤ)) (hmax : (g.val : ℤ) ≤ wmax.toInt) :
    acc1_896 (F := Ideal) wmin wmax b mn s (ix2 r k) = s (ix2 r k) + (if 896 ≤ g.val ∧ g.val < 896 + 128 then mn (ix2 g k) else 0) := by
  unfold acc1_896
  have e : k1_pay10 (k1_pay2 b) (View.ld mn rM1_896) s = grp 896#32 (k1_pay2 b) (View.ld mn rM1_896) s := rfl
  rw [e, k1_pay2_eq]
  exact step 896 (by decide) 896#32 1023#32 rfl rfl wmin wmax b _ mn (fun j k h => ld_rows 896 _ mn j k h) s r k g hg hmin hmax

/-- The scratch starts at zero. -/
private theorem k1_pay1_apply (j : S5000x128.Idx) : k1_pay1 (F := Ideal) j = 0 := by
  unfold k1_pay1
  rw [shapeCast_self]
  exact Ideal.ofBits_zero_f32

/-- Of the eight groups exactly one holds a given row number below 1024. -/
private theorem one_of_eight (g : ℕ) (hg : g < 1024) (x : EReal) :
    ((((((((0 : EReal) + (if 0 ≤ g ∧ g < 0 + 128 then x else 0)) + (if 128 ≤ g ∧ g < 128 + 128 then x else 0))
      + (if 256 ≤ g ∧ g < 256 + 128 then x else 0)) + (if 384 ≤ g ∧ g < 384 + 128 then x else 0))
      + (if 512 ≤ g ∧ g < 512 + 128 then x else 0)) + (if 640 ≤ g ∧ g < 640 + 128 then x else 0))
      + (if 768 ≤ g ∧ g < 768 + 128 then x else 0)) + (if 896 ≤ g ∧ g < 896 + 128 then x else 0) = x := by
  split_ifs <;> first | (exfalso; omega) | simp

/-- THE GATHERED CONTEXT at (r, k): the row of the mean table the row's id names, when the id is a table row number
    inside the tile's id range. -/
theorem gath1_eq (i : grid1.Coords) (tmin tmax : Vec Ideal S100 .i32) (b : Vec Ideal S5000x1 .i32) (mn : Vec Ideal S1024x128 .bf16)
    (r : Fin 5000) (k : Fin 128) (g : Fin 1024) (hg : (b (ix2 r 0)).toInt = (g.val : ℤ))
    (hlo : (word1 tmin i).toInt ≤ (g.val : ℤ)) (hhi : (g.val : ℤ) ≤ (word1 tmax i).toInt) :
    gath1 (F := Ideal) i tmin tmax b mn (ix2 r k) = mn (ix2 g k) := by
  unfold gath1
  rw [acc1_896_apply _ _ b mn _ r k g hg hlo hhi, acc1_768_apply _ _ b mn _ r k g hg hlo hhi,
    acc1_640_apply _ _ b mn _ r k g hg hlo hhi, acc1_512_apply _ _ b mn _ r k g hg hlo hhi,
    acc1_384_apply _ _ b mn _ r k g hg hlo hhi, acc1_256_apply _ _ b mn _ r k g hg hlo hhi,
    acc1_128_apply _ _ b mn _ r k g hg hlo hhi, acc1_0_apply _ _ b mn _ r k g hg hlo hhi, k1_pay1_apply]
  exact one_of_eight g.val g.isLt _

/-- THE OUTPUT BLOCK at (r, o): features times the first weight block plus gathered context times the second, both
    128-term sums, plus the bias row's entry. -/
theorem out1_apply (i : grid1.Coords) (tmin tmax : Vec Ideal S100 .i32) (x : Vec Ideal S5000x128 .f32) (b : Vec Ideal S5000x1 .i32)
    (mn : Vec Ideal S1024x128 .bf16) (w1 w2 : Vec Ideal S128x128 .bf16) (bias : Vec Ideal S1x128 .f32) (r : Fin 5000) (o : Fin 128) :
    out1 (F := Ideal) i tmin tmax x b mn w1 w2 bias (ix2 r o)
      = ((∑ k : Fin 128, x (ix2 r k) * w1 (ix2 k o)) + ∑ k : Fin 128, gath1 (F := Ideal) i tmin tmax b mn (ix2 r k) * w2 (ix2 k o))
        + bias (ix2 (0 : Fin 1) o) := by
  unfold out1 k1_pay11
  generalize gath1 (F := Ideal) i tmin tmax b mn = G
  rw [shapeCast_self, shapeCast_self, shapeCast_self]
  show (FloatOps.matmul dot_S5000x128_S128x128_S5000x128_1_0_0_1_n_n none _ w1 (constant (F := Ideal) S5000x128 .f32 0x00000000#32) (ix2 r o)
      + FloatOps.matmul dot_S5000x128_S128x128_S5000x128_1_0_0_1_n_n none _ w2 (constant (F := Ideal) S5000x128 .f32 0x00000000#32) (ix2 r o))
    + broadcastTo S5000x128 bias broadcasts_S1x128_S5000x128 (ix2 r o) = _
  rw [mm_apply, mm_apply, broadcastTo_1b_ab_apply]
  rfl

end Cert.KernelIdeal.H

end
-- ==== Proof.KVal1.lean ====
/-
  The result array is the specification's function of the arguments: node `n = 5000 t + r`'s row is the output block of
  point `t` at row `r`, whose gathered context is the mean row of the node's graph.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KValI
import proofs.«411499_j60584808678067_2_alg».proof.Proof.K1Math

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The index maps over the grid: windows 0 and 1 move with the point, windows 2 to 5 stay at the origin. -/
private theorem idx_grid : ∀ t : Fin grid1.N,
    cc1_transform_0 (grid1.coords t) = ![t.val, 0] ∧ cc1_transform_1 (grid1.coords t) = ![t.val, 0]
    ∧ cc1_transform_2 (grid1.coords t) = ![0, 0] ∧ cc1_transform_3 (grid1.coords t) = ![0, 0]
    ∧ cc1_transform_4 (grid1.coords t) = ![0, 0] ∧ cc1_transform_5 (grid1.coords t) = ![0, 0] := by
  decide +kernel

/-- The table word's offset at point `t` is `t`. -/
private theorem off_grid : ∀ t : Fin grid1.N, k1_off1 (grid1.coords t) = ![t.val] := by decide +kernel

/-- The tile's word of a 100-entry table is the table's entry `t`. -/
private theorem word1_at (T : Vec Ideal S100 .i32) (t : Fin grid1.N) :
    word1 (F := Ideal) T (grid1.coords t) = T (ValueIdx.ix1 (⟨t.val, lt_of_lt_of_eq t.isLt N_1⟩ : Fin 100)) := by
  unfold word1
  show T _ = T _
  congr 1
  funext b; apply Fin.ext
  match b with
  | ⟨0, _⟩ =>
    show k1_off1 (grid1.coords t) (0 : Fin 1) + 1 * 0 = t.val
    rw [off_grid t]; rfl

section Blocks
variable (a : (pcfg1 (F := Ideal)).Adm)
variable (V : (c : Dev nD) → (b : Ref sig .tc) → Buf (Elt Ideal) ((c : Thread nD τ).loc b))

private theorem idx0 (t : Fin (cfg1 a).N) : ((cfg1 a).win 0).index t = ![t.val, 0] := (idx_grid t).1
private theorem idx1' (t : Fin (cfg1 a).N) : ((cfg1 a).win 1).index t = ![t.val, 0] := (idx_grid t).2.1
private theorem idx2 (t : Fin (cfg1 a).N) : ((cfg1 a).win 2).index t = ![0, 0] := (idx_grid t).2.2.1
private theorem idx3 (t : Fin (cfg1 a).N) : ((cfg1 a).win 3).index t = ![0, 0] := (idx_grid t).2.2.2.1
private theorem idx4 (t : Fin (cfg1 a).N) : ((cfg1 a).win 4).index t = ![0, 0] := (idx_grid t).2.2.2.2.1
private theorem idx5 (t : Fin (cfg1 a).N) : ((cfg1 a).win 5).index t = ![0, 0] := (idx_grid t).2.2.2.2.2

/-- Window 0's block at point `t` is rows `5000 t ..` of the feature array. -/
private theorem blk0_apply (c : Dev nD) (t : Fin (cfg1 a).N) (r : Fin 5000) (k : Fin 128) :
    (iblk1 a V c 0 t : S5000x128.Idx → EReal) (ix2 r k)
      = (V c main_arg0 : S500000x128.Idx → EReal) (ix2 (⟨5000 * t.val + r.val, by have := lt_of_lt_of_eq t.isLt N_1; omega⟩ : Fin 500000) k) := by
  unfold iblk1
  show (V c main_arg0 : S500000x128.Idx → EReal) ((((cfg1 a).win 0).blk t).view.emb (ix2 r k)) = _
  congr 1
  funext b; apply Fin.ext
  have e := idx0 a t
  match b with
  | ⟨0, _⟩ =>
    show ((cfg1 a).win 0).index t (0 : Fin 2) * 5000 + 1 * r.val = 5000 * t.val + r.val
    rw [e]; show t.val * 5000 + 1 * r.val = _; omega
  | ⟨1, _⟩ =>
    show ((cfg1 a).win 0).index t (1 : Fin 2) * 128 + 1 * k.val = k.val
    rw [e]; show 0 * 128 + 1 * k.val = _; omega

/-- Window 1's block at point `t` is rows `5000 t ..` of the id column. -/
private theorem blk1_apply (c : Dev nD) (t : Fin (cfg1 a).N) (r : Fin 5000) :
    (iblk1 a V c 1 t : S5000x1.Idx → BitVec 32) (ix2 r (0 : Fin 1))
      = (V c main_v0 : S500000x1.Idx → BitVec 32) (ix2 (⟨5000 * t.val + r.val, by have := lt_of_lt_of_eq t.isLt N_1; omega⟩ : Fin 500000) (0 : Fin 1)) := by
  unfold iblk1
  show (V c main_v0 : S500000x1.Idx → BitVec 32) ((((cfg1 a).win 1).blk t).view.emb (ix2 r (0 : Fin 1))) = _
  congr 1
  funext b; apply Fin.ext
  have e := idx1' a t
  match b with
  | ⟨0, _⟩ =>
    show ((cfg1 a).win 1).index t (0 : Fin 2) * 5000 + 1 * r.val = 5000 * t.val + r.val
    rw [e]; show t.val * 5000 + 1 * r.val = _; omega
  | ⟨1, _⟩ =>
    show ((cfg1 a).win 1).index t (1 : Fin 2) * 1 + 1 * 0 = 0
    rw [e]; rfl

/-- Window 2's block is the whole mean table. -/
private theorem blk2_apply (c : Dev nD) (t : Fin (cfg1 a).N) (g : Fin 1024) (k : Fin 128) :
    (iblk1 a V c 2 t : S1024x128.Idx → EReal) (ix2 g k) = (V c main_v18 : S1024x128.Idx → EReal) (ix2 g k) := by
  unfold iblk1
  show (V c main_v18 : S1024x128.Idx → EReal) ((((cfg1 a).win 2).blk t).view.emb (ix2 g k)) = _
  congr 1
  funext b; apply Fin.ext
  have e := idx2 a t
  match b with
  | ⟨0, _⟩ =>
    show ((cfg1 a).win 2).index t (0 : Fin 2) * 1024 + 1 * g.val = g.val
    rw [e]; show 0 * 1024 + 1 * g.val = _; omega
  | ⟨1, _⟩ =>
    show ((cfg1 a).win 2).index t (1 : Fin 2) * 128 + 1 * k.val = k.val
    rw [e]; show 0 * 128 + 1 * k.val = _; omega

/-- Window 3's block is the whole first weight block. -/
private theorem blk3_apply (c : Dev nD) (t : Fin (cfg1 a).N) (k o : Fin 128) :
    (iblk1 a V c 3 t : S128x128.Idx → EReal) (ix2 k o) = (V c main_v21 : S128x128.Idx → EReal) (ix2 k o) := by
  unfold iblk1
  show (V c main_v21 : S128x128.Idx → EReal) ((((cfg1 a).win 3).blk t).view.emb (ix2 k o)) = _
  congr 1
  funext b; apply Fin.ext
  have e := idx3 a t
  match b with
  | ⟨0, _⟩ =>
    show ((cfg1 a).win 3).index t (0 : Fin 2) * 128 + 1 * k.val = k.val
    rw [e]; show 0 * 128 + 1 * k.val = _; omega
  | ⟨1, _⟩ =>
    show ((cfg1 a).win 3).index t (1 : Fin 2) * 128 + 1 * o.val = o.val
    rw [e]; show 0 * 128 + 1 * o.val = _; omega

/-- Window 4's block is the whole second weight block. -/
private theorem blk4_apply (c : Dev nD) (t : Fin (cfg1 a).N) (k o : Fin 128) :
    (iblk1 a V c 4 t : S128x128.Idx → EReal) (ix2 k o) = (V c main_v23 : S128x128.Idx → EReal) (ix2 k o) := by
  unfold iblk1
  show (V c main_v23 : S128x128.Idx → EReal) ((((cfg1 a).win 4).blk t).view.emb (ix2 k o)) = _
  congr 1
  funext b; apply Fin.ext
  have e := idx4 a t
  match b with
  | ⟨0, _⟩ =>
    show ((cfg1 a).win 4).index t (0 : Fin 2) * 128 + 1 * k.val = k.val
    rw [e]; show 0 * 128 + 1 * k.val = _; omega
  | ⟨1, _⟩ =>
    show ((cfg1 a).win 4).index t (1 : Fin 2) * 128 + 1 * o.val = o.val
    rw [e]; show 0 * 128 + 1 * o.val = _; omega

/-- Window 5's block is the whole bias row. -/
private theorem blk5_apply (c : Dev nD) (t : Fin (cfg1 a).N) (o : Fin 128) :
    (iblk1 a V c 5 t : S1x128.Idx → EReal) (ix2 (0 : Fin 1) o) = (V c main_v24 : S1x128.Idx → EReal) (ix2 (0 : Fin 1) o) := by
  unfold iblk1
  show (V c main_v24 : S1x128.Idx → EReal) ((((cfg1 a).win 5).blk t).view.emb (ix2 (0 : Fin 1) o)) = _
  congr 1
  funext b; apply Fin.ext
  have e := idx5 a t
  match b with
  | ⟨0, _⟩ =>
    show ((cfg1 a).win 5).index t (0 : Fin 2) * 1 + 1 * 0 = 0
    rw [e]; rfl
  | ⟨1, _⟩ =>
    show ((cfg1 a).win 5).index t (1 : Fin 2) * 128 + 1 * o.val = o.val
    rw [e]; show 0 * 128 + 1 * o.val = _; omega
end Blocks

section Main
variable (m : (ℓ : Loc nD τ sig) → Buf (Elt Ideal) ℓ)

/-- The main call's tables are the tables as the second host stretch leaves them. -/
private theorem adm1_tab (k : Fin 2) : (adm1 m).1 k = U3 m c₀ (pre1.ref k) := by unfold adm1; rfl
private theorem tmin_eq : tmin1 (adm1 m) = (U3 m c₀ main_v5 : S100.Idx → BitVec 32) := adm1_tab m 0
private theorem tmax_eq : tmax1 (adm1 m) = (U3 m c₀ main_v6 : S100.Idx → BitVec 32) := adm1_tab m 1

theorem result (hb : ∀ c : Dev nD, Cert.Spec.InRange (B m c)) (hA : ArrRead1 m) (hId : IdCol m) (hT : Tables1 m)
    (hM : MeanTab m) (h1 : W1Blk m) (h2 : W2Blk m) (hB : BiasRow m) (hK : Kept3 m) : Result m := by
  intro c
  obtain rfl := dev_eq c
  funext j
  obtain ⟨n, o, rfl⟩ : ∃ (n : Fin 500000) (o : Fin 128), j = ix2 n o := ⟨j 0, j 1, eq_ix2 j⟩
  rw [Cert.Spec.G_ix2]
  obtain ⟨t, r, rfl⟩ : ∃ (t : Fin 100) (r : Fin 5000), n = (⟨5000 * t.val + r.val, by omega⟩ : Fin 500000) :=
    ⟨⟨n.val / 5000, by have := n.isLt; omega⟩, ⟨n.val % 5000, Nat.mod_lt _ (by norm_num)⟩,
      Fin.ext (by show n.val = 5000 * (n.val / 5000) + n.val % 5000; omega)⟩
  rw [hA c₀ t r o]
  unfold outAt1
  refine (out1_apply _ _ _ _ _ _ _ _ _ r o).trans ?_
  unfold Cert.Spec.Gat
  obtain ⟨kX, kId, kMin, kMax⟩ := hK c₀
  -- the node, its id and its graph
  have hnn : 5000 * t.val + r.val < 500000 := by omega
  have hbn := hb c₀ ⟨5000 * t.val + r.val, hnn⟩
  have hid : (iblk1 (adm1 m) (U3 m) c₀ 1 ⟨t.val, lt_of_lt_of_eq t.isLt (N_1).symm⟩ : S5000x1.Idx → BitVec 32) (ix2 r (0 : Fin 1))
      = B m c₀ (ValueIdx.ix1 (⟨5000 * t.val + r.val, hnn⟩ : Fin 500000)) := by
    rw [blk1_apply, kId]; exact hId c₀ _
  have hg : ((iblk1 (adm1 m) (U3 m) c₀ 1 ⟨t.val, lt_of_lt_of_eq t.isLt (N_1).symm⟩ : S5000x1.Idx → BitVec 32) (ix2 r (0 : Fin 1))).toInt
      = ((Cert.Spec.gid (B m c₀) ⟨5000 * t.val + r.val, hnn⟩).val : ℤ) := by
    rw [hid]
    show _ = ((min (B m c₀ (ValueIdx.ix1 (⟨5000 * t.val + r.val, hnn⟩ : Fin 500000))).toInt.toNat 1023 : ℕ) : ℤ)
    omega
  -- the tile's two words bound the id
  have en : (⟨t.val * 5000 + r.val, by omega⟩ : Fin 500000) = ⟨5000 * t.val + r.val, hnn⟩ := Fin.ext (by show t.val * 5000 + r.val = 5000 * t.val + r.val; omega)
  have hTT := hT c₀ t r
  rw [en] at hTT
  have hlo : (word1 (F := Ideal) (tmin1 (adm1 m)) (grid1.coords ⟨t.val, lt_of_lt_of_eq t.isLt (N_1).symm⟩)).toInt
      ≤ ((Cert.Spec.gid (B m c₀) ⟨5000 * t.val + r.val, hnn⟩).val : ℤ) := by
    rw [word1_at, tmin_eq, kMin, ← hg, hid]; exact hTT.1
  have hhi : ((Cert.Spec.gid (B m c₀) ⟨5000 * t.val + r.val, hnn⟩).val : ℤ)
      ≤ (word1 (F := Ideal) (tmax1 (adm1 m)) (grid1.coords ⟨t.val, lt_of_lt_of_eq t.isLt (N_1).symm⟩)).toInt := by
    rw [word1_at, tmax_eq, kMax, ← hg, hid]; exact hTT.2
  refine congrArg₂ (· + ·) (congrArg₂ (· + ·) ?_ ?_) ?_
  ·
    refine Finset.sum_congr rfl fun k _ => ?_
    refine congrArg₂ (· * ·) ?_ ?_
    · exact (blk0_apply (adm1 m) (U3 m) c₀ ⟨t.val, lt_of_lt_of_eq t.isLt (N_1).symm⟩ r k).trans (congrFun kX _)
    · exact (blk3_apply (adm1 m) (U3 m) c₀ ⟨t.val, lt_of_lt_of_eq t.isLt (N_1).symm⟩ k o).trans (h1 c₀ k o)
  ·
    refine Finset.sum_congr rfl fun k _ => ?_
    refine congrArg₂ (· * ·) ?_ ?_
    · exact (gath1_eq _ _ _ _ (iblk1 (adm1 m) (U3 m) c₀ 2 ⟨t.val, lt_of_lt_of_eq t.isLt (N_1).symm⟩) r k _ hg hlo hhi).trans
        ((blk2_apply (adm1 m) (U3 m) c₀ ⟨t.val, lt_of_lt_of_eq t.isLt (N_1).symm⟩ _ k).trans (hM c₀ _ k))
    · exact (blk4_apply (adm1 m) (U3 m) c₀ ⟨t.val, lt_of_lt_of_eq t.isLt (N_1).symm⟩ k o).trans (h2 c₀ k o)
  ·
    exact (blk5_apply (adm1 m) (U3 m) c₀ ⟨t.val, lt_of_lt_of_eq t.isLt (N_1).symm⟩ o).trans (hB c₀ o)
end Main

end Cert.KernelIdeal.H

end
-- ==== Proof.KIdeal.lean ====
/-
  The kernel program at the ideal instance: its run ends with the result array at the specification's function of the
  argument arrays.

  The pieces: the run (every weakly fair execution terminates; the result array ends at the last boundary's contents;
  the arguments end as launched), what each host stretch computes, what each region's write-backs leave, the
  per-core accumulation of the segment sums, and the per-node equation of the main region.
-/
import proofs.«411499_j60584808678067_2_alg».proof.Proof.Gen.KernelIdeal.Launch
import proofs.«411499_j60584808678067_2_alg».proof.Proof.Gen.KernelIdeal.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.KValI
import proofs.«411499_j60584808678067_2_alg».proof.Proof.KRun
import proofs.«411499_j60584808678067_2_alg».proof.Proof.K0Body
import proofs.«411499_j60584808678067_2_alg».proof.Proof.K1Body
import proofs.«411499_j60584808678067_2_alg».proof.Proof.KHost0
import proofs.«411499_j60584808678067_2_alg».proof.Proof.KAcc0
import proofs.«411499_j60584808678067_2_alg».proof.Proof.KArr0
import proofs.«411499_j60584808678067_2_alg».proof.Proof.KHost1
import proofs.«411499_j60584808678067_2_alg».proof.Proof.KArr1
import proofs.«411499_j60584808678067_2_alg».proof.Proof.KVal1

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The segment-sum region's output array holds each core's half sums … -/
theorem rawSum : RawSum m := fun c cc g k =>
  (arrRead0 m c cc g _).trans (accSum m (idCol m) (tables0 m) c cc g k)
/-- … and half counts. -/
theorem rawCnt : RawCnt m := fun c cc g k =>
  (arrRead0 m c cc g _).trans (accCnt m (idCol m) (tables0 m) c cc g k)

/-- With every graph id in range, the result array ends at the specification's function of the arguments. -/
theorem result_eq (hb : ∀ c : Dev nD, Cert.Spec.InRange (B m c)) : Result m :=
  result m hb (arrRead1 m) (idCol m) (tables1 m) (meanTab m (rawSum m) (rawCnt m)) (w1Blk m) (w2Blk m) (biasRow m) (kept3 m)

/-- THE KERNEL'S RUN AT `Ideal`: it terminates, the result is the specification's, the arguments are unchanged. -/
theorem kernel_run (ρ : Dev nD → PrngReg) (hb : ∀ c : Dev nD, Cert.Spec.InRange (B m c)) :
    θ_run defs (onTc (τ := τ) (main (F := Ideal))) ⟨m, fun _ => 0, ρ⟩ (fun r => ∀ c : Dev nD,
      r.2.mem ((c.tc : Thread nD τ).loc main_v25) = Cert.Spec.G (X m c) (B m c) (Wt m c) (bb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1).trans (result_eq m hb c), (h c).2⟩)
    (run_main (F := Ideal) m ρ (fun c E i a2 h2 a3 h3 a4 h4 a5 h5 a6 h6 tmin tmax x b d K => sound_kernel0 c E i a2 h2 a3 h3 a4 h4 a5 h5 a6 h6 tmin tmax x b d K)
      (fun c E i a1 h1 a2 h2 a3 h3 a4 h4 a5 h5 a6 h6 a7 h7 a8 h8 a9 h9 a10 h10 tmin tmax x b mn w1 w2 bias K =>
        sound_kernel1 c E i a1 h1 a2 h2 a3 h3 a4 h4 a5 h5 a6 h6 a7 h7 a8 h8 a9 h9 a10 h10 tmin tmax x b mn w1 w2 bias K))

end Cert.KernelIdeal.H

end
-- ==== Proof.Bits.K0Defs.lean ====
/-
  What the segment-sum kernel leaves in its output block at one grid point.

  The output block is one core's table of 1024 graph rows by 256 columns: columns 0..127 hold the running sums of the
  node features, columns 128..255 the running node counts (the same count in every column). At a point the body first
  clears the whole table if the point is the first of its core, then visits the eight groups of 128 graph rows: a group
  whose id range `[lo, lo + 127]` meets the tile's id range `[wmin, wmax]` (the two table words of the tile) has the
  tile's contribution added to its sum tile and to its count tile; another group is left as it is.
-/
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of a 50-entry table that belongs to the point's tile (tile `25 · core + step`). -/
def word0 (t : Vec F S50 .i32) (i : grid0.Coords) : BitVec 32 :=
  View.ld t (Rect.unit (s := S50) (k0_off1 i) S1.size (k0_off1_inb i)) (Shape.Idx.first (numel1_S1.symm ▸ Nat.one_pos))

/-- The whole table. -/
abbrev rAll0 : Rect S1x1024x256 := Rect.unit (s := S1x1024x256) ![0, 0, 0] S1x1024x256.size inb_S1x1024x256_S1x1024x256_0_0_0
/-- Rows 0..127: the sum tile (columns 0..127) and the count tile (columns 128..255). -/
abbrev rS0_0 : Rect S1x1024x256 := Rect.unit (s := S1x1024x256) ![0, 0, 0] S1x128x128.size inb_S1x1024x256_S1x128x128_0_0_0
abbrev rC0_0 : Rect S1x1024x256 := Rect.unit (s := S1x1024x256) ![0, 0, 128] S1x128x128.size inb_S1x1024x256_S1x128x128_0_0_128
/-- Rows 128..255: the sum tile (columns 0..127) and the count tile (columns 128..255). -/
abbrev rS0_128 : Rect S1x1024x256 := Rect.unit (s := S1x1024x256) ![0, 128, 0] S1x128x128.size inb_S1x1024x256_S1x128x128_0_128_0
abbrev rC0_128 : Rect S1x1024x256 := Rect.unit (s := S1x1024x256) ![0, 128, 128] S1x128x128.size inb_S1x1024x256_S1x128x128_0_128_128
/-- Rows 256..383: the sum tile (columns 0..127) and the count tile (columns 128..255). -/
abbrev rS0_256 : Rect S1x1024x256 := Rect.unit (s := S1x1024x256) ![0, 256, 0] S1x128x128.size inb_S1x1024x256_S1x128x128_0_256_0
abbrev rC0_256 : Rect S1x1024x256 := Rect.unit (s := S1x1024x256) ![0, 256, 128] S1x128x128.size inb_S1x1024x256_S1x128x128_0_256_128
/-- Rows 384..511: the sum tile (columns 0..127) and the count tile (columns 128..255). -/
abbrev rS0_384 : Rect S1x1024x256 := Rect.unit (s := S1x1024x256) ![0, 384, 0] S1x128x128.size inb_S1x1024x256_S1x128x128_0_384_0
abbrev rC0_384 : Rect S1x1024x256 := Rect.unit (s := S1x1024x256) ![0, 384, 128] S1x128x128.size inb_S1x1024x256_S1x128x128_0_384_128
/-- Rows 512..639: the sum tile (columns 0..127) and the count tile (columns 128..255). -/
abbrev rS0_512 : Rect S1x1024x256 := Rect.unit (s := S1x1024x256) ![0, 512, 0] S1x128x128.size inb_S1x1024x256_S1x128x128_0_512_0
abbrev rC0_512 : Rect S1x1024x256 := Rect.unit (s := S1x1024x256) ![0, 512, 128] S1x128x128.size inb_S1x1024x256_S1x128x128_0_512_128
/-- Rows 640..767: the sum tile (columns 0..127) and the count tile (columns 128..255). -/
abbrev rS0_640 : Rect S1x1024x256 := Rect.unit (s := S1x1024x256) ![0, 640, 0] S1x128x128.size inb_S1x1024x256_S1x128x128_0_640_0
abbrev rC0_640 : Rect S1x1024x256 := Rect.unit (s := S1x1024x256) ![0, 640, 128] S1x128x128.size inb_S1x1024x256_S1x128x128_0_640_128
/-- Rows 768..895: the sum tile (columns 0..127) and the count tile (columns 128..255). -/
abbrev rS0_768 : Rect S1x1024x256 := Rect.unit (s := S1x1024x256) ![0, 768, 0] S1x128x128.size inb_S1x1024x256_S1x128x128_0_768_0
abbrev rC0_768 : Rect S1x1024x256 := Rect.unit (s := S1x1024x256) ![0, 768, 128] S1x128x128.size inb_S1x1024x256_S1x128x128_0_768_128
/-- Rows 896..1023: the sum tile (columns 0..127) and the count tile (columns 128..255). -/
abbrev rS0_896 : Rect S1x1024x256 := Rect.unit (s := S1x1024x256) ![0, 896, 0] S1x128x128.size inb_S1x1024x256_S1x128x128_0_896_0
abbrev rC0_896 : Rect S1x1024x256 := Rect.unit (s := S1x1024x256) ![0, 896, 128] S1x128x128.size inb_S1x1024x256_S1x128x128_0_896_128

/-- The table cleared at the first point of a core, else as found. -/
def clr0 (i : grid0.Coords) (d : Vec F S1x1024x256 .f32) : Vec F S1x1024x256 .f32 :=
  if k0_cond1 i = 1#1 then View.over d [⟨rAll0, k0_pay16 (F := F)⟩] else d

/-- Rows 0..127 under their guard: the tile's sums added into the sum tile, its counts into the count tile. -/
def grp0_0 (wmin wmax : BitVec 32) (x : Vec F S10000x128 .f32) (b : Vec F S10000x1 .i32) (d : Vec F S1x1024x256 .f32) : Vec F S1x1024x256 .f32 :=
  if k0_cond2 wmin wmax = 1#1 then
    View.over d [⟨rC0_0, k0_pay22 b (View.ld d rC0_0)⟩, ⟨rS0_0, k0_pay21 x b (View.ld d rS0_0)⟩]
  else d

/-- Rows 128..255 under their guard: the tile's sums added into the sum tile, its counts into the count tile. -/
def grp0_128 (wmin wmax : BitVec 32) (x : Vec F S10000x128 .f32) (b : Vec F S10000x1 .i32) (d : Vec F S1x1024x256 .f32) : Vec F S1x1024x256 .f32 :=
  if k0_cond3 wmin wmax = 1#1 then
    View.over d [⟨rC0_128, k0_pay25 b (View.ld d rC0_128)⟩, ⟨rS0_128, k0_pay24 x b (View.ld d rS0_128)⟩]
  else d

/-- Rows 256..383 under their guard: the tile's sums added into the sum tile, its counts into the count tile. -/
def grp0_256 (wmin wmax : BitVec 32) (x : Vec F S10000x128 .f32) (b : Vec F S10000x1 .i32) (d : Vec F S1x1024x256 .f32) : Vec F S1x1024x256 .f32 :=
  if k0_cond4 wmin wmax = 1#1 then
    View.over d [⟨rC0_256, k0_pay28 b (View.ld d rC0_256)⟩, ⟨rS0_256, k0_pay27 x b (View.ld d rS0_256)⟩]
  else d

/-- Rows 384..511 under their guard: the tile's sums added into the sum tile, its counts into the count tile. -/
def grp0_384 (wmin wmax : BitVec 32) (x : Vec F S10000x128 .f32) (b : Vec F S10000x1 .i32) (d : Vec F S1x1024x256 .f32) : Vec F S1x1024x256 .f32 :=
  if k0_cond5 wmin wmax = 1#1 then
    View.over d [⟨rC0_384, k0_pay3 (k0_pay18 b) (k0_pay19 (F := F)) (View.ld d rC0_384)⟩, ⟨rS0_384, k0_pay2 (k0_pay17 x) (k0_pay18 b) (View.ld d rS0_384)⟩]
  else d

/-- Rows 512..639 under their guard: the tile's sums added into the sum tile, its counts into the count tile. -/
def grp0_512 (wmin wmax : BitVec 32) (x : Vec F S10000x128 .f32) (b : Vec F S10000x1 .i32) (d : Vec F S1x1024x256 .f32) : Vec F S1x1024x256 .f32 :=
  if k0_cond6 wmin wmax = 1#1 then
    View.over d [⟨rC0_512, k0_pay6 (k0_pay18 b) (k0_pay19 (F := F)) (View.ld d rC0_512)⟩, ⟨rS0_512, k0_pay5 (k0_pay17 x) (k0_pay18 b) (View.ld d rS0_512)⟩]
  else d

/-- Rows 640..767 under their guard: the tile's sums added into the sum tile, its counts into the count tile. -/
def grp0_640 (wmin wmax : BitVec 32) (x : Vec F S10000x128 .f32) (b : Vec F S10000x1 .i32) (d : Vec F S1x1024x256 .f32) : Vec F S1x1024x256 .f32 :=
  if k0_cond7 wmin wmax = 1#1 then
    View.over d [⟨rC0_640, k0_pay9 (k0_pay18 b) (k0_pay19 (F := F)) (View.ld d rC0_640)⟩, ⟨rS0_640, k0_pay8 (k0_pay17 x) (k0_pay18 b) (View.ld d rS0_640)⟩]
  else d

/-- Rows 768..895 under their guard: the tile's sums added into the sum tile, its counts into the count tile. -/
def grp0_768 (wmin wmax : BitVec 32) (x : Vec F S10000x128 .f32) (b : Vec F S10000x1 .i32) (d : Vec F S1x1024x256 .f32) : Vec F S1x1024x256 .f32 :=
  if k0_cond8 wmin wmax = 1#1 then
    View.over d [⟨rC0_768, k0_pay12 (k0_pay18 b) (k0_pay19 (F := F)) (View.ld d rC0_768)⟩, ⟨rS0_768, k0_pay11 (k0_pay17 x) (k0_pay18 b) (View.ld d rS0_768)⟩]
  else d

/-- Rows 896..1023 under their guard: the tile's sums added into the sum tile, its counts into the count tile. -/
def grp0_896 (wmin wmax : BitVec 32) (x : Vec F S10000x128 .f32) (b : Vec F S10000x1 .i32) (d : Vec F S1x1024x256 .f32) : Vec F S1x1024x256 .f32 :=
  if k0_cond9 wmin wmax = 1#1 then
    View.over d [⟨rC0_896, k0_pay15 (k0_pay18 b) (k0_pay19 (F := F)) (View.ld d rC0_896)⟩, ⟨rS0_896, k0_pay14 (k0_pay17 x) (k0_pay18 b) (View.ld d rS0_896)⟩]
  else d

/-- THE POINT'S RESULT: the table after the body at point `i`, from the two tables of tile id ranges, the tile's feature
    block `x` and id block `b`, and what the table held before. -/
def seg0 (i : grid0.Coords) (tmin tmax : Vec F S50 .i32) (x : Vec F S10000x128 .f32) (b : Vec F S10000x1 .i32)
    (d : Vec F S1x1024x256 .f32) : Vec F S1x1024x256 .f32 :=
  let wmin := word0 tmin i
  let wmax := word0 tmax i
  grp0_896 wmin wmax x b (grp0_768 wmin wmax x b (grp0_640 wmin wmax x b (grp0_512 wmin wmax x b (grp0_384 wmin wmax x b
    (grp0_256 wmin wmax x b (grp0_128 wmin wmax x b (grp0_0 wmin wmax x b (clr0 i d))))))))

end Cert.Kernel.H

end
-- ==== Proof.Bits.KDat0D.lean ====
/-
  The proof data of the segment-sum call: definitions.

  The call's grid has 50 points, 25 per core. After the body at a point, windows 0 and 1 (the node features and ids)
  hold their blocks, and window 2 (one core's table of sums and counts) holds the running table `acc0`: each core's run of
  25 points accumulates from a cleared table.
-/
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.Bits.K0Defs
import Idealize.ShloMosaic.Lib.Pipeline.Frame
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section D0
variable (a0 : (pcfg0 (F := F)).Adm)
variable (V : (c : Dev nD) → (b : Ref sig .tc) → Buf (Elt F) ((c : Thread nD τ).loc b))

/-- The two prefetched tables of the segment-sum call: each tile's smallest and largest graph id. -/
abbrev tmin0 : Vec F S50 .i32 := a0.1 0
abbrev tmax0 : Vec F S50 .i32 := a0.1 1

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- The running table: what the output block holds after the body at position `n`, each core's run of 25 points
    starting from a cleared table. -/
def acc0 (c : Dev nD) : (n : ℕ) → n < (cfg0 a0).N → Vec F S1x1024x256 .f32
  | 0, hn => seg0 (grid0.coords ⟨0, hn⟩) (tmin0 a0) (tmax0 a0) (iblk0 a0 V c 0 ⟨0, hn⟩) (iblk0 a0 V c 1 ⟨0, hn⟩) (k0_pay16 (F := F))
  | n + 1, hn => seg0 (grid0.coords ⟨n + 1, hn⟩) (tmin0 a0) (tmax0 a0) (iblk0 a0 V c 0 ⟨n + 1, hn⟩) (iblk0 a0 V c 1 ⟨n + 1, hn⟩)
      (if (n + 1) % 25 = 0 then k0_pay16 (F := F) else acc0 c n (Nat.lt_of_succ_lt hn))

def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => acc0 a0 V c t.val t.isLt
  Φ _ := iprop(Pipeline.prefHeld (Ix := Unit) (Name := ℕ) (U := UR sig nD τ) (Lvl := ℕ) pre0 c (fun _ => fullShare) a0.1 ∗ Pipeline.ΦA spec0 c)
  q _ := fullShare
  owed _ := 0

theorem A_eq0 (c : Dev nD) (w : Fin (cfg0 a0).W) : (dat0 a0 V c).A w = V c (Pipeline.arrRef spec0 w) := by
  dsimp only [dat0]
theorem after0_0 (c : Dev nD) (t : Fin (cfg0 a0).N) : (dat0 a0 V c).after 0 t = iblk0 a0 V c 0 t := by dsimp only [dat0]; rfl
theorem after0_1 (c : Dev nD) (t : Fin (cfg0 a0).N) : (dat0 a0 V c).after 1 t = iblk0 a0 V c 1 t := by dsimp only [dat0]; rfl
theorem after0_2 (c : Dev nD) (t : Fin (cfg0 a0).N) : (dat0 a0 V c).after 2 t = acc0 a0 V c t.val t.isLt := by dsimp only [dat0]; rfl

/-- The body's call at point `t`, as the label table spells it. -/
abbrev bodyAt0 (t : Fin (cfg0 a0).N) : Prog (TpuEff nD τ sig (Elt F) Λ₀ .tc) PUnit :=
  cc0__seg_sum_kernel (grid0.coords t) (Memref.whole main_v2) (Memref.isWhole_whole _) (Memref.whole main_v3) (Memref.isWhole_whole _)
    (spec0_0.stage ((cfg0 a0).slots t 0)) (hstage0_0 (((cfg0 a0).slots t 0).cast nbuf0_0))
    (spec0_1.stage ((cfg0 a0).slots t 1)) (hstage0_1 (((cfg0 a0).slots t 1).cast nbuf0_1))
    (spec0_2.stage ((cfg0 a0).slots t 2)) (hstage0_2 (((cfg0 a0).slots t 2).cast nbuf0_2))

/-- The body's triple as a proposition: what the segment-sum kernel's own module proves, and what the body obligation
    takes as its hypothesis. -/
def SoundKernel0 : Prop :=
  ∀ (c : Dev nD) (E : Set ℕ) (i : grid0.Coords)
    (arg2 : Memref sig .tc .smem S50 .i32) (harg2 : arg2.IsWhole) (arg3 : Memref sig .tc .smem S50 .i32) (harg3 : arg3.IsWhole)
    (arg4 : Memref sig .tc .vmem S10000x128 .f32) (harg4 : arg4.IsWhole) (arg5 : Memref sig .tc .vmem S10000x1 .i32) (harg5 : arg5.IsWhole)
    (arg6 : Memref sig .tc .vmem S1x1024x256 .f32) (harg6 : arg6.IsWhole)
    (tmin tmax : Vec F S50 .i32) (x : Vec F S10000x128 .f32) (b : Vec F S10000x1 .i32) (d : Vec F S1x1024x256 .f32) (K : PUnit.{1} → sProp 𝕄),
    iprop(owns (c : Thread nD τ) arg2 fullShare tmin ∗ owns (c : Thread nD τ) arg3 fullShare tmax
        ∗ owns (c : Thread nD τ) arg4 fullShare x ∗ owns (c : Thread nD τ) arg5 fullShare b ∗ owns (c : Thread nD τ) arg6 fullShare d
        ∗ (iprop(owns (c : Thread nD τ) arg2 fullShare tmin ∗ owns (c : Thread nD τ) arg3 fullShare tmax
            ∗ owns (c : Thread nD τ) arg4 fullShare x ∗ owns (c : Thread nD τ) arg5 fullShare b
            ∗ owns (c : Thread nD τ) arg6 fullShare (seg0 i tmin tmax x b d)) -∗ K ⟨⟩))
      ⊢ wp frame (wpE (defs₀ (F := F)) Variants.none c none) E (cc0__seg_sum_kernel i arg2 harg2 arg3 harg3 arg4 harg4 arg5 harg5 arg6 harg6) K

/-- Each window's current staging memref at point `t`. -/
abbrev ms0_0 (t : Fin (cfg0 a0).N) : Memref sig .tc .vmem S10000x128 .f32 := spec0_0.stage ((cfg0 a0).slots t 0)
abbrev ms0_1 (t : Fin (cfg0 a0).N) : Memref sig .tc .vmem S10000x1 .i32 := spec0_1.stage ((cfg0 a0).slots t 1)
abbrev ms0_2 (t : Fin (cfg0 a0).N) : Memref sig .tc .vmem S1x1024x256 .f32 := spec0_2.stage ((cfg0 a0).slots t 2)

end D0

end Cert.Kernel.H

end
-- ==== Proof.Bits.K1Defs.lean ====
/-
  What the main kernel leaves at one grid point: the gathered graph context in its scratch, and its output block.

  The scratch starts at zero. For each of the eight groups of 128 graph rows whose id range `[lo, lo + 127]` meets the
  tile's id range `[wmin, wmax]`, the product of the tile's one-hot matrix for that group with the group's 128 rows of
  the mean table is added to the scratch; another group adds nothing. The output block is then the tile's features
  times the first weight block, plus the scratch times the second weight block, plus the bias row.
-/
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of a 100-entry table that belongs to the point's tile. -/
def word1 (t : Vec F S100 .i32) (i : grid1.Coords) : BitVec 32 :=
  View.ld t (Rect.unit (s := S100) (k1_off1 i) S1.size (k1_off1_inb i)) (Shape.Idx.first (numel1_S1.symm ▸ Nat.one_pos))

/-- The guard of the group of rows `[lo, hi]`: the tile's largest id is at least `lo` and its smallest at most `hi`. -/
def on1 (lo hi wmin wmax : BitVec 32) : BitVec 1 :=
  Scalar.cmpi .ne (Scalar.extui (Scalar.andi (Scalar.cmpi .sge wmax lo) (Scalar.cmpi .sle wmin hi)) : BitVec 32) 0#32

/-- Rows 0..127 of the mean table. -/
abbrev rM1_0 : Rect S1024x128 := Rect.unit (s := S1024x128) ![0, 0] S128x128.size inb_S1024x128_S128x128_0_0
/-- The scratch after the group of rows 0..127: its contribution added if its guard holds. -/
def acc1_0 (wmin wmax : BitVec 32) (b : Vec F S5000x1 .i32) (mn : Vec F S1024x128 .bf16) (g : Vec F S5000x128 .f32) : Vec F S5000x128 .f32 :=
  if on1 0#32 127#32 wmin wmax = 1#1 then k1_pay3 b (View.ld mn rM1_0) g else g

/-- Rows 128..255 of the mean table. -/
abbrev rM1_128 : Rect S1024x128 := Rect.unit (s := S1024x128) ![128, 0] S128x128.size inb_S1024x128_S128x128_128_0
/-- The scratch after the group of rows 128..255: its contribution added if its guard holds. -/
def acc1_128 (wmin wmax : BitVec 32) (b : Vec F S5000x1 .i32) (mn : Vec F S1024x128 .bf16) (g : Vec F S5000x128 .f32) : Vec F S5000x128 .f32 :=
  if on1 128#32 255#32 wmin wmax = 1#1 then k1_pay4 b (View.ld mn rM1_128) g else g

/-- Rows 256..383 of the mean table. -/
abbrev rM1_256 : Rect S1024x128 := Rect.unit (s := S1024x128) ![256, 0] S128x128.size inb_S1024x128_S128x128_256_0
/-- The scratch after the group of rows 256..383: its contribution added if its guard holds. -/
def acc1_256 (wmin wmax : BitVec 32) (b : Vec F S5000x1 .i32) (mn : Vec F S1024x128 .bf16) (g : Vec F S5000x128 .f32) : Vec F S5000x128 .f32 :=
  if on1 256#32 383#32 wmin wmax = 1#1 then k1_pay5 b (View.ld mn rM1_256) g else g

/-- Rows 384..511 of the mean table. -/
abbrev rM1_384 : Rect S1024x128 := Rect.unit (s := S1024x128) ![384, 0] S128x128.size inb_S1024x128_S128x128_384_0
/-- The scratch after the group of rows 384..511: its contribution added if its guard holds. -/
def acc1_384 (wmin wmax : BitVec 32) (b : Vec F S5000x1 .i32) (mn : Vec F S1024x128 .bf16) (g : Vec F S5000x128 .f32) : Vec F S5000x128 .f32 :=
  if on1 384#32 511#32 wmin wmax = 1#1 then k1_pay6 b (View.ld mn rM1_384) g else g

/-- Rows 512..639 of the mean table. -/
abbrev rM1_512 : Rect S1024x128 := Rect.unit (s := S1024x128) ![512, 0] S128x128.size inb_S1024x128_S128x128_512_0
/-- The scratch after the group of rows 512..639: its contribution added if its guard holds. -/
def acc1_512 (wmin wmax : BitVec 32) (b : Vec F S5000x1 .i32) (mn : Vec F S1024x128 .bf16) (g : Vec F S5000x128 .f32) : Vec F S5000x128 .f32 :=
  if on1 512#32 639#32 wmin wmax = 1#1 then k1_pay7 (k1_pay2 b) (View.ld mn rM1_512) g else g

/-- Rows 640..767 of the mean table. -/
abbrev rM1_640 : Rect S1024x128 := Rect.unit (s := S1024x128) ![640, 0] S128x128.size inb_S1024x128_S128x128_640_0
/-- The scratch after the group of rows 640..767: its contribution added if its guard holds. -/
def acc1_640 (wmin wmax : BitVec 32) (b : Vec F S5000x1 .i32) (mn : Vec F S1024x128 .bf16) (g : Vec F S5000x128 .f32) : Vec F S5000x128 .f32 :=
  if on1 640#32 767#32 wmin wmax = 1#1 then k1_pay8 (k1_pay2 b) (View.ld mn rM1_640) g else g

/-- Rows 768..895 of the mean table. -/
abbrev rM1_768 : Rect S1024x128 := Rect.unit (s := S1024x128) ![768, 0] S128x128.size inb_S1024x128_S128x128_768_0
/-- The scratch after the group of rows 768..895: its contribution added if its guard holds. -/
def acc1_768 (wmin wmax : BitVec 32) (b : Vec F S5000x1 .i32) (mn : Vec F S1024x128 .bf16) (g : Vec F S5000x128 .f32) : Vec F S5000x128 .f32 :=
  if on1 768#32 895#32 wmin wmax = 1#1 then k1_pay9 (k1_pay2 b) (View.ld mn rM1_768) g else g

/-- Rows 896..1023 of the mean table. -/
abbrev rM1_896 : Rect S1024x128 := Rect.unit (s := S1024x128) ![896, 0] S128x128.size inb_S1024x128_S128x128_896_0
/-- The scratch after the group of rows 896..1023: its contribution added if its guard holds. -/
def acc1_896 (wmin wmax : BitVec 32) (b : Vec F S5000x1 .i32) (mn : Vec F S1024x128 .bf16) (g : Vec F S5000x128 .f32) : Vec F S5000x128 .f32 :=
  if on1 896#32 1023#32 wmin wmax = 1#1 then k1_pay10 (k1_pay2 b) (View.ld mn rM1_896) g else g

/-- The gathered context: the scratch after the eight groups, from zero. -/
def gath1 (i : grid1.Coords) (tmin tmax : Vec F S100 .i32) (b : Vec F S5000x1 .i32) (mn : Vec F S1024x128 .bf16) : Vec F S5000x128 .f32 :=
  let wmin := word1 tmin i
  let wmax := word1 tmax i
  acc1_896 wmin wmax b mn (acc1_768 wmin wmax b mn (acc1_640 wmin wmax b mn (acc1_512 wmin wmax b mn (acc1_384 wmin wmax b mn
    (acc1_256 wmin wmax b mn (acc1_128 wmin wmax b mn (acc1_0 wmin wmax b mn (k1_pay1 (F := F)))))))))

/-- THE POINT'S RESULT: the output block at point `i`. -/
def out1 (i : grid1.Coords) (tmin tmax : Vec F S100 .i32) (x : Vec F S5000x128 .f32) (b : Vec F S5000x1 .i32)
    (mn : Vec F S1024x128 .bf16) (w1 w2 : Vec F S128x128 .bf16) (bias : Vec F S1x128 .f32) : Vec F S5000x128 .f32 :=
  k1_pay11 x (gath1 i tmin tmax b mn) w1 w2 bias

end Cert.Kernel.H

end
-- ==== Proof.Bits.KDat1D.lean ====
/-
  The proof data of the main call: definitions.

  The call's grid has 100 points. After the body at a point, windows 0 to 5 (node features, ids, the mean table, the
  two weight blocks, the bias row) hold their blocks and window 6 holds the output block `out1` of them.
-/
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.Bits.K1Defs
import Idealize.ShloMosaic.Lib.Pipeline.Frame
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section D1
variable (a1 : (pcfg1 (F := F)).Adm)
variable (V : (c : Dev nD) → (b : Ref sig .tc) → Buf (Elt F) ((c : Thread nD τ).loc b))

/-- The two prefetched tables of the main call: each tile's smallest and largest graph id. -/
abbrev tmin1 : Vec F S100 .i32 := a1.1 0
abbrev tmax1 : Vec F S100 .i32 := a1.1 1

/-- Window `w`'s block at point `t`, read off its array as the region finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The output block the body leaves at point `t`. -/
def outAt1 (c : Dev nD) (t : Fin (cfg1 a1).N) : Vec F S5000x128 .f32 :=
  out1 (grid1.coords t) (tmin1 a1) (tmax1 a1) (iblk1 a1 V c 0 t) (iblk1 a1 V c 1 t) (iblk1 a1 V c 2 t) (iblk1 a1 V c 3 t)
    (iblk1 a1 V c 4 t) (iblk1 a1 V c 5 t)

def dat1 (c : Dev nD) : Dat τ (Elt F) Unit ℕ (UR sig nD τ) ℕ (cfg1 a1) c where
  A w := V c (Pipeline.arrRef spec1 w)
  after w t := match w with
    | ⟨0, _⟩ => iblk1 a1 V c 0 t
    | ⟨1, _⟩ => iblk1 a1 V c 1 t
    | ⟨2, _⟩ => iblk1 a1 V c 2 t
    | ⟨3, _⟩ => iblk1 a1 V c 3 t
    | ⟨4, _⟩ => iblk1 a1 V c 4 t
    | ⟨5, _⟩ => iblk1 a1 V c 5 t
    | ⟨6, _⟩ => outAt1 a1 V c t
  Φ _ := iprop(Pipeline.prefHeld (Ix := Unit) (Name := ℕ) (U := UR sig nD τ) (Lvl := ℕ) pre1 c (fun _ => fullShare) a1.1 ∗ Pipeline.ΦA spec1 c)
  q _ := fullShare
  owed _ := 0

theorem A_eq1 (c : Dev nD) (w : Fin (cfg1 a1).W) : (dat1 a1 V c).A w = V c (Pipeline.arrRef spec1 w) := by
  dsimp only [dat1]
theorem after1_0 (c : Dev nD) (t : Fin (cfg1 a1).N) : (dat1 a1 V c).after 0 t = iblk1 a1 V c 0 t := by dsimp only [dat1]; rfl
theorem after1_1 (c : Dev nD) (t : Fin (cfg1 a1).N) : (dat1 a1 V c).after 1 t = iblk1 a1 V c 1 t := by dsimp only [dat1]; rfl
theorem after1_2 (c : Dev nD) (t : Fin (cfg1 a1).N) : (dat1 a1 V c).after 2 t = iblk1 a1 V c 2 t := by dsimp only [dat1]; rfl
theorem after1_3 (c : Dev nD) (t : Fin (cfg1 a1).N) : (dat1 a1 V c).after 3 t = iblk1 a1 V c 3 t := by dsimp only [dat1]; rfl
theorem after1_4 (c : Dev nD) (t : Fin (cfg1 a1).N) : (dat1 a1 V c).after 4 t = iblk1 a1 V c 4 t := by dsimp only [dat1]; rfl
theorem after1_5 (c : Dev nD) (t : Fin (cfg1 a1).N) : (dat1 a1 V c).after 5 t = iblk1 a1 V c 5 t := by dsimp only [dat1]; rfl
theorem after1_6 (c : Dev nD) (t : Fin (cfg1 a1).N) : (dat1 a1 V c).after 6 t = outAt1 a1 V c t := by dsimp only [dat1]; rfl

/-- The body's call at point `t`, as the label table spells it. -/
abbrev bodyAt1 (t : Fin (cfg1 a1).N) : Prog (TpuEff nD τ sig (Elt F) Λ₀ .tc) PUnit :=
  cc1__main_kernel (grid1.coords t) (Memref.whole main_v5) (Memref.isWhole_whole _) (Memref.whole main_v6) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    (spec1_3.stage ((cfg1 a1).slots t 3)) (hstage1_3 (((cfg1 a1).slots t 3).cast nbuf1_3))
    (spec1_4.stage ((cfg1 a1).slots t 4)) (hstage1_4 (((cfg1 a1).slots t 4).cast nbuf1_4))
    (spec1_5.stage ((cfg1 a1).slots t 5)) (hstage1_5 (((cfg1 a1).slots t 5).cast nbuf1_5))
    (spec1_6.stage ((cfg1 a1).slots t 6)) (hstage1_6 (((cfg1 a1).slots t 6).cast nbuf1_6))
    (Memref.whole cc1_scratch0) (Memref.isWhole_whole _)

theorem bodyAt1_eq (t : Fin (cfg1 a1).N) :
    defs₀ (F := F) .tc (cfg1 a1).body ((cfg1 a1).bodyArgs t ((cfg1 a1).slots t)) = bodyAt1 a1 t := rfl

/-- The body's triple as a proposition: what the main kernel's own module proves, and what the body obligation takes as
    its hypothesis. -/
def SoundKernel1 : Prop :=
  ∀ (c : Dev nD) (E : Set ℕ) (i : grid1.Coords)
    (arg1 : Memref sig .tc .smem S100 .i32) (harg1 : arg1.IsWhole) (arg2 : Memref sig .tc .smem S100 .i32) (harg2 : arg2.IsWhole)
    (arg3 : Memref sig .tc .vmem S5000x128 .f32) (harg3 : arg3.IsWhole) (arg4 : Memref sig .tc .vmem S5000x1 .i32) (harg4 : arg4.IsWhole)
    (arg5 : Memref sig .tc .vmem S1024x128 .bf16) (harg5 : arg5.IsWhole) (arg6 : Memref sig .tc .vmem S128x128 .bf16) (harg6 : arg6.IsWhole)
    (arg7 : Memref sig .tc .vmem S128x128 .bf16) (harg7 : arg7.IsWhole) (arg8 : Memref sig .tc .vmem S1x128 .f32) (harg8 : arg8.IsWhole)
    (arg9 : Memref sig .tc .vmem S5000x128 .f32) (harg9 : arg9.IsWhole) (arg10 : Memref sig .tc .vmem S5000x128 .f32) (harg10 : arg10.IsWhole)
    (tmin tmax : Vec F S100 .i32) (x : Vec F S5000x128 .f32) (b : Vec F S5000x1 .i32) (mn : Vec F S1024x128 .bf16)
    (w1 w2 : Vec F S128x128 .bf16) (bias : Vec F S1x128 .f32) (K : PUnit.{1} → sProp 𝕄),
    iprop(owns (c : Thread nD τ) arg1 fullShare tmin ∗ owns (c : Thread nD τ) arg2 fullShare tmax
        ∗ owns (c : Thread nD τ) arg3 fullShare x ∗ owns (c : Thread nD τ) arg4 fullShare b ∗ owns (c : Thread nD τ) arg5 fullShare mn
        ∗ owns (c : Thread nD τ) arg6 fullShare w1 ∗ owns (c : Thread nD τ) arg7 fullShare w2 ∗ owns (c : Thread nD τ) arg8 fullShare bias
        ∗ (∃ d9, owns (c : Thread nD τ) arg9 fullShare d9) ∗ (∃ d10, owns (c : Thread nD τ) arg10 fullShare d10)
        ∗ (iprop(owns (c : Thread nD τ) arg1 fullShare tmin ∗ owns (c : Thread nD τ) arg2 fullShare tmax
            ∗ owns (c : Thread nD τ) arg3 fullShare x ∗ owns (c : Thread nD τ) arg4 fullShare b ∗ owns (c : Thread nD τ) arg5 fullShare mn
            ∗ owns (c : Thread nD τ) arg6 fullShare w1 ∗ owns (c : Thread nD τ) arg7 fullShare w2 ∗ owns (c : Thread nD τ) arg8 fullShare bias
            ∗ owns (c : Thread nD τ) arg9 fullShare (out1 i tmin tmax x b mn w1 w2 bias)
            ∗ (∃ d10, owns (c : Thread nD τ) arg10 fullShare d10)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9 arg10 harg10) K

end D1

end Cert.Kernel.H

end
-- ==== Proof.Bits.KBound.lean ====
/-
  The contents of a core's unscoped buffers at each boundary between the items of @main.

  At launch: the memory. After the first host stretch (which computes the tables of tile id ranges): those operations
  applied. After the segment-sum region: its output array at what the region's write-backs leave, every other buffer as
  entered. After the second host stretch (the two cores' tables added, the means, the weight blocks): those operations
  applied. After the main region: its output array at what its write-backs leave. The tables each region prefetches are
  read off the boundary before it.
-/
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.Bits.KDat0D
import proofs.«411499_j60584808678067_2_alg».proof.Proof.Bits.KDat1D
import proofs.«411499_j60584808678067_2_alg».proof.Proof.Gen.Kernel.Regions
import Idealize.ShloMosaic.Lib.Pipeline.RegionsLoop
import Idealize.ShloMosaic.Lib.Pipeline.FrameSuffix
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-- The one device. -/
abbrev c₀ : Dev nD := ⟨0, Nat.one_pos⟩
theorem dev_eq (c : Dev nD) : c = c₀ := Subsingleton.elim _ _

/-! ## The buffer contents at each boundary -/

/-- At launch. -/
abbrev W0 : Dev nD → Valuation τ sig (Elt F) := fun c b => m (c, b)
/-- After the first host stretch (the segment-sum region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- The segment-sum call's tables, as the first host stretch computes them. -/
def adm0 : (pcfg0 (F := F)).Adm := ⟨fun k => U1 m c₀ (pre0.ref k), trivial⟩

/-- At the segment-sum region's exit: its arrays at what the pipeline leaves, every other buffer as entered. -/
def W2 (c : Dev nD) : Valuation τ sig (Elt F) :=
  Pipeline.withArrays spec0 c (W1 m c) fun w => (dat0 (adm0 m) (U1 m) c).arrAt w (cfg0 (adm0 m)).N
abbrev U2 : (c : Dev nD) → (b : Ref sig .tc) → Buf (Elt F) ((c : Thread nD τ).loc b) := fun c b => W2 m c b
/-- After the second host stretch (the main region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- The main call's tables. -/
def adm1 : (pcfg1 (F := F)).Adm := ⟨fun k => U3 m c₀ (pre1.ref k), trivial⟩

/-- At the main region's exit. -/
def W4 (c : Dev nD) : Valuation τ sig (Elt F) :=
  Pipeline.withArrays spec1 c (W3 m c) fun w => (dat1 (adm1 m) (U3 m) c).arrAt w (cfg1 (adm1 m)).N
abbrev U4 : (c : Dev nD) → (b : Ref sig .tc) → Buf (Elt F) ((c : Thread nD τ).loc b) := fun c b => W4 m c b

theorem W2_arr (c : Dev nD) (w : Fin (cfg0 (adm0 m)).W) :
    W2 m c (Proc.devRef .tc (Pipeline.arrRef spec0 w)) = (dat0 (adm0 m) (U1 m) c).arrAt w (cfg0 (adm0 m)).N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin (cfg0 (adm0 m)).W) :
    (dat0 (adm0 m) (U1 m) c).arrAt w (cfg0 (adm0 m)).N = U2 m c (Pipeline.arrRef spec0 w) := (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

theorem W4_arr (c : Dev nD) (w : Fin (cfg1 (adm1 m)).W) :
    W4 m c (Proc.devRef .tc (Pipeline.arrRef spec1 w)) = (dat1 (adm1 m) (U3 m) c).arrAt w (cfg1 (adm1 m)).N := by
  unfold W4; exact Pipeline.withArrays_arr spec1 winFacts1.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin (cfg1 (adm1 m)).W) :
    (dat1 (adm1 m) (U3 m) c).arrAt w (cfg1 (adm1 m)).N = U4 m c (Pipeline.arrRef spec1 w) := (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

end Run

end Cert.Kernel.H

end
-- ==== Proof.Bits.KDat0.lean ====
/-
  The proof data of the segment-sum call and its body obligation.

  The call's grid has 50 points, 25 per core; window 2 (the output) keeps one block index through a core's 25 points
  and is written back after the last of them, so its staging buffer is an accumulator: before point `t` it holds what
  the body left at `t - 1`, except at a core's first point, where it holds anything and the body clears it. A point at
  which no guard holds stores nothing; there the buffer is left as found.
-/
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.Bits.KDat0D
import Idealize.ShloMosaic.Lib.Pipeline.Frame
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section D0
variable (a0 : (pcfg0 (F := F)).Adm)
variable (V : (c : Dev nD) → (b : Ref sig .tc) → Buf (Elt F) ((c : Thread nD τ).loc b))

/-! ## The schedule -/

/-- Over the 50 points: the output's block index (the core) moves, or the grid ends, exactly after a point whose
    position in its core's run is the last, 24. -/
private theorem flush_grid : ∀ t : Fin grid0.N,
    (true && (decide (t.val + 1 = grid0.N) || decide (∃ h : t.val + 1 < grid0.N,
        cc0_transform_2 (grid0.coords ⟨t.val + 1, h⟩) ≠ cc0_transform_2 (grid0.coords t))))
      = decide (t.val % 25 = 24) := by
  decide +kernel

/-- The output block is written back after each core's last point. -/
theorem flush0_2 (t : Fin (cfg0 a0).N) : ((cfg0 a0).win 2).flush t = decide (t.val % 25 = 24) :=
  flush_grid t

/-- Over the 50 points: the second coordinate of point `t` is `t % 25`, and the clear's condition tests it against 0. -/
private theorem cond1_grid : ∀ t : Fin grid0.N, (k0_cond1 (grid0.coords t) = 1#1 ↔ t.val % 25 = 0) := by
  decide +kernel

/-- The clear's condition holds exactly at a core's first point. -/
theorem cond1_iff (t : Fin (cfg0 a0).N) : k0_cond1 (grid0.coords t) = 1#1 ↔ t.val % 25 = 0 :=
  cond1_grid t

/-- The tile's offset in a 50-entry table is inside it. -/
private theorem off1_inb' (i : grid0.Coords) : ∀ a, k0_off1 i a + 1 ≤ S50.size a := fun a => by
  have h1 : ∀ a : Fin 1, S1.size a = 1 := by decide
  have h := k0_off1_inb i a
  rw [h1 a] at h; exact h

/-- The tile's word as the pipeline's `idle` reads it is the word the body loads. -/
theorem atD_eq_word0_min (i : grid0.Coords) : (a0.1).atD 0 (k0_off1 i) = word0 (tmin0 a0) i := by
  have hb := off1_inb' i
  show (if h : ∀ a, k0_off1 i a + 1 ≤ S50.size a then a0.1 0 (fun a => ⟨k0_off1 i a, h a⟩) else default) = _
  rw [dif_pos hb]
  unfold word0 View.ld
  congr 1
theorem atD_eq_word0_max (i : grid0.Coords) : (a0.1).atD 1 (k0_off1 i) = word0 (tmax0 a0) i := by
  have hb := off1_inb' i
  show (if h : ∀ a, k0_off1 i a + 1 ≤ S50.size a then a0.1 1 (fun a => ⟨k0_off1 i a, h a⟩) else default) = _
  rw [dif_pos hb]
  unfold word0 View.ld
  congr 1

/-! ## What the body leaves, in the two degenerate cases -/

/-- Under the clear's condition the cleared table is the clearing payload everywhere, whatever was there. -/
private theorem clr0_of_clear (i : grid0.Coords) (h : k0_cond1 i = 1#1) (d d' : Vec F S1x1024x256 .f32) :
    clr0 i d = clr0 i d' := by
  unfold clr0
  rw [if_pos h, if_pos h]
  funext y
  -- the cleared rectangle is the whole table: every index is under it, and there the overlay is the payload
  have hy : y ∈ (rAll0).set := by
    refine Rect.mem_set_unit.mpr fun a => ?_
    have h0 : ∀ a : Fin 3, (![0, 0, 0] : Fin 3 → ℕ) a = 0 := by decide
    have hlt := (y a).isLt
    have e := h0 a
    constructor <;> omega
  obtain ⟨x, rfl⟩ := (rAll0).exists_idx_of_mem hy
  show View.over d [⟨rAll0, k0_pay16 (F := F)⟩] ((rAll0).emb x) = View.over d' [⟨rAll0, k0_pay16 (F := F)⟩] ((rAll0).emb x)
  rw [View.over_cons_emb, View.over_cons_emb]

/-- At a core's first point the table is cleared first: what was there before does not matter. -/
theorem seg0_of_clear (i : grid0.Coords) (h : k0_cond1 i = 1#1) (tmin tmax : Vec F S50 .i32) (x : Vec F S10000x128 .f32)
    (b : Vec F S10000x1 .i32) (d d' : Vec F S1x1024x256 .f32) : seg0 i tmin tmax x b d = seg0 i tmin tmax x b d' := by
  unfold seg0
  rw [clr0_of_clear i h d d']

/-- A point idle for the output: the clear's condition and the eight guards all fail there, the guards read at the
    tile's two table words. -/
private theorem idle_conds (t : Fin (cfg0 a0).N) (h : (cfg0 a0).idle 2 ((cfg0 a0).grid.coords t) = true) :
    ¬ k0_cond1 (grid0.coords t) = 1#1
      ∧ ¬ k0_cond2 (word0 (tmin0 a0) (grid0.coords t)) (word0 (tmax0 a0) (grid0.coords t)) = 1#1
      ∧ ¬ k0_cond3 (word0 (tmin0 a0) (grid0.coords t)) (word0 (tmax0 a0) (grid0.coords t)) = 1#1
      ∧ ¬ k0_cond4 (word0 (tmin0 a0) (grid0.coords t)) (word0 (tmax0 a0) (grid0.coords t)) = 1#1
      ∧ ¬ k0_cond5 (word0 (tmin0 a0) (grid0.coords t)) (word0 (tmax0 a0) (grid0.coords t)) = 1#1
      ∧ ¬ k0_cond6 (word0 (tmin0 a0) (grid0.coords t)) (word0 (tmax0 a0) (grid0.coords t)) = 1#1
      ∧ ¬ k0_cond7 (word0 (tmin0 a0) (grid0.coords t)) (word0 (tmax0 a0) (grid0.coords t)) = 1#1
      ∧ ¬ k0_cond8 (word0 (tmin0 a0) (grid0.coords t)) (word0 (tmax0 a0) (grid0.coords t)) = 1#1
      ∧ ¬ k0_cond9 (word0 (tmin0 a0) (grid0.coords t)) (word0 (tmax0 a0) (grid0.coords t)) = 1#1 := by
  have h' : (!(k0_cond1 (grid0.coords t) == 1#1) && !(k0_cond2 (word0 (tmin0 a0) (grid0.coords t)) (word0 (tmax0 a0) (grid0.coords t)) == 1#1) && !(k0_cond3 (word0 (tmin0 a0) (grid0.coords t)) (word0 (tmax0 a0) (grid0.coords t)) == 1#1) && !(k0_cond4 (word0 (tmin0 a0) (grid0.coords t)) (word0 (tmax0 a0) (grid0.coords t)) == 1#1) && !(k0_cond5 (word0 (tmin0 a0) (grid0.coords t)) (word0 (tmax0 a0) (grid0.coords t)) == 1#1) && !(k0_cond6 (word0 (tmin0 a0) (grid0.coords t)) (word0 (tmax0 a0) (grid0.coords t)) == 1#1) && !(k0_cond7 (word0 (tmin0 a0) (grid0.coords t)) (word0 (tmax0 a0) (grid0.coords t)) == 1#1) && !(k0_cond8 (word0 (tmin0 a0) (grid0.coords t)) (word0 (tmax0 a0) (grid0.coords t)) == 1#1) && !(k0_cond9 (word0 (tmin0 a0) (grid0.coords t)) (word0 (tmax0 a0) (grid0.coords t)) == 1#1)) = true := by
    rw [← atD_eq_word0_min a0, ← atD_eq_word0_max a0]; exact h
  simpa only [Bool.and_eq_true, Bool.not_eq_true', beq_eq_false_iff_ne, ne_eq, and_assoc] using h'

/-- At a point idle for the output (no guard holds) the table is left as found. -/
theorem seg0_of_idle (t : Fin (cfg0 a0).N) (h : (cfg0 a0).idle 2 ((cfg0 a0).grid.coords t) = true) (x : Vec F S10000x128 .f32)
    (b : Vec F S10000x1 .i32) (d : Vec F S1x1024x256 .f32) : seg0 (grid0.coords t) (tmin0 a0) (tmax0 a0) x b d = d := by
  obtain ⟨h1, h2, h3, h4, h5, h6, h7, h8, h9⟩ := idle_conds a0 t h
  unfold seg0
  dsimp only
  unfold grp0_896 grp0_768 grp0_640 grp0_512 grp0_384 grp0_256 grp0_128 grp0_0 clr0
  rw [if_neg h1, if_neg h2, if_neg h3, if_neg h4, if_neg h5, if_neg h6, if_neg h7, if_neg h8, if_neg h9]

/-- A point idle for the output is not a core's first point. -/
theorem not_first_of_idle (t : Fin (cfg0 a0).N) (h : (cfg0 a0).idle 2 ((cfg0 a0).grid.coords t) = true) : t.val % 25 ≠ 0 :=
  fun h0 => (idle_conds a0 t h).1 ((cond1_iff a0 t).mpr h0)

/-! ## What the staging buffers hold when the body runs -/

theorem before0_0 (c : Dev nD) (t : Fin (cfg0 a0).N) (d) : (dat0 a0 V c).before 0 t d = iblk0 a0 V c 0 t :=
  ((dat0 a0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin (cfg0 a0).N) (d) : (dat0 a0 V c).before 1 t d = iblk0 a0 V c 1 t :=
  ((dat0 a0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The running table at a successor position: the point's result over the cleared table at a core's first point,
    over the previous running table otherwise. -/
private theorem acc0_succ (c : Dev nD) (n : ℕ) (hn : n + 1 < (cfg0 a0).N) :
    acc0 a0 V c (n + 1) hn
      = seg0 (grid0.coords ⟨n + 1, hn⟩) (tmin0 a0) (tmax0 a0) (iblk0 a0 V c 0 ⟨n + 1, hn⟩) (iblk0 a0 V c 1 ⟨n + 1, hn⟩)
          (if (n + 1) % 25 = 0 then k0_pay16 (F := F) else acc0 a0 V c n (Nat.lt_of_succ_lt hn)) := by
  rw [acc0]

/-- The output's transfers are not cut: what the body left is kept whole. -/
private theorem kept0_2 (c : Dev nD) (t : Fin (cfg0 a0).N) (d) :
    (dat0 a0 V c).kept 2 t d = acc0 a0 V c t.val t.isLt := by
  unfold Dat.kept
  rw [Pipeline.fill_of_clip_none (cfg := cfg0 a0) 2 _ (fun _ => rfl) d ((dat0 a0 V c).after 2 t), Window.fill_cut, after0_2]

/-- After a point that is not a core's last, the accumulator holds what the body left there. -/
private theorem before2_succ (c : Dev nD) (d) (n : ℕ) (hn : n + 1 < (cfg0 a0).N) (hm : (n + 1) % 25 ≠ 0) :
    (dat0 a0 V c).before 2 ⟨n + 1, hn⟩ d = (dat0 a0 V c).left 2 ⟨n, Nat.lt_of_succ_lt hn⟩ d := by
  have hfl : ((cfg0 a0).win 2).flush ⟨n, Nat.lt_of_succ_lt hn⟩ = false := by
    rw [flush0_2]; exact decide_eq_false (by show ¬ n % 25 = 24; omega)
  rw [(dat0 a0 V c).before_of_pos 2 ⟨n + 1, hn⟩ (Nat.succ_ne_zero n) (((cfg0 a0).win 2).fetch_out rfl _) d]
  show (if ((cfg0 a0).win 2).flush ⟨n, Nat.lt_of_succ_lt hn⟩ = true then d else (dat0 a0 V c).left 2 ⟨n, Nat.lt_of_succ_lt hn⟩ d) = _
  rw [hfl, if_neg Bool.false_ne_true]

/-- Inside a core's run the accumulator holds the running table of the point before: at a live point the body left
    it; at an idle one the body left what it found, which is the running table one point earlier, and the point's
    result over that table is that table. -/
private theorem before2_acc (c : Dev nD) (d) : ∀ (n : ℕ) (hn : n + 1 < (cfg0 a0).N), (n + 1) % 25 ≠ 0 →
    (dat0 a0 V c).before 2 ⟨n + 1, hn⟩ d = acc0 a0 V c n (Nat.lt_of_succ_lt hn) := by
  intro n
  induction n with
  | zero =>
    intro hn hm
    rw [before2_succ a0 V c d 0 hn hm]
    by_cases hid : (cfg0 a0).idle 2 ((cfg0 a0).grid.coords ⟨0, Nat.lt_of_succ_lt hn⟩) = true
    · exact absurd rfl (not_first_of_idle a0 ⟨0, Nat.lt_of_succ_lt hn⟩ hid)
    · rw [Bool.not_eq_true] at hid
      unfold Dat.left; rw [hid]
      exact kept0_2 a0 V c ⟨0, Nat.lt_of_succ_lt hn⟩ d
  | succ m ih =>
    intro hn hm
    rw [before2_succ a0 V c d (m + 1) hn hm]
    by_cases hid : (cfg0 a0).idle 2 ((cfg0 a0).grid.coords ⟨m + 1, Nat.lt_of_succ_lt hn⟩) = true
    · have hnf : (m + 1) % 25 ≠ 0 := not_first_of_idle a0 ⟨m + 1, Nat.lt_of_succ_lt hn⟩ hid
      unfold Dat.left; rw [hid]
      show (dat0 a0 V c).before 2 ⟨m + 1, Nat.lt_of_succ_lt hn⟩ d = _
      rw [ih (Nat.lt_of_succ_lt hn) hnf, acc0_succ, if_neg hnf]
      exact (seg0_of_idle a0 ⟨m + 1, Nat.lt_of_succ_lt hn⟩ hid _ _ _).symm
    · rw [Bool.not_eq_true] at hid
      unfold Dat.left; rw [hid]
      exact kept0_2 a0 V c ⟨m + 1, Nat.lt_of_succ_lt hn⟩ d

/-- The accumulator: anything at a core's first point, else the running table of the point before. -/
theorem before0_2 (c : Dev nD) (t : Fin (cfg0 a0).N) (d) :
    (dat0 a0 V c).before 2 t d = if t.val % 25 = 0 then d else acc0 a0 V c (t.val - 1) (Nat.lt_of_le_of_lt (Nat.sub_le _ _) t.isLt) := by
  obtain ⟨n, hn⟩ := t
  cases n with
  | zero =>
    rw [(dat0 a0 V c).before_out_reset 2 rfl ⟨0, hn⟩ (.inl rfl) d]
    rfl
  | succ n =>
    by_cases hm : (n + 1) % 25 = 0
    · have hfl : ((cfg0 a0).win 2).flush ⟨n, Nat.lt_of_succ_lt hn⟩ = true := by
        rw [flush0_2]; exact decide_eq_true (by show n % 25 = 24; omega)
      rw [(dat0 a0 V c).before_out_reset 2 rfl ⟨n + 1, hn⟩ (.inr ⟨Nat.succ_ne_zero n, hfl⟩) d]
      exact (if_pos hm).symm
    · exact (before2_acc a0 V c d n hn hm).trans (if_neg hm).symm

/-- The body run on what the accumulator holds leaves the running table of the point. -/
theorem acc0_step (c : Dev nD) (t : Fin (cfg0 a0).N) (d) :
    seg0 (grid0.coords t) (tmin0 a0) (tmax0 a0) (iblk0 a0 V c 0 t) (iblk0 a0 V c 1 t) ((dat0 a0 V c).before 2 t d)
      = acc0 a0 V c t.val t.isLt := by
  obtain ⟨n, hn⟩ := t
  by_cases hm : n % 25 = 0
  · -- a core's first point: the body clears the table, so what it found does not matter
    have hc := (cond1_iff a0 ⟨n, hn⟩).mpr hm
    have hb : (dat0 a0 V c).before 2 ⟨n, hn⟩ d = d := (before0_2 a0 V c ⟨n, hn⟩ d).trans (if_pos hm)
    rw [hb]
    cases n with
    | zero => exact seg0_of_clear _ hc _ _ _ _ d (k0_pay16 (F := F))
    | succ n =>
      show _ = acc0 a0 V c (n + 1) hn
      rw [acc0_succ, if_pos hm]
      exact seg0_of_clear _ hc _ _ _ _ d (k0_pay16 (F := F))
  · -- inside a core's run: the body found the running table of the point before
    have hb : (dat0 a0 V c).before 2 ⟨n, hn⟩ d = acc0 a0 V c (n - 1) (Nat.lt_of_le_of_lt (Nat.sub_le _ _) hn) :=
      (before0_2 a0 V c ⟨n, hn⟩ d).trans (if_neg hm)
    rw [hb]
    cases n with
    | zero => exact absurd rfl hm
    | succ n =>
      show seg0 _ _ _ _ _ (acc0 a0 V c n (Nat.lt_of_succ_lt hn)) = acc0 a0 V c (n + 1) hn
      rw [acc0_succ, if_neg hm]

/-! ## The body obligation -/

/-- The two tables conjoined one by one. -/
private theorem bigSep_K0 {M : Type} [URA M] (Φ : Fin 2 → sProp M) :
    bigSep Finset.univ Φ = iprop(Φ (0 : Fin 2) ∗ Φ (1 : Fin 2)) :=
  bigSep_univ_eq_bigSepL [(0 : Fin 2), (1 : Fin 2)] (by decide) (by decide) Φ

/-- The held tables are the two whole scalar-memory buffers the body is handed, each at its table's contents. -/
private theorem prefHeld0_eq (c : Dev nD) :
    (Pipeline.prefHeld (Ix := Unit) (Name := ℕ) (U := UR sig nD τ) (Lvl := ℕ) pre0 c (fun _ => fullShare) a0.1 : sProp 𝕄)
      = iprop(owns (c : Thread nD τ) (Memref.whole main_v2) fullShare (tmin0 a0)
          ∗ owns (c : Thread nD τ) (Memref.whole main_v3) fullShare (tmax0 a0)) := by
  unfold Pipeline.prefHeld
  rw [bigSep_K0, owns_whole, owns_whole]
  rfl

/-- What the body leaves in the output's buffer is what the obligation asks of it: the running table at a live point
    or one that writes the block back; at an idle point that does not, what the body found. -/
private theorem leaves0_2 (c : Dev nD) (t : Fin (cfg0 a0).N) (d) :
    (owns (c : Thread nD τ) (ms0_2 a0 t) fullShare
        (seg0 (grid0.coords t) (tmin0 a0) (tmax0 a0) (iblk0 a0 V c 0 t) (iblk0 a0 V c 1 t) ((dat0 a0 V c).before 2 t d)) : sProp 𝕄)
      ⊢ (dat0 a0 V c).leavesExact 2 t := by
  by_cases hid : (cfg0 a0).idle 2 ((cfg0 a0).grid.coords t) = true
  · by_cases hfl : ((cfg0 a0).win 2).flush t = true
    · rw [acc0_step a0 V c t d, ← after0_2 a0 V c t]
      unfold Dat.leavesExact; rw [hid, hfl]
      exact BI.Entails.refl _
    · rw [Bool.not_eq_true] at hfl
      rw [(dat0 a0 V c).leavesExact_idle 2 t hid hfl,
        seg0_of_idle a0 t hid (iblk0 a0 V c 0 t) (iblk0 a0 V c 1 t) ((dat0 a0 V c).before 2 t d)]
      iintro H; iexists d; iexact H
  · rw [Bool.not_eq_true] at hid
    rw [acc0_step a0 V c t d, ← after0_2 a0 V c t]
    unfold Dat.leavesExact; rw [hid]
    exact BI.Entails.refl _

set_option maxHeartbeats 800000 in
/-- The body at any point: the inputs' buffers hold their blocks, the tables come out of the invariant as the two whole
    buffers the body reads, the body's triple applies at what the accumulator holds, and the tables go back. -/
private theorem sound_body0 (hK : SoundKernel0 (F := F)) (c : Dev nD) (t : Fin (cfg0 a0).N) :
    iprop((dat0 a0 V c).Φ t.castSucc ∗ (dat0 a0 V c).owesAt () t.castSucc
        ∗ (∃ d, owns (c : Thread nD τ) (ms0_0 a0 t) fullShare ((dat0 a0 V c).before 0 t d))
        ∗ (∃ d, owns (c : Thread nD τ) (ms0_1 a0 t) fullShare ((dat0 a0 V c).before 1 t d))
        ∗ (∃ d, owns (c : Thread nD τ) (ms0_2 a0 t) fullShare ((dat0 a0 V c).before 2 t d)))
      ⊢ wp frame (wpE (defs₀ (F := F)) Variants.none c none) Set.univ (bodyAt0 a0 t) (fun _ =>
          iprop((dat0 a0 V c).Φ t.succ ∗ (dat0 a0 V c).owesAt () t.succ
            ∗ owns (c : Thread nD τ) (ms0_0 a0 t) fullShare ((dat0 a0 V c).after 0 t)
            ∗ owns (c : Thread nD τ) (ms0_1 a0 t) fullShare ((dat0 a0 V c).after 1 t)
            ∗ (dat0 a0 V c).leavesExact 2 t)) := by
  simp only [before0_0, before0_1]
  rw [show (dat0 a0 V c).Φ t.succ = (dat0 a0 V c).Φ t.castSucc from rfl,
    show (dat0 a0 V c).owesAt () t.succ = (dat0 a0 V c).owesAt () t.castSucc from rfl,
    after0_0, after0_1,
    show (dat0 a0 V c).Φ t.castSucc = iprop(Pipeline.prefHeld (Ix := Unit) (Name := ℕ) (U := UR sig nD τ) (Lvl := ℕ) pre0 c (fun _ => fullShare) a0.1 ∗ Pipeline.ΦA spec0 c) from rfl,
    prefHeld0_eq]
  iintro ⟨⟨⟨Hmin, Hmax⟩, HA⟩, Ho, ⟨%d0, H0⟩, ⟨%d1, H1⟩, ⟨%d2, H2⟩⟩
  iapply (hK c Set.univ (grid0.coords t) _ _ _ _ _ _ _ _ _ _ (tmin0 a0) (tmax0 a0) (iblk0 a0 V c 0 t) (iblk0 a0 V c 1 t)
    ((dat0 a0 V c).before 2 t d2) _)
  isplitl [Hmin]; · iexact Hmin
  isplitl [Hmax]; · iexact Hmax
  isplitl [H0]; · iexact H0
  isplitl [H1]; · iexact H1
  isplitl [H2]; · iexact H2
  iintro ⟨Hmin, Hmax, H0, H1, H2⟩
  isplitl [Hmin Hmax HA]
  · isplitl [Hmin Hmax]
    · isplitl [Hmin]; · iexact Hmin
      iexact Hmax
    iexact HA
  isplitl [Ho]; · iexact Ho
  isplitl [H0]; · iexact H0
  isplitl [H1]; · iexact H1
  iapply (leaves0_2 a0 V c t d2); iexact H2

theorem body_obligation0 (hK : SoundKernel0 (F := F)) (c : Dev nD) :
    BodyObligation (dat0 (F := F) a0 V c) (defs₀ (F := F)) Variants.none () Set.univ := fun t => by
  rw [bigSep_W0, bigSep_W0]
  exact sound_body0 a0 V hK c t

end D0

end Cert.Kernel.H

end
-- ==== Proof.Bits.KDat1.lean ====
/-
  The proof data of the main call and its body obligation.

  The call's grid has 100 points. Windows 0 and 1 (the node features and ids) move with the point; windows 2 to 5 (the
  mean table, the two weight blocks, the bias row) keep one block for the whole grid; window 6 (the output) is written
  back after every point. The body reads its six input blocks and the tile's two table words, uses the scratch buffer
  as it likes, and leaves the output block at `out1` of them.
-/
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.Bits.KDat1D
import Idealize.ShloMosaic.Lib.Pipeline.Frame
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section D1
variable (a1 : (pcfg1 (F := F)).Adm)
variable (V : (c : Dev nD) → (b : Ref sig .tc) → Buf (Elt F) ((c : Thread nD τ).loc b))

/-! ## What the input windows' staging buffers hold when the body runs: their blocks, fetched there or not -/

theorem before1_0 (c : Dev nD) (t : Fin (cfg1 a1).N) (d) : (dat1 a1 V c).before 0 t d = iblk1 a1 V c 0 t :=
  (Dat.before_in_eq_fetched (dat1 a1 V c) 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a1).N) (d) : (dat1 a1 V c).before 1 t d = iblk1 a1 V c 1 t :=
  (Dat.before_in_eq_fetched (dat1 a1 V c) 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a1).N) (d) : (dat1 a1 V c).before 2 t d = iblk1 a1 V c 2 t :=
  (Dat.before_in_eq_fetched (dat1 a1 V c) 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin (cfg1 a1).N) (d) : (dat1 a1 V c).before 3 t d = iblk1 a1 V c 3 t :=
  (Dat.before_in_eq_fetched (dat1 a1 V c) 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin (cfg1 a1).N) (d) : (dat1 a1 V c).before 4 t d = iblk1 a1 V c 4 t :=
  (Dat.before_in_eq_fetched (dat1 a1 V c) 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin (cfg1 a1).N) (d) : (dat1 a1 V c).before 5 t d = iblk1 a1 V c 5 t :=
  (Dat.before_in_eq_fetched (dat1 a1 V c) 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation -/

/-- The two tables as the invariant holds them are the two whole table memrefs owned outright: the table of smallest
    ids at `tmin1`, the table of largest ids at `tmax1`. -/
private theorem tables1_eq (c : Dev nD) :
    (Pipeline.prefHeld (Ix := Unit) (Name := ℕ) (U := UR sig nD τ) (Lvl := ℕ) pre1 c (fun _ => fullShare) a1.1 : sProp 𝕄)
      = iprop(owns (c : Thread nD τ) (Memref.whole main_v5) fullShare (tmin1 a1) ∗ owns (c : Thread nD τ) (Memref.whole main_v6) fullShare (tmax1 a1)) := by
  unfold Pipeline.prefHeld
  rw [bigSep_univ_eq_bigSepL [(0 : Fin 2), (1 : Fin 2)] (by decide) (by decide), owns_whole, owns_whole]
  rfl

/-- The body at any point `t`, the seven windows written out. Before it the six input buffers hold their blocks
    (`before1_0` to `before1_5`) and the output buffer holds anything; the invariant splits into the two tables, the
    scoped buffers other than the staging ones (the scratch last among them) and the generator register. The
    kernel's triple, at the tables' contents and the six blocks, leaves every input as it was, the output block at
    `out1` of them (which is `outAt1` at `t`), and the scratch at some contents; so the invariant is the same after
    the point as before it, and nothing is owed throughout. -/
private theorem sound_body1 (hK : SoundKernel1 (F := F)) (c : Dev nD) (t : Fin (cfg1 a1).N) :
    iprop((dat1 a1 V c).Φ t.castSucc ∗ (dat1 a1 V c).owesAt () t.castSucc
      ∗ (∃ d, owns (c : Thread nD τ) (((cfg1 a1).win 0).stage ((cfg1 a1).slots t 0)) fullShare ((dat1 a1 V c).before 0 t d))
      ∗ (∃ d, owns (c : Thread nD τ) (((cfg1 a1).win 1).stage ((cfg1 a1).slots t 1)) fullShare ((dat1 a1 V c).before 1 t d))
      ∗ (∃ d, owns (c : Thread nD τ) (((cfg1 a1).win 2).stage ((cfg1 a1).slots t 2)) fullShare ((dat1 a1 V c).before 2 t d))
      ∗ (∃ d, owns (c : Thread nD τ) (((cfg1 a1).win 3).stage ((cfg1 a1).slots t 3)) fullShare ((dat1 a1 V c).before 3 t d))
      ∗ (∃ d, owns (c : Thread nD τ) (((cfg1 a1).win 4).stage ((cfg1 a1).slots t 4)) fullShare ((dat1 a1 V c).before 4 t d))
      ∗ (∃ d, owns (c : Thread nD τ) (((cfg1 a1).win 5).stage ((cfg1 a1).slots t 5)) fullShare ((dat1 a1 V c).before 5 t d))
      ∗ (∃ d, owns (c : Thread nD τ) (((cfg1 a1).win 6).stage ((cfg1 a1).slots t 6)) fullShare ((dat1 a1 V c).before 6 t d)))
    ⊢ wp frame (wpE (defs₀ (F := F)) Variants.none c none) Set.univ (bodyAt1 a1 t) (fun _ =>
      iprop((dat1 a1 V c).Φ t.succ ∗ (dat1 a1 V c).owesAt () t.succ
        ∗ owns (c : Thread nD τ) (((cfg1 a1).win 0).stage ((cfg1 a1).slots t 0)) fullShare ((dat1 a1 V c).after 0 t)
        ∗ owns (c : Thread nD τ) (((cfg1 a1).win 1).stage ((cfg1 a1).slots t 1)) fullShare ((dat1 a1 V c).after 1 t)
        ∗ owns (c : Thread nD τ) (((cfg1 a1).win 2).stage ((cfg1 a1).slots t 2)) fullShare ((dat1 a1 V c).after 2 t)
        ∗ owns (c : Thread nD τ) (((cfg1 a1).win 3).stage ((cfg1 a1).slots t 3)) fullShare ((dat1 a1 V c).after 3 t)
        ∗ owns (c : Thread nD τ) (((cfg1 a1).win 4).stage ((cfg1 a1).slots t 4)) fullShare ((dat1 a1 V c).after 4 t)
        ∗ owns (c : Thread nD τ) (((cfg1 a1).win 5).stage ((cfg1 a1).slots t 5)) fullShare ((dat1 a1 V c).after 5 t)
        ∗ owns (c : Thread nD τ) (((cfg1 a1).win 6).stage ((cfg1 a1).slots t 6)) fullShare ((dat1 a1 V c).after 6 t))) := by
  simp only [before1_0, before1_1, before1_2, before1_3, before1_4, before1_5]
  rw [show (dat1 a1 V c).Φ t.succ = (dat1 a1 V c).Φ t.castSucc from rfl,
    show (dat1 a1 V c).owesAt () t.succ = (dat1 a1 V c).owesAt () t.castSucc from rfl,
    after1_0, after1_1, after1_2, after1_3, after1_4, after1_5, after1_6]
  rw [show (dat1 a1 V c).Φ t.castSucc = iprop(Pipeline.prefHeld (Ix := Unit) (Name := ℕ) (U := UR sig nD τ) (Lvl := ℕ) pre1 c (fun _ => fullShare) a1.1 ∗ Pipeline.ΦA spec1 c) from rfl]
  rw [tables1_eq]
  unfold Pipeline.ΦA
  rw [scopedRest1_eq]
  unfold outAt1
  iintro ⟨⟨⟨Ht0, Ht1⟩, ⟨R0, R1, R2, R3, R4, R5, ⟨%f, Hs⟩⟩, Hr⟩, Ho, ⟨%d0, H0⟩, ⟨%d1, H1⟩, ⟨%d2, H2⟩, ⟨%d3, H3⟩, ⟨%d4, H4⟩, ⟨%d5, H5⟩, ⟨%d6, H6⟩⟩
  iapply (hK c Set.univ (grid1.coords t) _ _ _ _ _ _ _ _ _ _ _ _ _ _ _ _ _ _ _ _ (tmin1 a1) (tmax1 a1) (iblk1 a1 V c 0 t) (iblk1 a1 V c 1 t) (iblk1 a1 V c 2 t) (iblk1 a1 V c 3 t) (iblk1 a1 V c 4 t) (iblk1 a1 V c 5 t) _)
  isplitl [Ht0]; · iexact Ht0
  isplitl [Ht1]; · iexact Ht1
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hs]; · iexists f; rw [owns_whole]; iexact Hs
  iintro ⟨Ht0, Ht1, H0, H1, H2, H3, H4, H5, H6, ⟨%g, Hs⟩⟩
  isplitl [Ht0 Ht1 R0 R1 R2 R3 R4 R5 Hs Hr]
  · isplitl [Ht0 Ht1]
    · isplitl [Ht0]; · iexact Ht0
      iexact Ht1
    isplitr [Hr]
    · isplitl [R0]; · iexact R0
      isplitl [R1]; · iexact R1
      isplitl [R2]; · iexact R2
      isplitl [R3]; · iexact R3
      isplitl [R4]; · iexact R4
      isplitl [R5]; · iexact R5
      iexists g; rw [← owns_whole (c : Thread nD τ) cc1_scratch0 fullShare g]; iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point: the windows one by one, then `sound_body1`. -/
theorem body_obligation1 (hK : SoundKernel1 (F := F)) (c : Dev nD) :
    BodyObligation (dat1 (F := F) a1 V c) (defs₀ (F := F)) Variants.none () Set.univ := fun t => by
  rw [bigSep_W1, bigSep_W1]
  exact sound_body1 a1 V hK c t

end D1

end Cert.Kernel.H

end
-- ==== Proof.Bits.KRun.lean ====
/-
  The run of the whole kernel program: its two host stretches and its two pallas_call regions, in order, from the
  launch to the return.

  Each region is entered from a thread state that holds every unscoped buffer at the boundary's contents, takes its arrays
  and its two prefetched tables out of them, runs its pipeline, and puts the arrays back at what the write-backs leave and
  the tables back as they were. The run's post names the result array's final contents and says that the four arguments
  end as launched.
-/
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Ring
import Idealize.ShloMosaic.Lib.Tactic
import proofs.«411499_j60584808678067_2_alg».proof.Proof.Bits.KBound
import proofs.«411499_j60584808678067_2_alg».proof.Proof.Bits.KDat0
import proofs.«411499_j60584808678067_2_alg».proof.Proof.Bits.KDat1
import proofs.«411499_j60584808678067_2_alg».proof.Proof.Gen.Kernel.Regions
import Idealize.ShloMosaic.Lib.Pipeline.RegionsLoop
import Idealize.ShloMosaic.Lib.Pipeline.FrameSuffix
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The proof data family and the thread state -/

def adm : (p : Fin 2) → (pcfgs (F := F) p).Adm
  | ⟨0, _⟩ => adm0 m
  | ⟨1, _⟩ => adm1 m

def pdats : (p : Fin 2) → (c : Dev nD) → Dat τ (Elt F) Unit ℕ (UR sig nD τ) ℕ (Pipeline.pin (pcfgs (F := F)) (adm m) p) c
  | ⟨0, _⟩ => fun c => dat0 (adm0 m) (U1 m) c
  | ⟨1, _⟩ => fun c => dat1 (adm1 m) (U3 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The regions as segments -/

-- a library lemma stated over `pin pcs a p` unifies with the pinned configuration only when unification may unfold plain
-- definitions in a metavariable's type
set_option backward.isDefEq.respectTransparency.types false in
/-- REGION 0 over the thread state: entered from every unscoped buffer at `W1`, left at `W2`. Its arrays and its two
    tables split out of the unscoped buffers at entry and put back at exit, the arrays at what the write-backs leave, the
    tables as they were; the generator register into the body's invariant and out; nothing owed; no semaphore of the
    kernel's own. -/
def reg0 (hK : SoundKernel0 (F := F)) : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (adm0 m) (U1 m) hK c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (adm0 m).1)
  Z c := Pipeline.unscopedRestP (Ix := Unit) (Name := ℕ) (U := UR sig nD τ) (Lvl := ℕ) pre0 spec0 c (U1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (U1 m c) fun _ => rfl
    rw [Pipeline.unscopedBufs_held, Pipeline.unscopedRest_split (launch0 (F := F)).pre c (U1 m c)] at hsplit
    obtain rfl := dev_eq c
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.prefHeld (Ix := Unit) (Name := ℕ) (U := UR sig nD τ) (Lvl := ℕ) pre0 c (fun _ => fullShare) (adm0 m).1 ∗ Pipeline.ΦA spec0 c) from rfl]
    unfold Pipeline.ΦA
    iintro ⟨Hp, Hpf, Hr⟩
    isplitl [Hpf]; · iexact Hpf
    isplitl [Hr]; · iexact Hr
    iexact Hp
  hout c := by
    rw [Pipeline.ownSems0_none, show (pdats m 0 c).Φ (Fin.last _) = iprop(Pipeline.prefHeld (Ix := Unit) (Name := ℕ) (U := UR sig nD τ) (Lvl := ℕ) pre0 c (fun _ => fullShare) (adm0 m).1 ∗ Pipeline.ΦA spec0 c) from rfl]
    unfold Pipeline.ΦA
    iintro ⟨Hpf, Hr, Hp⟩
    isplitl [Hp Hpf]
    · isplitl [Hp]; · iexact Hp
      iexact Hpf
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (U1 m c) (U2 m c) ((pdats m 0 c).arrAt · (cfg0 (adm0 m)).N) (hF0 m c) (hrest0 m c)
    rw [Pipeline.unscopedBufs_held, Pipeline.unscopedRest_split (launch0 (F := F)).pre c (U1 m c)] at hjoin
    obtain rfl := dev_eq c
    iintro ⟨Ha, HO, ⟨Hp, Hpf⟩, Hrest⟩
    imodintro
    isplitl [Ha Hrest Hpf]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 1 over the thread state: entered from every unscoped buffer at `W3`, left at `W4`. Its arrays and its two
    tables split out of the unscoped buffers at entry and put back at exit, the arrays at what the write-backs leave, the
    tables as they were; the generator register into the body's invariant and out; nothing owed; no semaphore of the
    kernel's own. -/
def reg1 (hK : SoundKernel1 (F := F)) : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm1 m) (U3 m) hK c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (adm1 m).1)
  Z c := Pipeline.unscopedRestP (Ix := Unit) (Name := ℕ) (U := UR sig nD τ) (Lvl := ℕ) pre1 spec1 c (U3 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (U3 m c) fun _ => rfl
    rw [Pipeline.unscopedBufs_held, Pipeline.unscopedRest_split (launch1 (F := F)).pre c (U3 m c)] at hsplit
    obtain rfl := dev_eq c
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.prefHeld (Ix := Unit) (Name := ℕ) (U := UR sig nD τ) (Lvl := ℕ) pre1 c (fun _ => fullShare) (adm1 m).1 ∗ Pipeline.ΦA spec1 c) from rfl]
    unfold Pipeline.ΦA
    iintro ⟨Hp, Hpf, Hr⟩
    isplitl [Hpf]; · iexact Hpf
    isplitl [Hr]; · iexact Hr
    iexact Hp
  hout c := by
    rw [Pipeline.ownSems0_none, show (pdats m 1 c).Φ (Fin.last _) = iprop(Pipeline.prefHeld (Ix := Unit) (Name := ℕ) (U := UR sig nD τ) (Lvl := ℕ) pre1 c (fun _ => fullShare) (adm1 m).1 ∗ Pipeline.ΦA spec1 c) from rfl]
    unfold Pipeline.ΦA
    iintro ⟨Hpf, Hr, Hp⟩
    isplitl [Hp Hpf]
    · isplitl [Hp]; · iexact Hp
      iexact Hpf
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (U3 m c) (U4 m c) ((pdats m 1 c).arrAt · (cfg1 (adm1 m)).N) (hF1 m c) (hrest1 m c)
    rw [Pipeline.unscopedBufs_held, Pipeline.unscopedRest_split (launch1 (F := F)).pre c (U3 m c)] at hjoin
    obtain rfl := dev_eq c
    iintro ⟨Ha, HO, ⟨Hp, Hpf⟩, Hrest⟩
    imodintro
    isplitl [Ha Hrest Hpf Hp]
    · isplitl [Ha Hrest Hpf]
      · iapply hjoin
        isplitl [Ha]; · iexact Ha
        isplitl [Hpf]; · iexact Hpf
        iexact Hrest
      iexact Hp
    unfold Pipeline.Dat.owesAt Pipeline.owesWithin
    icases HO with ⟨%W, -, HO⟩; iexists W; iexact HO

/-! ## @main as segments, and the launch -/

abbrev segs (hK0 : SoundKernel0 (F := F)) (hK1 : SoundKernel1 (F := F)) : List (Pipeline.Seg (pcfgs (F := F)) (adm m) (pdats m) () defs₀ 𝒱₀ L lv) :=
  [ .host (hseg hostOps0 hostOps0_sub hostOps0_fresh (W0 m)),
    .region (reg0 m hK0),
    .host (hseg hostOps1 hostOps1_sub hostOps1_fresh (W2 m)),
    .region (reg1 m hK1) ]

theorem main_run (hK0 : SoundKernel0 (F := F)) (hK1 : SoundKernel1 (F := F)) (c : Dev nD) :
    main (F := F) c = Pipeline.Seg.run (segs m hK0 hK1) := (main_chain c).trans (by chain_rfl)

/-! ### The arguments end as launched: no host operation and no region writes one -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-- The node features: an input window of both regions, written by nothing. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (adm1 m) (U3 m) c).arrAt_in 0 rfl _).trans (A_eq1 (adm1 m) (U3 m) c 0))
    _ = W2 m c (Proc.devRef .tc main_arg0) := W3_of m c main_arg0 (by decide)
    _ = W1 m c (Proc.devRef .tc main_arg0) := (W2_arr m c 0).trans (((dat0 (adm0 m) (U1 m) c).arrAt_in 0 rfl _).trans (A_eq0 (adm0 m) (U1 m) c 0))
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  (W4_of_ne m c main_arg1 (by decide)).trans <| (W3_of m c main_arg1 (by decide)).trans <| (W2_of_ne m c main_arg1 (by decide)).trans <|
    (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_of_ne m c main_arg2 (by decide)).trans <|
    (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <|
    (W1_of m c main_arg3 (by decide)).trans rfl

/-! ## The run -/

-- the launch theorem's implicit arguments are found by unifying its conclusion with this one, which takes unfolding plain definitions
-- in a metavariable's type
set_option backward.isDefEq.respectTransparency.types false in
/-- THE RUN. From any memory with zero counters, given the two bodies' triples, every weakly fair execution of @main
    terminates, the result array ends at the last boundary's contents `W4`, and the four arguments end as launched. -/
theorem run_main (hK0 : SoundKernel0 (F := F)) (hK1 : SoundKernel1 (F := F)) :
    θ_run defs (onTc (τ := τ) (main (F := F))) ⟨m, fun _ => 0, ρ⟩ (fun r => ∀ c : Dev nD,
      r.2.mem ((c.tc : Thread nD τ).loc main_v25) = W4 m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) (adm m) (pdats m) () (cellOf_inj (adm m)) emb₁ defs₀ 𝒱₀ L lv m ρ main (segs m hK0 hK1)
    (fun c Q => by rw [main_run m hK0 hK1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v25 (by decide)),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c)⟩)

end Run

end Cert.Kernel.H

end
-- ==== Proof.Bits.K0Body.lean ====
/-
  The segment-sum kernel's body at one grid point, as a triple.

  The body clears the core's table at the first point of the core, reads the tile's feature block, its id block and its
  two table words, and then visits the eight groups of 128 graph rows, each under a guard on the two words: a guarded
  group loads its sum tile and stores it back with the tile's sums added, then its count tile likewise. Each guarded
  block is taken by itself: both of its ways end in the same rest of the body, so the block takes the table from
  contents d to (if the guard holds then the block's result else d) and the rest runs once. The blocks in sequence
  give the table the definition seg0 states.
-/
import proofs.«411499_j60584808678067_2_alg».proof.Proof.Bits.K0Defs
import proofs.«411499_j60584808678067_2_alg».proof.Proof.Gen.Kernel.Launch
import proofs.«411499_j60584808678067_2_alg».proof.Proof.Gen.Kernel.Skeleton
import proofs.«411499_j60584808678067_2_alg».proof.Proof.LibOver
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A guarded block whose two ways end in the same rest -/

/-- A guarded block whose two ways end in one program `J`: if the guarded body takes the buffer from `d` to `d'`
    and goes on with `J`, the conditional takes it from `d` to `if C then d' else d` and goes on with `J`. -/
private theorem guard_jp {α : Type} (c : Dev nD) (E : Set ℕ) {sh : Shape} {e : EltTy}
    (m : Memref sig .tc .vmem sh e) (C : Prop) (dec : Decidable C)
    (p : C → Prog (TpuEff nD τ sig (Elt F) Λ₀ .tc) α) (J : Prog (TpuEff nD τ sig (Elt F) Λ₀ .tc) α)
    (d d' : Vec F sh e) (K : α → sProp 𝕄)
    (hp : ∀ hc : C, iprop(owns (c : Thread nD τ) m fullShare d
        ∗ (owns (c : Thread nD τ) m fullShare d' -∗ wp frame (wpE (defs₀ (F := F)) Variants.none c none) E J K))
      ⊢ wp frame (wpE (defs₀ (F := F)) Variants.none c none) E (p hc) K) :
    iprop(owns (c : Thread nD τ) m fullShare d
        ∗ (owns (c : Thread nD τ) m fullShare (if C then d' else d) -∗ wp frame (wpE (defs₀ (F := F)) Variants.none c none) E J K))
      ⊢ wp frame (wpE (defs₀ (F := F)) Variants.none c none) E (@dite _ C dec p (fun _ => J)) K := by
  by_cases hc : C
  · rw [dif_pos hc, if_pos hc]; exact hp hc
  · rw [dif_neg hc, if_neg hc]
    iintro ⟨H, Hk⟩
    iapply Hk
    iexact H

set_option hygiene false in
/-- The guarded body of a block: its loads and stores run, and the table is read back as the incoming contents overlaid
    by the stored pieces (a load from a tile that no earlier store of the block touches reads the incoming contents). -/
local macro "grp_body " h:ident : tactic => `(tactic| (
  unfold owns
  iintro ⟨⟨%f6, %hf6, H6⟩, Hk⟩
  obtain rfl := Memref.IsWhole.eq_unread $h hf6
  sl_exec
  iapply Hk
  iexists _; isplitr
  swap; · iexact H6
  ipureintro
  rw [View.read_writes_eq_over]
  sl_unfold_run_names
  simp only [View.readAt_eq_ld, Memref.IsWhole.read_unread $h]))

/-! ## The clear -/

set_option maxHeartbeats 1000000 in
/-- The clear under its guard, followed by the rest `J` of the block: the table goes from `d` to `clr0 i d`. -/
private theorem step_clr {α : Type} (c : Dev nD) (E : Set ℕ) (i : grid0.Coords) (arg6 : Memref sig .tc .vmem S1x1024x256 .f32) (harg6 : arg6.IsWhole)
    (d : Vec F S1x1024x256 .f32)
    (J : Prog (TpuEff nD τ sig (Elt F) Λ₀ .tc) α) (K : α → sProp 𝕄) :
    iprop(owns (c : Thread nD τ) arg6 fullShare d
        ∗ (owns (c : Thread nD τ) arg6 fullShare (clr0 i d) -∗ wp frame (wpE (defs₀ (F := F)) Variants.none c none) E J K))
      ⊢ wp frame (wpE (defs₀ (F := F)) Variants.none c none) E
        (if h : k0_cond1 i = 1#1 then do
            let v55 : Vec F S1x1024x256 .f32 ← Prog.lift (.load arg6 (Rect.unit (s := S1x1024x256) ![0, 0, 0] S1x1024x256.size inb_S1x1024x256_S1x1024x256_0_0_0).toLoadRect (View.loadsAt_vmem h_S1x1024x256))
            Prog.lift (.store arg6 (Rect.unit (s := S1x1024x256) ![0, 0, 0] S1x1024x256.size inb_S1x1024x256_S1x1024x256_0_0_0) (k0_pay16 (F := F)) Finset.univ (View.stores_vmem_bits_univ h_S1x1024x256 rfl) (.inl rfl))
            J
          else J) K := by
  unfold clr0
  refine guard_jp c E arg6 _ _ _ J d _ K fun hc => ?_
  grp_body harg6

/-! ## The eight groups of rows -/

set_option hygiene false in
/-- The statement and proof of one guarded group of 128 rows, followed by the rest `J` of the block: under the guard
    `cnd` the sum tile at offsets `oS` is loaded and stored back with the tile's sums added (`pS`), then the count tile at
    offsets `oC` likewise (`pC`); the table goes from `d` to `grp w0 w1 x b d`. The two tiles are disjoint, so the second
    load reads the incoming contents. -/
local macro "group_step " nm:ident grp:ident cnd:ident oS:term:max iS:ident oC:term:max iC:ident pS:term:max pC:term:max : command => `(
  set_option maxHeartbeats 1000000 in
  private theorem $nm {α : Type} (c : Dev nD) (E : Set ℕ) (arg6 : Memref sig .tc .vmem S1x1024x256 .f32) (harg6 : arg6.IsWhole)
      (w0 w1 : BitVec 32) (x : Vec F S10000x128 .f32) (b : Vec F S10000x1 .i32) (d : Vec F S1x1024x256 .f32)
      (J : Prog (TpuEff nD τ sig (Elt F) Λ₀ .tc) α) (K : α → sProp 𝕄) :
      iprop(owns (c : Thread nD τ) arg6 fullShare d
          ∗ (owns (c : Thread nD τ) arg6 fullShare ($grp w0 w1 x b d) -∗ wp frame (wpE (defs₀ (F := F)) Variants.none c none) E J K))
        ⊢ wp frame (wpE (defs₀ (F := F)) Variants.none c none) E
          (if h : $cnd w0 w1 = 1#1 then do
              let v64 : Vec F S1x128x128 .f32 ← Prog.lift (.load arg6 (Rect.unit (s := S1x1024x256) $oS S1x128x128.size $iS).toLoadRect (View.loadsAt_vmem h_S1x128x128))
              let v67 : Vec F S1x128x128 .f32 ← Prog.lift (.load arg6 (Rect.unit (s := S1x1024x256) $oS S1x128x128.size $iS).toLoadRect (View.loadsAt_vmem h_S1x128x128))
              Prog.lift (.store arg6 (Rect.unit (s := S1x1024x256) $oS S1x128x128.size $iS) ($pS v64) Finset.univ (View.stores_vmem_bits_univ h_S1x128x128 rfl) (.inl rfl))
              let v70 : Vec F S1x128x128 .f32 ← Prog.lift (.load arg6 (Rect.unit (s := S1x1024x256) $oC S1x128x128.size $iC).toLoadRect (View.loadsAt_vmem h_S1x128x128))
              let v75 : Vec F S1x128x128 .f32 ← Prog.lift (.load arg6 (Rect.unit (s := S1x1024x256) $oC S1x128x128.size $iC).toLoadRect (View.loadsAt_vmem h_S1x128x128))
              Prog.lift (.store arg6 (Rect.unit (s := S1x1024x256) $oC S1x128x128.size $iC) ($pC v70) Finset.univ (View.stores_vmem_bits_univ h_S1x128x128 rfl) (.inl rfl))
              J
            else J) K := by
    unfold $grp
    refine guard_jp c E arg6 _ _ _ J d _ K fun hc => ?_
    grp_body harg6)

-- rows 0, 128 and 256: the payloads read the feature block and the id block as loaded
group_step step_0 grp0_0 k0_cond2 ![0, 0, 0] inb_S1x1024x256_S1x128x128_0_0_0 ![0, 0, 128] inb_S1x1024x256_S1x128x128_0_0_128 (k0_pay21 x b) (k0_pay22 b)
group_step step_128 grp0_128 k0_cond3 ![0, 128, 0] inb_S1x1024x256_S1x128x128_0_128_0 ![0, 128, 128] inb_S1x1024x256_S1x128x128_0_128_128 (k0_pay24 x b) (k0_pay25 b)
group_step step_256 grp0_256 k0_cond4 ![0, 256, 0] inb_S1x1024x256_S1x128x128_0_256_0 ![0, 256, 128] inb_S1x1024x256_S1x128x128_0_256_128 (k0_pay27 x b) (k0_pay28 b)
-- rows 384 to 896: the payloads read the narrowed feature block, the id block and the block of ones
group_step step_384 grp0_384 k0_cond5 ![0, 384, 0] inb_S1x1024x256_S1x128x128_0_384_0 ![0, 384, 128] inb_S1x1024x256_S1x128x128_0_384_128 (k0_pay2 (k0_pay17 x) (k0_pay18 b)) (k0_pay3 (k0_pay18 b) (k0_pay19 (F := F)))
group_step step_512 grp0_512 k0_cond6 ![0, 512, 0] inb_S1x1024x256_S1x128x128_0_512_0 ![0, 512, 128] inb_S1x1024x256_S1x128x128_0_512_128 (k0_pay5 (k0_pay17 x) (k0_pay18 b)) (k0_pay6 (k0_pay18 b) (k0_pay19 (F := F)))
group_step step_640 grp0_640 k0_cond7 ![0, 640, 0] inb_S1x1024x256_S1x128x128_0_640_0 ![0, 640, 128] inb_S1x1024x256_S1x128x128_0_640_128 (k0_pay8 (k0_pay17 x) (k0_pay18 b)) (k0_pay9 (k0_pay18 b) (k0_pay19 (F := F)))
group_step step_768 grp0_768 k0_cond8 ![0, 768, 0] inb_S1x1024x256_S1x128x128_0_768_0 ![0, 768, 128] inb_S1x1024x256_S1x128x128_0_768_128 (k0_pay11 (k0_pay17 x) (k0_pay18 b)) (k0_pay12 (k0_pay18 b) (k0_pay19 (F := F)))
group_step step_896 grp0_896 k0_cond9 ![0, 896, 0] inb_S1x1024x256_S1x128x128_0_896_0 ![0, 896, 128] inb_S1x1024x256_S1x128x128_0_896_128 (k0_pay14 (k0_pay17 x) (k0_pay18 b)) (k0_pay15 (k0_pay18 b) (k0_pay19 (F := F)))

/-! ## The reads -/

private theorem hz2 : (![0, 0] : Fin 2 → Nat) = fun _ => 0 := funext fun a => by fin_cases a <;> rfl

set_option maxHeartbeats 1000000 in
/-- The loads of the tile's two input blocks and of its two table words, followed by the rest `k` of the block at the
    values read: a whole block read through the rectangle at offset zero is the block, and a table's loaded word is its
    entry at the tile's index. -/
private theorem step_reads {α : Type} (c : Dev nD) (E : Set ℕ) (i : grid0.Coords)
    (arg2 : Memref sig .tc .smem S50 .i32) (harg2 : arg2.IsWhole) (arg3 : Memref sig .tc .smem S50 .i32) (harg3 : arg3.IsWhole)
    (arg4 : Memref sig .tc .vmem S10000x128 .f32) (harg4 : arg4.IsWhole) (arg5 : Memref sig .tc .vmem S10000x1 .i32) (harg5 : arg5.IsWhole)
    (tmin tmax : Vec F S50 .i32) (x : Vec F S10000x128 .f32) (b : Vec F S10000x1 .i32)
    (k : Vec F S10000x128 .f32 → Vec F S10000x1 .i32 → Elt F .i32 → Elt F .i32 → Prog (TpuEff nD τ sig (Elt F) Λ₀ .tc) α) (K : α → sProp 𝕄) :
    iprop(owns (c : Thread nD τ) arg2 fullShare tmin ∗ owns (c : Thread nD τ) arg3 fullShare tmax
        ∗ owns (c : Thread nD τ) arg4 fullShare x ∗ owns (c : Thread nD τ) arg5 fullShare b
        ∗ (iprop(owns (c : Thread nD τ) arg2 fullShare tmin ∗ owns (c : Thread nD τ) arg3 fullShare tmax
            ∗ owns (c : Thread nD τ) arg4 fullShare x ∗ owns (c : Thread nD τ) arg5 fullShare b)
          -∗ wp frame (wpE (defs₀ (F := F)) Variants.none c none) E (k x b (word0 tmin i) (word0 tmax i)) K))
      ⊢ wp frame (wpE (defs₀ (F := F)) Variants.none c none) E
        (do
          let v5 : Vec F S10000x128 .f32 ← Prog.lift (.load arg4 (Rect.unit (s := S10000x128) ![0, 0] S10000x128.size inb_S10000x128_S10000x128_0_0).toLoadRect (View.loadsAt_vmem h_S10000x128))
          let v7 : Vec F S10000x1 .i32 ← Prog.lift (.load arg5 (Rect.unit (s := S10000x1) ![0, 0] S10000x1.size inb_S10000x1_S10000x1_0_0).toLoadRect (View.loadsAt_vmem h_S10000x1))
          let v11 : Elt F .i32 ← smemLoad arg2 (Rect.unit (s := S50) (k0_off1 i) S1.size (k0_off1_inb i)) numel1_S1 rfl
          let v13 : Elt F .i32 ← smemLoad arg3 (Rect.unit (s := S50) (k0_off1 i) S1.size (k0_off1_inb i)) numel1_S1 rfl
          k v5 v7 v11 v13) K := by
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec
  have e4 : View.readAt (Elt F) arg4.view (Rect.unit (s := S10000x128) ![0, 0] S10000x128.size inb_S10000x128_S10000x128_0_0).toLoadRect (harg4.unread x) = x := by
    rw [View.readAt_eq_ld, harg4.read_unread]; exact View.ld_unit_zero hz2 _ x
  have e5 : View.readAt (Elt F) arg5.view (Rect.unit (s := S10000x1) ![0, 0] S10000x1.size inb_S10000x1_S10000x1_0_0).toLoadRect (harg5.unread b) = b := by
    rw [View.readAt_eq_ld, harg5.read_unread]; exact View.ld_unit_zero hz2 _ b
  have e2 : step_reads.sl.r c i arg2 harg2 tmin = word0 tmin i := by
    unfold step_reads.sl.r word0
    simp only [View.readAt_eq_ld, harg2.read_unread]
  have e3 : step_reads.sl.r_1 c i arg3 harg3 tmax = word0 tmax i := by
    unfold step_reads.sl.r_1 word0
    simp only [View.readAt_eq_ld, harg3.read_unread]
  rw [e4, e5, e2, e3]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr; · ipureintro; exact harg5.read_unread _
  iexact H5

/-! ## The first part of the body -/

set_option maxHeartbeats 2000000 in
/-- The first part of the body: the clear, the reads, and the groups of rows 0, 128 and 256, one after the other; it
    returns the narrowed feature block, the id block, the block of ones and the tile's two table words. -/
private theorem part1_sound (c : Dev nD) (E : Set ℕ) (i : grid0.Coords)
    (arg2 : Memref sig .tc .smem S50 .i32) (harg2 : arg2.IsWhole) (arg3 : Memref sig .tc .smem S50 .i32) (harg3 : arg3.IsWhole)
    (arg4 : Memref sig .tc .vmem S10000x128 .f32) (harg4 : arg4.IsWhole) (arg5 : Memref sig .tc .vmem S10000x1 .i32) (harg5 : arg5.IsWhole)
    (arg6 : Memref sig .tc .vmem S1x1024x256 .f32) (harg6 : arg6.IsWhole)
    (tmin tmax : Vec F S50 .i32) (x : Vec F S10000x128 .f32) (b : Vec F S10000x1 .i32) (d : Vec F S1x1024x256 .f32)
    (K : (Σ' (v6 : FVec F S10000x128 .bf16) (v8 : IVec S10000x1 32) (v9 : FVec F S10000x1 .bf16) (v11 : Elt F .i32), Elt F .i32) → sProp 𝕄) :
    iprop(owns (c : Thread nD τ) arg2 fullShare tmin ∗ owns (c : Thread nD τ) arg3 fullShare tmax
        ∗ owns (c : Thread nD τ) arg4 fullShare x ∗ owns (c : Thread nD τ) arg5 fullShare b ∗ owns (c : Thread nD τ) arg6 fullShare d
        ∗ (iprop(owns (c : Thread nD τ) arg2 fullShare tmin ∗ owns (c : Thread nD τ) arg3 fullShare tmax
            ∗ owns (c : Thread nD τ) arg4 fullShare x ∗ owns (c : Thread nD τ) arg5 fullShare b
            ∗ owns (c : Thread nD τ) arg6 fullShare
                (grp0_256 (word0 tmin i) (word0 tmax i) x b (grp0_128 (word0 tmin i) (word0 tmax i) x b (grp0_0 (word0 tmin i) (word0 tmax i) x b (clr0 i d)))))
          -∗ K ⟨k0_pay17 x, k0_pay18 b, k0_pay19 (F := F), word0 tmin i, word0 tmax i⟩))
      ⊢ wp frame (wpE (defs₀ (F := F)) Variants.none c none) E (k0_part1 i arg2 harg2 arg3 harg3 arg4 harg4 arg5 harg5 arg6 harg6) K := by
  simp only [k0_part1_eq_skeleton]; unfold k0_part1_skel
  iintro ⟨H2, H3, H4, H5, H6, Hk⟩
  iapply (step_clr c E i arg6 harg6 d _ _)
  isplitl [H6]; · iexact H6
  iintro H6
  iapply (step_reads c E i arg2 harg2 arg3 harg3 arg4 harg4 arg5 harg5 tmin tmax x b _ _)
  isplitl [H2]; · iexact H2
  isplitl [H3]; · iexact H3
  isplitl [H4]; · iexact H4
  isplitl [H5]; · iexact H5
  iintro ⟨H2, H3, H4, H5⟩
  iapply (step_0 c E arg6 harg6 (word0 tmin i) (word0 tmax i) x b _ _ _)
  isplitl [H6]; · iexact H6
  iintro H6
  iapply (step_128 c E arg6 harg6 (word0 tmin i) (word0 tmax i) x b _ _ _)
  isplitl [H6]; · iexact H6
  iintro H6
  iapply (step_256 c E arg6 harg6 (word0 tmin i) (word0 tmax i) x b _ _ _)
  isplitl [H6]; · iexact H6
  iintro H6
  sl_step
  iapply Hk
  isplitl [H2]; · iexact H2
  isplitl [H3]; · iexact H3
  isplitl [H4]; · iexact H4
  isplitl [H5]; · iexact H5
  iexact H6

/-! ## The body -/

set_option maxHeartbeats 2000000 in
/-- THE BODY at one grid point: on whole blocks — the two tables, the tile's feature and id blocks, the core's table at
    `d` — it runs to the continuation holding the inputs as they were and the table at `seg0 i tmin tmax x b d`. -/
theorem sound_kernel0 (c : Dev nD) (E : Set ℕ) (i : grid0.Coords)
    (arg2 : Memref sig .tc .smem S50 .i32) (harg2 : arg2.IsWhole) (arg3 : Memref sig .tc .smem S50 .i32) (harg3 : arg3.IsWhole)
    (arg4 : Memref sig .tc .vmem S10000x128 .f32) (harg4 : arg4.IsWhole) (arg5 : Memref sig .tc .vmem S10000x1 .i32) (harg5 : arg5.IsWhole)
    (arg6 : Memref sig .tc .vmem S1x1024x256 .f32) (harg6 : arg6.IsWhole)
    (tmin tmax : Vec F S50 .i32) (x : Vec F S10000x128 .f32) (b : Vec F S10000x1 .i32) (d : Vec F S1x1024x256 .f32) (K : PUnit → sProp 𝕄) :
    iprop(owns (c : Thread nD τ) arg2 fullShare tmin ∗ owns (c : Thread nD τ) arg3 fullShare tmax
        ∗ owns (c : Thread nD τ) arg4 fullShare x ∗ owns (c : Thread nD τ) arg5 fullShare b ∗ owns (c : Thread nD τ) arg6 fullShare d
        ∗ (iprop(owns (c : Thread nD τ) arg2 fullShare tmin ∗ owns (c : Thread nD τ) arg3 fullShare tmax
            ∗ owns (c : Thread nD τ) arg4 fullShare x ∗ owns (c : Thread nD τ) arg5 fullShare b
            ∗ owns (c : Thread nD τ) arg6 fullShare (seg0 i tmin tmax x b d)) -∗ K ⟨⟩))
      ⊢ wp frame (wpE (defs₀ (F := F)) Variants.none c none) E (cc0__seg_sum_kernel i arg2 harg2 arg3 harg3 arg4 harg4 arg5 harg5 arg6 harg6) K := by
  simp only [cc0__seg_sum_kernel_eq_skeleton]; unfold cc0__seg_sum_kernel_skel
  rw [wp_bind]
  iintro ⟨H2, H3, H4, H5, H6, Hk⟩
  iapply (part1_sound c E i arg2 harg2 arg3 harg3 arg4 harg4 arg5 harg5 arg6 harg6 tmin tmax x b d _)
  isplitl [H2]; · iexact H2
  isplitl [H3]; · iexact H3
  isplitl [H4]; · iexact H4
  isplitl [H5]; · iexact H5
  isplitl [H6]; · iexact H6
  iintro ⟨H2, H3, H4, H5, H6⟩
  iapply (step_384 c E arg6 harg6 (word0 tmin i) (word0 tmax i) x b _ _ _)
  isplitl [H6]; · iexact H6
  iintro H6
  iapply (step_512 c E arg6 harg6 (word0 tmin i) (word0 tmax i) x b _ _ _)
  isplitl [H6]; · iexact H6
  iintro H6
  iapply (step_640 c E arg6 harg6 (word0 tmin i) (word0 tmax i) x b _ _ _)
  isplitl [H6]; · iexact H6
  iintro H6
  iapply (step_768 c E arg6 harg6 (word0 tmin i) (word0 tmax i) x b _ _ _)
  isplitl [H6]; · iexact H6
  iintro H6
  iapply (step_896 c E arg6 harg6 (word0 tmin i) (word0 tmax i) x b _ _ _)
  isplitl [H6]; · iexact H6
  iintro H6
  sl_step
  iapply Hk
  isplitl [H2]; · iexact H2
  isplitl [H3]; · iexact H3
  isplitl [H4]; · iexact H4
  isplitl [H5]; · iexact H5
  iexact H6

end Cert.Kernel.H

end
-- ==== Proof.Bits.K1Body.lean ====
/-
  The main kernel's body at one grid point leaves `out1` in its output block.

  The body zeroes its scratch, reads the tile's two table words, and then, for each of the eight groups of 128 rows of
  the mean table, runs a guarded block: if the group's id range meets the tile's, the block loads the group's rows and
  the scratch and overwrites the whole scratch by the group's payload; otherwise it does nothing. Each block is taken
  once, over symbolic incoming scratch contents: after it the scratch reads `if guard then payload else unchanged`, which
  is the matching `acc1_*` of K1Defs. The eight blocks compose to `gath1`; the final store over the whole output block
  leaves `k1_pay11` of the loaded operands, which is `out1`.
-/
import proofs.«411499_j60584808678067_2_alg».proof.Proof.Gen.Kernel.Launch
import proofs.«411499_j60584808678067_2_alg».proof.Proof.Gen.Kernel.Skeleton
import proofs.«411499_j60584808678067_2_alg».proof.Proof.LibOver
import proofs.«411499_j60584808678067_2_alg».proof.Proof.Bits.K1Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two-coordinate zero offset, as the constant zero function. -/
private theorem zeros2 : (![0, 0] : Fin 2 → ℕ) = fun _ => 0 := by funext a; fin_cases a <;> rfl

/-- A store over the whole 5000x128 buffer, made last, leaves its payload whatever was there before: its one
    rectangle covers every index. -/
private theorem read_writes_whole {κ : Kind} {sp : Space} (v : View sig κ sp S5000x128 .f32) (f : v.ty.Contents (Elt F))
    (w : Vec F S5000x128 .f32) (L : List (View.Piece (Elt F) S5000x128 .f32)) :
    v.read (Elt F) (v.writes (Elt F) f (⟨Rect.unit (s := S5000x128) ![0, 0] S5000x128.size inb_S5000x128_S5000x128_0_0, w⟩ :: L)) = w := by
  have hcov : ∀ y : S5000x128.Idx, ∃ p ∈ ((⟨Rect.unit (s := S5000x128) ![0, 0] S5000x128.size inb_S5000x128_S5000x128_0_0, w⟩ :: L : List (View.Piece (Elt F) S5000x128 .f32))), y ∈ p.1.set :=
    fun y => ⟨_, List.mem_cons_self, View.mem_set_unit_zero (S := S5000x128) zeros2 inb_S5000x128_S5000x128_0_0 y⟩
  rw [View.read_writes_eq_canon v f _ hcov]
  exact View.canon_cons_unit_zero (S := S5000x128) zeros2 inb_S5000x128_S5000x128_0_0 w L

/-- A load of a whole buffer (the unit rectangle at zero offsets of the buffer's own sizes) reads its contents. -/
private theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit (s := S) off S.size inb).toLoadRect f = v.read (Elt F) f := by
  rw [View.readAt_eq_ld]
  exact View.ld_unit_zero (S := S) h inb _

set_option maxHeartbeats 1000000 in
/-- ONE GUARDED GROUP, followed by the rest `J` of the body. If the guard `C` holds, the group's 128 rows of the mean
    table (from row `o`) and the scratch are loaded and the whole scratch is overwritten by `pay` of them; otherwise
    nothing is touched; either way `J` runs next. So `J` runs from the mean table unchanged and a scratch that reads
    `if C then pay (the group's rows) (the old reading) else the old reading`. The two cases of `C`. -/
private theorem guard_blk {β : Type} (c : Dev nD) (E : Set ℕ) (C : Prop) [dec : Decidable C]
    (arg5 : Memref sig .tc .vmem S1024x128 .bf16) (harg5 : arg5.IsWhole)
    (arg10 : Memref sig .tc .vmem S5000x128 .f32) (harg10 : arg10.IsWhole)
    (o : ℕ) (inb : ∀ a, (![o, 0] : Fin 2 → ℕ) a + S128x128.size a ≤ S1024x128.size a)
    (pay : Vec F S128x128 .bf16 → Vec F S5000x128 .f32 → Vec F S5000x128 .f32)
    (f5 : arg5.view.ty.Contents (Elt F)) (f10 : arg10.view.ty.Contents (Elt F))
    (J : Prog (TpuEff nD τ sig (Elt F) Λ₀ .tc) β) (K : β → sProp 𝕄) :
    iprop((arg5.view.loc (c : Thread nD τ) ↦[arg5.view.set]{fullShare} f5)
      ∗ (arg10.view.loc (c : Thread nD τ) ↦[arg10.view.set]{fullShare} f10)
      ∗ (iprop((arg5.view.loc (c : Thread nD τ) ↦[arg5.view.set]{fullShare} f5)
          ∗ (∃ f', ⌜arg10.view.read (Elt F) f' = if C then pay (View.ld (arg5.view.read (Elt F) f5) (Rect.unit (s := S1024x128) ![o, 0] S128x128.size inb)) (arg10.view.read (Elt F) f10) else arg10.view.read (Elt F) f10⌝
              ∗ (arg10.view.loc (c : Thread nD τ) ↦[arg10.view.set]{fullShare} f')))
          -∗ wp frame (wpE (defs₀ (F := F)) Variants.none c none) E J K))
    ⊢ wp frame (wpE (defs₀ (F := F)) Variants.none c none) E
       (if C then do
          let v66 : Vec F S128x128 .bf16 ← Prog.lift (.load arg5 (Rect.unit (s := S1024x128) ![o, 0] S128x128.size inb).toLoadRect (View.loadsAt_vmem h_S128x128))
          let v76 : Vec F S5000x128 .f32 ← Prog.lift (.load arg10 (Rect.unit (s := S5000x128) ![0, 0] S5000x128.size inb_S5000x128_S5000x128_0_0).toLoadRect (View.loadsAt_vmem h_S5000x128))
          let v79 : Vec F S5000x128 .f32 ← Prog.lift (.load arg10 (Rect.unit (s := S5000x128) ![0, 0] S5000x128.size inb_S5000x128_S5000x128_0_0).toLoadRect (View.loadsAt_vmem h_S5000x128))
          Prog.lift (.store arg10 (Rect.unit (s := S5000x128) ![0, 0] S5000x128.size inb_S5000x128_S5000x128_0_0) (pay v66 v76) Finset.univ (View.stores_vmem_bits_univ h_S5000x128 rfl) (.inl rfl))
          J
        else J) K := by
  by_cases hc : C
  · rw [if_pos hc, if_pos hc]
    iintro ⟨H5, H10, Hk⟩
    sl_exec
    iapply Hk
    isplitl [H5]
    · iexact H5
    iexists _; isplitr
    swap; · iexact H10
    ipureintro
    rw [read_writes_whole, readAt_whole arg10.view f10 zeros2 inb_S5000x128_S5000x128_0_0, View.readAt_eq_ld]
  · rw [if_neg hc, if_neg hc]
    iintro ⟨H5, H10, Hk⟩
    iapply Hk
    isplitl [H5]
    · iexact H5
    iexists _; isplitr
    swap; · iexact H10
    ipureintro; rfl

set_option maxHeartbeats 4000000 in
/-- THE BODY'S TRIPLE. From the ten buffers — the two tables, the features, the ids, the mean table, the two weight
    blocks and the bias at their contents, the output block and the scratch at anything — the body runs to its return
    with the inputs as they were and the output block at `out1`. The scratch is zeroed, each of the eight guarded
    groups turns its reading `g` into the matching `acc1_*` of `g` (the block lemma, its guard the printed condition,
    which is `on1` of the group's bounds and the two loaded words unfolded), so before the final store it reads
    `gath1`; the final store covers the output block, which then reads its payload `k1_pay11` of the loaded operands. -/
theorem sound_kernel1 (c : Dev nD) (E : Set ℕ) (i : grid1.Coords)
      (arg1 : Memref sig .tc .smem S100 .i32) (harg1 : arg1.IsWhole) (arg2 : Memref sig .tc .smem S100 .i32) (harg2 : arg2.IsWhole)
      (arg3 : Memref sig .tc .vmem S5000x128 .f32) (harg3 : arg3.IsWhole) (arg4 : Memref sig .tc .vmem S5000x1 .i32) (harg4 : arg4.IsWhole)
      (arg5 : Memref sig .tc .vmem S1024x128 .bf16) (harg5 : arg5.IsWhole) (arg6 : Memref sig .tc .vmem S128x128 .bf16) (harg6 : arg6.IsWhole)
      (arg7 : Memref sig .tc .vmem S128x128 .bf16) (harg7 : arg7.IsWhole) (arg8 : Memref sig .tc .vmem S1x128 .f32) (harg8 : arg8.IsWhole)
      (arg9 : Memref sig .tc .vmem S5000x128 .f32) (harg9 : arg9.IsWhole) (arg10 : Memref sig .tc .vmem S5000x128 .f32) (harg10 : arg10.IsWhole)
      (tmin tmax : Vec F S100 .i32) (x : Vec F S5000x128 .f32) (b : Vec F S5000x1 .i32) (mn : Vec F S1024x128 .bf16)
      (w1 w2 : Vec F S128x128 .bf16) (bias : Vec F S1x128 .f32) (K : PUnit → sProp 𝕄) :
      iprop(owns (c : Thread nD τ) arg1 fullShare tmin ∗ owns (c : Thread nD τ) arg2 fullShare tmax
          ∗ owns (c : Thread nD τ) arg3 fullShare x ∗ owns (c : Thread nD τ) arg4 fullShare b ∗ owns (c : Thread nD τ) arg5 fullShare mn
          ∗ owns (c : Thread nD τ) arg6 fullShare w1 ∗ owns (c : Thread nD τ) arg7 fullShare w2 ∗ owns (c : Thread nD τ) arg8 fullShare bias
          ∗ (∃ d9, owns (c : Thread nD τ) arg9 fullShare d9) ∗ (∃ d10, owns (c : Thread nD τ) arg10 fullShare d10)
          ∗ (iprop(owns (c : Thread nD τ) arg1 fullShare tmin ∗ owns (c : Thread nD τ) arg2 fullShare tmax
              ∗ owns (c : Thread nD τ) arg3 fullShare x ∗ owns (c : Thread nD τ) arg4 fullShare b ∗ owns (c : Thread nD τ) arg5 fullShare mn
              ∗ owns (c : Thread nD τ) arg6 fullShare w1 ∗ owns (c : Thread nD τ) arg7 fullShare w2 ∗ owns (c : Thread nD τ) arg8 fullShare bias
              ∗ owns (c : Thread nD τ) arg9 fullShare (out1 i tmin tmax x b mn w1 w2 bias)
              ∗ (∃ d10, owns (c : Thread nD τ) arg10 fullShare d10)) -∗ K ⟨⟩))
        ⊢ wp frame (wpE (defs₀ (F := F)) Variants.none c none) E
            (cc1__main_kernel i arg1 harg1 arg2 harg2 arg3 harg3 arg4 harg4 arg5 harg5 arg6 harg6 arg7 harg7 arg8 harg8 arg9 harg9 arg10 harg10) K := by
  simp only [cc1__main_kernel_eq_skeleton]; unfold cc1__main_kernel_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, Hk⟩
  set_option sl_exec.stopBefore "v14" in sl_exec
  irw [wp_bind]
  iapply (guard_blk c E _ arg5 harg5 arg10 harg10 _ _ _ f5 _ _ _)
  isplitl [H5]
  · iexact H5
  isplitl [H10]
  · iexact H10
  iintro ⟨H5, %g1, %hg1, H10⟩
  iapply (guard_blk c E _ arg5 harg5 arg10 harg10 _ _ _ f5 g1 _ _)
  isplitl [H5]
  · iexact H5
  isplitl [H10]
  · iexact H10
  iintro ⟨H5, %g2, %hg2, H10⟩
  iapply (guard_blk c E _ arg5 harg5 arg10 harg10 _ _ _ f5 g2 _ _)
  isplitl [H5]
  · iexact H5
  isplitl [H10]
  · iexact H10
  iintro ⟨H5, %g3, %hg3, H10⟩
  iapply (guard_blk c E _ arg5 harg5 arg10 harg10 _ _ _ f5 g3 _ _)
  isplitl [H5]
  · iexact H5
  isplitl [H10]
  · iexact H10
  iintro ⟨H5, %g4, %hg4, H10⟩

  irw [← wp_bind]
  set_option sl_exec.stopBefore "v34" in sl_exec
  irw [wp_bind]
  iapply (guard_blk c E _ arg5 harg5 arg10 harg10 _ _ _ f5 g4 _ _)
  isplitl [H5]
  · iexact H5
  isplitl [H10]
  · iexact H10
  iintro ⟨H5, %g5, %hg5, H10⟩
  iapply (guard_blk c E _ arg5 harg5 arg10 harg10 _ _ _ f5 g5 _ _)
  isplitl [H5]
  · iexact H5
  isplitl [H10]
  · iexact H10
  iintro ⟨H5, %g6, %hg6, H10⟩
  iapply (guard_blk c E _ arg5 harg5 arg10 harg10 _ _ _ f5 g6 _ _)
  isplitl [H5]
  · iexact H5
  isplitl [H10]
  · iexact H10
  iintro ⟨H5, %g7, %hg7, H10⟩
  iapply (guard_blk c E _ arg5 harg5 arg10 harg10 _ _ _ f5 g7 _ _)
  isplitl [H5]
  · iexact H5
  isplitl [H10]
  · iexact H10
  iintro ⟨H5, %g8, %hg8, H10⟩

  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  swap
  · iexists _, g8; isplitr; · ipureintro; rfl
    iexact H10
  iexists _; isplitr
  swap; · iexact H9
  ipureintro
  subst hf1; subst hf2; subst hf3; subst hf4; subst hf5; subst hf6; subst hf7; subst hf8
  rw [read_writes_whole, readAt_whole arg4.view f4 zeros2 inb_S5000x1_S5000x1_0_0] at hg1
  rw [readAt_whole arg4.view f4 zeros2 inb_S5000x1_S5000x1_0_0] at hg2 hg3 hg4 hg5 hg6 hg7 hg8
  have e1 : arg10.view.read (Elt F) g1 = acc1_0 (word1 (arg1.view.read (Elt F) f1) i) (word1 (arg2.view.read (Elt F) f2) i) (arg4.view.read (Elt F) f4) (arg5.view.read (Elt F) f5) (k1_pay1 (F := F)) := hg1
  have e2 : arg10.view.read (Elt F) g2 = acc1_128 (word1 (arg1.view.read (Elt F) f1) i) (word1 (arg2.view.read (Elt F) f2) i) (arg4.view.read (Elt F) f4) (arg5.view.read (Elt F) f5) (arg10.view.read (Elt F) g1) := hg2
  have e3 : arg10.view.read (Elt F) g3 = acc1_256 (word1 (arg1.view.read (Elt F) f1) i) (word1 (arg2.view.read (Elt F) f2) i) (arg4.view.read (Elt F) f4) (arg5.view.read (Elt F) f5) (arg10.view.read (Elt F) g2) := hg3
  have e4 : arg10.view.read (Elt F) g4 = acc1_384 (word1 (arg1.view.read (Elt F) f1) i) (word1 (arg2.view.read (Elt F) f2) i) (arg4.view.read (Elt F) f4) (arg5.view.read (Elt F) f5) (arg10.view.read (Elt F) g3) := hg4
  have e5 : arg10.view.read (Elt F) g5 = acc1_512 (word1 (arg1.view.read (Elt F) f1) i) (word1 (arg2.view.read (Elt F) f2) i) (arg4.view.read (Elt F) f4) (arg5.view.read (Elt F) f5) (arg10.view.read (Elt F) g4) := hg5
  have e6 : arg10.view.read (Elt F) g6 = acc1_640 (word1 (arg1.view.read (Elt F) f1) i) (word1 (arg2.view.read (Elt F) f2) i) (arg4.view.read (Elt F) f4) (arg5.view.read (Elt F) f5) (arg10.view.read (Elt F) g5) := hg6
  have e7 : arg10.view.read (Elt F) g7 = acc1_768 (word1 (arg1.view.read (Elt F) f1) i) (word1 (arg2.view.read (Elt F) f2) i) (arg4.view.read (Elt F) f4) (arg5.view.read (Elt F) f5) (arg10.view.read (Elt F) g6) := hg7
  have e8 : arg10.view.read (Elt F) g8 = acc1_896 (word1 (arg1.view.read (Elt F) f1) i) (word1 (arg2.view.read (Elt F) f2) i) (arg4.view.read (Elt F) f4) (arg5.view.read (Elt F) f5) (arg10.view.read (Elt F) g7) := hg8

  rw [read_writes_whole, readAt_whole arg3.view f3 zeros2 inb_S5000x128_S5000x128_0_0,
    readAt_whole arg10.view g8 zeros2 inb_S5000x128_S5000x128_0_0,
    readAt_whole arg6.view f6 zeros2 inb_S128x128_S128x128_0_0,
    readAt_whole arg7.view f7 zeros2 inb_S128x128_S128x128_0_0,
    readAt_whole arg8.view f8 zeros2 inb_S1x128_S1x128_0_0]
  rw [e8, e7, e6, e5, e4, e3, e2, e1]
  rfl

end Cert.Kernel.H

end
-- ==== Proof.PreFacts.lean ====
/-
  The last conjunct of the precondition, read back.

  The precondition is one bit: the conjunction of three finiteness tests on the float arguments and of
  "every graph id lies in [0, 1024)", the latter being the and-reduction over all 500000 nodes of
  (id ≥ 0) ∧ (id < 1024). When the whole bit is 1, the last conjunct is 1; an and-reduction that is 1 met a 1 at
  every node; and a signed comparison word that is 1 says the order relation of the signed values compared.
-/
import proofs.«411499_j60584808678067_2_alg».proof.Pre_finite_inputs
import proofs.«411499_j60584808678067_2_alg».proof.Proof.Gen.Pre_finite_inputs
import proofs.«411499_j60584808678067_2_alg».proof.Proof.Spec
import Idealize.ShloMosaic.Lib.ReduceAll
import Idealize.ShloMosaic.Lib.StableHlo.Predicate
import Idealize.ShloMosaic.Lib.ValueIdx

namespace Cert.PreFacts

open Idealize.ShloMosaic Idealize.ShloMosaic.ValueIdx

/-- The rank-0 shape has exactly one index. -/
private instance : Subsingleton Cert.Pre_finite_inputs.S_.Idx := ⟨fun _ _ => funext fun d => d.elim0⟩

/-- The two bounds as signed integers. -/
private theorem toInt_zero : (0#32 : BitVec 32).toInt = 0 := by decide
private theorem toInt_1024 : (1024#32 : BitVec 32).toInt = 1024 := by decide

/-- If the precondition bit is 1 then every graph id is in [0, 1024). -/
theorem inRange_of_pre [Cert.Pre_finite_inputs.Facts] {F : FTy → Type} [FloatOps F]
    (x0 : FVec F Cert.Pre_finite_inputs.S500000x128 .f32) (x1 : IVec Cert.Pre_finite_inputs.S500000 32)
    (x2 : FVec F Cert.Pre_finite_inputs.S128x256 .f32) (x3 : FVec F Cert.Pre_finite_inputs.S128 .f32)
    (h : Cert.Pre_finite_inputs.fn (F := F) x0 x1 x2 x3 = (fun _ => 1#1)) : Cert.Spec.InRange x1 := by
  intro n
  -- the one bit of the result
  have h0 := congrFun h ix0
  dsimp only [Cert.Pre_finite_inputs.fn, Cert.Pre_finite_inputs.fn_part1] at h0
  -- the outermost conjunction: its second operand, the and-reduction over the nodes, is 1
  have h1 := (IntOp.andi_eq_one.1 h0).2
  -- hence the reduced bit at node n is 1
  have h2 := Host.reduce_andi_all _ _ _ _ _ h1 (ix1 n)
  -- that bit is (id ≥ 0) ∧ (id < 1024)
  obtain ⟨hge, hlt⟩ := IntOp.andi_eq_one.1 h2
  have hge' := IntOp.cmpi_sge.1 hge
  have hlt' := IntOp.cmpi_slt.1 hlt
  -- a broadcast scalar constant read at node n is the constant
  simp only [broadcastInDim, constantI] at hge' hlt'
  rw [toInt_zero] at hge'
  rw [toInt_1024] at hlt'
  exact ⟨hge', hlt'⟩

end Cert.PreFacts
-- ==== Proof.RefSide.lean ====
import proofs.«411499_j60584808678067_2_alg».proof.Proof.Gen.ReferenceIdeal.Read
import proofs.«411499_j60584808678067_2_alg».proof.Proof.Spec
import Mathlib.Algebra.BigOperators.Fin

/-
  The reference program read entry by entry.

  The program scatter-adds the rows of `x` into 1024 graph rows by the graph ids (`sums`), scatter-adds ones the same
  way (`counts`), divides (`mean = sums / max counts 1`), gathers each node's graph's mean row, joins it to the node's
  own row along the feature axis and applies the linear layer. Here each of those stages is read at an index and the
  whole is shown to be the specification's `G`:
    • a scatter-add at graph row `g` is the sum over the nodes whose id is `g` (the update index `(n, k')` lands at
      row `bid n`, column `k'`; an id outside the rows lands nowhere);
    • the gather at node `n` reads row `min (bid n) 1023`, the id itself when it is in range;
    • the contraction over the 256 joined features is the sum over the node's 128 features plus the sum over the
      128 mean features.
-/

noncomputable section

namespace Cert.RefSide

open Idealize.ShloMosaic Idealize.ShloMosaic.ValueIdx Cert.ReferenceIdeal Cert.ReferenceIdeal.Gen Cert.ReferenceIdeal.Read

/-! ## A scatter's result index -/

/-- An update index lands at `i` exactly when, on every axis, its start plus its window coordinate is `i`'s. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro e a
      have e1 := congrFun (Option.some.inj e) a
      have e2 : (d.start j idx a + (d.window j a : ℤ)).toNat = (i a).val := congrArg Fin.val e1
      have := h a
      omega
    · intro e
      congr 1
      funext a
      apply Fin.ext
      have := e a
      have := h a
      show (d.start j idx a + (d.window j a : ℤ)).toNat = (i a).val
      omega
  · next h =>
    constructor
    · intro e; cases e
    · intro e
      exfalso
      apply h
      intro a
      have := e a
      have := (i a).isLt
      omega

/-- The scatter of the feature rows: operand [1024,128], indices [500000,1], updates [500000,128]. -/
private abbrev D2 := scatter_S1024x128_S500000x1_S500000x128_1_0_0_1
/-- The scatter of the ones: operand [1024], indices [500000,1], updates [500000]. -/
private abbrev D6 := scatter_S1024_S500000x1_S500000_n_0_0_1

private theorem d2_start0 (idx : IVec S500000x1 32) (j : S500000x128.Idx) :
    D2.start j idx 0 = (idx (ix2 (j 0) (0 : Fin 1))).toInt := by
  unfold ScatterDims.start
  rw [dif_pos (by decide)]
  congr 2
  funext b
  match b with
  | ⟨0, _⟩ => rfl
  | ⟨1, _⟩ => rfl

private theorem d2_start1 (idx : IVec S500000x1 32) (j : S500000x128.Idx) : D2.start j idx 1 = 0 := by
  unfold ScatterDims.start
  rw [dif_neg (by decide)]

private theorem d2_window0 (j : S500000x128.Idx) : D2.window j 0 = 0 := by
  unfold ScatterDims.window
  rw [dif_neg (by decide)]

private theorem d2_window1 (j : S500000x128.Idx) : D2.window j 1 = (j 1).val := by
  unfold ScatterDims.window
  rw [dif_pos (by decide)]
  rfl

/-- Update `(n, k')` of the feature rows lands at `(g, k)` exactly when node `n`'s id is `g` and `k' = k`. -/
private theorem d2_iff (idx : IVec S500000x1 32) (n : Fin 500000) (k' : Fin 128) (g : Fin 1024) (k : Fin 128) :
    D2.resultIdx? (ix2 n k') idx = some (ix2 g k) ↔ (idx (ix2 n (0 : Fin 1))).toInt = (g.val : ℤ) ∧ k' = k := by
  rw [resultIdx?_eq_some_iff]
  constructor
  · intro h
    have h0 : (idx (ix2 n (0 : Fin 1))).toInt + ((0 : ℕ) : ℤ) = (g.val : ℤ) := by
      have := h 0
      rw [d2_start0, d2_window0] at this
      exact this
    have h1 : (0 : ℤ) + ((k'.val : ℕ) : ℤ) = (k.val : ℤ) := by
      have := h 1
      rw [d2_start1, d2_window1] at this
      exact this
    exact ⟨by omega, Fin.ext (by omega)⟩
  · rintro ⟨hg, rfl⟩ a
    match a with
    | ⟨0, _⟩ =>
      show D2.start (ix2 n k') idx 0 + ((D2.window (ix2 n k') 0 : ℕ) : ℤ) = (g.val : ℤ)
      rw [d2_start0, d2_window0]
      show (idx (ix2 n (0 : Fin 1))).toInt + ((0 : ℕ) : ℤ) = (g.val : ℤ)
      omega
    | ⟨1, _⟩ =>
      show D2.start (ix2 n k') idx 1 + ((D2.window (ix2 n k') 1 : ℕ) : ℤ) = (k'.val : ℤ)
      rw [d2_start1, d2_window1]
      show (0 : ℤ) + ((k'.val : ℕ) : ℤ) = (k'.val : ℤ)
      omega

private theorem d6_start0 (idx : IVec S500000x1 32) (j : S500000.Idx) :
    D6.start j idx 0 = (idx (ix2 (j 0) (0 : Fin 1))).toInt := by
  unfold ScatterDims.start
  rw [dif_pos (by decide)]
  congr 2
  funext b
  match b with
  | ⟨0, _⟩ => rfl
  | ⟨1, _⟩ => rfl

private theorem d6_window0 (j : S500000.Idx) : D6.window j 0 = 0 := by
  unfold ScatterDims.window
  rw [dif_neg (by decide)]

/-- Update `n` of the ones lands at `g` exactly when node `n`'s id is `g`. -/
private theorem d6_iff (idx : IVec S500000x1 32) (n : Fin 500000) (g : Fin 1024) :
    D6.resultIdx? (ix1 n) idx = some (ix1 g) ↔ (idx (ix2 n (0 : Fin 1))).toInt = (g.val : ℤ) := by
  rw [resultIdx?_eq_some_iff]
  constructor
  · intro h
    have h0 : (idx (ix2 n (0 : Fin 1))).toInt + ((0 : ℕ) : ℤ) = (g.val : ℤ) := by
      have := h 0
      rw [d6_start0, d6_window0] at this
      exact this
    omega
  · intro hg a
    match a with
    | ⟨0, _⟩ =>
      show D6.start (ix1 n) idx 0 + ((D6.window (ix1 n) 0 : ℕ) : ℤ) = (g.val : ℤ)
      rw [d6_start0, d6_window0]
      show (idx (ix2 n (0 : Fin 1))).toInt + ((0 : ℕ) : ℤ) = (g.val : ℤ)
      omega

/-! ## The constants -/

/-- The word `0x3F800000` is the number one. -/
private theorem ofBits_one_f32 : Ideal.ofBits .f32 0x3F800000#32 = 1 := by
  simp [Ideal.ofBits, Ideal.ieee, -EReal.coe_mul]; norm_num

/-! ## The two scatter-adds at a graph row -/

section
variable (x0 : (⟨S500000x128, .f32⟩ : BufTy).Contents (Elt Ideal)) (x1 : (⟨S500000, .i32⟩ : BufTy).Contents (Elt Ideal))
  (x2 : (⟨S128x256, .f32⟩ : BufTy).Contents (Elt Ideal)) (x3 : (⟨S128, .f32⟩ : BufTy).Contents (Elt Ideal))

/-- The column of ids at row `n` is node `n`'s id. -/
private theorem v1_at (n : Fin 500000) : val_main_v1 (F := Ideal) x1 (ix2 n (0 : Fin 1)) = x1 (ix1 n) := by
  rw [val_main_v1_apply]
  congr 1
  funext a
  match a with
  | ⟨0, _⟩ => rfl

private theorem v5_at (n : Fin 500000) : val_main_v5 (F := Ideal) x1 (ix2 n (0 : Fin 1)) = x1 (ix1 n) := by
  rw [val_main_v5_apply]
  congr 1
  funext a
  match a with
  | ⟨0, _⟩ => rfl

/-- `sums` at `(g, k)`: zero plus the sum of `x n k` over the nodes of graph `g`. -/
private theorem v2_at (g : Fin 1024) (k : Fin 128) :
    val_main_v2 (F := Ideal) x0 x1 (ix2 g k) = Cert.Spec.segSum x0 x1 g k := by
  simp only [val_main_v2, Host.scatterAdd, Ideal.hostScatterAdd_def, Ideal.hostScatterAdd]
  rw [val_main_v0_apply, val_main_cst_apply, Ideal.ofBits_def, Ideal.ofBits_zero_f32, zero_add]
  unfold Cert.Spec.segSum
  symm
  refine Finset.sum_bij (fun n _ => (ix2 n k : S500000x128.Idx)) ?_ ?_ ?_ ?_
  · intro n hn
    rw [Finset.mem_filter]
    refine ⟨Finset.mem_univ _, ?_⟩
    rw [d2_iff, v1_at]
    exact ⟨(Finset.mem_filter.1 hn).2, rfl⟩
  · intro a _ b _ e
    exact congrFun e 0
  · intro j hj
    obtain ⟨n, k', rfl⟩ : ∃ (n : Fin 500000) (k' : Fin 128), j = ix2 n k' := ⟨j 0, j 1, eq_ix2 j⟩
    rw [Finset.mem_filter, d2_iff, v1_at] at hj
    obtain ⟨-, hg, rfl⟩ := hj
    exact ⟨n, Finset.mem_filter.2 ⟨Finset.mem_univ _, hg⟩, rfl⟩
  · intro n _
    rfl

/-- `counts` at `g`: zero plus a one for every node of graph `g`. -/
private theorem v6_at (g : Fin 1024) :
    val_main_v6 (F := Ideal) x1 (ix1 g) = Cert.Spec.segCnt x1 g := by
  simp only [val_main_v6, Host.scatterAdd, Ideal.hostScatterAdd_def, Ideal.hostScatterAdd]
  rw [val_main_v4_apply, val_main_cst_1_apply, Ideal.ofBits_def, Ideal.ofBits_zero_f32, zero_add]
  unfold Cert.Spec.segCnt
  symm
  refine Finset.sum_bij (fun n _ => (ix1 n : S500000.Idx)) ?_ ?_ ?_ ?_
  · intro n hn
    rw [Finset.mem_filter]
    refine ⟨Finset.mem_univ _, ?_⟩
    rw [d6_iff, v5_at]
    exact (Finset.mem_filter.1 hn).2
  · intro a _ b _ e
    exact congrFun e 0
  · intro j hj
    obtain ⟨n, rfl⟩ : ∃ n : Fin 500000, j = ix1 n := ⟨j 0, eq_ix1 j⟩
    rw [Finset.mem_filter, d6_iff, v5_at] at hj
    exact ⟨n, Finset.mem_filter.2 ⟨Finset.mem_univ _, hj.2⟩, rfl⟩
  · intro n _
    rw [val_main_v3_apply, val_main_cst_0_apply, Ideal.ofBits_def, ofBits_one_f32]

/-- `mean` at `(g, k)`. -/
private theorem v11_at (g : Fin 1024) (k : Fin 128) :
    val_main_v11 (F := Ideal) x0 x1 (ix2 g k) = Cert.Spec.mean x0 x1 g k := by
  rw [val_main_v11_apply, Ideal.hostDivf_def, v2_at, val_main_v10_apply, val_main_v9_apply, val_main_v8_apply,
    Ideal.maximumf_def, val_main_v7_apply, val_main_cst_2_apply, Ideal.ofBits_def, ofBits_one_f32]
  have e : idx_main_v9 (idx_main_v10 (ix2 g k : S1024x128.Idx)) = ix1 g := by
    funext a
    match a with
    | ⟨0, _⟩ => rfl
  rw [e, v6_at]
  rfl

/-! ## The gather -/

private abbrev DG := gather_S1024x128_S500000x1_S500000x128_1_0_n_n_0_1_1128

/-- The gather at `(n, k)` reads the operand at row `min (start index of n) 1023`, column `k`. -/
private theorem gather_at {α : Type} (x : S1024x128.Idx → α) (idx : IVec S500000x1 32) (n : Fin 500000) (k : Fin 128) :
    Host.gather DG x idx (ix2 n k)
      = x (ix2 (⟨min (idx (ix2 n (0 : Fin 1))).toInt.toNat 1023, by omega⟩ : Fin 1024) k) := by
  unfold Host.gather
  congr 1
  funext a
  apply Fin.ext
  match a with
  | ⟨0, _⟩ =>
    show DG.start (ix2 n k) idx 0 + DG.batchCoord (ix2 n k) 0 + DG.offCoord (ix2 n k) 0 = _
    rw [GatherDims.batchCoord_eq_zero _ _ _ List.not_mem_nil, GatherDims.offCoord_eq_zero _ _ _ (by decide)]
    simp only [Nat.add_zero]
    unfold GatherDims.start
    rw [dif_pos (show (0 : Fin 2) ∈ DG.startIndexMap by decide)]
    have hsi : DG.siIdx (ix2 n k) ⟨List.idxOf (0 : Fin 2) DG.startIndexMap,
        List.idxOf_lt_length_iff.2 (show (0 : Fin 2) ∈ DG.startIndexMap by decide)⟩ = ix2 n (0 : Fin 1) := by
      funext b
      refine Fin.ext ?_
      match b with
      | ⟨0, _⟩ => rfl
      | ⟨1, _⟩ => rfl
    rw [hsi]
    rfl
  | ⟨1, _⟩ =>
    show DG.start (ix2 n k) idx 1 + DG.batchCoord (ix2 n k) 1 + DG.offCoord (ix2 n k) 1 = k.val
    rw [GatherDims.batchCoord_eq_zero _ _ _ List.not_mem_nil]
    unfold GatherDims.start GatherDims.offCoord
    rw [dif_neg (by decide), dif_pos (by decide)]
    simp only [Nat.add_zero, Nat.zero_add]
    rfl

/-- The gathered row of node `n` is its graph's mean row (its id is in range, so neither the wrap-around of a
    negative id nor the clamp changes it). -/
private theorem v18_at (hb : Cert.Spec.InRange x1) (n : Fin 500000) (k : Fin 128) :
    val_main_v18 (F := Ideal) x0 x1 (ix2 n k) = Cert.Spec.mean x0 x1 (Cert.Spec.gid x1 n) k := by
  have e : idx_main_v17 (ix2 n (0 : Fin 1) : S500000x1.Idx) = ix1 n := by
    funext a
    match a with
    | ⟨0, _⟩ => rfl
  have hn := hb n
  have hc : ¬ IntOp.cmpi .slt (x1 (ix1 n)) 0#32 = 1#1 := by
    rw [IntOp.cmpi_slt]
    have : (0#32 : BitVec 32).toInt = 0 := by decide
    omega
  -- the start index of node `n` is its id
  have hidx : val_main_v17 (F := Ideal) x1 (ix2 n (0 : Fin 1)) = x1 (ix1 n) := by
    rw [val_main_v17_apply, e, val_main_v16_apply, val_main_v13_apply, val_main_v12_apply, val_main_c_apply,
      eq_zero_of_ne_one hc, select_zero]
  -- so the row read is the node's graph
  have key : (⟨min (val_main_v17 (F := Ideal) x1 (ix2 n (0 : Fin 1))).toInt.toNat 1023, by omega⟩ : Fin 1024)
      = Cert.Spec.gid x1 n := by
    apply Fin.ext
    show min (val_main_v17 (F := Ideal) x1 (ix2 n (0 : Fin 1))).toInt.toNat 1023 = min (x1 (ix1 n)).toInt.toNat 1023
    rw [hidx]
  unfold val_main_v18
  rw [gather_at, key]
  exact v11_at x0 x1 (Cert.Spec.gid x1 n) k

/-! ## The joined features and the weights -/

/-- Feature `k < 128` of the joined row is the node's own feature. -/
private theorem v19_left (n : Fin 500000) (o : Fin 128) (kk : Fin 256) (k : Fin 128) (hk : kk.val = k.val) :
    val_main_v19 (F := Ideal) x0 x1 (lidx_main_v21 (ix2 n o) kk) = x0 (ix2 n k) := by
  unfold val_main_v19
  refine concatenate_pair_apply_left _ x0 _ concatenates_S500000x128_S500000x128_S500000x256_d1 _ rfl (ix2 n k) ?_
  intro b
  match b with
  | ⟨0, _⟩ => rfl
  | ⟨1, _⟩ => exact hk.symm

/-- Feature `128 + k` of the joined row is the gathered mean feature `k`. -/
private theorem v19_right (n : Fin 500000) (o : Fin 128) (kk : Fin 256) (k : Fin 128) (hk : kk.val = 128 + k.val) :
    val_main_v19 (F := Ideal) x0 x1 (lidx_main_v21 (ix2 n o) kk)
      = val_main_v18 (F := Ideal) x0 x1 (ix2 n k) := by
  unfold val_main_v19
  refine concatenate_pair_apply_right _ x0 _ concatenates_S500000x128_S500000x128_S500000x256_d1 _ rfl rfl (ix2 n k) ?_ ?_
  · intro b hb
    match b with
    | ⟨0, _⟩ => rfl
    | ⟨1, _⟩ => exact absurd rfl hb
  · show k.val + 128 = kk.val
    omega

/-- The transposed weights at `(kk, o)` are `W (o, kk)`. -/
private theorem v20_at (n : Fin 500000) (o : Fin 128) (kk : Fin 256) :
    val_main_v20 (F := Ideal) x2 (ridx_main_v21 (ix2 n o) kk) = x2 (ix2 o kk) := by
  rw [val_main_v20_apply]
  congr 1
  funext a
  match a with
  | ⟨0, _⟩ => rfl
  | ⟨1, _⟩ => rfl

end

/-! ## A sum over 256 = 128 + 128 -/

private theorem sum_256 (f : Fin 256 → EReal) :
    ∑ kk : Fin 256, f kk
      = (∑ k : Fin 128, f (⟨k.val, by omega⟩ : Fin 256)) + ∑ k : Fin 128, f (⟨128 + k.val, by omega⟩ : Fin 256) := by
  have h : 128 + 128 = 256 := by norm_num
  rw [← Fin.sum_congr' f h, Fin.sum_univ_add]
  rfl

/-! ## The whole program -/

open Idealize.ShloMosaic Cert.ReferenceIdeal in
theorem ref_eq_G
    (x0 : (⟨S500000x128, .f32⟩ : BufTy).Contents (Elt Ideal)) (x1 : (⟨S500000, .i32⟩ : BufTy).Contents (Elt Ideal))
    (x2 : (⟨S128x256, .f32⟩ : BufTy).Contents (Elt Ideal)) (x3 : (⟨S128, .f32⟩ : BufTy).Contents (Elt Ideal))
    (hb : Cert.Spec.InRange x1) :
    Cert.ReferenceIdeal.Read.val_main_v24 (F := Ideal) x0 x1 x2 x3 = Cert.Spec.G x0 x1 x2 x3 := by
  funext j
  obtain ⟨n, o, rfl⟩ : ∃ (n : Fin 500000) (o : Fin 128), j = ix2 n o := ⟨j 0, j 1, eq_ix2 j⟩
  rw [Cert.Spec.G_ix2]
  unfold Cert.Spec.Gat
  rw [val_main_v24_apply, Ideal.addf_def, val_main_v21_apply, val_main_v23_apply, val_main_v22_apply]
  have eb : idx_main_v22 (idx_main_v23 (ix2 n o : S500000x128.Idx)) = ix1 o := by
    funext a
    match a with
    | ⟨0, _⟩ => rfl
  rw [eb]
  refine congrArg₂ (fun a b : EReal => a + b) ?_ rfl
  -- the 256 joined features are the node's 128 followed by the mean's 128
  rw [sum_256]
  refine congrArg₂ (fun a b : EReal => a + b) ?_ ?_
  · refine Finset.sum_congr rfl fun k _ => ?_
    rw [v19_left x0 x1 n o _ k rfl, v20_at]
  · refine Finset.sum_congr rfl fun k _ => ?_
    rw [v19_right x0 x1 n o _ k rfl, v18_at x0 x1 hb, v20_at]

end Cert.RefSide

end
-- ==== Proof.lean ====
/-
  The proof of `Cert.Claim`: the segment-mean / gather / linear kernel against its reference, over the extended reals,
  for graph ids in `[0, 1024)`.

  Both programs compute, for node `n` with features `x n` and graph `bid n`, the row
  `x n · W[:, 0:128]ᵀ + mean (bid n) · W[:, 128:256]ᵀ + b`, where `mean g` is the sum of the features of graph `g`'s nodes
  over their number raised to at least one (Proof/Spec.lean). The reference does it with a scatter-add, a gather and one
  256-wide product; the kernel with one-hot products against per-tile tables of id ranges, in two pallas_call regions: the
  first accumulates per-core sums and counts (Proof/K0Defs, K0Body, K0Math, KDat0, KAcc0, KArr0), host operations form
  the means (Proof/KHost1), the second gathers each node's mean row and applies the linear layer (Proof/K1Defs, K1Body,
  K1Math, KDat1, KArr1, KVal1). Sums over the extended reals commute and associate, and a product with a one-hot entry is
  the entry or zero at every extended real, so no finiteness is used. What is used is the precondition's added conjunct that every
  graph id lies in `[0, 1024)`: a node outside that range gets a zero context row from the kernel and a clamped or wrapped
  one from the reference.

  The three frames: the kernel program's run (Proof/KRun.lean, the same text at the word-level instance under
  Proof/Bits/), the reference's generated run with its result dropped. `preserves` has no entry.
-/
import proofs.«411499_j60584808678067_2_alg».proof.Defs
import proofs.«411499_j60584808678067_2_alg».proof.Proof.Gen.Kernel
import proofs.«411499_j60584808678067_2_alg».proof.Proof.Gen.KernelIdeal
import proofs.«411499_j60584808678067_2_alg».proof.Proof.Gen.ReferenceIdeal
import proofs.«411499_j60584808678067_2_alg».proof.Proof.Gen.Pre_finite_inputs
import proofs.«411499_j60584808678067_2_alg».proof.Proof.Gen.ReferenceIdeal.Run
import proofs.«411499_j60584808678067_2_alg».proof.Proof.Gen.ReferenceIdeal.Read
import proofs.«411499_j60584808678067_2_alg».proof.Proof.KIdeal
import proofs.«411499_j60584808678067_2_alg».proof.Proof.Bits.KRun
import proofs.«411499_j60584808678067_2_alg».proof.Proof.Bits.K0Body
import proofs.«411499_j60584808678067_2_alg».proof.Proof.Bits.K1Body
import proofs.«411499_j60584808678067_2_alg».proof.Proof.PreFacts
import proofs.«411499_j60584808678067_2_alg».proof.Proof.RefSide
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ =>
  (θ_run Cert.Kernel.defs _ _).mono (fun _ h c => (h c).2)
    (Cert.Kernel.H.run_main (F := Bits) m ρ
      (fun c E i a2 h2 a3 h3 a4 h4 a5 h5 a6 h6 tmin tmax x b d K =>
        Cert.Kernel.H.sound_kernel0 c E i a2 h2 a3 h3 a4 h4 a5 h5 a6 h6 tmin tmax x b d K)
      (fun c E i a1 h1 a2 h2 a3 h3 a4 h4 a5 h5 a6 h6 a7 h7 a8 h8 a9 h9 a10 h10 tmin tmax x b mn w1 w2 bias K =>
        Cert.Kernel.H.sound_kernel1 c E i a1 h1 a2 h2 a3 h3 a4 h4 a5 h5 a6 h6 a7 h7 a8 h8 a9 h9 a10 h10 tmin tmax x b mn w1 w2 bias K))

/-- The idealized kernel program likewise. -/
theorem frame_ki : Cert.frame_KernelIdeal := fun m ρ _ =>
  (θ_run Cert.KernelIdeal.defs _ _).mono (fun _ h c => (h c).2)
    (Cert.KernelIdeal.H.run_main (F := Ideal) m ρ
      (fun c E i a2 h2 a3 h3 a4 h4 a5 h5 a6 h6 tmin tmax x b d K =>
        Cert.KernelIdeal.H.sound_kernel0 c E i a2 h2 a3 h3 a4 h4 a5 h5 a6 h6 tmin tmax x b d K)
      (fun c E i a1 h1 a2 h2 a3 h3 a4 h4 a5 h5 a6 h6 a7 h7 a8 h8 a9 h9 a10 h10 tmin tmax x b mn w1 w2 bias K =>
        Cert.KernelIdeal.H.sound_kernel1 c E i a1 h1 a2 h2 a3 h3 a4 h4 a5 h5 a6 h6 a7 h7 a8 h8 a9 h9 a10 h10 tmin tmax x b mn w1 w2 bias K))

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, with every graph id in range, both programs end with the specification's
    function of the arguments: the kernel by its run, the reference by its generated run read as the specification. -/
theorem algebraic : Cert.algebraic_KernelIdeal_ReferenceIdeal := by
  intro m ρ m' ρ' hpre hagree
  have hb : ∀ c : Dev Cert.KernelIdeal.nD, Cert.Spec.InRange (Cert.KernelIdeal.H.B m c) := fun c =>
    Cert.PreFacts.inRange_of_pre (F := Ideal) _ _ _ _ (hpre c)
  refine ⟨fun c => Cert.Spec.G (Cert.KernelIdeal.H.X m c) (Cert.KernelIdeal.H.B m c) (Cert.KernelIdeal.H.Wt m c) (Cert.KernelIdeal.H.bb m c),
    Cert.KernelIdeal.H.kernel_run m ρ hb, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  exact Cert.RefSide.ref_eq_G _ _ _ _ (hb c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
